-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x128x128 : Shape := ⟨4, ![4, 8, 128, 128]⟩
abbrev S45x2 : Shape := ⟨2, ![45, 2]⟩
abbrev S165x2 : Shape := ⟨2, ![165, 2]⟩
abbrev S_ : Shape := ⟨0, ![]⟩
abbrev S165x1 : Shape := ⟨2, ![165, 1]⟩
abbrev S165 : Shape := ⟨1, ![165]⟩

class Facts : Prop where
  bcast_S_S4x8x128x128 : S_.BroadcastsInDim S4x8x128x128 (![] : Fin 0 → Fin S4x8x128x128.rank)
  reducesTo_S4x8x128x128_S_d0_1_2_3 : S4x8x128x128.ReducesTo [0, 1, 2, 3] S_
  h_S_ : 0 < S_.numel
  bcast_S_S45x2 : S_.BroadcastsInDim S45x2 (![] : Fin 0 → Fin S45x2.rank)
  reducesTo_S45x2_S_d0_1 : S45x2.ReducesTo [0, 1] S_
  bcast_S_S165x2 : S_.BroadcastsInDim S165x2 (![] : Fin 0 → Fin S165x2.rank)
  reducesTo_S165x2_S_d0_1 : S165x2.ReducesTo [0, 1] S_
  slices_S165x2_S165x1_0_0 : S165x2.Slices ![0, 0] S165x1
  shapeCasts_S165x1_S165 : S165x1.ShapeCasts S165
  bcast_S_S165 : S_.BroadcastsInDim S165 (![] : Fin 0 → Fin S165.rank)
  reducesTo_S165_S_d0 : S165.ReducesTo [0] S_
  slices_S165x2_S165x1_0_1 : S165x2.Slices ![0, 1] S165x1

variable [Facts]

def fn_part1 {F : FTy → Type} [FloatOps F] (main_arg2 : IVec S165x2 32) (main_v14 : IVec S_ 1) (main_v16 : IVec S165 32) : IVec S_ 1 :=
  let main_c_5 : IVec S_ 32 := constantI S_ 32 9#32
  let main_v17 : IVec S165 32 := broadcastInDim S165 ![] bcast_S_S165 main_c_5
  let main_v18 : IVec S165 1 := cmpi .slt main_v16 main_v17
  let main_c_6 : IVec S_ 1 := constantI S_ 1 1#1
  let main_v19 : IVec S_ 1 := (fun x v => Host.reduce IntOp.andi x v reducesTo_S165_S_d0 h_S_) main_v18 main_c_6
  let main_v20 : IVec S_ 1 := andi main_v14 main_v19
  let main_v21 : IVec S165x1 32 := (extractStridedSlice S165x1 ![0, 1] · slices_S165x2_S165x1_0_1) main_arg2
  let main_v22 : IVec S165 32 := shapeCast S165 main_v21 shapeCasts_S165x1_S165
  let main_c_7 : IVec S_ 32 := constantI S_ 32 45#32
  let main_v23 : IVec S165 32 := broadcastInDim S165 ![] bcast_S_S165 main_c_7
  let main_v24 : IVec S165 1 := cmpi .slt main_v22 main_v23
  let main_c_8 : IVec S_ 1 := constantI S_ 1 1#1
  let main_v25 : IVec S_ 1 := (fun x v => Host.reduce IntOp.andi x v reducesTo_S165_S_d0 h_S_) main_v24 main_c_8
  let main_v26 : IVec S_ 1 := andi main_v20 main_v25
  main_v26

def fn {F : FTy → Type} [FloatOps F] (main_arg0 : FVec F S4x8x128x128 .f32) (main_arg1 : IVec S45x2 32) (main_arg2 : IVec S165x2 32) : IVec S_ 1 :=
  let main_v0 : FVec F S4x8x128x128 .f32 := Host.absf main_arg0
  let main_cst : FVec F S_ .f32 := constant S_ .f32 0x7F800000#32
  let main_v1 : FVec F S4x8x128x128 .f32 := broadcastInDim S4x8x128x128 ![] bcast_S_S4x8x128x128 main_cst
  let main_v2 : IVec S4x8x128x128 1 := cmpf .olt main_v0 main_v1
  let main_c : IVec S_ 1 := constantI S_ 1 1#1
  let main_v3 : IVec S_ 1 := (fun x v => Host.reduce IntOp.andi x v reducesTo_S4x8x128x128_S_d0_1_2_3 h_S_) main_v2 main_c
  let main_c_0 : IVec S_ 32 := constantI S_ 32 0#32
  let main_v4 : IVec S45x2 32 := broadcastInDim S45x2 ![] bcast_S_S45x2 main_c_0
  let main_v5 : IVec S45x2 1 := cmpi .sge main_arg1 main_v4
  let main_c_1 : IVec S_ 32 := constantI S_ 32 9#32
  let main_v6 : IVec S45x2 32 := broadcastInDim S45x2 ![] bcast_S_S45x2 main_c_1
  let main_v7 : IVec S45x2 1 := cmpi .slt main_arg1 main_v6
  let main_v8 : IVec S45x2 1 := andi main_v5 main_v7
  let main_c_2 : IVec S_ 1 := constantI S_ 1 1#1
  let main_v9 : IVec S_ 1 := (fun x v => Host.reduce IntOp.andi x v reducesTo_S45x2_S_d0_1 h_S_) main_v8 main_c_2
  let main_v10 : IVec S_ 1 := andi main_v3 main_v9
  let main_c_3 : IVec S_ 32 := constantI S_ 32 0#32
  let main_v11 : IVec S165x2 32 := broadcastInDim S165x2 ![] bcast_S_S165x2 main_c_3
  let main_v12 : IVec S165x2 1 := cmpi .sge main_arg2 main_v11
  let main_c_4 : IVec S_ 1 := constantI S_ 1 1#1
  let main_v13 : IVec S_ 1 := (fun x v => Host.reduce IntOp.andi x v reducesTo_S165x2_S_d0_1 h_S_) main_v12 main_c_4
  let main_v14 : IVec S_ 1 := andi main_v10 main_v13
  let main_v15 : IVec S165x1 32 := (extractStridedSlice S165x1 ![0, 0] · slices_S165x2_S165x1_0_0) main_arg2
  let main_v16 : IVec S165 32 := shapeCast S165 main_v15 shapeCasts_S165x1_S165
  fn_part1 (F := F) main_arg2 main_v14 main_v16
-- ==== Kernel.lean ====
abbrev S4x8x128x128 : Shape := ⟨4, ![4, 8, 128, 128]⟩
abbrev S45x2 : Shape := ⟨2, ![45, 2]⟩
abbrev S165x2 : Shape := ⟨2, ![165, 2]⟩
abbrev S_ : Shape := ⟨0, ![]⟩
abbrev S4x8x130x130 : Shape := ⟨4, ![4, 8, 130, 130]⟩
abbrev S4x8x1x128x128 : Shape := ⟨5, ![4, 8, 1, 128, 128]⟩
abbrev S4x8x9x128x128 : Shape := ⟨5, ![4, 8, 9, 128, 128]⟩
abbrev S4x8x9x16384 : Shape := ⟨4, ![4, 8, 9, 16384]⟩
abbrev S32x9x128x128 : Shape := ⟨4, ![32, 9, 128, 128]⟩
abbrev S32x210x128x128 : Shape := ⟨4, ![32, 210, 128, 128]⟩
abbrev S1x9x64x128 : Shape := ⟨4, ![1, 9, 64, 128]⟩
abbrev S1x210x64x128 : Shape := ⟨4, ![1, 210, 64, 128]⟩
abbrev S45x64x128 : Shape := ⟨3, ![45, 64, 128]⟩
abbrev S1x1 : Shape := ⟨2, ![1, 1]⟩
abbrev S1x1x64x128 : Shape := ⟨4, ![1, 1, 64, 128]⟩
abbrev S64x128 : Shape := ⟨2, ![64, 128]⟩
abbrev S1x64x128 : Shape := ⟨3, ![1, 64, 128]⟩
abbrev S4x8x210x16384 : Shape := ⟨4, ![4, 8, 210, 16384]⟩

abbrev nBuf : Space → Nat
  | .hbm => 27
  | .vmem => 5
  | .smem => 2
  | _ => 0

abbrev bufTy : (tb : Table) → Fin (tcTables nBuf tb) → BufTy
  | .hbm, ⟨0, _⟩ => ⟨S4x8x128x128, .f32⟩
  | .hbm, ⟨1, _⟩ => ⟨S_, .i32⟩
  | .hbm, ⟨2, _⟩ => ⟨S_, .f32⟩
  | .hbm, ⟨3, _⟩ => ⟨S4x8x130x130, .f32⟩
  | .hbm, ⟨4, _⟩ => ⟨S4x8x128x128, .f32⟩
  | .hbm, ⟨5, _⟩ => ⟨S4x8x128x128, .f32⟩
  | .hbm, ⟨6, _⟩ => ⟨S4x8x128x128, .f32⟩
  | .hbm, ⟨7, _⟩ => ⟨S4x8x128x128, .f32⟩
  | .hbm, ⟨8, _⟩ => ⟨S4x8x128x128, .f32⟩
  | .hbm, ⟨9, _⟩ => ⟨S4x8x128x128, .f32⟩
  | .hbm, ⟨10, _⟩ => ⟨S4x8x128x128, .f32⟩
  | .hbm, ⟨11, _⟩ => ⟨S4x8x128x128, .f32⟩
  | .hbm, ⟨12, _⟩ => ⟨S4x8x128x128, .f32⟩
  | .hbm, ⟨13, _⟩ => ⟨S4x8x1x128x128, .f32⟩
  | .hbm, ⟨14, _⟩ => ⟨S4x8x1x128x128, .f32⟩
  | .hbm, ⟨15, _⟩ => ⟨S4x8x1x128x128, .f32⟩
  | .hbm, ⟨16, _⟩ => ⟨S4x8x1x128x128, .f32⟩
  | .hbm, ⟨17, _⟩ => ⟨S4x8x1x128x128, .f32⟩
  | .hbm, ⟨18, _⟩ => ⟨S4x8x1x128x128, .f32⟩
  | .hbm, ⟨19, _⟩ => ⟨S4x8x1x128x128, .f32⟩
  | .hbm, ⟨20, _⟩ => ⟨S4x8x1x128x128, .f32⟩
  | .hbm, ⟨21, _⟩ => ⟨S4x8x1x128x128, .f32⟩
  | .hbm, ⟨22, _⟩ => ⟨S4x8x9x128x128, .f32⟩
  | .hbm, ⟨23, _⟩ => ⟨S4x8x9x16384, .f32⟩
  | .hbm, ⟨24, _⟩ => ⟨S32x9x128x128, .f32⟩
  | .hbm, ⟨25, _⟩ => ⟨S32x210x128x128, .f32⟩
  | .hbm, ⟨26, _⟩ => ⟨S4x8x210x16384, .f32⟩
  | .local _ .vmem, ⟨0, _⟩ => ⟨S1x9x64x128, .f32⟩
  | .local _ .vmem, ⟨1, _⟩ => ⟨S1x9x64x128, .f32⟩
  | .local _ .vmem, ⟨2, _⟩ => ⟨S1x210x64x128, .f32⟩
  | .local _ .vmem, ⟨3, _⟩ => ⟨S1x210x64x128, .f32⟩
  | .local _ .vmem, ⟨4, _⟩ => ⟨S45x64x128, .f32⟩
  | .local _ .smem, ⟨0, _⟩ => ⟨S45x2, .i32⟩
  | .local _ .smem, ⟨1, _⟩ => ⟨S165x2, .i32⟩
  | _, _ => ⟨S4x8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 2], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (v0 : BitVec 32) : Fin 4 → Nat :=
  let c0_2 : Index := 0#32
  let v2 : Index := Scalar.indexCast v0
  let c0_3 : Index := 0#32
  let c0_4 : Index := 0#32
  ![0, v2.toNat, 0, 0]

def k0_chk1 (v0 : BitVec 32) : Prop :=
  (∀ a, (k0_off1 v0) a + S1x1x64x128.size a ≤ S1x9x64x128.size a)
instance k0_chk1.dec : ∀ (v0 : BitVec 32), Decidable (k0_chk1 v0) := fun v0 => decidable_of_iff' _ (Iff.of_eq (k0_chk1.eq_1 v0))
theorem k0_off1_inb : ∀ (v0 : BitVec 32) (k0_hw1 : k0_chk1 v0), ∀ a, (k0_off1 v0) a + S1x1x64x128.size a ≤ S1x9x64x128.size a := fun v0 k0_hw1 => k0_hw1

def k0_off2 (v1 : BitVec 32) : Fin 4 → Nat :=
  let c0_5 : Index := 0#32
  let v5 : Index := Scalar.indexCast v1
  let c0_6 : Index := 0#32
  let c0_7 : Index := 0#32
  ![0, v5.toNat, 0, 0]

def k0_chk2 (v1 : BitVec 32) : Prop :=
  (∀ a, (k0_off2 v1) a + S1x1x64x128.size a ≤ S1x9x64x128.size a)
instance k0_chk2.dec : ∀ (v1 : BitVec 32), Decidable (k0_chk2 v1) := fun v1 => decidable_of_iff' _ (Iff.of_eq (k0_chk2.eq_1 v1))
theorem k0_off2_inb : ∀ (v1 : BitVec 32) (k0_hw2 : k0_chk2 v1), ∀ a, (k0_off2 v1) a + S1x1x64x128.size a ≤ S1x9x64x128.size a := fun v1 k0_hw2 => k0_hw2

def k0_off3 (v15 : BitVec 32) : Fin 4 → Nat :=
  let c0_19 : Index := 0#32
  let v17 : Index := Scalar.indexCast v15
  let c0_20 : Index := 0#32
  let c0_21 : Index := 0#32
  ![0, v17.toNat, 0, 0]

def k0_chk3 (v15 : BitVec 32) : Prop :=
  (∀ a, (k0_off3 v15) a + S1x1x64x128.size a ≤ S1x9x64x128.size a)
instance k0_chk3.dec : ∀ (v15 : BitVec 32), Decidable (k0_chk3 v15) := fun v15 => decidable_of_iff' _ (Iff.of_eq (k0_chk3.eq_1 v15))
theorem k0_off3_inb : ∀ (v15 : BitVec 32) (k0_hw3 : k0_chk3 v15), ∀ a, (k0_off3 v15) a + S1x1x64x128.size a ≤ S1x9x64x128.size a := fun v15 k0_hw3 => k0_hw3

def k0_off4 (v16 : BitVec 32) : Fin 4 → Nat :=
  let c0_22 : Index := 0#32
  let v20 : Index := Scalar.indexCast v16
  let c0_23 : Index := 0#32
  let c0_24 : Index := 0#32
  ![0, v20.toNat, 0, 0]

def k0_chk4 (v16 : BitVec 32) : Prop :=
  (∀ a, (k0_off4 v16) a + S1x1x64x128.size a ≤ S1x9x64x128.size a)
instance k0_chk4.dec : ∀ (v16 : BitVec 32), Decidable (k0_chk4 v16) := fun v16 => decidable_of_iff' _ (Iff.of_eq (k0_chk4.eq_1 v16))
theorem k0_off4_inb : ∀ (v16 : BitVec 32) (k0_hw4 : k0_chk4 v16), ∀ a, (k0_off4 v16) a + S1x1x64x128.size a ≤ S1x9x64x128.size a := fun v16 k0_hw4 => k0_hw4

def k0_off5 (v30 : BitVec 32) : Fin 4 → Nat :=
  let c0_35 : Index := 0#32
  let v32 : Index := Scalar.indexCast v30
  let c0_36 : Index := 0#32
  let c0_37 : Index := 0#32
  ![0, v32.toNat, 0, 0]

def k0_chk5 (v30 : BitVec 32) : Prop :=
  (∀ a, (k0_off5 v30) a + S1x1x64x128.size a ≤ S1x9x64x128.size a)
instance k0_chk5.dec : ∀ (v30 : BitVec 32), Decidable (k0_chk5 v30) := fun v30 => decidable_of_iff' _ (Iff.of_eq (k0_chk5.eq_1 v30))
theorem k0_off5_inb : ∀ (v30 : BitVec 32) (k0_hw5 : k0_chk5 v30), ∀ a, (k0_off5 v30) a + S1x1x64x128.size a ≤ S1x9x64x128.size a := fun v30 k0_hw5 => k0_hw5

def k0_off6 (v31 : BitVec 32) : Fin 4 → Nat :=
  let c0_38 : Index := 0#32
  let v35 : Index := Scalar.indexCast v31
  let c0_39 : Index := 0#32
  let c0_40 : Index := 0#32
  ![0, v35.toNat, 0, 0]

def k0_chk6 (v31 : BitVec 32) : Prop :=
  (∀ a, (k0_off6 v31) a + S1x1x64x128.size a ≤ S1x9x64x128.size a)
instance k0_chk6.dec : ∀ (v31 : BitVec 32), Decidable (k0_chk6 v31) := fun v31 => decidable_of_iff' _ (Iff.of_eq (k0_chk6.eq_1 v31))
theorem k0_off6_inb : ∀ (v31 : BitVec 32) (k0_hw6 : k0_chk6 v31), ∀ a, (k0_off6 v31) a + S1x1x64x128.size a ≤ S1x9x64x128.size a := fun v31 k0_hw6 => k0_hw6

def k0_off7 (v45 : BitVec 32) : Fin 4 → Nat :=
  let c0_51 : Index := 0#32
  let v47 : Index := Scalar.indexCast v45
  let c0_52 : Index := 0#32
  let c0_53 : Index := 0#32
  ![0, v47.toNat, 0, 0]

def k0_chk7 (v45 : BitVec 32) : Prop :=
  (∀ a, (k0_off7 v45) a + S1x1x64x128.size a ≤ S1x9x64x128.size a)
instance k0_chk7.dec : ∀ (v45 : BitVec 32), Decidable (k0_chk7 v45) := fun v45 => decidable_of_iff' _ (Iff.of_eq (k0_chk7.eq_1 v45))
theorem k0_off7_inb : ∀ (v45 : BitVec 32) (k0_hw7 : k0_chk7 v45), ∀ a, (k0_off7 v45) a + S1x1x64x128.size a ≤ S1x9x64x128.size a := fun v45 k0_hw7 => k0_hw7

def k0_off8 (v46 : BitVec 32) : Fin 4 → Nat :=
  let c0_54 : Index := 0#32
  let v50 : Index := Scalar.indexCast v46
  let c0_55 : Index := 0#32
  let c0_56 : Index := 0#32
  ![0, v50.toNat, 0, 0]

def k0_chk8 (v46 : BitVec 32) : Prop :=
  (∀ a, (k0_off8 v46) a + S1x1x64x128.size a ≤ S1x9x64x128.size a)
instance k0_chk8.dec : ∀ (v46 : BitVec 32), Decidable (k0_chk8 v46) := fun v46 => decidable_of_iff' _ (Iff.of_eq (k0_chk8.eq_1 v46))
theorem k0_off8_inb : ∀ (v46 : BitVec 32) (k0_hw8 : k0_chk8 v46), ∀ a, (k0_off8 v46) a + S1x1x64x128.size a ≤ S1x9x64x128.size a := fun v46 k0_hw8 => k0_hw8

def k0_off9 (v60 : BitVec 32) : Fin 4 → Nat :=
  let c0_67 : Index := 0#32
  let v62 : Index := Scalar.indexCast v60
  let c0_68 : Index := 0#32
  let c0_69 : Index := 0#32
  ![0, v62.toNat, 0, 0]

def k0_chk9 (v60 : BitVec 32) : Prop :=
  (∀ a, (k0_off9 v60) a + S1x1x64x128.size a ≤ S1x9x64x128.size a)
instance k0_chk9.dec : ∀ (v60 : BitVec 32), Decidable (k0_chk9 v60) := fun v60 => decidable_of_iff' _ (Iff.of_eq (k0_chk9.eq_1 v60))
theorem k0_off9_inb : ∀ (v60 : BitVec 32) (k0_hw9 : k0_chk9 v60), ∀ a, (k0_off9 v60) a + S1x1x64x128.size a ≤ S1x9x64x128.size a := fun v60 k0_hw9 => k0_hw9

def k0_off10 (v61 : BitVec 32) : Fin 4 → Nat :=
  let c0_70 : Index := 0#32
  let v65 : Index := Scalar.indexCast v61
  let c0_71 : Index := 0#32
  let c0_72 : Index := 0#32
  ![0, v65.toNat, 0, 0]

def k0_chk10 (v61 : BitVec 32) : Prop :=
  (∀ a, (k0_off10 v61) a + S1x1x64x128.size a ≤ S1x9x64x128.size a)
instance k0_chk10.dec : ∀ (v61 : BitVec 32), Decidable (k0_chk10 v61) := fun v61 => decidable_of_iff' _ (Iff.of_eq (k0_chk10.eq_1 v61))
theorem k0_off10_inb : ∀ (v61 : BitVec 32) (k0_hw10 : k0_chk10 v61), ∀ a, (k0_off10 v61) a + S1x1x64x128.size a ≤ S1x9x64x128.size a := fun v61 k0_hw10 => k0_hw10

def k0_off11 (v75 : BitVec 32) : Fin 4 → Nat :=
  let c0_83 : Index := 0#32
  let v77 : Index := Scalar.indexCast v75
  let c0_84 : Index := 0#32
  let c0_85 : Index := 0#32
  ![0, v77.toNat, 0, 0]

def k0_chk11 (v75 : BitVec 32) : Prop :=
  (∀ a, (k0_off11 v75) a + S1x1x64x128.size a ≤ S1x9x64x128.size a)
instance k0_chk11.dec : ∀ (v75 : BitVec 32), Decidable (k0_chk11 v75) := fun v75 => decidable_of_iff' _ (Iff.of_eq (k0_chk11.eq_1 v75))
theorem k0_off11_inb : ∀ (v75 : BitVec 32) (k0_hw11 : k0_chk11 v75), ∀ a, (k0_off11 v75) a + S1x1x64x128.size a ≤ S1x9x64x128.size a := fun v75 k0_hw11 => k0_hw11

def k0_off12 (v76 : BitVec 32) : Fin 4 → Nat :=
  let c0_86 : Index := 0#32
  let v80 : Index := Scalar.indexCast v76
  let c0_87 : Index := 0#32
  let c0_88 : Index := 0#32
  ![0, v80.toNat, 0, 0]

def k0_chk12 (v76 : BitVec 32) : Prop :=
  (∀ a, (k0_off12 v76) a + S1x1x64x128.size a ≤ S1x9x64x128.size a)
instance k0_chk12.dec : ∀ (v76 : BitVec 32), Decidable (k0_chk12 v76) := fun v76 => decidable_of_iff' _ (Iff.of_eq (k0_chk12.eq_1 v76))
theorem k0_off12_inb : ∀ (v76 : BitVec 32) (k0_hw12 : k0_chk12 v76), ∀ a, (k0_off12 v76) a + S1x1x64x128.size a ≤ S1x9x64x128.size a := fun v76 k0_hw12 => k0_hw12

def k0_off13 (v90 : BitVec 32) : Fin 4 → Nat :=
  let c0_99 : Index := 0#32
  let v92 : Index := Scalar.indexCast v90
  let c0_100 : Index := 0#32
  let c0_101 : Index := 0#32
  ![0, v92.toNat, 0, 0]

def k0_chk13 (v90 : BitVec 32) : Prop :=
  (∀ a, (k0_off13 v90) a + S1x1x64x128.size a ≤ S1x9x64x128.size a)
instance k0_chk13.dec : ∀ (v90 : BitVec 32), Decidable (k0_chk13 v90) := fun v90 => decidable_of_iff' _ (Iff.of_eq (k0_chk13.eq_1 v90))
theorem k0_off13_inb : ∀ (v90 : BitVec 32) (k0_hw13 : k0_chk13 v90), ∀ a, (k0_off13 v90) a + S1x1x64x128.size a ≤ S1x9x64x128.size a := fun v90 k0_hw13 => k0_hw13

def k0_off14 (v91 : BitVec 32) : Fin 4 → Nat :=
  let c0_102 : Index := 0#32
  let v95 : Index := Scalar.indexCast v91
  let c0_103 : Index := 0#32
  let c0_104 : Index := 0#32
  ![0, v95.toNat, 0, 0]

def k0_chk14 (v91 : BitVec 32) : Prop :=
  (∀ a, (k0_off14 v91) a + S1x1x64x128.size a ≤ S1x9x64x128.size a)
instance k0_chk14.dec : ∀ (v91 : BitVec 32), Decidable (k0_chk14 v91) := fun v91 => decidable_of_iff' _ (Iff.of_eq (k0_chk14.eq_1 v91))
theorem k0_off14_inb : ∀ (v91 : BitVec 32) (k0_hw14 : k0_chk14 v91), ∀ a, (k0_off14 v91) a + S1x1x64x128.size a ≤ S1x9x64x128.size a := fun v91 k0_hw14 => k0_hw14

def k0_off15 (v105 : BitVec 32) : Fin 4 → Nat :=
  let c0_115 : Index := 0#32
  let v107 : Index := Scalar.indexCast v105
  let c0_116 : Index := 0#32
  let c0_117 : Index := 0#32
  ![0, v107.toNat, 0, 0]

def k0_chk15 (v105 : BitVec 32) : Prop :=
  (∀ a, (k0_off15 v105) a + S1x1x64x128.size a ≤ S1x9x64x128.size a)
instance k0_chk15.dec : ∀ (v105 : BitVec 32), Decidable (k0_chk15 v105) := fun v105 => decidable_of_iff' _ (Iff.of_eq (k0_chk15.eq_1 v105))
theorem k0_off15_inb : ∀ (v105 : BitVec 32) (k0_hw15 : k0_chk15 v105), ∀ a, (k0_off15 v105) a + S1x1x64x128.size a ≤ S1x9x64x128.size a := fun v105 k0_hw15 => k0_hw15

def k0_off16 (v106 : BitVec 32) : Fin 4 → Nat :=
  let c0_118 : Index := 0#32
  let v110 : Index := Scalar.indexCast v106
  let c0_119 : Index := 0#32
  let c0_120 : Index := 0#32
  ![0, v110.toNat, 0, 0]

def k0_chk16 (v106 : BitVec 32) : Prop :=
  (∀ a, (k0_off16 v106) a + S1x1x64x128.size a ≤ S1x9x64x128.size a)
instance k0_chk16.dec : ∀ (v106 : BitVec 32), Decidable (k0_chk16 v106) := fun v106 => decidable_of_iff' _ (Iff.of_eq (k0_chk16.eq_1 v106))
theorem k0_off16_inb : ∀ (v106 : BitVec 32) (k0_hw16 : k0_chk16 v106), ∀ a, (k0_off16 v106) a + S1x1x64x128.size a ≤ S1x9x64x128.size a := fun v106 k0_hw16 => k0_hw16

def k0_off17 (v120 : BitVec 32) : Fin 4 → Nat :=
  let c0_131 : Index := 0#32
  let v122 : Index := Scalar.indexCast v120
  let c0_132 : Index := 0#32
  let c0_133 : Index := 0#32
  ![0, v122.toNat, 0, 0]

def k0_chk17 (v120 : BitVec 32) : Prop :=
  (∀ a, (k0_off17 v120) a + S1x1x64x128.size a ≤ S1x9x64x128.size a)
instance k0_chk17.dec : ∀ (v120 : BitVec 32), Decidable (k0_chk17 v120) := fun v120 => decidable_of_iff' _ (Iff.of_eq (k0_chk17.eq_1 v120))
theorem k0_off17_inb : ∀ (v120 : BitVec 32) (k0_hw17 : k0_chk17 v120), ∀ a, (k0_off17 v120) a + S1x1x64x128.size a ≤ S1x9x64x128.size a := fun v120 k0_hw17 => k0_hw17

def k0_off18 (v121 : BitVec 32) : Fin 4 → Nat :=
  let c0_134 : Index := 0#32
  let v125 : Index := Scalar.indexCast v121
  let c0_135 : Index := 0#32
  let c0_136 : Index := 0#32
  ![0, v125.toNat, 0, 0]

def k0_chk18 (v121 : BitVec 32) : Prop :=
  (∀ a, (k0_off18 v121) a + S1x1x64x128.size a ≤ S1x9x64x128.size a)
instance k0_chk18.dec : ∀ (v121 : BitVec 32), Decidable (k0_chk18 v121) := fun v121 => decidable_of_iff' _ (Iff.of_eq (k0_chk18.eq_1 v121))
theorem k0_off18_inb : ∀ (v121 : BitVec 32) (k0_hw18 : k0_chk18 v121), ∀ a, (k0_off18 v121) a + S1x1x64x128.size a ≤ S1x9x64x128.size a := fun v121 k0_hw18 => k0_hw18

def k0_off19 (v135 : BitVec 32) : Fin 4 → Nat :=
  let c0_147 : Index := 0#32
  let v137 : Index := Scalar.indexCast v135
  let c0_148 : Index := 0#32
  let c0_149 : Index := 0#32
  ![0, v137.toNat, 0, 0]

def k0_chk19 (v135 : BitVec 32) : Prop :=
  (∀ a, (k0_off19 v135) a + S1x1x64x128.size a ≤ S1x9x64x128.size a)
instance k0_chk19.dec : ∀ (v135 : BitVec 32), Decidable (k0_chk19 v135) := fun v135 => decidable_of_iff' _ (Iff.of_eq (k0_chk19.eq_1 v135))
theorem k0_off19_inb : ∀ (v135 : BitVec 32) (k0_hw19 : k0_chk19 v135), ∀ a, (k0_off19 v135) a + S1x1x64x128.size a ≤ S1x9x64x128.size a := fun v135 k0_hw19 => k0_hw19

def k0_off20 (v136 : BitVec 32) : Fin 4 → Nat :=
  let c0_150 : Index := 0#32
  let v140 : Index := Scalar.indexCast v136
  let c0_151 : Index := 0#32
  let c0_152 : Index := 0#32
  ![0, v140.toNat, 0, 0]

def k0_chk20 (v136 : BitVec 32) : Prop :=
  (∀ a, (k0_off20 v136) a + S1x1x64x128.size a ≤ S1x9x64x128.size a)
instance k0_chk20.dec : ∀ (v136 : BitVec 32), Decidable (k0_chk20 v136) := fun v136 => decidable_of_iff' _ (Iff.of_eq (k0_chk20.eq_1 v136))
theorem k0_off20_inb : ∀ (v136 : BitVec 32) (k0_hw20 : k0_chk20 v136), ∀ a, (k0_off20 v136) a + S1x1x64x128.size a ≤ S1x9x64x128.size a := fun v136 k0_hw20 => k0_hw20

def k0_off21 (v150 : BitVec 32) : Fin 4 → Nat :=
  let c0_163 : Index := 0#32
  let v152 : Index := Scalar.indexCast v150
  let c0_164 : Index := 0#32
  let c0_165 : Index := 0#32
  ![0, v152.toNat, 0, 0]

def k0_chk21 (v150 : BitVec 32) : Prop :=
  (∀ a, (k0_off21 v150) a + S1x1x64x128.size a ≤ S1x9x64x128.size a)
instance k0_chk21.dec : ∀ (v150 : BitVec 32), Decidable (k0_chk21 v150) := fun v150 => decidable_of_iff' _ (Iff.of_eq (k0_chk21.eq_1 v150))
theorem k0_off21_inb : ∀ (v150 : BitVec 32) (k0_hw21 : k0_chk21 v150), ∀ a, (k0_off21 v150) a + S1x1x64x128.size a ≤ S1x9x64x128.size a := fun v150 k0_hw21 => k0_hw21

def k0_off22 (v151 : BitVec 32) : Fin 4 → Nat :=
  let c0_166 : Index := 0#32
  let v155 : Index := Scalar.indexCast v151
  let c0_167 : Index := 0#32
  let c0_168 : Index := 0#32
  ![0, v155.toNat, 0, 0]

def k0_chk22 (v151 : BitVec 32) : Prop :=
  (∀ a, (k0_off22 v151) a + S1x1x64x128.size a ≤ S1x9x64x128.size a)
instance k0_chk22.dec : ∀ (v151 : BitVec 32), Decidable (k0_chk22 v151) := fun v151 => decidable_of_iff' _ (Iff.of_eq (k0_chk22.eq_1 v151))
theorem k0_off22_inb : ∀ (v151 : BitVec 32) (k0_hw22 : k0_chk22 v151), ∀ a, (k0_off22 v151) a + S1x1x64x128.size a ≤ S1x9x64x128.size a := fun v151 k0_hw22 => k0_hw22

def k0_off23 (v165 : BitVec 32) : Fin 4 → Nat :=
  let c0_179 : Index := 0#32
  let v167 : Index := Scalar.indexCast v165
  let c0_180 : Index := 0#32
  let c0_181 : Index := 0#32
  ![0, v167.toNat, 0, 0]

def k0_chk23 (v165 : BitVec 32) : Prop :=
  (∀ a, (k0_off23 v165) a + S1x1x64x128.size a ≤ S1x9x64x128.size a)
instance k0_chk23.dec : ∀ (v165 : BitVec 32), Decidable (k0_chk23 v165) := fun v165 => decidable_of_iff' _ (Iff.of_eq (k0_chk23.eq_1 v165))
theorem k0_off23_inb : ∀ (v165 : BitVec 32) (k0_hw23 : k0_chk23 v165), ∀ a, (k0_off23 v165) a + S1x1x64x128.size a ≤ S1x9x64x128.size a := fun v165 k0_hw23 => k0_hw23

def k0_off24 (v166 : BitVec 32) : Fin 4 → Nat :=
  let c0_182 : Index := 0#32
  let v170 : Index := Scalar.indexCast v166
  let c0_183 : Index := 0#32
  let c0_184 : Index := 0#32
  ![0, v170.toNat, 0, 0]

def k0_chk24 (v166 : BitVec 32) : Prop :=
  (∀ a, (k0_off24 v166) a + S1x1x64x128.size a ≤ S1x9x64x128.size a)
instance k0_chk24.dec : ∀ (v166 : BitVec 32), Decidable (k0_chk24 v166) := fun v166 => decidable_of_iff' _ (Iff.of_eq (k0_chk24.eq_1 v166))
theorem k0_off24_inb : ∀ (v166 : BitVec 32) (k0_hw24 : k0_chk24 v166), ∀ a, (k0_off24 v166) a + S1x1x64x128.size a ≤ S1x9x64x128.size a := fun v166 k0_hw24 => k0_hw24

def k0_off25 (v180 : BitVec 32) : Fin 4 → Nat :=
  let c0_195 : Index := 0#32
  let v182 : Index := Scalar.indexCast v180
  let c0_196 : Index := 0#32
  let c0_197 : Index := 0#32
  ![0, v182.toNat, 0, 0]

def k0_chk25 (v180 : BitVec 32) : Prop :=
  (∀ a, (k0_off25 v180) a + S1x1x64x128.size a ≤ S1x9x64x128.size a)
instance k0_chk25.dec : ∀ (v180 : BitVec 32), Decidable (k0_chk25 v180) := fun v180 => decidable_of_iff' _ (Iff.of_eq (k0_chk25.eq_1 v180))
theorem k0_off25_inb : ∀ (v180 : BitVec 32) (k0_hw25 : k0_chk25 v180), ∀ a, (k0_off25 v180) a + S1x1x64x128.size a ≤ S1x9x64x128.size a := fun v180 k0_hw25 => k0_hw25

def k0_off26 (v181 : BitVec 32) : Fin 4 → Nat :=
  let c0_198 : Index := 0#32
  let v185 : Index := Scalar.indexCast v181
  let c0_199 : Index := 0#32
  let c0_200 : Index := 0#32
  ![0, v185.toNat, 0, 0]

def k0_chk26 (v181 : BitVec 32) : Prop :=
  (∀ a, (k0_off26 v181) a + S1x1x64x128.size a ≤ S1x9x64x128.size a)
instance k0_chk26.dec : ∀ (v181 : BitVec 32), Decidable (k0_chk26 v181) := fun v181 => decidable_of_iff' _ (Iff.of_eq (k0_chk26.eq_1 v181))
theorem k0_off26_inb : ∀ (v181 : BitVec 32) (k0_hw26 : k0_chk26 v181), ∀ a, (k0_off26 v181) a + S1x1x64x128.size a ≤ S1x9x64x128.size a := fun v181 k0_hw26 => k0_hw26

def k0_off27 (v195 : BitVec 32) : Fin 4 → Nat :=
  let c0_211 : Index := 0#32
  let v197 : Index := Scalar.indexCast v195
  let c0_212 : Index := 0#32
  let c0_213 : Index := 0#32
  ![0, v197.toNat, 0, 0]

def k0_chk27 (v195 : BitVec 32) : Prop :=
  (∀ a, (k0_off27 v195) a + S1x1x64x128.size a ≤ S1x9x64x128.size a)
instance k0_chk27.dec : ∀ (v195 : BitVec 32), Decidable (k0_chk27 v195) := fun v195 => decidable_of_iff' _ (Iff.of_eq (k0_chk27.eq_1 v195))
theorem k0_off27_inb : ∀ (v195 : BitVec 32) (k0_hw27 : k0_chk27 v195), ∀ a, (k0_off27 v195) a + S1x1x64x128.size a ≤ S1x9x64x128.size a := fun v195 k0_hw27 => k0_hw27

def k0_off28 (v196 : BitVec 32) : Fin 4 → Nat :=
  let c0_214 : Index := 0#32
  let v200 : Index := Scalar.indexCast v196
  let c0_215 : Index := 0#32
  let c0_216 : Index := 0#32
  ![0, v200.toNat, 0, 0]

def k0_chk28 (v196 : BitVec 32) : Prop :=
  (∀ a, (k0_off28 v196) a + S1x1x64x128.size a ≤ S1x9x64x128.size a)
instance k0_chk28.dec : ∀ (v196 : BitVec 32), Decidable (k0_chk28 v196) := fun v196 => decidable_of_iff' _ (Iff.of_eq (k0_chk28.eq_1 v196))
theorem k0_off28_inb : ∀ (v196 : BitVec 32) (k0_hw28 : k0_chk28 v196), ∀ a, (k0_off28 v196) a + S1x1x64x128.size a ≤ S1x9x64x128.size a := fun v196 k0_hw28 => k0_hw28

def k0_off29 (v210 : BitVec 32) : Fin 4 → Nat :=
  let c0_227 : Index := 0#32
  let v212 : Index := Scalar.indexCast v210
  let c0_228 : Index := 0#32
  let c0_229 : Index := 0#32
  ![0, v212.toNat, 0, 0]

def k0_chk29 (v210 : BitVec 32) : Prop :=
  (∀ a, (k0_off29 v210) a + S1x1x64x128.size a ≤ S1x9x64x128.size a)
instance k0_chk29.dec : ∀ (v210 : BitVec 32), Decidable (k0_chk29 v210) := fun v210 => decidable_of_iff' _ (Iff.of_eq (k0_chk29.eq_1 v210))
theorem k0_off29_inb : ∀ (v210 : BitVec 32) (k0_hw29 : k0_chk29 v210), ∀ a, (k0_off29 v210) a + S1x1x64x128.size a ≤ S1x9x64x128.size a := fun v210 k0_hw29 => k0_hw29

def k0_off30 (v211 : BitVec 32) : Fin 4 → Nat :=
  let c0_230 : Index := 0#32
  let v215 : Index := Scalar.indexCast v211
  let c0_231 : Index := 0#32
  let c0_232 : Index := 0#32
  ![0, v215.toNat, 0, 0]

def k0_chk30 (v211 : BitVec 32) : Prop :=
  (∀ a, (k0_off30 v211) a + S1x1x64x128.size a ≤ S1x9x64x128.size a)
instance k0_chk30.dec : ∀ (v211 : BitVec 32), Decidable (k0_chk30 v211) := fun v211 => decidable_of_iff' _ (Iff.of_eq (k0_chk30.eq_1 v211))
theorem k0_off30_inb : ∀ (v211 : BitVec 32) (k0_hw30 : k0_chk30 v211), ∀ a, (k0_off30 v211) a + S1x1x64x128.size a ≤ S1x9x64x128.size a := fun v211 k0_hw30 => k0_hw30

def k0_off31 (v225 : BitVec 32) : Fin 4 → Nat :=
  let c0_243 : Index := 0#32
  let v227 : Index := Scalar.indexCast v225
  let c0_244 : Index := 0#32
  let c0_245 : Index := 0#32
  ![0, v227.toNat, 0, 0]

def k0_chk31 (v225 : BitVec 32) : Prop :=
  (∀ a, (k0_off31 v225) a + S1x1x64x128.size a ≤ S1x9x64x128.size a)
instance k0_chk31.dec : ∀ (v225 : BitVec 32), Decidable (k0_chk31 v225) := fun v225 => decidable_of_iff' _ (Iff.of_eq (k0_chk31.eq_1 v225))
theorem k0_off31_inb : ∀ (v225 : BitVec 32) (k0_hw31 : k0_chk31 v225), ∀ a, (k0_off31 v225) a + S1x1x64x128.size a ≤ S1x9x64x128.size a := fun v225 k0_hw31 => k0_hw31

def k0_off32 (v226 : BitVec 32) : Fin 4 → Nat :=
  let c0_246 : Index := 0#32
  let v230 : Index := Scalar.indexCast v226
  let c0_247 : Index := 0#32
  let c0_248 : Index := 0#32
  ![0, v230.toNat, 0, 0]

def k0_chk32 (v226 : BitVec 32) : Prop :=
  (∀ a, (k0_off32 v226) a + S1x1x64x128.size a ≤ S1x9x64x128.size a)
instance k0_chk32.dec : ∀ (v226 : BitVec 32), Decidable (k0_chk32 v226) := fun v226 => decidable_of_iff' _ (Iff.of_eq (k0_chk32.eq_1 v226))
theorem k0_off32_inb : ∀ (v226 : BitVec 32) (k0_hw32 : k0_chk32 v226), ∀ a, (k0_off32 v226) a + S1x1x64x128.size a ≤ S1x9x64x128.size a := fun v226 k0_hw32 => k0_hw32

def k0_off33 (v240 : BitVec 32) : Fin 4 → Nat :=
  let c0_259 : Index := 0#32
  let v242 : Index := Scalar.indexCast v240
  let c0_260 : Index := 0#32
  let c0_261 : Index := 0#32
  ![0, v242.toNat, 0, 0]

def k0_chk33 (v240 : BitVec 32) : Prop :=
  (∀ a, (k0_off33 v240) a + S1x1x64x128.size a ≤ S1x9x64x128.size a)
instance k0_chk33.dec : ∀ (v240 : BitVec 32), Decidable (k0_chk33 v240) := fun v240 => decidable_of_iff' _ (Iff.of_eq (k0_chk33.eq_1 v240))
theorem k0_off33_inb : ∀ (v240 : BitVec 32) (k0_hw33 : k0_chk33 v240), ∀ a, (k0_off33 v240) a + S1x1x64x128.size a ≤ S1x9x64x128.size a := fun v240 k0_hw33 => k0_hw33

def k0_off34 (v241 : BitVec 32) : Fin 4 → Nat :=
  let c0_262 : Index := 0#32
  let v245 : Index := Scalar.indexCast v241
  let c0_263 : Index := 0#32
  let c0_264 : Index := 0#32
  ![0, v245.toNat, 0, 0]

def k0_chk34 (v241 : BitVec 32) : Prop :=
  (∀ a, (k0_off34 v241) a + S1x1x64x128.size a ≤ S1x9x64x128.size a)
instance k0_chk34.dec : ∀ (v241 : BitVec 32), Decidable (k0_chk34 v241) := fun v241 => decidable_of_iff' _ (Iff.of_eq (k0_chk34.eq_1 v241))
theorem k0_off34_inb : ∀ (v241 : BitVec 32) (k0_hw34 : k0_chk34 v241), ∀ a, (k0_off34 v241) a + S1x1x64x128.size a ≤ S1x9x64x128.size a := fun v241 k0_hw34 => k0_hw34

def k0_off35 (v255 : BitVec 32) : Fin 4 → Nat :=
  let c0_275 : Index := 0#32
  let v257 : Index := Scalar.indexCast v255
  let c0_276 : Index := 0#32
  let c0_277 : Index := 0#32
  ![0, v257.toNat, 0, 0]

def k0_chk35 (v255 : BitVec 32) : Prop :=
  (∀ a, (k0_off35 v255) a + S1x1x64x128.size a ≤ S1x9x64x128.size a)
instance k0_chk35.dec : ∀ (v255 : BitVec 32), Decidable (k0_chk35 v255) := fun v255 => decidable_of_iff' _ (Iff.of_eq (k0_chk35.eq_1 v255))
theorem k0_off35_inb : ∀ (v255 : BitVec 32) (k0_hw35 : k0_chk35 v255), ∀ a, (k0_off35 v255) a + S1x1x64x128.size a ≤ S1x9x64x128.size a := fun v255 k0_hw35 => k0_hw35

def k0_off36 (v256 : BitVec 32) : Fin 4 → Nat :=
  let c0_278 : Index := 0#32
  let v260 : Index := Scalar.indexCast v256
  let c0_279 : Index := 0#32
  let c0_280 : Index := 0#32
  ![0, v260.toNat, 0, 0]

def k0_chk36 (v256 : BitVec 32) : Prop :=
  (∀ a, (k0_off36 v256) a + S1x1x64x128.size a ≤ S1x9x64x128.size a)
instance k0_chk36.dec : ∀ (v256 : BitVec 32), Decidable (k0_chk36 v256) := fun v256 => decidable_of_iff' _ (Iff.of_eq (k0_chk36.eq_1 v256))
theorem k0_off36_inb : ∀ (v256 : BitVec 32) (k0_hw36 : k0_chk36 v256), ∀ a, (k0_off36 v256) a + S1x1x64x128.size a ≤ S1x9x64x128.size a := fun v256 k0_hw36 => k0_hw36

def k0_off37 (v270 : BitVec 32) : Fin 4 → Nat :=
  let c0_291 : Index := 0#32
  let v272 : Index := Scalar.indexCast v270
  let c0_292 : Index := 0#32
  let c0_293 : Index := 0#32
  ![0, v272.toNat, 0, 0]

def k0_chk37 (v270 : BitVec 32) : Prop :=
  (∀ a, (k0_off37 v270) a + S1x1x64x128.size a ≤ S1x9x64x128.size a)
instance k0_chk37.dec : ∀ (v270 : BitVec 32), Decidable (k0_chk37 v270) := fun v270 => decidable_of_iff' _ (Iff.of_eq (k0_chk37.eq_1 v270))
theorem k0_off37_inb : ∀ (v270 : BitVec 32) (k0_hw37 : k0_chk37 v270), ∀ a, (k0_off37 v270) a + S1x1x64x128.size a ≤ S1x9x64x128.size a := fun v270 k0_hw37 => k0_hw37

def k0_off38 (v271 : BitVec 32) : Fin 4 → Nat :=
  let c0_294 : Index := 0#32
  let v275 : Index := Scalar.indexCast v271
  let c0_295 : Index := 0#32
  let c0_296 : Index := 0#32
  ![0, v275.toNat, 0, 0]

def k0_chk38 (v271 : BitVec 32) : Prop :=
  (∀ a, (k0_off38 v271) a + S1x1x64x128.size a ≤ S1x9x64x128.size a)
instance k0_chk38.dec : ∀ (v271 : BitVec 32), Decidable (k0_chk38 v271) := fun v271 => decidable_of_iff' _ (Iff.of_eq (k0_chk38.eq_1 v271))
theorem k0_off38_inb : ∀ (v271 : BitVec 32) (k0_hw38 : k0_chk38 v271), ∀ a, (k0_off38 v271) a + S1x1x64x128.size a ≤ S1x9x64x128.size a := fun v271 k0_hw38 => k0_hw38

def k0_off39 (v285 : BitVec 32) : Fin 4 → Nat :=
  let c0_307 : Index := 0#32
  let v287 : Index := Scalar.indexCast v285
  let c0_308 : Index := 0#32
  let c0_309 : Index := 0#32
  ![0, v287.toNat, 0, 0]

def k0_chk39 (v285 : BitVec 32) : Prop :=
  (∀ a, (k0_off39 v285) a + S1x1x64x128.size a ≤ S1x9x64x128.size a)
instance k0_chk39.dec : ∀ (v285 : BitVec 32), Decidable (k0_chk39 v285) := fun v285 => decidable_of_iff' _ (Iff.of_eq (k0_chk39.eq_1 v285))
theorem k0_off39_inb : ∀ (v285 : BitVec 32) (k0_hw39 : k0_chk39 v285), ∀ a, (k0_off39 v285) a + S1x1x64x128.size a ≤ S1x9x64x128.size a := fun v285 k0_hw39 => k0_hw39

def k0_off40 (v286 : BitVec 32) : Fin 4 → Nat :=
  let c0_310 : Index := 0#32
  let v290 : Index := Scalar.indexCast v286
  let c0_311 : Index := 0#32
  let c0_312 : Index := 0#32
  ![0, v290.toNat, 0, 0]

def k0_chk40 (v286 : BitVec 32) : Prop :=
  (∀ a, (k0_off40 v286) a + S1x1x64x128.size a ≤ S1x9x64x128.size a)
instance k0_chk40.dec : ∀ (v286 : BitVec 32), Decidable (k0_chk40 v286) := fun v286 => decidable_of_iff' _ (Iff.of_eq (k0_chk40.eq_1 v286))
theorem k0_off40_inb : ∀ (v286 : BitVec 32) (k0_hw40 : k0_chk40 v286), ∀ a, (k0_off40 v286) a + S1x1x64x128.size a ≤ S1x9x64x128.size a := fun v286 k0_hw40 => k0_hw40

def k0_off41 (v300 : BitVec 32) : Fin 4 → Nat :=
  let c0_323 : Index := 0#32
  let v302 : Index := Scalar.indexCast v300
  let c0_324 : Index := 0#32
  let c0_325 : Index := 0#32
  ![0, v302.toNat, 0, 0]

def k0_chk41 (v300 : BitVec 32) : Prop :=
  (∀ a, (k0_off41 v300) a + S1x1x64x128.size a ≤ S1x9x64x128.size a)
instance k0_chk41.dec : ∀ (v300 : BitVec 32), Decidable (k0_chk41 v300) := fun v300 => decidable_of_iff' _ (Iff.of_eq (k0_chk41.eq_1 v300))
theorem k0_off41_inb : ∀ (v300 : BitVec 32) (k0_hw41 : k0_chk41 v300), ∀ a, (k0_off41 v300) a + S1x1x64x128.size a ≤ S1x9x64x128.size a := fun v300 k0_hw41 => k0_hw41

def k0_off42 (v301 : BitVec 32) : Fin 4 → Nat :=
  let c0_326 : Index := 0#32
  let v305 : Index := Scalar.indexCast v301
  let c0_327 : Index := 0#32
  let c0_328 : Index := 0#32
  ![0, v305.toNat, 0, 0]

def k0_chk42 (v301 : BitVec 32) : Prop :=
  (∀ a, (k0_off42 v301) a + S1x1x64x128.size a ≤ S1x9x64x128.size a)
instance k0_chk42.dec : ∀ (v301 : BitVec 32), Decidable (k0_chk42 v301) := fun v301 => decidable_of_iff' _ (Iff.of_eq (k0_chk42.eq_1 v301))
theorem k0_off42_inb : ∀ (v301 : BitVec 32) (k0_hw42 : k0_chk42 v301), ∀ a, (k0_off42 v301) a + S1x1x64x128.size a ≤ S1x9x64x128.size a := fun v301 k0_hw42 => k0_hw42

def k0_off43 (v315 : BitVec 32) : Fin 4 → Nat :=
  let c0_339 : Index := 0#32
  let v317 : Index := Scalar.indexCast v315
  let c0_340 : Index := 0#32
  let c0_341 : Index := 0#32
  ![0, v317.toNat, 0, 0]

def k0_chk43 (v315 : BitVec 32) : Prop :=
  (∀ a, (k0_off43 v315) a + S1x1x64x128.size a ≤ S1x9x64x128.size a)
instance k0_chk43.dec : ∀ (v315 : BitVec 32), Decidable (k0_chk43 v315) := fun v315 => decidable_of_iff' _ (Iff.of_eq (k0_chk43.eq_1 v315))
theorem k0_off43_inb : ∀ (v315 : BitVec 32) (k0_hw43 : k0_chk43 v315), ∀ a, (k0_off43 v315) a + S1x1x64x128.size a ≤ S1x9x64x128.size a := fun v315 k0_hw43 => k0_hw43

def k0_off44 (v316 : BitVec 32) : Fin 4 → Nat :=
  let c0_342 : Index := 0#32
  let v320 : Index := Scalar.indexCast v316
  let c0_343 : Index := 0#32
  let c0_344 : Index := 0#32
  ![0, v320.toNat, 0, 0]

def k0_chk44 (v316 : BitVec 32) : Prop :=
  (∀ a, (k0_off44 v316) a + S1x1x64x128.size a ≤ S1x9x64x128.size a)
instance k0_chk44.dec : ∀ (v316 : BitVec 32), Decidable (k0_chk44 v316) := fun v316 => decidable_of_iff' _ (Iff.of_eq (k0_chk44.eq_1 v316))
theorem k0_off44_inb : ∀ (v316 : BitVec 32) (k0_hw44 : k0_chk44 v316), ∀ a, (k0_off44 v316) a + S1x1x64x128.size a ≤ S1x9x64x128.size a := fun v316 k0_hw44 => k0_hw44

def k0_off45 (v330 : BitVec 32) : Fin 4 → Nat :=
  let c0_355 : Index := 0#32
  let v332 : Index := Scalar.indexCast v330
  let c0_356 : Index := 0#32
  let c0_357 : Index := 0#32
  ![0, v332.toNat, 0, 0]

def k0_chk45 (v330 : BitVec 32) : Prop :=
  (∀ a, (k0_off45 v330) a + S1x1x64x128.size a ≤ S1x9x64x128.size a)
instance k0_chk45.dec : ∀ (v330 : BitVec 32), Decidable (k0_chk45 v330) := fun v330 => decidable_of_iff' _ (Iff.of_eq (k0_chk45.eq_1 v330))
theorem k0_off45_inb : ∀ (v330 : BitVec 32) (k0_hw45 : k0_chk45 v330), ∀ a, (k0_off45 v330) a + S1x1x64x128.size a ≤ S1x9x64x128.size a := fun v330 k0_hw45 => k0_hw45

def k0_off46 (v331 : BitVec 32) : Fin 4 → Nat :=
  let c0_358 : Index := 0#32
  let v335 : Index := Scalar.indexCast v331
  let c0_359 : Index := 0#32
  let c0_360 : Index := 0#32
  ![0, v335.toNat, 0, 0]

def k0_chk46 (v331 : BitVec 32) : Prop :=
  (∀ a, (k0_off46 v331) a + S1x1x64x128.size a ≤ S1x9x64x128.size a)
instance k0_chk46.dec : ∀ (v331 : BitVec 32), Decidable (k0_chk46 v331) := fun v331 => decidable_of_iff' _ (Iff.of_eq (k0_chk46.eq_1 v331))
theorem k0_off46_inb : ∀ (v331 : BitVec 32) (k0_hw46 : k0_chk46 v331), ∀ a, (k0_off46 v331) a + S1x1x64x128.size a ≤ S1x9x64x128.size a := fun v331 k0_hw46 => k0_hw46

def k0_off47 (v345 : BitVec 32) : Fin 4 → Nat :=
  let c0_371 : Index := 0#32
  let v347 : Index := Scalar.indexCast v345
  let c0_372 : Index := 0#32
  let c0_373 : Index := 0#32
  ![0, v347.toNat, 0, 0]

def k0_chk47 (v345 : BitVec 32) : Prop :=
  (∀ a, (k0_off47 v345) a + S1x1x64x128.size a ≤ S1x9x64x128.size a)
instance k0_chk47.dec : ∀ (v345 : BitVec 32), Decidable (k0_chk47 v345) := fun v345 => decidable_of_iff' _ (Iff.of_eq (k0_chk47.eq_1 v345))
theorem k0_off47_inb : ∀ (v345 : BitVec 32) (k0_hw47 : k0_chk47 v345), ∀ a, (k0_off47 v345) a + S1x1x64x128.size a ≤ S1x9x64x128.size a := fun v345 k0_hw47 => k0_hw47

def k0_off48 (v346 : BitVec 32) : Fin 4 → Nat :=
  let c0_374 : Index := 0#32
  let v350 : Index := Scalar.indexCast v346
  let c0_375 : Index := 0#32
  let c0_376 : Index := 0#32
  ![0, v350.toNat, 0, 0]

def k0_chk48 (v346 : BitVec 32) : Prop :=
  (∀ a, (k0_off48 v346) a + S1x1x64x128.size a ≤ S1x9x64x128.size a)
instance k0_chk48.dec : ∀ (v346 : BitVec 32), Decidable (k0_chk48 v346) := fun v346 => decidable_of_iff' _ (Iff.of_eq (k0_chk48.eq_1 v346))
theorem k0_off48_inb : ∀ (v346 : BitVec 32) (k0_hw48 : k0_chk48 v346), ∀ a, (k0_off48 v346) a + S1x1x64x128.size a ≤ S1x9x64x128.size a := fun v346 k0_hw48 => k0_hw48

def k0_off49 (v360 : BitVec 32) : Fin 4 → Nat :=
  let c0_387 : Index := 0#32
  let v362 : Index := Scalar.indexCast v360
  let c0_388 : Index := 0#32
  let c0_389 : Index := 0#32
  ![0, v362.toNat, 0, 0]

def k0_chk49 (v360 : BitVec 32) : Prop :=
  (∀ a, (k0_off49 v360) a + S1x1x64x128.size a ≤ S1x9x64x128.size a)
instance k0_chk49.dec : ∀ (v360 : BitVec 32), Decidable (k0_chk49 v360) := fun v360 => decidable_of_iff' _ (Iff.of_eq (k0_chk49.eq_1 v360))
theorem k0_off49_inb : ∀ (v360 : BitVec 32) (k0_hw49 : k0_chk49 v360), ∀ a, (k0_off49 v360) a + S1x1x64x128.size a ≤ S1x9x64x128.size a := fun v360 k0_hw49 => k0_hw49

def k0_off50 (v361 : BitVec 32) : Fin 4 → Nat :=
  let c0_390 : Index := 0#32
  let v365 : Index := Scalar.indexCast v361
  let c0_391 : Index := 0#32
  let c0_392 : Index := 0#32
  ![0, v365.toNat, 0, 0]

def k0_chk50 (v361 : BitVec 32) : Prop :=
  (∀ a, (k0_off50 v361) a + S1x1x64x128.size a ≤ S1x9x64x128.size a)
instance k0_chk50.dec : ∀ (v361 : BitVec 32), Decidable (k0_chk50 v361) := fun v361 => decidable_of_iff' _ (Iff.of_eq (k0_chk50.eq_1 v361))
theorem k0_off50_inb : ∀ (v361 : BitVec 32) (k0_hw50 : k0_chk50 v361), ∀ a, (k0_off50 v361) a + S1x1x64x128.size a ≤ S1x9x64x128.size a := fun v361 k0_hw50 => k0_hw50

def k0_off51 (v375 : BitVec 32) : Fin 4 → Nat :=
  let c0_403 : Index := 0#32
  let v377 : Index := Scalar.indexCast v375
  let c0_404 : Index := 0#32
  let c0_405 : Index := 0#32
  ![0, v377.toNat, 0, 0]

def k0_chk51 (v375 : BitVec 32) : Prop :=
  (∀ a, (k0_off51 v375) a + S1x1x64x128.size a ≤ S1x9x64x128.size a)
instance k0_chk51.dec : ∀ (v375 : BitVec 32), Decidable (k0_chk51 v375) := fun v375 => decidable_of_iff' _ (Iff.of_eq (k0_chk51.eq_1 v375))
theorem k0_off51_inb : ∀ (v375 : BitVec 32) (k0_hw51 : k0_chk51 v375), ∀ a, (k0_off51 v375) a + S1x1x64x128.size a ≤ S1x9x64x128.size a := fun v375 k0_hw51 => k0_hw51

def k0_off52 (v376 : BitVec 32) : Fin 4 → Nat :=
  let c0_406 : Index := 0#32
  let v380 : Index := Scalar.indexCast v376
  let c0_407 : Index := 0#32
  let c0_408 : Index := 0#32
  ![0, v380.toNat, 0, 0]

def k0_chk52 (v376 : BitVec 32) : Prop :=
  (∀ a, (k0_off52 v376) a + S1x1x64x128.size a ≤ S1x9x64x128.size a)
instance k0_chk52.dec : ∀ (v376 : BitVec 32), Decidable (k0_chk52 v376) := fun v376 => decidable_of_iff' _ (Iff.of_eq (k0_chk52.eq_1 v376))
theorem k0_off52_inb : ∀ (v376 : BitVec 32) (k0_hw52 : k0_chk52 v376), ∀ a, (k0_off52 v376) a + S1x1x64x128.size a ≤ S1x9x64x128.size a := fun v376 k0_hw52 => k0_hw52

def k0_off53 (v390 : BitVec 32) : Fin 4 → Nat :=
  let c0_419 : Index := 0#32
  let v392 : Index := Scalar.indexCast v390
  let c0_420 : Index := 0#32
  let c0_421 : Index := 0#32
  ![0, v392.toNat, 0, 0]

def k0_chk53 (v390 : BitVec 32) : Prop :=
  (∀ a, (k0_off53 v390) a + S1x1x64x128.size a ≤ S1x9x64x128.size a)
instance k0_chk53.dec : ∀ (v390 : BitVec 32), Decidable (k0_chk53 v390) := fun v390 => decidable_of_iff' _ (Iff.of_eq (k0_chk53.eq_1 v390))
theorem k0_off53_inb : ∀ (v390 : BitVec 32) (k0_hw53 : k0_chk53 v390), ∀ a, (k0_off53 v390) a + S1x1x64x128.size a ≤ S1x9x64x128.size a := fun v390 k0_hw53 => k0_hw53

def k0_off54 (v391 : BitVec 32) : Fin 4 → Nat :=
  let c0_422 : Index := 0#32
  let v395 : Index := Scalar.indexCast v391
  let c0_423 : Index := 0#32
  let c0_424 : Index := 0#32
  ![0, v395.toNat, 0, 0]

def k0_chk54 (v391 : BitVec 32) : Prop :=
  (∀ a, (k0_off54 v391) a + S1x1x64x128.size a ≤ S1x9x64x128.size a)
instance k0_chk54.dec : ∀ (v391 : BitVec 32), Decidable (k0_chk54 v391) := fun v391 => decidable_of_iff' _ (Iff.of_eq (k0_chk54.eq_1 v391))
theorem k0_off54_inb : ∀ (v391 : BitVec 32) (k0_hw54 : k0_chk54 v391), ∀ a, (k0_off54 v391) a + S1x1x64x128.size a ≤ S1x9x64x128.size a := fun v391 k0_hw54 => k0_hw54

def k0_off55 (v405 : BitVec 32) : Fin 4 → Nat :=
  let c0_435 : Index := 0#32
  let v407 : Index := Scalar.indexCast v405
  let c0_436 : Index := 0#32
  let c0_437 : Index := 0#32
  ![0, v407.toNat, 0, 0]

def k0_chk55 (v405 : BitVec 32) : Prop :=
  (∀ a, (k0_off55 v405) a + S1x1x64x128.size a ≤ S1x9x64x128.size a)
instance k0_chk55.dec : ∀ (v405 : BitVec 32), Decidable (k0_chk55 v405) := fun v405 => decidable_of_iff' _ (Iff.of_eq (k0_chk55.eq_1 v405))
theorem k0_off55_inb : ∀ (v405 : BitVec 32) (k0_hw55 : k0_chk55 v405), ∀ a, (k0_off55 v405) a + S1x1x64x128.size a ≤ S1x9x64x128.size a := fun v405 k0_hw55 => k0_hw55

def k0_off56 (v406 : BitVec 32) : Fin 4 → Nat :=
  let c0_438 : Index := 0#32
  let v410 : Index := Scalar.indexCast v406
  let c0_439 : Index := 0#32
  let c0_440 : Index := 0#32
  ![0, v410.toNat, 0, 0]

def k0_chk56 (v406 : BitVec 32) : Prop :=
  (∀ a, (k0_off56 v406) a + S1x1x64x128.size a ≤ S1x9x64x128.size a)
instance k0_chk56.dec : ∀ (v406 : BitVec 32), Decidable (k0_chk56 v406) := fun v406 => decidable_of_iff' _ (Iff.of_eq (k0_chk56.eq_1 v406))
theorem k0_off56_inb : ∀ (v406 : BitVec 32) (k0_hw56 : k0_chk56 v406), ∀ a, (k0_off56 v406) a + S1x1x64x128.size a ≤ S1x9x64x128.size a := fun v406 k0_hw56 => k0_hw56

def k0_off57 (v420 : BitVec 32) : Fin 4 → Nat :=
  let c0_451 : Index := 0#32
  let v422 : Index := Scalar.indexCast v420
  let c0_452 : Index := 0#32
  let c0_453 : Index := 0#32
  ![0, v422.toNat, 0, 0]

def k0_chk57 (v420 : BitVec 32) : Prop :=
  (∀ a, (k0_off57 v420) a + S1x1x64x128.size a ≤ S1x9x64x128.size a)
instance k0_chk57.dec : ∀ (v420 : BitVec 32), Decidable (k0_chk57 v420) := fun v420 => decidable_of_iff' _ (Iff.of_eq (k0_chk57.eq_1 v420))
theorem k0_off57_inb : ∀ (v420 : BitVec 32) (k0_hw57 : k0_chk57 v420), ∀ a, (k0_off57 v420) a + S1x1x64x128.size a ≤ S1x9x64x128.size a := fun v420 k0_hw57 => k0_hw57

def k0_off58 (v421 : BitVec 32) : Fin 4 → Nat :=
  let c0_454 : Index := 0#32
  let v425 : Index := Scalar.indexCast v421
  let c0_455 : Index := 0#32
  let c0_456 : Index := 0#32
  ![0, v425.toNat, 0, 0]

def k0_chk58 (v421 : BitVec 32) : Prop :=
  (∀ a, (k0_off58 v421) a + S1x1x64x128.size a ≤ S1x9x64x128.size a)
instance k0_chk58.dec : ∀ (v421 : BitVec 32), Decidable (k0_chk58 v421) := fun v421 => decidable_of_iff' _ (Iff.of_eq (k0_chk58.eq_1 v421))
theorem k0_off58_inb : ∀ (v421 : BitVec 32) (k0_hw58 : k0_chk58 v421), ∀ a, (k0_off58 v421) a + S1x1x64x128.size a ≤ S1x9x64x128.size a := fun v421 k0_hw58 => k0_hw58

def k0_off59 (v435 : BitVec 32) : Fin 4 → Nat :=
  let c0_467 : Index := 0#32
  let v437 : Index := Scalar.indexCast v435
  let c0_468 : Index := 0#32
  let c0_469 : Index := 0#32
  ![0, v437.toNat, 0, 0]

def k0_chk59 (v435 : BitVec 32) : Prop :=
  (∀ a, (k0_off59 v435) a + S1x1x64x128.size a ≤ S1x9x64x128.size a)
instance k0_chk59.dec : ∀ (v435 : BitVec 32), Decidable (k0_chk59 v435) := fun v435 => decidable_of_iff' _ (Iff.of_eq (k0_chk59.eq_1 v435))
theorem k0_off59_inb : ∀ (v435 : BitVec 32) (k0_hw59 : k0_chk59 v435), ∀ a, (k0_off59 v435) a + S1x1x64x128.size a ≤ S1x9x64x128.size a := fun v435 k0_hw59 => k0_hw59

def k0_off60 (v436 : BitVec 32) : Fin 4 → Nat :=
  let c0_470 : Index := 0#32
  let v440 : Index := Scalar.indexCast v436
  let c0_471 : Index := 0#32
  let c0_472 : Index := 0#32
  ![0, v440.toNat, 0, 0]

def k0_chk60 (v436 : BitVec 32) : Prop :=
  (∀ a, (k0_off60 v436) a + S1x1x64x128.size a ≤ S1x9x64x128.size a)
instance k0_chk60.dec : ∀ (v436 : BitVec 32), Decidable (k0_chk60 v436) := fun v436 => decidable_of_iff' _ (Iff.of_eq (k0_chk60.eq_1 v436))
theorem k0_off60_inb : ∀ (v436 : BitVec 32) (k0_hw60 : k0_chk60 v436), ∀ a, (k0_off60 v436) a + S1x1x64x128.size a ≤ S1x9x64x128.size a := fun v436 k0_hw60 => k0_hw60

def k0_off61 (v450 : BitVec 32) : Fin 4 → Nat :=
  let c0_483 : Index := 0#32
  let v452 : Index := Scalar.indexCast v450
  let c0_484 : Index := 0#32
  let c0_485 : Index := 0#32
  ![0, v452.toNat, 0, 0]

def k0_chk61 (v450 : BitVec 32) : Prop :=
  (∀ a, (k0_off61 v450) a + S1x1x64x128.size a ≤ S1x9x64x128.size a)
instance k0_chk61.dec : ∀ (v450 : BitVec 32), Decidable (k0_chk61 v450) := fun v450 => decidable_of_iff' _ (Iff.of_eq (k0_chk61.eq_1 v450))
theorem k0_off61_inb : ∀ (v450 : BitVec 32) (k0_hw61 : k0_chk61 v450), ∀ a, (k0_off61 v450) a + S1x1x64x128.size a ≤ S1x9x64x128.size a := fun v450 k0_hw61 => k0_hw61

def k0_off62 (v451 : BitVec 32) : Fin 4 → Nat :=
  let c0_486 : Index := 0#32
  let v455 : Index := Scalar.indexCast v451
  let c0_487 : Index := 0#32
  let c0_488 : Index := 0#32
  ![0, v455.toNat, 0, 0]

def k0_chk62 (v451 : BitVec 32) : Prop :=
  (∀ a, (k0_off62 v451) a + S1x1x64x128.size a ≤ S1x9x64x128.size a)
instance k0_chk62.dec : ∀ (v451 : BitVec 32), Decidable (k0_chk62 v451) := fun v451 => decidable_of_iff' _ (Iff.of_eq (k0_chk62.eq_1 v451))
theorem k0_off62_inb : ∀ (v451 : BitVec 32) (k0_hw62 : k0_chk62 v451), ∀ a, (k0_off62 v451) a + S1x1x64x128.size a ≤ S1x9x64x128.size a := fun v451 k0_hw62 => k0_hw62

def k0_off63 (v465 : BitVec 32) : Fin 4 → Nat :=
  let c0_499 : Index := 0#32
  let v467 : Index := Scalar.indexCast v465
  let c0_500 : Index := 0#32
  let c0_501 : Index := 0#32
  ![0, v467.toNat, 0, 0]

def k0_chk63 (v465 : BitVec 32) : Prop :=
  (∀ a, (k0_off63 v465) a + S1x1x64x128.size a ≤ S1x9x64x128.size a)
instance k0_chk63.dec : ∀ (v465 : BitVec 32), Decidable (k0_chk63 v465) := fun v465 => decidable_of_iff' _ (Iff.of_eq (k0_chk63.eq_1 v465))
theorem k0_off63_inb : ∀ (v465 : BitVec 32) (k0_hw63 : k0_chk63 v465), ∀ a, (k0_off63 v465) a + S1x1x64x128.size a ≤ S1x9x64x128.size a := fun v465 k0_hw63 => k0_hw63

def k0_off64 (v466 : BitVec 32) : Fin 4 → Nat :=
  let c0_502 : Index := 0#32
  let v470 : Index := Scalar.indexCast v466
  let c0_503 : Index := 0#32
  let c0_504 : Index := 0#32
  ![0, v470.toNat, 0, 0]

def k0_chk64 (v466 : BitVec 32) : Prop :=
  (∀ a, (k0_off64 v466) a + S1x1x64x128.size a ≤ S1x9x64x128.size a)
instance k0_chk64.dec : ∀ (v466 : BitVec 32), Decidable (k0_chk64 v466) := fun v466 => decidable_of_iff' _ (Iff.of_eq (k0_chk64.eq_1 v466))
theorem k0_off64_inb : ∀ (v466 : BitVec 32) (k0_hw64 : k0_chk64 v466), ∀ a, (k0_off64 v466) a + S1x1x64x128.size a ≤ S1x9x64x128.size a := fun v466 k0_hw64 => k0_hw64

def k0_off65 (v480 : BitVec 32) : Fin 4 → Nat :=
  let c0_515 : Index := 0#32
  let v482 : Index := Scalar.indexCast v480
  let c0_516 : Index := 0#32
  let c0_517 : Index := 0#32
  ![0, v482.toNat, 0, 0]

def k0_chk65 (v480 : BitVec 32) : Prop :=
  (∀ a, (k0_off65 v480) a + S1x1x64x128.size a ≤ S1x9x64x128.size a)
instance k0_chk65.dec : ∀ (v480 : BitVec 32), Decidable (k0_chk65 v480) := fun v480 => decidable_of_iff' _ (Iff.of_eq (k0_chk65.eq_1 v480))
theorem k0_off65_inb : ∀ (v480 : BitVec 32) (k0_hw65 : k0_chk65 v480), ∀ a, (k0_off65 v480) a + S1x1x64x128.size a ≤ S1x9x64x128.size a := fun v480 k0_hw65 => k0_hw65

def k0_off66 (v481 : BitVec 32) : Fin 4 → Nat :=
  let c0_518 : Index := 0#32
  let v485 : Index := Scalar.indexCast v481
  let c0_519 : Index := 0#32
  let c0_520 : Index := 0#32
  ![0, v485.toNat, 0, 0]

def k0_chk66 (v481 : BitVec 32) : Prop :=
  (∀ a, (k0_off66 v481) a + S1x1x64x128.size a ≤ S1x9x64x128.size a)
instance k0_chk66.dec : ∀ (v481 : BitVec 32), Decidable (k0_chk66 v481) := fun v481 => decidable_of_iff' _ (Iff.of_eq (k0_chk66.eq_1 v481))
theorem k0_off66_inb : ∀ (v481 : BitVec 32) (k0_hw66 : k0_chk66 v481), ∀ a, (k0_off66 v481) a + S1x1x64x128.size a ≤ S1x9x64x128.size a := fun v481 k0_hw66 => k0_hw66

def k0_off67 (v495 : BitVec 32) : Fin 4 → Nat :=
  let c0_531 : Index := 0#32
  let v497 : Index := Scalar.indexCast v495
  let c0_532 : Index := 0#32
  let c0_533 : Index := 0#32
  ![0, v497.toNat, 0, 0]

def k0_chk67 (v495 : BitVec 32) : Prop :=
  (∀ a, (k0_off67 v495) a + S1x1x64x128.size a ≤ S1x9x64x128.size a)
instance k0_chk67.dec : ∀ (v495 : BitVec 32), Decidable (k0_chk67 v495) := fun v495 => decidable_of_iff' _ (Iff.of_eq (k0_chk67.eq_1 v495))
theorem k0_off67_inb : ∀ (v495 : BitVec 32) (k0_hw67 : k0_chk67 v495), ∀ a, (k0_off67 v495) a + S1x1x64x128.size a ≤ S1x9x64x128.size a := fun v495 k0_hw67 => k0_hw67

def k0_off68 (v496 : BitVec 32) : Fin 4 → Nat :=
  let c0_534 : Index := 0#32
  let v500 : Index := Scalar.indexCast v496
  let c0_535 : Index := 0#32
  let c0_536 : Index := 0#32
  ![0, v500.toNat, 0, 0]

def k0_chk68 (v496 : BitVec 32) : Prop :=
  (∀ a, (k0_off68 v496) a + S1x1x64x128.size a ≤ S1x9x64x128.size a)
instance k0_chk68.dec : ∀ (v496 : BitVec 32), Decidable (k0_chk68 v496) := fun v496 => decidable_of_iff' _ (Iff.of_eq (k0_chk68.eq_1 v496))
theorem k0_off68_inb : ∀ (v496 : BitVec 32) (k0_hw68 : k0_chk68 v496), ∀ a, (k0_off68 v496) a + S1x1x64x128.size a ≤ S1x9x64x128.size a := fun v496 k0_hw68 => k0_hw68

def k0_off69 (v510 : BitVec 32) : Fin 4 → Nat :=
  let c0_547 : Index := 0#32
  let v512 : Index := Scalar.indexCast v510
  let c0_548 : Index := 0#32
  let c0_549 : Index := 0#32
  ![0, v512.toNat, 0, 0]

def k0_chk69 (v510 : BitVec 32) : Prop :=
  (∀ a, (k0_off69 v510) a + S1x1x64x128.size a ≤ S1x9x64x128.size a)
instance k0_chk69.dec : ∀ (v510 : BitVec 32), Decidable (k0_chk69 v510) := fun v510 => decidable_of_iff' _ (Iff.of_eq (k0_chk69.eq_1 v510))
theorem k0_off69_inb : ∀ (v510 : BitVec 32) (k0_hw69 : k0_chk69 v510), ∀ a, (k0_off69 v510) a + S1x1x64x128.size a ≤ S1x9x64x128.size a := fun v510 k0_hw69 => k0_hw69

def k0_off70 (v511 : BitVec 32) : Fin 4 → Nat :=
  let c0_550 : Index := 0#32
  let v515 : Index := Scalar.indexCast v511
  let c0_551 : Index := 0#32
  let c0_552 : Index := 0#32
  ![0, v515.toNat, 0, 0]

def k0_chk70 (v511 : BitVec 32) : Prop :=
  (∀ a, (k0_off70 v511) a + S1x1x64x128.size a ≤ S1x9x64x128.size a)
instance k0_chk70.dec : ∀ (v511 : BitVec 32), Decidable (k0_chk70 v511) := fun v511 => decidable_of_iff' _ (Iff.of_eq (k0_chk70.eq_1 v511))
theorem k0_off70_inb : ∀ (v511 : BitVec 32) (k0_hw70 : k0_chk70 v511), ∀ a, (k0_off70 v511) a + S1x1x64x128.size a ≤ S1x9x64x128.size a := fun v511 k0_hw70 => k0_hw70

def k0_off71 (v525 : BitVec 32) : Fin 4 → Nat :=
  let c0_563 : Index := 0#32
  let v527 : Index := Scalar.indexCast v525
  let c0_564 : Index := 0#32
  let c0_565 : Index := 0#32
  ![0, v527.toNat, 0, 0]

def k0_chk71 (v525 : BitVec 32) : Prop :=
  (∀ a, (k0_off71 v525) a + S1x1x64x128.size a ≤ S1x9x64x128.size a)
instance k0_chk71.dec : ∀ (v525 : BitVec 32), Decidable (k0_chk71 v525) := fun v525 => decidable_of_iff' _ (Iff.of_eq (k0_chk71.eq_1 v525))
theorem k0_off71_inb : ∀ (v525 : BitVec 32) (k0_hw71 : k0_chk71 v525), ∀ a, (k0_off71 v525) a + S1x1x64x128.size a ≤ S1x9x64x128.size a := fun v525 k0_hw71 => k0_hw71

def k0_off72 (v526 : BitVec 32) : Fin 4 → Nat :=
  let c0_566 : Index := 0#32
  let v530 : Index := Scalar.indexCast v526
  let c0_567 : Index := 0#32
  let c0_568 : Index := 0#32
  ![0, v530.toNat, 0, 0]

def k0_chk72 (v526 : BitVec 32) : Prop :=
  (∀ a, (k0_off72 v526) a + S1x1x64x128.size a ≤ S1x9x64x128.size a)
instance k0_chk72.dec : ∀ (v526 : BitVec 32), Decidable (k0_chk72 v526) := fun v526 => decidable_of_iff' _ (Iff.of_eq (k0_chk72.eq_1 v526))
theorem k0_off72_inb : ∀ (v526 : BitVec 32) (k0_hw72 : k0_chk72 v526), ∀ a, (k0_off72 v526) a + S1x1x64x128.size a ≤ S1x9x64x128.size a := fun v526 k0_hw72 => k0_hw72

def k0_off73 (v540 : BitVec 32) : Fin 4 → Nat :=
  let c0_579 : Index := 0#32
  let v542 : Index := Scalar.indexCast v540
  let c0_580 : Index := 0#32
  let c0_581 : Index := 0#32
  ![0, v542.toNat, 0, 0]

def k0_chk73 (v540 : BitVec 32) : Prop :=
  (∀ a, (k0_off73 v540) a + S1x1x64x128.size a ≤ S1x9x64x128.size a)
instance k0_chk73.dec : ∀ (v540 : BitVec 32), Decidable (k0_chk73 v540) := fun v540 => decidable_of_iff' _ (Iff.of_eq (k0_chk73.eq_1 v540))
theorem k0_off73_inb : ∀ (v540 : BitVec 32) (k0_hw73 : k0_chk73 v540), ∀ a, (k0_off73 v540) a + S1x1x64x128.size a ≤ S1x9x64x128.size a := fun v540 k0_hw73 => k0_hw73

def k0_off74 (v541 : BitVec 32) : Fin 4 → Nat :=
  let c0_582 : Index := 0#32
  let v545 : Index := Scalar.indexCast v541
  let c0_583 : Index := 0#32
  let c0_584 : Index := 0#32
  ![0, v545.toNat, 0, 0]

def k0_chk74 (v541 : BitVec 32) : Prop :=
  (∀ a, (k0_off74 v541) a + S1x1x64x128.size a ≤ S1x9x64x128.size a)
instance k0_chk74.dec : ∀ (v541 : BitVec 32), Decidable (k0_chk74 v541) := fun v541 => decidable_of_iff' _ (Iff.of_eq (k0_chk74.eq_1 v541))
theorem k0_off74_inb : ∀ (v541 : BitVec 32) (k0_hw74 : k0_chk74 v541), ∀ a, (k0_off74 v541) a + S1x1x64x128.size a ≤ S1x9x64x128.size a := fun v541 k0_hw74 => k0_hw74

def k0_off75 (v555 : BitVec 32) : Fin 4 → Nat :=
  let c0_595 : Index := 0#32
  let v557 : Index := Scalar.indexCast v555
  let c0_596 : Index := 0#32
  let c0_597 : Index := 0#32
  ![0, v557.toNat, 0, 0]

def k0_chk75 (v555 : BitVec 32) : Prop :=
  (∀ a, (k0_off75 v555) a + S1x1x64x128.size a ≤ S1x9x64x128.size a)
instance k0_chk75.dec : ∀ (v555 : BitVec 32), Decidable (k0_chk75 v555) := fun v555 => decidable_of_iff' _ (Iff.of_eq (k0_chk75.eq_1 v555))
theorem k0_off75_inb : ∀ (v555 : BitVec 32) (k0_hw75 : k0_chk75 v555), ∀ a, (k0_off75 v555) a + S1x1x64x128.size a ≤ S1x9x64x128.size a := fun v555 k0_hw75 => k0_hw75

def k0_off76 (v556 : BitVec 32) : Fin 4 → Nat :=
  let c0_598 : Index := 0#32
  let v560 : Index := Scalar.indexCast v556
  let c0_599 : Index := 0#32
  let c0_600 : Index := 0#32
  ![0, v560.toNat, 0, 0]

def k0_chk76 (v556 : BitVec 32) : Prop :=
  (∀ a, (k0_off76 v556) a + S1x1x64x128.size a ≤ S1x9x64x128.size a)
instance k0_chk76.dec : ∀ (v556 : BitVec 32), Decidable (k0_chk76 v556) := fun v556 => decidable_of_iff' _ (Iff.of_eq (k0_chk76.eq_1 v556))
theorem k0_off76_inb : ∀ (v556 : BitVec 32) (k0_hw76 : k0_chk76 v556), ∀ a, (k0_off76 v556) a + S1x1x64x128.size a ≤ S1x9x64x128.size a := fun v556 k0_hw76 => k0_hw76

def k0_off77 (v570 : BitVec 32) : Fin 4 → Nat :=
  let c0_611 : Index := 0#32
  let v572 : Index := Scalar.indexCast v570
  let c0_612 : Index := 0#32
  let c0_613 : Index := 0#32
  ![0, v572.toNat, 0, 0]

def k0_chk77 (v570 : BitVec 32) : Prop :=
  (∀ a, (k0_off77 v570) a + S1x1x64x128.size a ≤ S1x9x64x128.size a)
instance k0_chk77.dec : ∀ (v570 : BitVec 32), Decidable (k0_chk77 v570) := fun v570 => decidable_of_iff' _ (Iff.of_eq (k0_chk77.eq_1 v570))
theorem k0_off77_inb : ∀ (v570 : BitVec 32) (k0_hw77 : k0_chk77 v570), ∀ a, (k0_off77 v570) a + S1x1x64x128.size a ≤ S1x9x64x128.size a := fun v570 k0_hw77 => k0_hw77

def k0_off78 (v571 : BitVec 32) : Fin 4 → Nat :=
  let c0_614 : Index := 0#32
  let v575 : Index := Scalar.indexCast v571
  let c0_615 : Index := 0#32
  let c0_616 : Index := 0#32
  ![0, v575.toNat, 0, 0]

def k0_chk78 (v571 : BitVec 32) : Prop :=
  (∀ a, (k0_off78 v571) a + S1x1x64x128.size a ≤ S1x9x64x128.size a)
instance k0_chk78.dec : ∀ (v571 : BitVec 32), Decidable (k0_chk78 v571) := fun v571 => decidable_of_iff' _ (Iff.of_eq (k0_chk78.eq_1 v571))
theorem k0_off78_inb : ∀ (v571 : BitVec 32) (k0_hw78 : k0_chk78 v571), ∀ a, (k0_off78 v571) a + S1x1x64x128.size a ≤ S1x9x64x128.size a := fun v571 k0_hw78 => k0_hw78

def k0_off79 (v585 : BitVec 32) : Fin 4 → Nat :=
  let c0_627 : Index := 0#32
  let v587 : Index := Scalar.indexCast v585
  let c0_628 : Index := 0#32
  let c0_629 : Index := 0#32
  ![0, v587.toNat, 0, 0]

def k0_chk79 (v585 : BitVec 32) : Prop :=
  (∀ a, (k0_off79 v585) a + S1x1x64x128.size a ≤ S1x9x64x128.size a)
instance k0_chk79.dec : ∀ (v585 : BitVec 32), Decidable (k0_chk79 v585) := fun v585 => decidable_of_iff' _ (Iff.of_eq (k0_chk79.eq_1 v585))
theorem k0_off79_inb : ∀ (v585 : BitVec 32) (k0_hw79 : k0_chk79 v585), ∀ a, (k0_off79 v585) a + S1x1x64x128.size a ≤ S1x9x64x128.size a := fun v585 k0_hw79 => k0_hw79

def k0_off80 (v586 : BitVec 32) : Fin 4 → Nat :=
  let c0_630 : Index := 0#32
  let v590 : Index := Scalar.indexCast v586
  let c0_631 : Index := 0#32
  let c0_632 : Index := 0#32
  ![0, v590.toNat, 0, 0]

def k0_chk80 (v586 : BitVec 32) : Prop :=
  (∀ a, (k0_off80 v586) a + S1x1x64x128.size a ≤ S1x9x64x128.size a)
instance k0_chk80.dec : ∀ (v586 : BitVec 32), Decidable (k0_chk80 v586) := fun v586 => decidable_of_iff' _ (Iff.of_eq (k0_chk80.eq_1 v586))
theorem k0_off80_inb : ∀ (v586 : BitVec 32) (k0_hw80 : k0_chk80 v586), ∀ a, (k0_off80 v586) a + S1x1x64x128.size a ≤ S1x9x64x128.size a := fun v586 k0_hw80 => k0_hw80

def k0_off81 (v600 : BitVec 32) : Fin 4 → Nat :=
  let c0_643 : Index := 0#32
  let v602 : Index := Scalar.indexCast v600
  let c0_644 : Index := 0#32
  let c0_645 : Index := 0#32
  ![0, v602.toNat, 0, 0]

def k0_chk81 (v600 : BitVec 32) : Prop :=
  (∀ a, (k0_off81 v600) a + S1x1x64x128.size a ≤ S1x9x64x128.size a)
instance k0_chk81.dec : ∀ (v600 : BitVec 32), Decidable (k0_chk81 v600) := fun v600 => decidable_of_iff' _ (Iff.of_eq (k0_chk81.eq_1 v600))
theorem k0_off81_inb : ∀ (v600 : BitVec 32) (k0_hw81 : k0_chk81 v600), ∀ a, (k0_off81 v600) a + S1x1x64x128.size a ≤ S1x9x64x128.size a := fun v600 k0_hw81 => k0_hw81

def k0_off82 (v601 : BitVec 32) : Fin 4 → Nat :=
  let c0_646 : Index := 0#32
  let v605 : Index := Scalar.indexCast v601
  let c0_647 : Index := 0#32
  let c0_648 : Index := 0#32
  ![0, v605.toNat, 0, 0]

def k0_chk82 (v601 : BitVec 32) : Prop :=
  (∀ a, (k0_off82 v601) a + S1x1x64x128.size a ≤ S1x9x64x128.size a)
instance k0_chk82.dec : ∀ (v601 : BitVec 32), Decidable (k0_chk82 v601) := fun v601 => decidable_of_iff' _ (Iff.of_eq (k0_chk82.eq_1 v601))
theorem k0_off82_inb : ∀ (v601 : BitVec 32) (k0_hw82 : k0_chk82 v601), ∀ a, (k0_off82 v601) a + S1x1x64x128.size a ≤ S1x9x64x128.size a := fun v601 k0_hw82 => k0_hw82

def k0_off83 (v615 : BitVec 32) : Fin 4 → Nat :=
  let c0_659 : Index := 0#32
  let v617 : Index := Scalar.indexCast v615
  let c0_660 : Index := 0#32
  let c0_661 : Index := 0#32
  ![0, v617.toNat, 0, 0]

def k0_chk83 (v615 : BitVec 32) : Prop :=
  (∀ a, (k0_off83 v615) a + S1x1x64x128.size a ≤ S1x9x64x128.size a)
instance k0_chk83.dec : ∀ (v615 : BitVec 32), Decidable (k0_chk83 v615) := fun v615 => decidable_of_iff' _ (Iff.of_eq (k0_chk83.eq_1 v615))
theorem k0_off83_inb : ∀ (v615 : BitVec 32) (k0_hw83 : k0_chk83 v615), ∀ a, (k0_off83 v615) a + S1x1x64x128.size a ≤ S1x9x64x128.size a := fun v615 k0_hw83 => k0_hw83

def k0_off84 (v616 : BitVec 32) : Fin 4 → Nat :=
  let c0_662 : Index := 0#32
  let v620 : Index := Scalar.indexCast v616
  let c0_663 : Index := 0#32
  let c0_664 : Index := 0#32
  ![0, v620.toNat, 0, 0]

def k0_chk84 (v616 : BitVec 32) : Prop :=
  (∀ a, (k0_off84 v616) a + S1x1x64x128.size a ≤ S1x9x64x128.size a)
instance k0_chk84.dec : ∀ (v616 : BitVec 32), Decidable (k0_chk84 v616) := fun v616 => decidable_of_iff' _ (Iff.of_eq (k0_chk84.eq_1 v616))
theorem k0_off84_inb : ∀ (v616 : BitVec 32) (k0_hw84 : k0_chk84 v616), ∀ a, (k0_off84 v616) a + S1x1x64x128.size a ≤ S1x9x64x128.size a := fun v616 k0_hw84 => k0_hw84

def k0_off85 (v630 : BitVec 32) : Fin 4 → Nat :=
  let c0_675 : Index := 0#32
  let v632 : Index := Scalar.indexCast v630
  let c0_676 : Index := 0#32
  let c0_677 : Index := 0#32
  ![0, v632.toNat, 0, 0]

def k0_chk85 (v630 : BitVec 32) : Prop :=
  (∀ a, (k0_off85 v630) a + S1x1x64x128.size a ≤ S1x9x64x128.size a)
instance k0_chk85.dec : ∀ (v630 : BitVec 32), Decidable (k0_chk85 v630) := fun v630 => decidable_of_iff' _ (Iff.of_eq (k0_chk85.eq_1 v630))
theorem k0_off85_inb : ∀ (v630 : BitVec 32) (k0_hw85 : k0_chk85 v630), ∀ a, (k0_off85 v630) a + S1x1x64x128.size a ≤ S1x9x64x128.size a := fun v630 k0_hw85 => k0_hw85

def k0_off86 (v631 : BitVec 32) : Fin 4 → Nat :=
  let c0_678 : Index := 0#32
  let v635 : Index := Scalar.indexCast v631
  let c0_679 : Index := 0#32
  let c0_680 : Index := 0#32
  ![0, v635.toNat, 0, 0]

def k0_chk86 (v631 : BitVec 32) : Prop :=
  (∀ a, (k0_off86 v631) a + S1x1x64x128.size a ≤ S1x9x64x128.size a)
instance k0_chk86.dec : ∀ (v631 : BitVec 32), Decidable (k0_chk86 v631) := fun v631 => decidable_of_iff' _ (Iff.of_eq (k0_chk86.eq_1 v631))
theorem k0_off86_inb : ∀ (v631 : BitVec 32) (k0_hw86 : k0_chk86 v631), ∀ a, (k0_off86 v631) a + S1x1x64x128.size a ≤ S1x9x64x128.size a := fun v631 k0_hw86 => k0_hw86

def k0_off87 (v645 : BitVec 32) : Fin 4 → Nat :=
  let c0_691 : Index := 0#32
  let v647 : Index := Scalar.indexCast v645
  let c0_692 : Index := 0#32
  let c0_693 : Index := 0#32
  ![0, v647.toNat, 0, 0]

def k0_chk87 (v645 : BitVec 32) : Prop :=
  (∀ a, (k0_off87 v645) a + S1x1x64x128.size a ≤ S1x9x64x128.size a)
instance k0_chk87.dec : ∀ (v645 : BitVec 32), Decidable (k0_chk87 v645) := fun v645 => decidable_of_iff' _ (Iff.of_eq (k0_chk87.eq_1 v645))
theorem k0_off87_inb : ∀ (v645 : BitVec 32) (k0_hw87 : k0_chk87 v645), ∀ a, (k0_off87 v645) a + S1x1x64x128.size a ≤ S1x9x64x128.size a := fun v645 k0_hw87 => k0_hw87

def k0_off88 (v646 : BitVec 32) : Fin 4 → Nat :=
  let c0_694 : Index := 0#32
  let v650 : Index := Scalar.indexCast v646
  let c0_695 : Index := 0#32
  let c0_696 : Index := 0#32
  ![0, v650.toNat, 0, 0]

def k0_chk88 (v646 : BitVec 32) : Prop :=
  (∀ a, (k0_off88 v646) a + S1x1x64x128.size a ≤ S1x9x64x128.size a)
instance k0_chk88.dec : ∀ (v646 : BitVec 32), Decidable (k0_chk88 v646) := fun v646 => decidable_of_iff' _ (Iff.of_eq (k0_chk88.eq_1 v646))
theorem k0_off88_inb : ∀ (v646 : BitVec 32) (k0_hw88 : k0_chk88 v646), ∀ a, (k0_off88 v646) a + S1x1x64x128.size a ≤ S1x9x64x128.size a := fun v646 k0_hw88 => k0_hw88

def k0_off89 (v660 : BitVec 32) : Fin 4 → Nat :=
  let c0_707 : Index := 0#32
  let v662 : Index := Scalar.indexCast v660
  let c0_708 : Index := 0#32
  let c0_709 : Index := 0#32
  ![0, v662.toNat, 0, 0]

def k0_chk89 (v660 : BitVec 32) : Prop :=
  (∀ a, (k0_off89 v660) a + S1x1x64x128.size a ≤ S1x9x64x128.size a)
instance k0_chk89.dec : ∀ (v660 : BitVec 32), Decidable (k0_chk89 v660) := fun v660 => decidable_of_iff' _ (Iff.of_eq (k0_chk89.eq_1 v660))
theorem k0_off89_inb : ∀ (v660 : BitVec 32) (k0_hw89 : k0_chk89 v660), ∀ a, (k0_off89 v660) a + S1x1x64x128.size a ≤ S1x9x64x128.size a := fun v660 k0_hw89 => k0_hw89

def k0_off90 (v661 : BitVec 32) : Fin 4 → Nat :=
  let c0_710 : Index := 0#32
  let v665 : Index := Scalar.indexCast v661
  let c0_711 : Index := 0#32
  let c0_712 : Index := 0#32
  ![0, v665.toNat, 0, 0]

def k0_chk90 (v661 : BitVec 32) : Prop :=
  (∀ a, (k0_off90 v661) a + S1x1x64x128.size a ≤ S1x9x64x128.size a)
instance k0_chk90.dec : ∀ (v661 : BitVec 32), Decidable (k0_chk90 v661) := fun v661 => decidable_of_iff' _ (Iff.of_eq (k0_chk90.eq_1 v661))
theorem k0_off90_inb : ∀ (v661 : BitVec 32) (k0_hw90 : k0_chk90 v661), ∀ a, (k0_off90 v661) a + S1x1x64x128.size a ≤ S1x9x64x128.size a := fun v661 k0_hw90 => k0_hw90

def k0_off91 (v675 : BitVec 32) : Fin 4 → Nat :=
  let c0_724 : Index := 0#32
  let v677 : Index := Scalar.indexCast v675
  let c0_725 : Index := 0#32
  let c0_726 : Index := 0#32
  ![0, v677.toNat, 0, 0]

def k0_chk91 (v675 : BitVec 32) : Prop :=
  (∀ a, (k0_off91 v675) a + S1x1x64x128.size a ≤ S1x9x64x128.size a)
instance k0_chk91.dec : ∀ (v675 : BitVec 32), Decidable (k0_chk91 v675) := fun v675 => decidable_of_iff' _ (Iff.of_eq (k0_chk91.eq_1 v675))
theorem k0_off91_inb : ∀ (v675 : BitVec 32) (k0_hw91 : k0_chk91 v675), ∀ a, (k0_off91 v675) a + S1x1x64x128.size a ≤ S1x9x64x128.size a := fun v675 k0_hw91 => k0_hw91

def k0_off92 (v676 : BitVec 32) : Fin 3 → Nat :=
  let v680 : Index := Scalar.indexCast v676
  let c0_727 : Index := 0#32
  let c0_728 : Index := 0#32
  ![v680.toNat, 0, 0]

def k0_chk92 (v676 : BitVec 32) : Prop :=
  (∀ a, (k0_off92 v676) a + S1x64x128.size a ≤ S45x64x128.size a)
instance k0_chk92.dec : ∀ (v676 : BitVec 32), Decidable (k0_chk92 v676) := fun v676 => decidable_of_iff' _ (Iff.of_eq (k0_chk92.eq_1 v676))
theorem k0_off92_inb : ∀ (v676 : BitVec 32) (k0_hw92 : k0_chk92 v676), ∀ a, (k0_off92 v676) a + S1x64x128.size a ≤ S45x64x128.size a := fun v676 k0_hw92 => k0_hw92

def k0_off93 (v687 : BitVec 32) : Fin 4 → Nat :=
  let c0_736 : Index := 0#32
  let v689 : Index := Scalar.indexCast v687
  let c0_737 : Index := 0#32
  let c0_738 : Index := 0#32
  ![0, v689.toNat, 0, 0]

def k0_chk93 (v687 : BitVec 32) : Prop :=
  (∀ a, (k0_off93 v687) a + S1x1x64x128.size a ≤ S1x9x64x128.size a)
instance k0_chk93.dec : ∀ (v687 : BitVec 32), Decidable (k0_chk93 v687) := fun v687 => decidable_of_iff' _ (Iff.of_eq (k0_chk93.eq_1 v687))
theorem k0_off93_inb : ∀ (v687 : BitVec 32) (k0_hw93 : k0_chk93 v687), ∀ a, (k0_off93 v687) a + S1x1x64x128.size a ≤ S1x9x64x128.size a := fun v687 k0_hw93 => k0_hw93

def k0_off94 (v688 : BitVec 32) : Fin 3 → Nat :=
  let v692 : Index := Scalar.indexCast v688
  let c0_739 : Index := 0#32
  let c0_740 : Index := 0#32
  ![v692.toNat, 0, 0]

def k0_chk94 (v688 : BitVec 32) : Prop :=
  (∀ a, (k0_off94 v688) a + S1x64x128.size a ≤ S45x64x128.size a)
instance k0_chk94.dec : ∀ (v688 : BitVec 32), Decidable (k0_chk94 v688) := fun v688 => decidable_of_iff' _ (Iff.of_eq (k0_chk94.eq_1 v688))
theorem k0_off94_inb : ∀ (v688 : BitVec 32) (k0_hw94 : k0_chk94 v688), ∀ a, (k0_off94 v688) a + S1x64x128.size a ≤ S45x64x128.size a := fun v688 k0_hw94 => k0_hw94

def k0_off95 (v699 : BitVec 32) : Fin 4 → Nat :=
  let c0_748 : Index := 0#32
  let v701 : Index := Scalar.indexCast v699
  let c0_749 : Index := 0#32
  let c0_750 : Index := 0#32
  ![0, v701.toNat, 0, 0]

def k0_chk95 (v699 : BitVec 32) : Prop :=
  (∀ a, (k0_off95 v699) a + S1x1x64x128.size a ≤ S1x9x64x128.size a)
instance k0_chk95.dec : ∀ (v699 : BitVec 32), Decidable (k0_chk95 v699) := fun v699 => decidable_of_iff' _ (Iff.of_eq (k0_chk95.eq_1 v699))
theorem k0_off95_inb : ∀ (v699 : BitVec 32) (k0_hw95 : k0_chk95 v699), ∀ a, (k0_off95 v699) a + S1x1x64x128.size a ≤ S1x9x64x128.size a := fun v699 k0_hw95 => k0_hw95

def k0_off96 (v700 : BitVec 32) : Fin 3 → Nat :=
  let v704 : Index := Scalar.indexCast v700
  let c0_751 : Index := 0#32
  let c0_752 : Index := 0#32
  ![v704.toNat, 0, 0]

def k0_chk96 (v700 : BitVec 32) : Prop :=
  (∀ a, (k0_off96 v700) a + S1x64x128.size a ≤ S45x64x128.size a)
instance k0_chk96.dec : ∀ (v700 : BitVec 32), Decidable (k0_chk96 v700) := fun v700 => decidable_of_iff' _ (Iff.of_eq (k0_chk96.eq_1 v700))
theorem k0_off96_inb : ∀ (v700 : BitVec 32) (k0_hw96 : k0_chk96 v700), ∀ a, (k0_off96 v700) a + S1x64x128.size a ≤ S45x64x128.size a := fun v700 k0_hw96 => k0_hw96

def k0_off97 (v711 : BitVec 32) : Fin 4 → Nat :=
  let c0_760 : Index := 0#32
  let v713 : Index := Scalar.indexCast v711
  let c0_761 : Index := 0#32
  let c0_762 : Index := 0#32
  ![0, v713.toNat, 0, 0]

def k0_chk97 (v711 : BitVec 32) : Prop :=
  (∀ a, (k0_off97 v711) a + S1x1x64x128.size a ≤ S1x9x64x128.size a)
instance k0_chk97.dec : ∀ (v711 : BitVec 32), Decidable (k0_chk97 v711) := fun v711 => decidable_of_iff' _ (Iff.of_eq (k0_chk97.eq_1 v711))
theorem k0_off97_inb : ∀ (v711 : BitVec 32) (k0_hw97 : k0_chk97 v711), ∀ a, (k0_off97 v711) a + S1x1x64x128.size a ≤ S1x9x64x128.size a := fun v711 k0_hw97 => k0_hw97

def k0_off98 (v712 : BitVec 32) : Fin 3 → Nat :=
  let v716 : Index := Scalar.indexCast v712
  let c0_763 : Index := 0#32
  let c0_764 : Index := 0#32
  ![v716.toNat, 0, 0]

def k0_chk98 (v712 : BitVec 32) : Prop :=
  (∀ a, (k0_off98 v712) a + S1x64x128.size a ≤ S45x64x128.size a)
instance k0_chk98.dec : ∀ (v712 : BitVec 32), Decidable (k0_chk98 v712) := fun v712 => decidable_of_iff' _ (Iff.of_eq (k0_chk98.eq_1 v712))
theorem k0_off98_inb : ∀ (v712 : BitVec 32) (k0_hw98 : k0_chk98 v712), ∀ a, (k0_off98 v712) a + S1x64x128.size a ≤ S45x64x128.size a := fun v712 k0_hw98 => k0_hw98

def k0_off99 (v723 : BitVec 32) : Fin 4 → Nat :=
  let c0_772 : Index := 0#32
  let v725 : Index := Scalar.indexCast v723
  let c0_773 : Index := 0#32
  let c0_774 : Index := 0#32
  ![0, v725.toNat, 0, 0]

def k0_chk99 (v723 : BitVec 32) : Prop :=
  (∀ a, (k0_off99 v723) a + S1x1x64x128.size a ≤ S1x9x64x128.size a)
instance k0_chk99.dec : ∀ (v723 : BitVec 32), Decidable (k0_chk99 v723) := fun v723 => decidable_of_iff' _ (Iff.of_eq (k0_chk99.eq_1 v723))
theorem k0_off99_inb : ∀ (v723 : BitVec 32) (k0_hw99 : k0_chk99 v723), ∀ a, (k0_off99 v723) a + S1x1x64x128.size a ≤ S1x9x64x128.size a := fun v723 k0_hw99 => k0_hw99

def k0_off100 (v724 : BitVec 32) : Fin 3 → Nat :=
  let v728 : Index := Scalar.indexCast v724
  let c0_775 : Index := 0#32
  let c0_776 : Index := 0#32
  ![v728.toNat, 0, 0]

def k0_chk100 (v724 : BitVec 32) : Prop :=
  (∀ a, (k0_off100 v724) a + S1x64x128.size a ≤ S45x64x128.size a)
instance k0_chk100.dec : ∀ (v724 : BitVec 32), Decidable (k0_chk100 v724) := fun v724 => decidable_of_iff' _ (Iff.of_eq (k0_chk100.eq_1 v724))
theorem k0_off100_inb : ∀ (v724 : BitVec 32) (k0_hw100 : k0_chk100 v724), ∀ a, (k0_off100 v724) a + S1x64x128.size a ≤ S45x64x128.size a := fun v724 k0_hw100 => k0_hw100

def k0_off101 (v735 : BitVec 32) : Fin 4 → Nat :=
  let c0_784 : Index := 0#32
  let v737 : Index := Scalar.indexCast v735
  let c0_785 : Index := 0#32
  let c0_786 : Index := 0#32
  ![0, v737.toNat, 0, 0]

def k0_chk101 (v735 : BitVec 32) : Prop :=
  (∀ a, (k0_off101 v735) a + S1x1x64x128.size a ≤ S1x9x64x128.size a)
instance k0_chk101.dec : ∀ (v735 : BitVec 32), Decidable (k0_chk101 v735) := fun v735 => decidable_of_iff' _ (Iff.of_eq (k0_chk101.eq_1 v735))
theorem k0_off101_inb : ∀ (v735 : BitVec 32) (k0_hw101 : k0_chk101 v735), ∀ a, (k0_off101 v735) a + S1x1x64x128.size a ≤ S1x9x64x128.size a := fun v735 k0_hw101 => k0_hw101

def k0_off102 (v736 : BitVec 32) : Fin 3 → Nat :=
  let v740 : Index := Scalar.indexCast v736
  let c0_787 : Index := 0#32
  let c0_788 : Index := 0#32
  ![v740.toNat, 0, 0]

def k0_chk102 (v736 : BitVec 32) : Prop :=
  (∀ a, (k0_off102 v736) a + S1x64x128.size a ≤ S45x64x128.size a)
instance k0_chk102.dec : ∀ (v736 : BitVec 32), Decidable (k0_chk102 v736) := fun v736 => decidable_of_iff' _ (Iff.of_eq (k0_chk102.eq_1 v736))
theorem k0_off102_inb : ∀ (v736 : BitVec 32) (k0_hw102 : k0_chk102 v736), ∀ a, (k0_off102 v736) a + S1x64x128.size a ≤ S45x64x128.size a := fun v736 k0_hw102 => k0_hw102

def k0_off103 (v747 : BitVec 32) : Fin 4 → Nat :=
  let c0_796 : Index := 0#32
  let v749 : Index := Scalar.indexCast v747
  let c0_797 : Index := 0#32
  let c0_798 : Index := 0#32
  ![0, v749.toNat, 0, 0]

def k0_chk103 (v747 : BitVec 32) : Prop :=
  (∀ a, (k0_off103 v747) a + S1x1x64x128.size a ≤ S1x9x64x128.size a)
instance k0_chk103.dec : ∀ (v747 : BitVec 32), Decidable (k0_chk103 v747) := fun v747 => decidable_of_iff' _ (Iff.of_eq (k0_chk103.eq_1 v747))
theorem k0_off103_inb : ∀ (v747 : BitVec 32) (k0_hw103 : k0_chk103 v747), ∀ a, (k0_off103 v747) a + S1x1x64x128.size a ≤ S1x9x64x128.size a := fun v747 k0_hw103 => k0_hw103

def k0_off104 (v748 : BitVec 32) : Fin 3 → Nat :=
  let v752 : Index := Scalar.indexCast v748
  let c0_799 : Index := 0#32
  let c0_800 : Index := 0#32
  ![v752.toNat, 0, 0]

def k0_chk104 (v748 : BitVec 32) : Prop :=
  (∀ a, (k0_off104 v748) a + S1x64x128.size a ≤ S45x64x128.size a)
instance k0_chk104.dec : ∀ (v748 : BitVec 32), Decidable (k0_chk104 v748) := fun v748 => decidable_of_iff' _ (Iff.of_eq (k0_chk104.eq_1 v748))
theorem k0_off104_inb : ∀ (v748 : BitVec 32) (k0_hw104 : k0_chk104 v748), ∀ a, (k0_off104 v748) a + S1x64x128.size a ≤ S45x64x128.size a := fun v748 k0_hw104 => k0_hw104

def k0_off105 (v759 : BitVec 32) : Fin 4 → Nat :=
  let c0_808 : Index := 0#32
  let v761 : Index := Scalar.indexCast v759
  let c0_809 : Index := 0#32
  let c0_810 : Index := 0#32
  ![0, v761.toNat, 0, 0]

def k0_chk105 (v759 : BitVec 32) : Prop :=
  (∀ a, (k0_off105 v759) a + S1x1x64x128.size a ≤ S1x9x64x128.size a)
instance k0_chk105.dec : ∀ (v759 : BitVec 32), Decidable (k0_chk105 v759) := fun v759 => decidable_of_iff' _ (Iff.of_eq (k0_chk105.eq_1 v759))
theorem k0_off105_inb : ∀ (v759 : BitVec 32) (k0_hw105 : k0_chk105 v759), ∀ a, (k0_off105 v759) a + S1x1x64x128.size a ≤ S1x9x64x128.size a := fun v759 k0_hw105 => k0_hw105

def k0_off106 (v760 : BitVec 32) : Fin 3 → Nat :=
  let v764 : Index := Scalar.indexCast v760
  let c0_811 : Index := 0#32
  let c0_812 : Index := 0#32
  ![v764.toNat, 0, 0]

def k0_chk106 (v760 : BitVec 32) : Prop :=
  (∀ a, (k0_off106 v760) a + S1x64x128.size a ≤ S45x64x128.size a)
instance k0_chk106.dec : ∀ (v760 : BitVec 32), Decidable (k0_chk106 v760) := fun v760 => decidable_of_iff' _ (Iff.of_eq (k0_chk106.eq_1 v760))
theorem k0_off106_inb : ∀ (v760 : BitVec 32) (k0_hw106 : k0_chk106 v760), ∀ a, (k0_off106 v760) a + S1x64x128.size a ≤ S45x64x128.size a := fun v760 k0_hw106 => k0_hw106

def k0_off107 (v771 : BitVec 32) : Fin 4 → Nat :=
  let c0_820 : Index := 0#32
  let v773 : Index := Scalar.indexCast v771
  let c0_821 : Index := 0#32
  let c0_822 : Index := 0#32
  ![0, v773.toNat, 0, 0]

def k0_chk107 (v771 : BitVec 32) : Prop :=
  (∀ a, (k0_off107 v771) a + S1x1x64x128.size a ≤ S1x9x64x128.size a)
instance k0_chk107.dec : ∀ (v771 : BitVec 32), Decidable (k0_chk107 v771) := fun v771 => decidable_of_iff' _ (Iff.of_eq (k0_chk107.eq_1 v771))
theorem k0_off107_inb : ∀ (v771 : BitVec 32) (k0_hw107 : k0_chk107 v771), ∀ a, (k0_off107 v771) a + S1x1x64x128.size a ≤ S1x9x64x128.size a := fun v771 k0_hw107 => k0_hw107

def k0_off108 (v772 : BitVec 32) : Fin 3 → Nat :=
  let v776 : Index := Scalar.indexCast v772
  let c0_823 : Index := 0#32
  let c0_824 : Index := 0#32
  ![v776.toNat, 0, 0]

def k0_chk108 (v772 : BitVec 32) : Prop :=
  (∀ a, (k0_off108 v772) a + S1x64x128.size a ≤ S45x64x128.size a)
instance k0_chk108.dec : ∀ (v772 : BitVec 32), Decidable (k0_chk108 v772) := fun v772 => decidable_of_iff' _ (Iff.of_eq (k0_chk108.eq_1 v772))
theorem k0_off108_inb : ∀ (v772 : BitVec 32) (k0_hw108 : k0_chk108 v772), ∀ a, (k0_off108 v772) a + S1x64x128.size a ≤ S45x64x128.size a := fun v772 k0_hw108 => k0_hw108

def k0_off109 (v783 : BitVec 32) : Fin 4 → Nat :=
  let c0_832 : Index := 0#32
  let v785 : Index := Scalar.indexCast v783
  let c0_833 : Index := 0#32
  let c0_834 : Index := 0#32
  ![0, v785.toNat, 0, 0]

def k0_chk109 (v783 : BitVec 32) : Prop :=
  (∀ a, (k0_off109 v783) a + S1x1x64x128.size a ≤ S1x9x64x128.size a)
instance k0_chk109.dec : ∀ (v783 : BitVec 32), Decidable (k0_chk109 v783) := fun v783 => decidable_of_iff' _ (Iff.of_eq (k0_chk109.eq_1 v783))
theorem k0_off109_inb : ∀ (v783 : BitVec 32) (k0_hw109 : k0_chk109 v783), ∀ a, (k0_off109 v783) a + S1x1x64x128.size a ≤ S1x9x64x128.size a := fun v783 k0_hw109 => k0_hw109

def k0_off110 (v784 : BitVec 32) : Fin 3 → Nat :=
  let v788 : Index := Scalar.indexCast v784
  let c0_835 : Index := 0#32
  let c0_836 : Index := 0#32
  ![v788.toNat, 0, 0]

def k0_chk110 (v784 : BitVec 32) : Prop :=
  (∀ a, (k0_off110 v784) a + S1x64x128.size a ≤ S45x64x128.size a)
instance k0_chk110.dec : ∀ (v784 : BitVec 32), Decidable (k0_chk110 v784) := fun v784 => decidable_of_iff' _ (Iff.of_eq (k0_chk110.eq_1 v784))
theorem k0_off110_inb : ∀ (v784 : BitVec 32) (k0_hw110 : k0_chk110 v784), ∀ a, (k0_off110 v784) a + S1x64x128.size a ≤ S45x64x128.size a := fun v784 k0_hw110 => k0_hw110

def k0_off111 (v795 : BitVec 32) : Fin 4 → Nat :=
  let c0_844 : Index := 0#32
  let v797 : Index := Scalar.indexCast v795
  let c0_845 : Index := 0#32
  let c0_846 : Index := 0#32
  ![0, v797.toNat, 0, 0]

def k0_chk111 (v795 : BitVec 32) : Prop :=
  (∀ a, (k0_off111 v795) a + S1x1x64x128.size a ≤ S1x9x64x128.size a)
instance k0_chk111.dec : ∀ (v795 : BitVec 32), Decidable (k0_chk111 v795) := fun v795 => decidable_of_iff' _ (Iff.of_eq (k0_chk111.eq_1 v795))
theorem k0_off111_inb : ∀ (v795 : BitVec 32) (k0_hw111 : k0_chk111 v795), ∀ a, (k0_off111 v795) a + S1x1x64x128.size a ≤ S1x9x64x128.size a := fun v795 k0_hw111 => k0_hw111

def k0_off112 (v796 : BitVec 32) : Fin 3 → Nat :=
  let v800 : Index := Scalar.indexCast v796
  let c0_847 : Index := 0#32
  let c0_848 : Index := 0#32
  ![v800.toNat, 0, 0]

def k0_chk112 (v796 : BitVec 32) : Prop :=
  (∀ a, (k0_off112 v796) a + S1x64x128.size a ≤ S45x64x128.size a)
instance k0_chk112.dec : ∀ (v796 : BitVec 32), Decidable (k0_chk112 v796) := fun v796 => decidable_of_iff' _ (Iff.of_eq (k0_chk112.eq_1 v796))
theorem k0_off112_inb : ∀ (v796 : BitVec 32) (k0_hw112 : k0_chk112 v796), ∀ a, (k0_off112 v796) a + S1x64x128.size a ≤ S45x64x128.size a := fun v796 k0_hw112 => k0_hw112

def k0_off113 (v807 : BitVec 32) : Fin 4 → Nat :=
  let c0_856 : Index := 0#32
  let v809 : Index := Scalar.indexCast v807
  let c0_857 : Index := 0#32
  let c0_858 : Index := 0#32
  ![0, v809.toNat, 0, 0]

def k0_chk113 (v807 : BitVec 32) : Prop :=
  (∀ a, (k0_off113 v807) a + S1x1x64x128.size a ≤ S1x9x64x128.size a)
instance k0_chk113.dec : ∀ (v807 : BitVec 32), Decidable (k0_chk113 v807) := fun v807 => decidable_of_iff' _ (Iff.of_eq (k0_chk113.eq_1 v807))
theorem k0_off113_inb : ∀ (v807 : BitVec 32) (k0_hw113 : k0_chk113 v807), ∀ a, (k0_off113 v807) a + S1x1x64x128.size a ≤ S1x9x64x128.size a := fun v807 k0_hw113 => k0_hw113

def k0_off114 (v808 : BitVec 32) : Fin 3 → Nat :=
  let v812 : Index := Scalar.indexCast v808
  let c0_859 : Index := 0#32
  let c0_860 : Index := 0#32
  ![v812.toNat, 0, 0]

def k0_chk114 (v808 : BitVec 32) : Prop :=
  (∀ a, (k0_off114 v808) a + S1x64x128.size a ≤ S45x64x128.size a)
instance k0_chk114.dec : ∀ (v808 : BitVec 32), Decidable (k0_chk114 v808) := fun v808 => decidable_of_iff' _ (Iff.of_eq (k0_chk114.eq_1 v808))
theorem k0_off114_inb : ∀ (v808 : BitVec 32) (k0_hw114 : k0_chk114 v808), ∀ a, (k0_off114 v808) a + S1x64x128.size a ≤ S45x64x128.size a := fun v808 k0_hw114 => k0_hw114

def k0_off115 (v819 : BitVec 32) : Fin 4 → Nat :=
  let c0_868 : Index := 0#32
  let v821 : Index := Scalar.indexCast v819
  let c0_869 : Index := 0#32
  let c0_870 : Index := 0#32
  ![0, v821.toNat, 0, 0]

def k0_chk115 (v819 : BitVec 32) : Prop :=
  (∀ a, (k0_off115 v819) a + S1x1x64x128.size a ≤ S1x9x64x128.size a)
instance k0_chk115.dec : ∀ (v819 : BitVec 32), Decidable (k0_chk115 v819) := fun v819 => decidable_of_iff' _ (Iff.of_eq (k0_chk115.eq_1 v819))
theorem k0_off115_inb : ∀ (v819 : BitVec 32) (k0_hw115 : k0_chk115 v819), ∀ a, (k0_off115 v819) a + S1x1x64x128.size a ≤ S1x9x64x128.size a := fun v819 k0_hw115 => k0_hw115

def k0_off116 (v820 : BitVec 32) : Fin 3 → Nat :=
  let v824 : Index := Scalar.indexCast v820
  let c0_871 : Index := 0#32
  let c0_872 : Index := 0#32
  ![v824.toNat, 0, 0]

def k0_chk116 (v820 : BitVec 32) : Prop :=
  (∀ a, (k0_off116 v820) a + S1x64x128.size a ≤ S45x64x128.size a)
instance k0_chk116.dec : ∀ (v820 : BitVec 32), Decidable (k0_chk116 v820) := fun v820 => decidable_of_iff' _ (Iff.of_eq (k0_chk116.eq_1 v820))
theorem k0_off116_inb : ∀ (v820 : BitVec 32) (k0_hw116 : k0_chk116 v820), ∀ a, (k0_off116 v820) a + S1x64x128.size a ≤ S45x64x128.size a := fun v820 k0_hw116 => k0_hw116

def k0_off117 (v831 : BitVec 32) : Fin 4 → Nat :=
  let c0_880 : Index := 0#32
  let v833 : Index := Scalar.indexCast v831
  let c0_881 : Index := 0#32
  let c0_882 : Index := 0#32
  ![0, v833.toNat, 0, 0]

def k0_chk117 (v831 : BitVec 32) : Prop :=
  (∀ a, (k0_off117 v831) a + S1x1x64x128.size a ≤ S1x9x64x128.size a)
instance k0_chk117.dec : ∀ (v831 : BitVec 32), Decidable (k0_chk117 v831) := fun v831 => decidable_of_iff' _ (Iff.of_eq (k0_chk117.eq_1 v831))
theorem k0_off117_inb : ∀ (v831 : BitVec 32) (k0_hw117 : k0_chk117 v831), ∀ a, (k0_off117 v831) a + S1x1x64x128.size a ≤ S1x9x64x128.size a := fun v831 k0_hw117 => k0_hw117

def k0_off118 (v832 : BitVec 32) : Fin 3 → Nat :=
  let v836 : Index := Scalar.indexCast v832
  let c0_883 : Index := 0#32
  let c0_884 : Index := 0#32
  ![v836.toNat, 0, 0]

def k0_chk118 (v832 : BitVec 32) : Prop :=
  (∀ a, (k0_off118 v832) a + S1x64x128.size a ≤ S45x64x128.size a)
instance k0_chk118.dec : ∀ (v832 : BitVec 32), Decidable (k0_chk118 v832) := fun v832 => decidable_of_iff' _ (Iff.of_eq (k0_chk118.eq_1 v832))
theorem k0_off118_inb : ∀ (v832 : BitVec 32) (k0_hw118 : k0_chk118 v832), ∀ a, (k0_off118 v832) a + S1x64x128.size a ≤ S45x64x128.size a := fun v832 k0_hw118 => k0_hw118

def k0_off119 (v843 : BitVec 32) : Fin 4 → Nat :=
  let c0_892 : Index := 0#32
  let v845 : Index := Scalar.indexCast v843
  let c0_893 : Index := 0#32
  let c0_894 : Index := 0#32
  ![0, v845.toNat, 0, 0]

def k0_chk119 (v843 : BitVec 32) : Prop :=
  (∀ a, (k0_off119 v843) a + S1x1x64x128.size a ≤ S1x9x64x128.size a)
instance k0_chk119.dec : ∀ (v843 : BitVec 32), Decidable (k0_chk119 v843) := fun v843 => decidable_of_iff' _ (Iff.of_eq (k0_chk119.eq_1 v843))
theorem k0_off119_inb : ∀ (v843 : BitVec 32) (k0_hw119 : k0_chk119 v843), ∀ a, (k0_off119 v843) a + S1x1x64x128.size a ≤ S1x9x64x128.size a := fun v843 k0_hw119 => k0_hw119

def k0_off120 (v844 : BitVec 32) : Fin 3 → Nat :=
  let v848 : Index := Scalar.indexCast v844
  let c0_895 : Index := 0#32
  let c0_896 : Index := 0#32
  ![v848.toNat, 0, 0]

def k0_chk120 (v844 : BitVec 32) : Prop :=
  (∀ a, (k0_off120 v844) a + S1x64x128.size a ≤ S45x64x128.size a)
instance k0_chk120.dec : ∀ (v844 : BitVec 32), Decidable (k0_chk120 v844) := fun v844 => decidable_of_iff' _ (Iff.of_eq (k0_chk120.eq_1 v844))
theorem k0_off120_inb : ∀ (v844 : BitVec 32) (k0_hw120 : k0_chk120 v844), ∀ a, (k0_off120 v844) a + S1x64x128.size a ≤ S45x64x128.size a := fun v844 k0_hw120 => k0_hw120

def k0_off121 (v855 : BitVec 32) : Fin 4 → Nat :=
  let c0_904 : Index := 0#32
  let v857 : Index := Scalar.indexCast v855
  let c0_905 : Index := 0#32
  let c0_906 : Index := 0#32
  ![0, v857.toNat, 0, 0]

def k0_chk121 (v855 : BitVec 32) : Prop :=
  (∀ a, (k0_off121 v855) a + S1x1x64x128.size a ≤ S1x9x64x128.size a)
instance k0_chk121.dec : ∀ (v855 : BitVec 32), Decidable (k0_chk121 v855) := fun v855 => decidable_of_iff' _ (Iff.of_eq (k0_chk121.eq_1 v855))
theorem k0_off121_inb : ∀ (v855 : BitVec 32) (k0_hw121 : k0_chk121 v855), ∀ a, (k0_off121 v855) a + S1x1x64x128.size a ≤ S1x9x64x128.size a := fun v855 k0_hw121 => k0_hw121

def k0_off122 (v856 : BitVec 32) : Fin 3 → Nat :=
  let v860 : Index := Scalar.indexCast v856
  let c0_907 : Index := 0#32
  let c0_908 : Index := 0#32
  ![v860.toNat, 0, 0]

def k0_chk122 (v856 : BitVec 32) : Prop :=
  (∀ a, (k0_off122 v856) a + S1x64x128.size a ≤ S45x64x128.size a)
instance k0_chk122.dec : ∀ (v856 : BitVec 32), Decidable (k0_chk122 v856) := fun v856 => decidable_of_iff' _ (Iff.of_eq (k0_chk122.eq_1 v856))
theorem k0_off122_inb : ∀ (v856 : BitVec 32) (k0_hw122 : k0_chk122 v856), ∀ a, (k0_off122 v856) a + S1x64x128.size a ≤ S45x64x128.size a := fun v856 k0_hw122 => k0_hw122

def k0_off123 (v867 : BitVec 32) : Fin 4 → Nat :=
  let c0_916 : Index := 0#32
  let v869 : Index := Scalar.indexCast v867
  let c0_917 : Index := 0#32
  let c0_918 : Index := 0#32
  ![0, v869.toNat, 0, 0]

def k0_chk123 (v867 : BitVec 32) : Prop :=
  (∀ a, (k0_off123 v867) a + S1x1x64x128.size a ≤ S1x9x64x128.size a)
instance k0_chk123.dec : ∀ (v867 : BitVec 32), Decidable (k0_chk123 v867) := fun v867 => decidable_of_iff' _ (Iff.of_eq (k0_chk123.eq_1 v867))
theorem k0_off123_inb : ∀ (v867 : BitVec 32) (k0_hw123 : k0_chk123 v867), ∀ a, (k0_off123 v867) a + S1x1x64x128.size a ≤ S1x9x64x128.size a := fun v867 k0_hw123 => k0_hw123

def k0_off124 (v868 : BitVec 32) : Fin 3 → Nat :=
  let v872 : Index := Scalar.indexCast v868
  let c0_919 : Index := 0#32
  let c0_920 : Index := 0#32
  ![v872.toNat, 0, 0]

def k0_chk124 (v868 : BitVec 32) : Prop :=
  (∀ a, (k0_off124 v868) a + S1x64x128.size a ≤ S45x64x128.size a)
instance k0_chk124.dec : ∀ (v868 : BitVec 32), Decidable (k0_chk124 v868) := fun v868 => decidable_of_iff' _ (Iff.of_eq (k0_chk124.eq_1 v868))
theorem k0_off124_inb : ∀ (v868 : BitVec 32) (k0_hw124 : k0_chk124 v868), ∀ a, (k0_off124 v868) a + S1x64x128.size a ≤ S45x64x128.size a := fun v868 k0_hw124 => k0_hw124

def k0_off125 (v879 : BitVec 32) : Fin 4 → Nat :=
  let c0_928 : Index := 0#32
  let v881 : Index := Scalar.indexCast v879
  let c0_929 : Index := 0#32
  let c0_930 : Index := 0#32
  ![0, v881.toNat, 0, 0]

def k0_chk125 (v879 : BitVec 32) : Prop :=
  (∀ a, (k0_off125 v879) a + S1x1x64x128.size a ≤ S1x9x64x128.size a)
instance k0_chk125.dec : ∀ (v879 : BitVec 32), Decidable (k0_chk125 v879) := fun v879 => decidable_of_iff' _ (Iff.of_eq (k0_chk125.eq_1 v879))
theorem k0_off125_inb : ∀ (v879 : BitVec 32) (k0_hw125 : k0_chk125 v879), ∀ a, (k0_off125 v879) a + S1x1x64x128.size a ≤ S1x9x64x128.size a := fun v879 k0_hw125 => k0_hw125

def k0_off126 (v880 : BitVec 32) : Fin 3 → Nat :=
  let v884 : Index := Scalar.indexCast v880
  let c0_931 : Index := 0#32
  let c0_932 : Index := 0#32
  ![v884.toNat, 0, 0]

def k0_chk126 (v880 : BitVec 32) : Prop :=
  (∀ a, (k0_off126 v880) a + S1x64x128.size a ≤ S45x64x128.size a)
instance k0_chk126.dec : ∀ (v880 : BitVec 32), Decidable (k0_chk126 v880) := fun v880 => decidable_of_iff' _ (Iff.of_eq (k0_chk126.eq_1 v880))
theorem k0_off126_inb : ∀ (v880 : BitVec 32) (k0_hw126 : k0_chk126 v880), ∀ a, (k0_off126 v880) a + S1x64x128.size a ≤ S45x64x128.size a := fun v880 k0_hw126 => k0_hw126

def k0_off127 (v891 : BitVec 32) : Fin 4 → Nat :=
  let c0_940 : Index := 0#32
  let v893 : Index := Scalar.indexCast v891
  let c0_941 : Index := 0#32
  let c0_942 : Index := 0#32
  ![0, v893.toNat, 0, 0]

def k0_chk127 (v891 : BitVec 32) : Prop :=
  (∀ a, (k0_off127 v891) a + S1x1x64x128.size a ≤ S1x9x64x128.size a)
instance k0_chk127.dec : ∀ (v891 : BitVec 32), Decidable (k0_chk127 v891) := fun v891 => decidable_of_iff' _ (Iff.of_eq (k0_chk127.eq_1 v891))
theorem k0_off127_inb : ∀ (v891 : BitVec 32) (k0_hw127 : k0_chk127 v891), ∀ a, (k0_off127 v891) a + S1x1x64x128.size a ≤ S1x9x64x128.size a := fun v891 k0_hw127 => k0_hw127

def k0_off128 (v892 : BitVec 32) : Fin 3 → Nat :=
  let v896 : Index := Scalar.indexCast v892
  let c0_943 : Index := 0#32
  let c0_944 : Index := 0#32
  ![v896.toNat, 0, 0]

def k0_chk128 (v892 : BitVec 32) : Prop :=
  (∀ a, (k0_off128 v892) a + S1x64x128.size a ≤ S45x64x128.size a)
instance k0_chk128.dec : ∀ (v892 : BitVec 32), Decidable (k0_chk128 v892) := fun v892 => decidable_of_iff' _ (Iff.of_eq (k0_chk128.eq_1 v892))
theorem k0_off128_inb : ∀ (v892 : BitVec 32) (k0_hw128 : k0_chk128 v892), ∀ a, (k0_off128 v892) a + S1x64x128.size a ≤ S45x64x128.size a := fun v892 k0_hw128 => k0_hw128

def k0_off129 (v903 : BitVec 32) : Fin 4 → Nat :=
  let c0_952 : Index := 0#32
  let v905 : Index := Scalar.indexCast v903
  let c0_953 : Index := 0#32
  let c0_954 : Index := 0#32
  ![0, v905.toNat, 0, 0]

def k0_chk129 (v903 : BitVec 32) : Prop :=
  (∀ a, (k0_off129 v903) a + S1x1x64x128.size a ≤ S1x9x64x128.size a)
instance k0_chk129.dec : ∀ (v903 : BitVec 32), Decidable (k0_chk129 v903) := fun v903 => decidable_of_iff' _ (Iff.of_eq (k0_chk129.eq_1 v903))
theorem k0_off129_inb : ∀ (v903 : BitVec 32) (k0_hw129 : k0_chk129 v903), ∀ a, (k0_off129 v903) a + S1x1x64x128.size a ≤ S1x9x64x128.size a := fun v903 k0_hw129 => k0_hw129

def k0_off130 (v904 : BitVec 32) : Fin 3 → Nat :=
  let v908 : Index := Scalar.indexCast v904
  let c0_955 : Index := 0#32
  let c0_956 : Index := 0#32
  ![v908.toNat, 0, 0]

def k0_chk130 (v904 : BitVec 32) : Prop :=
  (∀ a, (k0_off130 v904) a + S1x64x128.size a ≤ S45x64x128.size a)
instance k0_chk130.dec : ∀ (v904 : BitVec 32), Decidable (k0_chk130 v904) := fun v904 => decidable_of_iff' _ (Iff.of_eq (k0_chk130.eq_1 v904))
theorem k0_off130_inb : ∀ (v904 : BitVec 32) (k0_hw130 : k0_chk130 v904), ∀ a, (k0_off130 v904) a + S1x64x128.size a ≤ S45x64x128.size a := fun v904 k0_hw130 => k0_hw130

def k0_off131 (v915 : BitVec 32) : Fin 4 → Nat :=
  let c0_964 : Index := 0#32
  let v917 : Index := Scalar.indexCast v915
  let c0_965 : Index := 0#32
  let c0_966 : Index := 0#32
  ![0, v917.toNat, 0, 0]

def k0_chk131 (v915 : BitVec 32) : Prop :=
  (∀ a, (k0_off131 v915) a + S1x1x64x128.size a ≤ S1x9x64x128.size a)
instance k0_chk131.dec : ∀ (v915 : BitVec 32), Decidable (k0_chk131 v915) := fun v915 => decidable_of_iff' _ (Iff.of_eq (k0_chk131.eq_1 v915))
theorem k0_off131_inb : ∀ (v915 : BitVec 32) (k0_hw131 : k0_chk131 v915), ∀ a, (k0_off131 v915) a + S1x1x64x128.size a ≤ S1x9x64x128.size a := fun v915 k0_hw131 => k0_hw131

def k0_off132 (v916 : BitVec 32) : Fin 3 → Nat :=
  let v920 : Index := Scalar.indexCast v916
  let c0_967 : Index := 0#32
  let c0_968 : Index := 0#32
  ![v920.toNat, 0, 0]

def k0_chk132 (v916 : BitVec 32) : Prop :=
  (∀ a, (k0_off132 v916) a + S1x64x128.size a ≤ S45x64x128.size a)
instance k0_chk132.dec : ∀ (v916 : BitVec 32), Decidable (k0_chk132 v916) := fun v916 => decidable_of_iff' _ (Iff.of_eq (k0_chk132.eq_1 v916))
theorem k0_off132_inb : ∀ (v916 : BitVec 32) (k0_hw132 : k0_chk132 v916), ∀ a, (k0_off132 v916) a + S1x64x128.size a ≤ S45x64x128.size a := fun v916 k0_hw132 => k0_hw132

def k0_off133 (v927 : BitVec 32) : Fin 4 → Nat :=
  let c0_976 : Index := 0#32
  let v929 : Index := Scalar.indexCast v927
  let c0_977 : Index := 0#32
  let c0_978 : Index := 0#32
  ![0, v929.toNat, 0, 0]

def k0_chk133 (v927 : BitVec 32) : Prop :=
  (∀ a, (k0_off133 v927) a + S1x1x64x128.size a ≤ S1x9x64x128.size a)
instance k0_chk133.dec : ∀ (v927 : BitVec 32), Decidable (k0_chk133 v927) := fun v927 => decidable_of_iff' _ (Iff.of_eq (k0_chk133.eq_1 v927))
theorem k0_off133_inb : ∀ (v927 : BitVec 32) (k0_hw133 : k0_chk133 v927), ∀ a, (k0_off133 v927) a + S1x1x64x128.size a ≤ S1x9x64x128.size a := fun v927 k0_hw133 => k0_hw133

def k0_off134 (v928 : BitVec 32) : Fin 3 → Nat :=
  let v932 : Index := Scalar.indexCast v928
  let c0_979 : Index := 0#32
  let c0_980 : Index := 0#32
  ![v932.toNat, 0, 0]

def k0_chk134 (v928 : BitVec 32) : Prop :=
  (∀ a, (k0_off134 v928) a + S1x64x128.size a ≤ S45x64x128.size a)
instance k0_chk134.dec : ∀ (v928 : BitVec 32), Decidable (k0_chk134 v928) := fun v928 => decidable_of_iff' _ (Iff.of_eq (k0_chk134.eq_1 v928))
theorem k0_off134_inb : ∀ (v928 : BitVec 32) (k0_hw134 : k0_chk134 v928), ∀ a, (k0_off134 v928) a + S1x64x128.size a ≤ S45x64x128.size a := fun v928 k0_hw134 => k0_hw134

def k0_off135 (v939 : BitVec 32) : Fin 4 → Nat :=
  let c0_988 : Index := 0#32
  let v941 : Index := Scalar.indexCast v939
  let c0_989 : Index := 0#32
  let c0_990 : Index := 0#32
  ![0, v941.toNat, 0, 0]

def k0_chk135 (v939 : BitVec 32) : Prop :=
  (∀ a, (k0_off135 v939) a + S1x1x64x128.size a ≤ S1x9x64x128.size a)
instance k0_chk135.dec : ∀ (v939 : BitVec 32), Decidable (k0_chk135 v939) := fun v939 => decidable_of_iff' _ (Iff.of_eq (k0_chk135.eq_1 v939))
theorem k0_off135_inb : ∀ (v939 : BitVec 32) (k0_hw135 : k0_chk135 v939), ∀ a, (k0_off135 v939) a + S1x1x64x128.size a ≤ S1x9x64x128.size a := fun v939 k0_hw135 => k0_hw135

def k0_off136 (v940 : BitVec 32) : Fin 3 → Nat :=
  let v944 : Index := Scalar.indexCast v940
  let c0_991 : Index := 0#32
  let c0_992 : Index := 0#32
  ![v944.toNat, 0, 0]

def k0_chk136 (v940 : BitVec 32) : Prop :=
  (∀ a, (k0_off136 v940) a + S1x64x128.size a ≤ S45x64x128.size a)
instance k0_chk136.dec : ∀ (v940 : BitVec 32), Decidable (k0_chk136 v940) := fun v940 => decidable_of_iff' _ (Iff.of_eq (k0_chk136.eq_1 v940))
theorem k0_off136_inb : ∀ (v940 : BitVec 32) (k0_hw136 : k0_chk136 v940), ∀ a, (k0_off136 v940) a + S1x64x128.size a ≤ S45x64x128.size a := fun v940 k0_hw136 => k0_hw136

def k0_off137 (v951 : BitVec 32) : Fin 4 → Nat :=
  let c0_1000 : Index := 0#32
  let v953 : Index := Scalar.indexCast v951
  let c0_1001 : Index := 0#32
  let c0_1002 : Index := 0#32
  ![0, v953.toNat, 0, 0]

def k0_chk137 (v951 : BitVec 32) : Prop :=
  (∀ a, (k0_off137 v951) a + S1x1x64x128.size a ≤ S1x9x64x128.size a)
instance k0_chk137.dec : ∀ (v951 : BitVec 32), Decidable (k0_chk137 v951) := fun v951 => decidable_of_iff' _ (Iff.of_eq (k0_chk137.eq_1 v951))
theorem k0_off137_inb : ∀ (v951 : BitVec 32) (k0_hw137 : k0_chk137 v951), ∀ a, (k0_off137 v951) a + S1x1x64x128.size a ≤ S1x9x64x128.size a := fun v951 k0_hw137 => k0_hw137

def k0_off138 (v952 : BitVec 32) : Fin 3 → Nat :=
  let v956 : Index := Scalar.indexCast v952
  let c0_1003 : Index := 0#32
  let c0_1004 : Index := 0#32
  ![v956.toNat, 0, 0]

def k0_chk138 (v952 : BitVec 32) : Prop :=
  (∀ a, (k0_off138 v952) a + S1x64x128.size a ≤ S45x64x128.size a)
instance k0_chk138.dec : ∀ (v952 : BitVec 32), Decidable (k0_chk138 v952) := fun v952 => decidable_of_iff' _ (Iff.of_eq (k0_chk138.eq_1 v952))
theorem k0_off138_inb : ∀ (v952 : BitVec 32) (k0_hw138 : k0_chk138 v952), ∀ a, (k0_off138 v952) a + S1x64x128.size a ≤ S45x64x128.size a := fun v952 k0_hw138 => k0_hw138

def k0_off139 (v963 : BitVec 32) : Fin 4 → Nat :=
  let c0_1012 : Index := 0#32
  let v965 : Index := Scalar.indexCast v963
  let c0_1013 : Index := 0#32
  let c0_1014 : Index := 0#32
  ![0, v965.toNat, 0, 0]

def k0_chk139 (v963 : BitVec 32) : Prop :=
  (∀ a, (k0_off139 v963) a + S1x1x64x128.size a ≤ S1x9x64x128.size a)
instance k0_chk139.dec : ∀ (v963 : BitVec 32), Decidable (k0_chk139 v963) := fun v963 => decidable_of_iff' _ (Iff.of_eq (k0_chk139.eq_1 v963))
theorem k0_off139_inb : ∀ (v963 : BitVec 32) (k0_hw139 : k0_chk139 v963), ∀ a, (k0_off139 v963) a + S1x1x64x128.size a ≤ S1x9x64x128.size a := fun v963 k0_hw139 => k0_hw139

def k0_off140 (v964 : BitVec 32) : Fin 3 → Nat :=
  let v968 : Index := Scalar.indexCast v964
  let c0_1015 : Index := 0#32
  let c0_1016 : Index := 0#32
  ![v968.toNat, 0, 0]

def k0_chk140 (v964 : BitVec 32) : Prop :=
  (∀ a, (k0_off140 v964) a + S1x64x128.size a ≤ S45x64x128.size a)
instance k0_chk140.dec : ∀ (v964 : BitVec 32), Decidable (k0_chk140 v964) := fun v964 => decidable_of_iff' _ (Iff.of_eq (k0_chk140.eq_1 v964))
theorem k0_off140_inb : ∀ (v964 : BitVec 32) (k0_hw140 : k0_chk140 v964), ∀ a, (k0_off140 v964) a + S1x64x128.size a ≤ S45x64x128.size a := fun v964 k0_hw140 => k0_hw140

def k0_off141 (v975 : BitVec 32) : Fin 4 → Nat :=
  let c0_1024 : Index := 0#32
  let v977 : Index := Scalar.indexCast v975
  let c0_1025 : Index := 0#32
  let c0_1026 : Index := 0#32
  ![0, v977.toNat, 0, 0]

def k0_chk141 (v975 : BitVec 32) : Prop :=
  (∀ a, (k0_off141 v975) a + S1x1x64x128.size a ≤ S1x9x64x128.size a)
instance k0_chk141.dec : ∀ (v975 : BitVec 32), Decidable (k0_chk141 v975) := fun v975 => decidable_of_iff' _ (Iff.of_eq (k0_chk141.eq_1 v975))
theorem k0_off141_inb : ∀ (v975 : BitVec 32) (k0_hw141 : k0_chk141 v975), ∀ a, (k0_off141 v975) a + S1x1x64x128.size a ≤ S1x9x64x128.size a := fun v975 k0_hw141 => k0_hw141

def k0_off142 (v976 : BitVec 32) : Fin 3 → Nat :=
  let v980 : Index := Scalar.indexCast v976
  let c0_1027 : Index := 0#32
  let c0_1028 : Index := 0#32
  ![v980.toNat, 0, 0]

def k0_chk142 (v976 : BitVec 32) : Prop :=
  (∀ a, (k0_off142 v976) a + S1x64x128.size a ≤ S45x64x128.size a)
instance k0_chk142.dec : ∀ (v976 : BitVec 32), Decidable (k0_chk142 v976) := fun v976 => decidable_of_iff' _ (Iff.of_eq (k0_chk142.eq_1 v976))
theorem k0_off142_inb : ∀ (v976 : BitVec 32) (k0_hw142 : k0_chk142 v976), ∀ a, (k0_off142 v976) a + S1x64x128.size a ≤ S45x64x128.size a := fun v976 k0_hw142 => k0_hw142

def k0_off143 (v987 : BitVec 32) : Fin 4 → Nat :=
  let c0_1036 : Index := 0#32
  let v989 : Index := Scalar.indexCast v987
  let c0_1037 : Index := 0#32
  let c0_1038 : Index := 0#32
  ![0, v989.toNat, 0, 0]

def k0_chk143 (v987 : BitVec 32) : Prop :=
  (∀ a, (k0_off143 v987) a + S1x1x64x128.size a ≤ S1x9x64x128.size a)
instance k0_chk143.dec : ∀ (v987 : BitVec 32), Decidable (k0_chk143 v987) := fun v987 => decidable_of_iff' _ (Iff.of_eq (k0_chk143.eq_1 v987))
theorem k0_off143_inb : ∀ (v987 : BitVec 32) (k0_hw143 : k0_chk143 v987), ∀ a, (k0_off143 v987) a + S1x1x64x128.size a ≤ S1x9x64x128.size a := fun v987 k0_hw143 => k0_hw143

def k0_off144 (v988 : BitVec 32) : Fin 3 → Nat :=
  let v992 : Index := Scalar.indexCast v988
  let c0_1039 : Index := 0#32
  let c0_1040 : Index := 0#32
  ![v992.toNat, 0, 0]

def k0_chk144 (v988 : BitVec 32) : Prop :=
  (∀ a, (k0_off144 v988) a + S1x64x128.size a ≤ S45x64x128.size a)
instance k0_chk144.dec : ∀ (v988 : BitVec 32), Decidable (k0_chk144 v988) := fun v988 => decidable_of_iff' _ (Iff.of_eq (k0_chk144.eq_1 v988))
theorem k0_off144_inb : ∀ (v988 : BitVec 32) (k0_hw144 : k0_chk144 v988), ∀ a, (k0_off144 v988) a + S1x64x128.size a ≤ S45x64x128.size a := fun v988 k0_hw144 => k0_hw144

def k0_off145 (v999 : BitVec 32) : Fin 4 → Nat :=
  let c0_1048 : Index := 0#32
  let v1001 : Index := Scalar.indexCast v999
  let c0_1049 : Index := 0#32
  let c0_1050 : Index := 0#32
  ![0, v1001.toNat, 0, 0]

def k0_chk145 (v999 : BitVec 32) : Prop :=
  (∀ a, (k0_off145 v999) a + S1x1x64x128.size a ≤ S1x9x64x128.size a)
instance k0_chk145.dec : ∀ (v999 : BitVec 32), Decidable (k0_chk145 v999) := fun v999 => decidable_of_iff' _ (Iff.of_eq (k0_chk145.eq_1 v999))
theorem k0_off145_inb : ∀ (v999 : BitVec 32) (k0_hw145 : k0_chk145 v999), ∀ a, (k0_off145 v999) a + S1x1x64x128.size a ≤ S1x9x64x128.size a := fun v999 k0_hw145 => k0_hw145

def k0_off146 (v1000 : BitVec 32) : Fin 3 → Nat :=
  let v1004 : Index := Scalar.indexCast v1000
  let c0_1051 : Index := 0#32
  let c0_1052 : Index := 0#32
  ![v1004.toNat, 0, 0]

def k0_chk146 (v1000 : BitVec 32) : Prop :=
  (∀ a, (k0_off146 v1000) a + S1x64x128.size a ≤ S45x64x128.size a)
instance k0_chk146.dec : ∀ (v1000 : BitVec 32), Decidable (k0_chk146 v1000) := fun v1000 => decidable_of_iff' _ (Iff.of_eq (k0_chk146.eq_1 v1000))
theorem k0_off146_inb : ∀ (v1000 : BitVec 32) (k0_hw146 : k0_chk146 v1000), ∀ a, (k0_off146 v1000) a + S1x64x128.size a ≤ S45x64x128.size a := fun v1000 k0_hw146 => k0_hw146

def k0_off147 (v1011 : BitVec 32) : Fin 4 → Nat :=
  let c0_1060 : Index := 0#32
  let v1013 : Index := Scalar.indexCast v1011
  let c0_1061 : Index := 0#32
  let c0_1062 : Index := 0#32
  ![0, v1013.toNat, 0, 0]

def k0_chk147 (v1011 : BitVec 32) : Prop :=
  (∀ a, (k0_off147 v1011) a + S1x1x64x128.size a ≤ S1x9x64x128.size a)
instance k0_chk147.dec : ∀ (v1011 : BitVec 32), Decidable (k0_chk147 v1011) := fun v1011 => decidable_of_iff' _ (Iff.of_eq (k0_chk147.eq_1 v1011))
theorem k0_off147_inb : ∀ (v1011 : BitVec 32) (k0_hw147 : k0_chk147 v1011), ∀ a, (k0_off147 v1011) a + S1x1x64x128.size a ≤ S1x9x64x128.size a := fun v1011 k0_hw147 => k0_hw147

def k0_off148 (v1012 : BitVec 32) : Fin 3 → Nat :=
  let v1016 : Index := Scalar.indexCast v1012
  let c0_1063 : Index := 0#32
  let c0_1064 : Index := 0#32
  ![v1016.toNat, 0, 0]

def k0_chk148 (v1012 : BitVec 32) : Prop :=
  (∀ a, (k0_off148 v1012) a + S1x64x128.size a ≤ S45x64x128.size a)
instance k0_chk148.dec : ∀ (v1012 : BitVec 32), Decidable (k0_chk148 v1012) := fun v1012 => decidable_of_iff' _ (Iff.of_eq (k0_chk148.eq_1 v1012))
theorem k0_off148_inb : ∀ (v1012 : BitVec 32) (k0_hw148 : k0_chk148 v1012), ∀ a, (k0_off148 v1012) a + S1x64x128.size a ≤ S45x64x128.size a := fun v1012 k0_hw148 => k0_hw148

def k0_off149 (v1023 : BitVec 32) : Fin 4 → Nat :=
  let c0_1072 : Index := 0#32
  let v1025 : Index := Scalar.indexCast v1023
  let c0_1073 : Index := 0#32
  let c0_1074 : Index := 0#32
  ![0, v1025.toNat, 0, 0]

def k0_chk149 (v1023 : BitVec 32) : Prop :=
  (∀ a, (k0_off149 v1023) a + S1x1x64x128.size a ≤ S1x9x64x128.size a)
instance k0_chk149.dec : ∀ (v1023 : BitVec 32), Decidable (k0_chk149 v1023) := fun v1023 => decidable_of_iff' _ (Iff.of_eq (k0_chk149.eq_1 v1023))
theorem k0_off149_inb : ∀ (v1023 : BitVec 32) (k0_hw149 : k0_chk149 v1023), ∀ a, (k0_off149 v1023) a + S1x1x64x128.size a ≤ S1x9x64x128.size a := fun v1023 k0_hw149 => k0_hw149

def k0_off150 (v1024 : BitVec 32) : Fin 3 → Nat :=
  let v1028 : Index := Scalar.indexCast v1024
  let c0_1075 : Index := 0#32
  let c0_1076 : Index := 0#32
  ![v1028.toNat, 0, 0]

def k0_chk150 (v1024 : BitVec 32) : Prop :=
  (∀ a, (k0_off150 v1024) a + S1x64x128.size a ≤ S45x64x128.size a)
instance k0_chk150.dec : ∀ (v1024 : BitVec 32), Decidable (k0_chk150 v1024) := fun v1024 => decidable_of_iff' _ (Iff.of_eq (k0_chk150.eq_1 v1024))
theorem k0_off150_inb : ∀ (v1024 : BitVec 32) (k0_hw150 : k0_chk150 v1024), ∀ a, (k0_off150 v1024) a + S1x64x128.size a ≤ S45x64x128.size a := fun v1024 k0_hw150 => k0_hw150

def k0_off151 (v1035 : BitVec 32) : Fin 4 → Nat :=
  let c0_1084 : Index := 0#32
  let v1037 : Index := Scalar.indexCast v1035
  let c0_1085 : Index := 0#32
  let c0_1086 : Index := 0#32
  ![0, v1037.toNat, 0, 0]

def k0_chk151 (v1035 : BitVec 32) : Prop :=
  (∀ a, (k0_off151 v1035) a + S1x1x64x128.size a ≤ S1x9x64x128.size a)
instance k0_chk151.dec : ∀ (v1035 : BitVec 32), Decidable (k0_chk151 v1035) := fun v1035 => decidable_of_iff' _ (Iff.of_eq (k0_chk151.eq_1 v1035))
theorem k0_off151_inb : ∀ (v1035 : BitVec 32) (k0_hw151 : k0_chk151 v1035), ∀ a, (k0_off151 v1035) a + S1x1x64x128.size a ≤ S1x9x64x128.size a := fun v1035 k0_hw151 => k0_hw151

def k0_off152 (v1036 : BitVec 32) : Fin 3 → Nat :=
  let v1040 : Index := Scalar.indexCast v1036
  let c0_1087 : Index := 0#32
  let c0_1088 : Index := 0#32
  ![v1040.toNat, 0, 0]

def k0_chk152 (v1036 : BitVec 32) : Prop :=
  (∀ a, (k0_off152 v1036) a + S1x64x128.size a ≤ S45x64x128.size a)
instance k0_chk152.dec : ∀ (v1036 : BitVec 32), Decidable (k0_chk152 v1036) := fun v1036 => decidable_of_iff' _ (Iff.of_eq (k0_chk152.eq_1 v1036))
theorem k0_off152_inb : ∀ (v1036 : BitVec 32) (k0_hw152 : k0_chk152 v1036), ∀ a, (k0_off152 v1036) a + S1x64x128.size a ≤ S45x64x128.size a := fun v1036 k0_hw152 => k0_hw152

def k0_off153 (v1047 : BitVec 32) : Fin 4 → Nat :=
  let c0_1096 : Index := 0#32
  let v1049 : Index := Scalar.indexCast v1047
  let c0_1097 : Index := 0#32
  let c0_1098 : Index := 0#32
  ![0, v1049.toNat, 0, 0]

def k0_chk153 (v1047 : BitVec 32) : Prop :=
  (∀ a, (k0_off153 v1047) a + S1x1x64x128.size a ≤ S1x9x64x128.size a)
instance k0_chk153.dec : ∀ (v1047 : BitVec 32), Decidable (k0_chk153 v1047) := fun v1047 => decidable_of_iff' _ (Iff.of_eq (k0_chk153.eq_1 v1047))
theorem k0_off153_inb : ∀ (v1047 : BitVec 32) (k0_hw153 : k0_chk153 v1047), ∀ a, (k0_off153 v1047) a + S1x1x64x128.size a ≤ S1x9x64x128.size a := fun v1047 k0_hw153 => k0_hw153

def k0_off154 (v1048 : BitVec 32) : Fin 3 → Nat :=
  let v1052 : Index := Scalar.indexCast v1048
  let c0_1099 : Index := 0#32
  let c0_1100 : Index := 0#32
  ![v1052.toNat, 0, 0]

def k0_chk154 (v1048 : BitVec 32) : Prop :=
  (∀ a, (k0_off154 v1048) a + S1x64x128.size a ≤ S45x64x128.size a)
instance k0_chk154.dec : ∀ (v1048 : BitVec 32), Decidable (k0_chk154 v1048) := fun v1048 => decidable_of_iff' _ (Iff.of_eq (k0_chk154.eq_1 v1048))
theorem k0_off154_inb : ∀ (v1048 : BitVec 32) (k0_hw154 : k0_chk154 v1048), ∀ a, (k0_off154 v1048) a + S1x64x128.size a ≤ S45x64x128.size a := fun v1048 k0_hw154 => k0_hw154

def k0_off155 (v1059 : BitVec 32) : Fin 4 → Nat :=
  let c0_1108 : Index := 0#32
  let v1061 : Index := Scalar.indexCast v1059
  let c0_1109 : Index := 0#32
  let c0_1110 : Index := 0#32
  ![0, v1061.toNat, 0, 0]

def k0_chk155 (v1059 : BitVec 32) : Prop :=
  (∀ a, (k0_off155 v1059) a + S1x1x64x128.size a ≤ S1x9x64x128.size a)
instance k0_chk155.dec : ∀ (v1059 : BitVec 32), Decidable (k0_chk155 v1059) := fun v1059 => decidable_of_iff' _ (Iff.of_eq (k0_chk155.eq_1 v1059))
theorem k0_off155_inb : ∀ (v1059 : BitVec 32) (k0_hw155 : k0_chk155 v1059), ∀ a, (k0_off155 v1059) a + S1x1x64x128.size a ≤ S1x9x64x128.size a := fun v1059 k0_hw155 => k0_hw155

def k0_off156 (v1060 : BitVec 32) : Fin 3 → Nat :=
  let v1064 : Index := Scalar.indexCast v1060
  let c0_1111 : Index := 0#32
  let c0_1112 : Index := 0#32
  ![v1064.toNat, 0, 0]

def k0_chk156 (v1060 : BitVec 32) : Prop :=
  (∀ a, (k0_off156 v1060) a + S1x64x128.size a ≤ S45x64x128.size a)
instance k0_chk156.dec : ∀ (v1060 : BitVec 32), Decidable (k0_chk156 v1060) := fun v1060 => decidable_of_iff' _ (Iff.of_eq (k0_chk156.eq_1 v1060))
theorem k0_off156_inb : ∀ (v1060 : BitVec 32) (k0_hw156 : k0_chk156 v1060), ∀ a, (k0_off156 v1060) a + S1x64x128.size a ≤ S45x64x128.size a := fun v1060 k0_hw156 => k0_hw156

def k0_off157 (v1071 : BitVec 32) : Fin 4 → Nat :=
  let c0_1120 : Index := 0#32
  let v1073 : Index := Scalar.indexCast v1071
  let c0_1121 : Index := 0#32
  let c0_1122 : Index := 0#32
  ![0, v1073.toNat, 0, 0]

def k0_chk157 (v1071 : BitVec 32) : Prop :=
  (∀ a, (k0_off157 v1071) a + S1x1x64x128.size a ≤ S1x9x64x128.size a)
instance k0_chk157.dec : ∀ (v1071 : BitVec 32), Decidable (k0_chk157 v1071) := fun v1071 => decidable_of_iff' _ (Iff.of_eq (k0_chk157.eq_1 v1071))
theorem k0_off157_inb : ∀ (v1071 : BitVec 32) (k0_hw157 : k0_chk157 v1071), ∀ a, (k0_off157 v1071) a + S1x1x64x128.size a ≤ S1x9x64x128.size a := fun v1071 k0_hw157 => k0_hw157

def k0_off158 (v1072 : BitVec 32) : Fin 3 → Nat :=
  let v1076 : Index := Scalar.indexCast v1072
  let c0_1123 : Index := 0#32
  let c0_1124 : Index := 0#32
  ![v1076.toNat, 0, 0]

def k0_chk158 (v1072 : BitVec 32) : Prop :=
  (∀ a, (k0_off158 v1072) a + S1x64x128.size a ≤ S45x64x128.size a)
instance k0_chk158.dec : ∀ (v1072 : BitVec 32), Decidable (k0_chk158 v1072) := fun v1072 => decidable_of_iff' _ (Iff.of_eq (k0_chk158.eq_1 v1072))
theorem k0_off158_inb : ∀ (v1072 : BitVec 32) (k0_hw158 : k0_chk158 v1072), ∀ a, (k0_off158 v1072) a + S1x64x128.size a ≤ S45x64x128.size a := fun v1072 k0_hw158 => k0_hw158

def k0_off159 (v1083 : BitVec 32) : Fin 4 → Nat :=
  let c0_1132 : Index := 0#32
  let v1085 : Index := Scalar.indexCast v1083
  let c0_1133 : Index := 0#32
  let c0_1134 : Index := 0#32
  ![0, v1085.toNat, 0, 0]

def k0_chk159 (v1083 : BitVec 32) : Prop :=
  (∀ a, (k0_off159 v1083) a + S1x1x64x128.size a ≤ S1x9x64x128.size a)
instance k0_chk159.dec : ∀ (v1083 : BitVec 32), Decidable (k0_chk159 v1083) := fun v1083 => decidable_of_iff' _ (Iff.of_eq (k0_chk159.eq_1 v1083))
theorem k0_off159_inb : ∀ (v1083 : BitVec 32) (k0_hw159 : k0_chk159 v1083), ∀ a, (k0_off159 v1083) a + S1x1x64x128.size a ≤ S1x9x64x128.size a := fun v1083 k0_hw159 => k0_hw159

def k0_off160 (v1084 : BitVec 32) : Fin 3 → Nat :=
  let v1088 : Index := Scalar.indexCast v1084
  let c0_1135 : Index := 0#32
  let c0_1136 : Index := 0#32
  ![v1088.toNat, 0, 0]

def k0_chk160 (v1084 : BitVec 32) : Prop :=
  (∀ a, (k0_off160 v1084) a + S1x64x128.size a ≤ S45x64x128.size a)
instance k0_chk160.dec : ∀ (v1084 : BitVec 32), Decidable (k0_chk160 v1084) := fun v1084 => decidable_of_iff' _ (Iff.of_eq (k0_chk160.eq_1 v1084))
theorem k0_off160_inb : ∀ (v1084 : BitVec 32) (k0_hw160 : k0_chk160 v1084), ∀ a, (k0_off160 v1084) a + S1x64x128.size a ≤ S45x64x128.size a := fun v1084 k0_hw160 => k0_hw160

def k0_off161 (v1095 : BitVec 32) : Fin 4 → Nat :=
  let c0_1144 : Index := 0#32
  let v1097 : Index := Scalar.indexCast v1095
  let c0_1145 : Index := 0#32
  let c0_1146 : Index := 0#32
  ![0, v1097.toNat, 0, 0]

def k0_chk161 (v1095 : BitVec 32) : Prop :=
  (∀ a, (k0_off161 v1095) a + S1x1x64x128.size a ≤ S1x9x64x128.size a)
instance k0_chk161.dec : ∀ (v1095 : BitVec 32), Decidable (k0_chk161 v1095) := fun v1095 => decidable_of_iff' _ (Iff.of_eq (k0_chk161.eq_1 v1095))
theorem k0_off161_inb : ∀ (v1095 : BitVec 32) (k0_hw161 : k0_chk161 v1095), ∀ a, (k0_off161 v1095) a + S1x1x64x128.size a ≤ S1x9x64x128.size a := fun v1095 k0_hw161 => k0_hw161

def k0_off162 (v1096 : BitVec 32) : Fin 3 → Nat :=
  let v1100 : Index := Scalar.indexCast v1096
  let c0_1147 : Index := 0#32
  let c0_1148 : Index := 0#32
  ![v1100.toNat, 0, 0]

def k0_chk162 (v1096 : BitVec 32) : Prop :=
  (∀ a, (k0_off162 v1096) a + S1x64x128.size a ≤ S45x64x128.size a)
instance k0_chk162.dec : ∀ (v1096 : BitVec 32), Decidable (k0_chk162 v1096) := fun v1096 => decidable_of_iff' _ (Iff.of_eq (k0_chk162.eq_1 v1096))
theorem k0_off162_inb : ∀ (v1096 : BitVec 32) (k0_hw162 : k0_chk162 v1096), ∀ a, (k0_off162 v1096) a + S1x64x128.size a ≤ S45x64x128.size a := fun v1096 k0_hw162 => k0_hw162

def k0_off163 (v1107 : BitVec 32) : Fin 4 → Nat :=
  let c0_1156 : Index := 0#32
  let v1109 : Index := Scalar.indexCast v1107
  let c0_1157 : Index := 0#32
  let c0_1158 : Index := 0#32
  ![0, v1109.toNat, 0, 0]

def k0_chk163 (v1107 : BitVec 32) : Prop :=
  (∀ a, (k0_off163 v1107) a + S1x1x64x128.size a ≤ S1x9x64x128.size a)
instance k0_chk163.dec : ∀ (v1107 : BitVec 32), Decidable (k0_chk163 v1107) := fun v1107 => decidable_of_iff' _ (Iff.of_eq (k0_chk163.eq_1 v1107))
theorem k0_off163_inb : ∀ (v1107 : BitVec 32) (k0_hw163 : k0_chk163 v1107), ∀ a, (k0_off163 v1107) a + S1x1x64x128.size a ≤ S1x9x64x128.size a := fun v1107 k0_hw163 => k0_hw163

def k0_off164 (v1108 : BitVec 32) : Fin 3 → Nat :=
  let v1112 : Index := Scalar.indexCast v1108
  let c0_1159 : Index := 0#32
  let c0_1160 : Index := 0#32
  ![v1112.toNat, 0, 0]

def k0_chk164 (v1108 : BitVec 32) : Prop :=
  (∀ a, (k0_off164 v1108) a + S1x64x128.size a ≤ S45x64x128.size a)
instance k0_chk164.dec : ∀ (v1108 : BitVec 32), Decidable (k0_chk164 v1108) := fun v1108 => decidable_of_iff' _ (Iff.of_eq (k0_chk164.eq_1 v1108))
theorem k0_off164_inb : ∀ (v1108 : BitVec 32) (k0_hw164 : k0_chk164 v1108), ∀ a, (k0_off164 v1108) a + S1x64x128.size a ≤ S45x64x128.size a := fun v1108 k0_hw164 => k0_hw164

def k0_off165 (v1119 : BitVec 32) : Fin 4 → Nat :=
  let c0_1168 : Index := 0#32
  let v1121 : Index := Scalar.indexCast v1119
  let c0_1169 : Index := 0#32
  let c0_1170 : Index := 0#32
  ![0, v1121.toNat, 0, 0]

def k0_chk165 (v1119 : BitVec 32) : Prop :=
  (∀ a, (k0_off165 v1119) a + S1x1x64x128.size a ≤ S1x9x64x128.size a)
instance k0_chk165.dec : ∀ (v1119 : BitVec 32), Decidable (k0_chk165 v1119) := fun v1119 => decidable_of_iff' _ (Iff.of_eq (k0_chk165.eq_1 v1119))
theorem k0_off165_inb : ∀ (v1119 : BitVec 32) (k0_hw165 : k0_chk165 v1119), ∀ a, (k0_off165 v1119) a + S1x1x64x128.size a ≤ S1x9x64x128.size a := fun v1119 k0_hw165 => k0_hw165

def k0_off166 (v1120 : BitVec 32) : Fin 3 → Nat :=
  let v1124 : Index := Scalar.indexCast v1120
  let c0_1171 : Index := 0#32
  let c0_1172 : Index := 0#32
  ![v1124.toNat, 0, 0]

def k0_chk166 (v1120 : BitVec 32) : Prop :=
  (∀ a, (k0_off166 v1120) a + S1x64x128.size a ≤ S45x64x128.size a)
instance k0_chk166.dec : ∀ (v1120 : BitVec 32), Decidable (k0_chk166 v1120) := fun v1120 => decidable_of_iff' _ (Iff.of_eq (k0_chk166.eq_1 v1120))
theorem k0_off166_inb : ∀ (v1120 : BitVec 32) (k0_hw166 : k0_chk166 v1120), ∀ a, (k0_off166 v1120) a + S1x64x128.size a ≤ S45x64x128.size a := fun v1120 k0_hw166 => k0_hw166

def k0_off167 (v1131 : BitVec 32) : Fin 4 → Nat :=
  let c0_1180 : Index := 0#32
  let v1133 : Index := Scalar.indexCast v1131
  let c0_1181 : Index := 0#32
  let c0_1182 : Index := 0#32
  ![0, v1133.toNat, 0, 0]

def k0_chk167 (v1131 : BitVec 32) : Prop :=
  (∀ a, (k0_off167 v1131) a + S1x1x64x128.size a ≤ S1x9x64x128.size a)
instance k0_chk167.dec : ∀ (v1131 : BitVec 32), Decidable (k0_chk167 v1131) := fun v1131 => decidable_of_iff' _ (Iff.of_eq (k0_chk167.eq_1 v1131))
theorem k0_off167_inb : ∀ (v1131 : BitVec 32) (k0_hw167 : k0_chk167 v1131), ∀ a, (k0_off167 v1131) a + S1x1x64x128.size a ≤ S1x9x64x128.size a := fun v1131 k0_hw167 => k0_hw167

def k0_off168 (v1132 : BitVec 32) : Fin 3 → Nat :=
  let v1136 : Index := Scalar.indexCast v1132
  let c0_1183 : Index := 0#32
  let c0_1184 : Index := 0#32
  ![v1136.toNat, 0, 0]

def k0_chk168 (v1132 : BitVec 32) : Prop :=
  (∀ a, (k0_off168 v1132) a + S1x64x128.size a ≤ S45x64x128.size a)
instance k0_chk168.dec : ∀ (v1132 : BitVec 32), Decidable (k0_chk168 v1132) := fun v1132 => decidable_of_iff' _ (Iff.of_eq (k0_chk168.eq_1 v1132))
theorem k0_off168_inb : ∀ (v1132 : BitVec 32) (k0_hw168 : k0_chk168 v1132), ∀ a, (k0_off168 v1132) a + S1x64x128.size a ≤ S45x64x128.size a := fun v1132 k0_hw168 => k0_hw168

def k0_off169 (v1143 : BitVec 32) : Fin 4 → Nat :=
  let c0_1192 : Index := 0#32
  let v1145 : Index := Scalar.indexCast v1143
  let c0_1193 : Index := 0#32
  let c0_1194 : Index := 0#32
  ![0, v1145.toNat, 0, 0]

def k0_chk169 (v1143 : BitVec 32) : Prop :=
  (∀ a, (k0_off169 v1143) a + S1x1x64x128.size a ≤ S1x9x64x128.size a)
instance k0_chk169.dec : ∀ (v1143 : BitVec 32), Decidable (k0_chk169 v1143) := fun v1143 => decidable_of_iff' _ (Iff.of_eq (k0_chk169.eq_1 v1143))
theorem k0_off169_inb : ∀ (v1143 : BitVec 32) (k0_hw169 : k0_chk169 v1143), ∀ a, (k0_off169 v1143) a + S1x1x64x128.size a ≤ S1x9x64x128.size a := fun v1143 k0_hw169 => k0_hw169

def k0_off170 (v1144 : BitVec 32) : Fin 3 → Nat :=
  let v1148 : Index := Scalar.indexCast v1144
  let c0_1195 : Index := 0#32
  let c0_1196 : Index := 0#32
  ![v1148.toNat, 0, 0]

def k0_chk170 (v1144 : BitVec 32) : Prop :=
  (∀ a, (k0_off170 v1144) a + S1x64x128.size a ≤ S45x64x128.size a)
instance k0_chk170.dec : ∀ (v1144 : BitVec 32), Decidable (k0_chk170 v1144) := fun v1144 => decidable_of_iff' _ (Iff.of_eq (k0_chk170.eq_1 v1144))
theorem k0_off170_inb : ∀ (v1144 : BitVec 32) (k0_hw170 : k0_chk170 v1144), ∀ a, (k0_off170 v1144) a + S1x64x128.size a ≤ S45x64x128.size a := fun v1144 k0_hw170 => k0_hw170

def k0_off171 (v1155 : BitVec 32) : Fin 4 → Nat :=
  let c0_1204 : Index := 0#32
  let v1157 : Index := Scalar.indexCast v1155
  let c0_1205 : Index := 0#32
  let c0_1206 : Index := 0#32
  ![0, v1157.toNat, 0, 0]

def k0_chk171 (v1155 : BitVec 32) : Prop :=
  (∀ a, (k0_off171 v1155) a + S1x1x64x128.size a ≤ S1x9x64x128.size a)
instance k0_chk171.dec : ∀ (v1155 : BitVec 32), Decidable (k0_chk171 v1155) := fun v1155 => decidable_of_iff' _ (Iff.of_eq (k0_chk171.eq_1 v1155))
theorem k0_off171_inb : ∀ (v1155 : BitVec 32) (k0_hw171 : k0_chk171 v1155), ∀ a, (k0_off171 v1155) a + S1x1x64x128.size a ≤ S1x9x64x128.size a := fun v1155 k0_hw171 => k0_hw171

def k0_off172 (v1156 : BitVec 32) : Fin 3 → Nat :=
  let v1160 : Index := Scalar.indexCast v1156
  let c0_1207 : Index := 0#32
  let c0_1208 : Index := 0#32
  ![v1160.toNat, 0, 0]

def k0_chk172 (v1156 : BitVec 32) : Prop :=
  (∀ a, (k0_off172 v1156) a + S1x64x128.size a ≤ S45x64x128.size a)
instance k0_chk172.dec : ∀ (v1156 : BitVec 32), Decidable (k0_chk172 v1156) := fun v1156 => decidable_of_iff' _ (Iff.of_eq (k0_chk172.eq_1 v1156))
theorem k0_off172_inb : ∀ (v1156 : BitVec 32) (k0_hw172 : k0_chk172 v1156), ∀ a, (k0_off172 v1156) a + S1x64x128.size a ≤ S45x64x128.size a := fun v1156 k0_hw172 => k0_hw172

def k0_off173 (v1167 : BitVec 32) : Fin 4 → Nat :=
  let c0_1216 : Index := 0#32
  let v1169 : Index := Scalar.indexCast v1167
  let c0_1217 : Index := 0#32
  let c0_1218 : Index := 0#32
  ![0, v1169.toNat, 0, 0]

def k0_chk173 (v1167 : BitVec 32) : Prop :=
  (∀ a, (k0_off173 v1167) a + S1x1x64x128.size a ≤ S1x9x64x128.size a)
instance k0_chk173.dec : ∀ (v1167 : BitVec 32), Decidable (k0_chk173 v1167) := fun v1167 => decidable_of_iff' _ (Iff.of_eq (k0_chk173.eq_1 v1167))
theorem k0_off173_inb : ∀ (v1167 : BitVec 32) (k0_hw173 : k0_chk173 v1167), ∀ a, (k0_off173 v1167) a + S1x1x64x128.size a ≤ S1x9x64x128.size a := fun v1167 k0_hw173 => k0_hw173

def k0_off174 (v1168 : BitVec 32) : Fin 3 → Nat :=
  let v1172 : Index := Scalar.indexCast v1168
  let c0_1219 : Index := 0#32
  let c0_1220 : Index := 0#32
  ![v1172.toNat, 0, 0]

def k0_chk174 (v1168 : BitVec 32) : Prop :=
  (∀ a, (k0_off174 v1168) a + S1x64x128.size a ≤ S45x64x128.size a)
instance k0_chk174.dec : ∀ (v1168 : BitVec 32), Decidable (k0_chk174 v1168) := fun v1168 => decidable_of_iff' _ (Iff.of_eq (k0_chk174.eq_1 v1168))
theorem k0_off174_inb : ∀ (v1168 : BitVec 32) (k0_hw174 : k0_chk174 v1168), ∀ a, (k0_off174 v1168) a + S1x64x128.size a ≤ S45x64x128.size a := fun v1168 k0_hw174 => k0_hw174

def k0_off175 (v1179 : BitVec 32) : Fin 4 → Nat :=
  let c0_1228 : Index := 0#32
  let v1181 : Index := Scalar.indexCast v1179
  let c0_1229 : Index := 0#32
  let c0_1230 : Index := 0#32
  ![0, v1181.toNat, 0, 0]

def k0_chk175 (v1179 : BitVec 32) : Prop :=
  (∀ a, (k0_off175 v1179) a + S1x1x64x128.size a ≤ S1x9x64x128.size a)
instance k0_chk175.dec : ∀ (v1179 : BitVec 32), Decidable (k0_chk175 v1179) := fun v1179 => decidable_of_iff' _ (Iff.of_eq (k0_chk175.eq_1 v1179))
theorem k0_off175_inb : ∀ (v1179 : BitVec 32) (k0_hw175 : k0_chk175 v1179), ∀ a, (k0_off175 v1179) a + S1x1x64x128.size a ≤ S1x9x64x128.size a := fun v1179 k0_hw175 => k0_hw175

def k0_off176 (v1180 : BitVec 32) : Fin 3 → Nat :=
  let v1184 : Index := Scalar.indexCast v1180
  let c0_1231 : Index := 0#32
  let c0_1232 : Index := 0#32
  ![v1184.toNat, 0, 0]

def k0_chk176 (v1180 : BitVec 32) : Prop :=
  (∀ a, (k0_off176 v1180) a + S1x64x128.size a ≤ S45x64x128.size a)
instance k0_chk176.dec : ∀ (v1180 : BitVec 32), Decidable (k0_chk176 v1180) := fun v1180 => decidable_of_iff' _ (Iff.of_eq (k0_chk176.eq_1 v1180))
theorem k0_off176_inb : ∀ (v1180 : BitVec 32) (k0_hw176 : k0_chk176 v1180), ∀ a, (k0_off176 v1180) a + S1x64x128.size a ≤ S45x64x128.size a := fun v1180 k0_hw176 => k0_hw176

def k0_off177 (v1191 : BitVec 32) : Fin 4 → Nat :=
  let c0_1240 : Index := 0#32
  let v1193 : Index := Scalar.indexCast v1191
  let c0_1241 : Index := 0#32
  let c0_1242 : Index := 0#32
  ![0, v1193.toNat, 0, 0]

def k0_chk177 (v1191 : BitVec 32) : Prop :=
  (∀ a, (k0_off177 v1191) a + S1x1x64x128.size a ≤ S1x9x64x128.size a)
instance k0_chk177.dec : ∀ (v1191 : BitVec 32), Decidable (k0_chk177 v1191) := fun v1191 => decidable_of_iff' _ (Iff.of_eq (k0_chk177.eq_1 v1191))
theorem k0_off177_inb : ∀ (v1191 : BitVec 32) (k0_hw177 : k0_chk177 v1191), ∀ a, (k0_off177 v1191) a + S1x1x64x128.size a ≤ S1x9x64x128.size a := fun v1191 k0_hw177 => k0_hw177

def k0_off178 (v1192 : BitVec 32) : Fin 3 → Nat :=
  let v1196 : Index := Scalar.indexCast v1192
  let c0_1243 : Index := 0#32
  let c0_1244 : Index := 0#32
  ![v1196.toNat, 0, 0]

def k0_chk178 (v1192 : BitVec 32) : Prop :=
  (∀ a, (k0_off178 v1192) a + S1x64x128.size a ≤ S45x64x128.size a)
instance k0_chk178.dec : ∀ (v1192 : BitVec 32), Decidable (k0_chk178 v1192) := fun v1192 => decidable_of_iff' _ (Iff.of_eq (k0_chk178.eq_1 v1192))
theorem k0_off178_inb : ∀ (v1192 : BitVec 32) (k0_hw178 : k0_chk178 v1192), ∀ a, (k0_off178 v1192) a + S1x64x128.size a ≤ S45x64x128.size a := fun v1192 k0_hw178 => k0_hw178

def k0_off179 (v1203 : BitVec 32) : Fin 4 → Nat :=
  let c0_1252 : Index := 0#32
  let v1205 : Index := Scalar.indexCast v1203
  let c0_1253 : Index := 0#32
  let c0_1254 : Index := 0#32
  ![0, v1205.toNat, 0, 0]

def k0_chk179 (v1203 : BitVec 32) : Prop :=
  (∀ a, (k0_off179 v1203) a + S1x1x64x128.size a ≤ S1x9x64x128.size a)
instance k0_chk179.dec : ∀ (v1203 : BitVec 32), Decidable (k0_chk179 v1203) := fun v1203 => decidable_of_iff' _ (Iff.of_eq (k0_chk179.eq_1 v1203))
theorem k0_off179_inb : ∀ (v1203 : BitVec 32) (k0_hw179 : k0_chk179 v1203), ∀ a, (k0_off179 v1203) a + S1x1x64x128.size a ≤ S1x9x64x128.size a := fun v1203 k0_hw179 => k0_hw179

def k0_off180 (v1204 : BitVec 32) : Fin 3 → Nat :=
  let v1208 : Index := Scalar.indexCast v1204
  let c0_1255 : Index := 0#32
  let c0_1256 : Index := 0#32
  ![v1208.toNat, 0, 0]

def k0_chk180 (v1204 : BitVec 32) : Prop :=
  (∀ a, (k0_off180 v1204) a + S1x64x128.size a ≤ S45x64x128.size a)
instance k0_chk180.dec : ∀ (v1204 : BitVec 32), Decidable (k0_chk180 v1204) := fun v1204 => decidable_of_iff' _ (Iff.of_eq (k0_chk180.eq_1 v1204))
theorem k0_off180_inb : ∀ (v1204 : BitVec 32) (k0_hw180 : k0_chk180 v1204), ∀ a, (k0_off180 v1204) a + S1x64x128.size a ≤ S45x64x128.size a := fun v1204 k0_hw180 => k0_hw180

def k0_off181 (v1215 : BitVec 32) : Fin 4 → Nat :=
  let c0_1264 : Index := 0#32
  let v1217 : Index := Scalar.indexCast v1215
  let c0_1265 : Index := 0#32
  let c0_1266 : Index := 0#32
  ![0, v1217.toNat, 0, 0]

def k0_chk181 (v1215 : BitVec 32) : Prop :=
  (∀ a, (k0_off181 v1215) a + S1x1x64x128.size a ≤ S1x9x64x128.size a)
instance k0_chk181.dec : ∀ (v1215 : BitVec 32), Decidable (k0_chk181 v1215) := fun v1215 => decidable_of_iff' _ (Iff.of_eq (k0_chk181.eq_1 v1215))
theorem k0_off181_inb : ∀ (v1215 : BitVec 32) (k0_hw181 : k0_chk181 v1215), ∀ a, (k0_off181 v1215) a + S1x1x64x128.size a ≤ S1x9x64x128.size a := fun v1215 k0_hw181 => k0_hw181

def k0_off182 (v1216 : BitVec 32) : Fin 3 → Nat :=
  let v1220 : Index := Scalar.indexCast v1216
  let c0_1267 : Index := 0#32
  let c0_1268 : Index := 0#32
  ![v1220.toNat, 0, 0]

def k0_chk182 (v1216 : BitVec 32) : Prop :=
  (∀ a, (k0_off182 v1216) a + S1x64x128.size a ≤ S45x64x128.size a)
instance k0_chk182.dec : ∀ (v1216 : BitVec 32), Decidable (k0_chk182 v1216) := fun v1216 => decidable_of_iff' _ (Iff.of_eq (k0_chk182.eq_1 v1216))
theorem k0_off182_inb : ∀ (v1216 : BitVec 32) (k0_hw182 : k0_chk182 v1216), ∀ a, (k0_off182 v1216) a + S1x64x128.size a ≤ S45x64x128.size a := fun v1216 k0_hw182 => k0_hw182

def k0_off183 (v1227 : BitVec 32) : Fin 4 → Nat :=
  let c0_1276 : Index := 0#32
  let v1229 : Index := Scalar.indexCast v1227
  let c0_1277 : Index := 0#32
  let c0_1278 : Index := 0#32
  ![0, v1229.toNat, 0, 0]

def k0_chk183 (v1227 : BitVec 32) : Prop :=
  (∀ a, (k0_off183 v1227) a + S1x1x64x128.size a ≤ S1x9x64x128.size a)
instance k0_chk183.dec : ∀ (v1227 : BitVec 32), Decidable (k0_chk183 v1227) := fun v1227 => decidable_of_iff' _ (Iff.of_eq (k0_chk183.eq_1 v1227))
theorem k0_off183_inb : ∀ (v1227 : BitVec 32) (k0_hw183 : k0_chk183 v1227), ∀ a, (k0_off183 v1227) a + S1x1x64x128.size a ≤ S1x9x64x128.size a := fun v1227 k0_hw183 => k0_hw183

def k0_off184 (v1228 : BitVec 32) : Fin 3 → Nat :=
  let v1232 : Index := Scalar.indexCast v1228
  let c0_1279 : Index := 0#32
  let c0_1280 : Index := 0#32
  ![v1232.toNat, 0, 0]

def k0_chk184 (v1228 : BitVec 32) : Prop :=
  (∀ a, (k0_off184 v1228) a + S1x64x128.size a ≤ S45x64x128.size a)
instance k0_chk184.dec : ∀ (v1228 : BitVec 32), Decidable (k0_chk184 v1228) := fun v1228 => decidable_of_iff' _ (Iff.of_eq (k0_chk184.eq_1 v1228))
theorem k0_off184_inb : ∀ (v1228 : BitVec 32) (k0_hw184 : k0_chk184 v1228), ∀ a, (k0_off184 v1228) a + S1x64x128.size a ≤ S45x64x128.size a := fun v1228 k0_hw184 => k0_hw184

def k0_off185 (v1239 : BitVec 32) : Fin 4 → Nat :=
  let c0_1288 : Index := 0#32
  let v1241 : Index := Scalar.indexCast v1239
  let c0_1289 : Index := 0#32
  let c0_1290 : Index := 0#32
  ![0, v1241.toNat, 0, 0]

def k0_chk185 (v1239 : BitVec 32) : Prop :=
  (∀ a, (k0_off185 v1239) a + S1x1x64x128.size a ≤ S1x9x64x128.size a)
instance k0_chk185.dec : ∀ (v1239 : BitVec 32), Decidable (k0_chk185 v1239) := fun v1239 => decidable_of_iff' _ (Iff.of_eq (k0_chk185.eq_1 v1239))
theorem k0_off185_inb : ∀ (v1239 : BitVec 32) (k0_hw185 : k0_chk185 v1239), ∀ a, (k0_off185 v1239) a + S1x1x64x128.size a ≤ S1x9x64x128.size a := fun v1239 k0_hw185 => k0_hw185

def k0_off186 (v1240 : BitVec 32) : Fin 3 → Nat :=
  let v1244 : Index := Scalar.indexCast v1240
  let c0_1291 : Index := 0#32
  let c0_1292 : Index := 0#32
  ![v1244.toNat, 0, 0]

def k0_chk186 (v1240 : BitVec 32) : Prop :=
  (∀ a, (k0_off186 v1240) a + S1x64x128.size a ≤ S45x64x128.size a)
instance k0_chk186.dec : ∀ (v1240 : BitVec 32), Decidable (k0_chk186 v1240) := fun v1240 => decidable_of_iff' _ (Iff.of_eq (k0_chk186.eq_1 v1240))
theorem k0_off186_inb : ∀ (v1240 : BitVec 32) (k0_hw186 : k0_chk186 v1240), ∀ a, (k0_off186 v1240) a + S1x64x128.size a ≤ S45x64x128.size a := fun v1240 k0_hw186 => k0_hw186

def k0_off187 (v1251 : BitVec 32) : Fin 4 → Nat :=
  let c0_1300 : Index := 0#32
  let v1253 : Index := Scalar.indexCast v1251
  let c0_1301 : Index := 0#32
  let c0_1302 : Index := 0#32
  ![0, v1253.toNat, 0, 0]

def k0_chk187 (v1251 : BitVec 32) : Prop :=
  (∀ a, (k0_off187 v1251) a + S1x1x64x128.size a ≤ S1x9x64x128.size a)
instance k0_chk187.dec : ∀ (v1251 : BitVec 32), Decidable (k0_chk187 v1251) := fun v1251 => decidable_of_iff' _ (Iff.of_eq (k0_chk187.eq_1 v1251))
theorem k0_off187_inb : ∀ (v1251 : BitVec 32) (k0_hw187 : k0_chk187 v1251), ∀ a, (k0_off187 v1251) a + S1x1x64x128.size a ≤ S1x9x64x128.size a := fun v1251 k0_hw187 => k0_hw187

def k0_off188 (v1252 : BitVec 32) : Fin 3 → Nat :=
  let v1256 : Index := Scalar.indexCast v1252
  let c0_1303 : Index := 0#32
  let c0_1304 : Index := 0#32
  ![v1256.toNat, 0, 0]

def k0_chk188 (v1252 : BitVec 32) : Prop :=
  (∀ a, (k0_off188 v1252) a + S1x64x128.size a ≤ S45x64x128.size a)
instance k0_chk188.dec : ∀ (v1252 : BitVec 32), Decidable (k0_chk188 v1252) := fun v1252 => decidable_of_iff' _ (Iff.of_eq (k0_chk188.eq_1 v1252))
theorem k0_off188_inb : ∀ (v1252 : BitVec 32) (k0_hw188 : k0_chk188 v1252), ∀ a, (k0_off188 v1252) a + S1x64x128.size a ≤ S45x64x128.size a := fun v1252 k0_hw188 => k0_hw188

def k0_off189 (v1263 : BitVec 32) : Fin 4 → Nat :=
  let c0_1312 : Index := 0#32
  let v1265 : Index := Scalar.indexCast v1263
  let c0_1313 : Index := 0#32
  let c0_1314 : Index := 0#32
  ![0, v1265.toNat, 0, 0]

def k0_chk189 (v1263 : BitVec 32) : Prop :=
  (∀ a, (k0_off189 v1263) a + S1x1x64x128.size a ≤ S1x9x64x128.size a)
instance k0_chk189.dec : ∀ (v1263 : BitVec 32), Decidable (k0_chk189 v1263) := fun v1263 => decidable_of_iff' _ (Iff.of_eq (k0_chk189.eq_1 v1263))
theorem k0_off189_inb : ∀ (v1263 : BitVec 32) (k0_hw189 : k0_chk189 v1263), ∀ a, (k0_off189 v1263) a + S1x1x64x128.size a ≤ S1x9x64x128.size a := fun v1263 k0_hw189 => k0_hw189

def k0_off190 (v1264 : BitVec 32) : Fin 3 → Nat :=
  let v1268 : Index := Scalar.indexCast v1264
  let c0_1315 : Index := 0#32
  let c0_1316 : Index := 0#32
  ![v1268.toNat, 0, 0]

def k0_chk190 (v1264 : BitVec 32) : Prop :=
  (∀ a, (k0_off190 v1264) a + S1x64x128.size a ≤ S45x64x128.size a)
instance k0_chk190.dec : ∀ (v1264 : BitVec 32), Decidable (k0_chk190 v1264) := fun v1264 => decidable_of_iff' _ (Iff.of_eq (k0_chk190.eq_1 v1264))
theorem k0_off190_inb : ∀ (v1264 : BitVec 32) (k0_hw190 : k0_chk190 v1264), ∀ a, (k0_off190 v1264) a + S1x64x128.size a ≤ S45x64x128.size a := fun v1264 k0_hw190 => k0_hw190

def k0_off191 (v1275 : BitVec 32) : Fin 4 → Nat :=
  let c0_1324 : Index := 0#32
  let v1277 : Index := Scalar.indexCast v1275
  let c0_1325 : Index := 0#32
  let c0_1326 : Index := 0#32
  ![0, v1277.toNat, 0, 0]

def k0_chk191 (v1275 : BitVec 32) : Prop :=
  (∀ a, (k0_off191 v1275) a + S1x1x64x128.size a ≤ S1x9x64x128.size a)
instance k0_chk191.dec : ∀ (v1275 : BitVec 32), Decidable (k0_chk191 v1275) := fun v1275 => decidable_of_iff' _ (Iff.of_eq (k0_chk191.eq_1 v1275))
theorem k0_off191_inb : ∀ (v1275 : BitVec 32) (k0_hw191 : k0_chk191 v1275), ∀ a, (k0_off191 v1275) a + S1x1x64x128.size a ≤ S1x9x64x128.size a := fun v1275 k0_hw191 => k0_hw191

def k0_off192 (v1276 : BitVec 32) : Fin 3 → Nat :=
  let v1280 : Index := Scalar.indexCast v1276
  let c0_1327 : Index := 0#32
  let c0_1328 : Index := 0#32
  ![v1280.toNat, 0, 0]

def k0_chk192 (v1276 : BitVec 32) : Prop :=
  (∀ a, (k0_off192 v1276) a + S1x64x128.size a ≤ S45x64x128.size a)
instance k0_chk192.dec : ∀ (v1276 : BitVec 32), Decidable (k0_chk192 v1276) := fun v1276 => decidable_of_iff' _ (Iff.of_eq (k0_chk192.eq_1 v1276))
theorem k0_off192_inb : ∀ (v1276 : BitVec 32) (k0_hw192 : k0_chk192 v1276), ∀ a, (k0_off192 v1276) a + S1x64x128.size a ≤ S45x64x128.size a := fun v1276 k0_hw192 => k0_hw192

def k0_off193 (v1287 : BitVec 32) : Fin 4 → Nat :=
  let c0_1336 : Index := 0#32
  let v1289 : Index := Scalar.indexCast v1287
  let c0_1337 : Index := 0#32
  let c0_1338 : Index := 0#32
  ![0, v1289.toNat, 0, 0]

def k0_chk193 (v1287 : BitVec 32) : Prop :=
  (∀ a, (k0_off193 v1287) a + S1x1x64x128.size a ≤ S1x9x64x128.size a)
instance k0_chk193.dec : ∀ (v1287 : BitVec 32), Decidable (k0_chk193 v1287) := fun v1287 => decidable_of_iff' _ (Iff.of_eq (k0_chk193.eq_1 v1287))
theorem k0_off193_inb : ∀ (v1287 : BitVec 32) (k0_hw193 : k0_chk193 v1287), ∀ a, (k0_off193 v1287) a + S1x1x64x128.size a ≤ S1x9x64x128.size a := fun v1287 k0_hw193 => k0_hw193

def k0_off194 (v1288 : BitVec 32) : Fin 3 → Nat :=
  let v1292 : Index := Scalar.indexCast v1288
  let c0_1339 : Index := 0#32
  let c0_1340 : Index := 0#32
  ![v1292.toNat, 0, 0]

def k0_chk194 (v1288 : BitVec 32) : Prop :=
  (∀ a, (k0_off194 v1288) a + S1x64x128.size a ≤ S45x64x128.size a)
instance k0_chk194.dec : ∀ (v1288 : BitVec 32), Decidable (k0_chk194 v1288) := fun v1288 => decidable_of_iff' _ (Iff.of_eq (k0_chk194.eq_1 v1288))
theorem k0_off194_inb : ∀ (v1288 : BitVec 32) (k0_hw194 : k0_chk194 v1288), ∀ a, (k0_off194 v1288) a + S1x64x128.size a ≤ S45x64x128.size a := fun v1288 k0_hw194 => k0_hw194

def k0_off195 (v1299 : BitVec 32) : Fin 4 → Nat :=
  let c0_1348 : Index := 0#32
  let v1301 : Index := Scalar.indexCast v1299
  let c0_1349 : Index := 0#32
  let c0_1350 : Index := 0#32
  ![0, v1301.toNat, 0, 0]

def k0_chk195 (v1299 : BitVec 32) : Prop :=
  (∀ a, (k0_off195 v1299) a + S1x1x64x128.size a ≤ S1x9x64x128.size a)
instance k0_chk195.dec : ∀ (v1299 : BitVec 32), Decidable (k0_chk195 v1299) := fun v1299 => decidable_of_iff' _ (Iff.of_eq (k0_chk195.eq_1 v1299))
theorem k0_off195_inb : ∀ (v1299 : BitVec 32) (k0_hw195 : k0_chk195 v1299), ∀ a, (k0_off195 v1299) a + S1x1x64x128.size a ≤ S1x9x64x128.size a := fun v1299 k0_hw195 => k0_hw195

def k0_off196 (v1300 : BitVec 32) : Fin 3 → Nat :=
  let v1304 : Index := Scalar.indexCast v1300
  let c0_1351 : Index := 0#32
  let c0_1352 : Index := 0#32
  ![v1304.toNat, 0, 0]

def k0_chk196 (v1300 : BitVec 32) : Prop :=
  (∀ a, (k0_off196 v1300) a + S1x64x128.size a ≤ S45x64x128.size a)
instance k0_chk196.dec : ∀ (v1300 : BitVec 32), Decidable (k0_chk196 v1300) := fun v1300 => decidable_of_iff' _ (Iff.of_eq (k0_chk196.eq_1 v1300))
theorem k0_off196_inb : ∀ (v1300 : BitVec 32) (k0_hw196 : k0_chk196 v1300), ∀ a, (k0_off196 v1300) a + S1x64x128.size a ≤ S45x64x128.size a := fun v1300 k0_hw196 => k0_hw196

def k0_off197 (v1311 : BitVec 32) : Fin 4 → Nat :=
  let c0_1360 : Index := 0#32
  let v1313 : Index := Scalar.indexCast v1311
  let c0_1361 : Index := 0#32
  let c0_1362 : Index := 0#32
  ![0, v1313.toNat, 0, 0]

def k0_chk197 (v1311 : BitVec 32) : Prop :=
  (∀ a, (k0_off197 v1311) a + S1x1x64x128.size a ≤ S1x9x64x128.size a)
instance k0_chk197.dec : ∀ (v1311 : BitVec 32), Decidable (k0_chk197 v1311) := fun v1311 => decidable_of_iff' _ (Iff.of_eq (k0_chk197.eq_1 v1311))
theorem k0_off197_inb : ∀ (v1311 : BitVec 32) (k0_hw197 : k0_chk197 v1311), ∀ a, (k0_off197 v1311) a + S1x1x64x128.size a ≤ S1x9x64x128.size a := fun v1311 k0_hw197 => k0_hw197

def k0_off198 (v1312 : BitVec 32) : Fin 3 → Nat :=
  let v1316 : Index := Scalar.indexCast v1312
  let c0_1363 : Index := 0#32
  let c0_1364 : Index := 0#32
  ![v1316.toNat, 0, 0]

def k0_chk198 (v1312 : BitVec 32) : Prop :=
  (∀ a, (k0_off198 v1312) a + S1x64x128.size a ≤ S45x64x128.size a)
instance k0_chk198.dec : ∀ (v1312 : BitVec 32), Decidable (k0_chk198 v1312) := fun v1312 => decidable_of_iff' _ (Iff.of_eq (k0_chk198.eq_1 v1312))
theorem k0_off198_inb : ∀ (v1312 : BitVec 32) (k0_hw198 : k0_chk198 v1312), ∀ a, (k0_off198 v1312) a + S1x64x128.size a ≤ S45x64x128.size a := fun v1312 k0_hw198 => k0_hw198

def k0_off199 (v1323 : BitVec 32) : Fin 4 → Nat :=
  let c0_1372 : Index := 0#32
  let v1325 : Index := Scalar.indexCast v1323
  let c0_1373 : Index := 0#32
  let c0_1374 : Index := 0#32
  ![0, v1325.toNat, 0, 0]

def k0_chk199 (v1323 : BitVec 32) : Prop :=
  (∀ a, (k0_off199 v1323) a + S1x1x64x128.size a ≤ S1x9x64x128.size a)
instance k0_chk199.dec : ∀ (v1323 : BitVec 32), Decidable (k0_chk199 v1323) := fun v1323 => decidable_of_iff' _ (Iff.of_eq (k0_chk199.eq_1 v1323))
theorem k0_off199_inb : ∀ (v1323 : BitVec 32) (k0_hw199 : k0_chk199 v1323), ∀ a, (k0_off199 v1323) a + S1x1x64x128.size a ≤ S1x9x64x128.size a := fun v1323 k0_hw199 => k0_hw199

def k0_off200 (v1324 : BitVec 32) : Fin 3 → Nat :=
  let v1328 : Index := Scalar.indexCast v1324
  let c0_1375 : Index := 0#32
  let c0_1376 : Index := 0#32
  ![v1328.toNat, 0, 0]

def k0_chk200 (v1324 : BitVec 32) : Prop :=
  (∀ a, (k0_off200 v1324) a + S1x64x128.size a ≤ S45x64x128.size a)
instance k0_chk200.dec : ∀ (v1324 : BitVec 32), Decidable (k0_chk200 v1324) := fun v1324 => decidable_of_iff' _ (Iff.of_eq (k0_chk200.eq_1 v1324))
theorem k0_off200_inb : ∀ (v1324 : BitVec 32) (k0_hw200 : k0_chk200 v1324), ∀ a, (k0_off200 v1324) a + S1x64x128.size a ≤ S45x64x128.size a := fun v1324 k0_hw200 => k0_hw200

def k0_off201 (v1335 : BitVec 32) : Fin 4 → Nat :=
  let c0_1384 : Index := 0#32
  let v1337 : Index := Scalar.indexCast v1335
  let c0_1385 : Index := 0#32
  let c0_1386 : Index := 0#32
  ![0, v1337.toNat, 0, 0]

def k0_chk201 (v1335 : BitVec 32) : Prop :=
  (∀ a, (k0_off201 v1335) a + S1x1x64x128.size a ≤ S1x9x64x128.size a)
instance k0_chk201.dec : ∀ (v1335 : BitVec 32), Decidable (k0_chk201 v1335) := fun v1335 => decidable_of_iff' _ (Iff.of_eq (k0_chk201.eq_1 v1335))
theorem k0_off201_inb : ∀ (v1335 : BitVec 32) (k0_hw201 : k0_chk201 v1335), ∀ a, (k0_off201 v1335) a + S1x1x64x128.size a ≤ S1x9x64x128.size a := fun v1335 k0_hw201 => k0_hw201

def k0_off202 (v1336 : BitVec 32) : Fin 3 → Nat :=
  let v1340 : Index := Scalar.indexCast v1336
  let c0_1387 : Index := 0#32
  let c0_1388 : Index := 0#32
  ![v1340.toNat, 0, 0]

def k0_chk202 (v1336 : BitVec 32) : Prop :=
  (∀ a, (k0_off202 v1336) a + S1x64x128.size a ≤ S45x64x128.size a)
instance k0_chk202.dec : ∀ (v1336 : BitVec 32), Decidable (k0_chk202 v1336) := fun v1336 => decidable_of_iff' _ (Iff.of_eq (k0_chk202.eq_1 v1336))
theorem k0_off202_inb : ∀ (v1336 : BitVec 32) (k0_hw202 : k0_chk202 v1336), ∀ a, (k0_off202 v1336) a + S1x64x128.size a ≤ S45x64x128.size a := fun v1336 k0_hw202 => k0_hw202

def k0_off203 (v1347 : BitVec 32) : Fin 4 → Nat :=
  let c0_1396 : Index := 0#32
  let v1349 : Index := Scalar.indexCast v1347
  let c0_1397 : Index := 0#32
  let c0_1398 : Index := 0#32
  ![0, v1349.toNat, 0, 0]

def k0_chk203 (v1347 : BitVec 32) : Prop :=
  (∀ a, (k0_off203 v1347) a + S1x1x64x128.size a ≤ S1x9x64x128.size a)
instance k0_chk203.dec : ∀ (v1347 : BitVec 32), Decidable (k0_chk203 v1347) := fun v1347 => decidable_of_iff' _ (Iff.of_eq (k0_chk203.eq_1 v1347))
theorem k0_off203_inb : ∀ (v1347 : BitVec 32) (k0_hw203 : k0_chk203 v1347), ∀ a, (k0_off203 v1347) a + S1x1x64x128.size a ≤ S1x9x64x128.size a := fun v1347 k0_hw203 => k0_hw203

def k0_off204 (v1348 : BitVec 32) : Fin 3 → Nat :=
  let v1352 : Index := Scalar.indexCast v1348
  let c0_1399 : Index := 0#32
  let c0_1400 : Index := 0#32
  ![v1352.toNat, 0, 0]

def k0_chk204 (v1348 : BitVec 32) : Prop :=
  (∀ a, (k0_off204 v1348) a + S1x64x128.size a ≤ S45x64x128.size a)
instance k0_chk204.dec : ∀ (v1348 : BitVec 32), Decidable (k0_chk204 v1348) := fun v1348 => decidable_of_iff' _ (Iff.of_eq (k0_chk204.eq_1 v1348))
theorem k0_off204_inb : ∀ (v1348 : BitVec 32) (k0_hw204 : k0_chk204 v1348), ∀ a, (k0_off204 v1348) a + S1x64x128.size a ≤ S45x64x128.size a := fun v1348 k0_hw204 => k0_hw204

def k0_off205 (v1359 : BitVec 32) : Fin 4 → Nat :=
  let c0_1408 : Index := 0#32
  let v1361 : Index := Scalar.indexCast v1359
  let c0_1409 : Index := 0#32
  let c0_1410 : Index := 0#32
  ![0, v1361.toNat, 0, 0]

def k0_chk205 (v1359 : BitVec 32) : Prop :=
  (∀ a, (k0_off205 v1359) a + S1x1x64x128.size a ≤ S1x9x64x128.size a)
instance k0_chk205.dec : ∀ (v1359 : BitVec 32), Decidable (k0_chk205 v1359) := fun v1359 => decidable_of_iff' _ (Iff.of_eq (k0_chk205.eq_1 v1359))
theorem k0_off205_inb : ∀ (v1359 : BitVec 32) (k0_hw205 : k0_chk205 v1359), ∀ a, (k0_off205 v1359) a + S1x1x64x128.size a ≤ S1x9x64x128.size a := fun v1359 k0_hw205 => k0_hw205

def k0_off206 (v1360 : BitVec 32) : Fin 3 → Nat :=
  let v1364 : Index := Scalar.indexCast v1360
  let c0_1411 : Index := 0#32
  let c0_1412 : Index := 0#32
  ![v1364.toNat, 0, 0]

def k0_chk206 (v1360 : BitVec 32) : Prop :=
  (∀ a, (k0_off206 v1360) a + S1x64x128.size a ≤ S45x64x128.size a)
instance k0_chk206.dec : ∀ (v1360 : BitVec 32), Decidable (k0_chk206 v1360) := fun v1360 => decidable_of_iff' _ (Iff.of_eq (k0_chk206.eq_1 v1360))
theorem k0_off206_inb : ∀ (v1360 : BitVec 32) (k0_hw206 : k0_chk206 v1360), ∀ a, (k0_off206 v1360) a + S1x64x128.size a ≤ S45x64x128.size a := fun v1360 k0_hw206 => k0_hw206

def k0_off207 (v1371 : BitVec 32) : Fin 4 → Nat :=
  let c0_1420 : Index := 0#32
  let v1373 : Index := Scalar.indexCast v1371
  let c0_1421 : Index := 0#32
  let c0_1422 : Index := 0#32
  ![0, v1373.toNat, 0, 0]

def k0_chk207 (v1371 : BitVec 32) : Prop :=
  (∀ a, (k0_off207 v1371) a + S1x1x64x128.size a ≤ S1x9x64x128.size a)
instance k0_chk207.dec : ∀ (v1371 : BitVec 32), Decidable (k0_chk207 v1371) := fun v1371 => decidable_of_iff' _ (Iff.of_eq (k0_chk207.eq_1 v1371))
theorem k0_off207_inb : ∀ (v1371 : BitVec 32) (k0_hw207 : k0_chk207 v1371), ∀ a, (k0_off207 v1371) a + S1x1x64x128.size a ≤ S1x9x64x128.size a := fun v1371 k0_hw207 => k0_hw207

def k0_off208 (v1372 : BitVec 32) : Fin 3 → Nat :=
  let v1376 : Index := Scalar.indexCast v1372
  let c0_1423 : Index := 0#32
  let c0_1424 : Index := 0#32
  ![v1376.toNat, 0, 0]

def k0_chk208 (v1372 : BitVec 32) : Prop :=
  (∀ a, (k0_off208 v1372) a + S1x64x128.size a ≤ S45x64x128.size a)
instance k0_chk208.dec : ∀ (v1372 : BitVec 32), Decidable (k0_chk208 v1372) := fun v1372 => decidable_of_iff' _ (Iff.of_eq (k0_chk208.eq_1 v1372))
theorem k0_off208_inb : ∀ (v1372 : BitVec 32) (k0_hw208 : k0_chk208 v1372), ∀ a, (k0_off208 v1372) a + S1x64x128.size a ≤ S45x64x128.size a := fun v1372 k0_hw208 => k0_hw208

def k0_off209 (v1383 : BitVec 32) : Fin 4 → Nat :=
  let c0_1432 : Index := 0#32
  let v1385 : Index := Scalar.indexCast v1383
  let c0_1433 : Index := 0#32
  let c0_1434 : Index := 0#32
  ![0, v1385.toNat, 0, 0]

def k0_chk209 (v1383 : BitVec 32) : Prop :=
  (∀ a, (k0_off209 v1383) a + S1x1x64x128.size a ≤ S1x9x64x128.size a)
instance k0_chk209.dec : ∀ (v1383 : BitVec 32), Decidable (k0_chk209 v1383) := fun v1383 => decidable_of_iff' _ (Iff.of_eq (k0_chk209.eq_1 v1383))
theorem k0_off209_inb : ∀ (v1383 : BitVec 32) (k0_hw209 : k0_chk209 v1383), ∀ a, (k0_off209 v1383) a + S1x1x64x128.size a ≤ S1x9x64x128.size a := fun v1383 k0_hw209 => k0_hw209

def k0_off210 (v1384 : BitVec 32) : Fin 3 → Nat :=
  let v1388 : Index := Scalar.indexCast v1384
  let c0_1435 : Index := 0#32
  let c0_1436 : Index := 0#32
  ![v1388.toNat, 0, 0]

def k0_chk210 (v1384 : BitVec 32) : Prop :=
  (∀ a, (k0_off210 v1384) a + S1x64x128.size a ≤ S45x64x128.size a)
instance k0_chk210.dec : ∀ (v1384 : BitVec 32), Decidable (k0_chk210 v1384) := fun v1384 => decidable_of_iff' _ (Iff.of_eq (k0_chk210.eq_1 v1384))
theorem k0_off210_inb : ∀ (v1384 : BitVec 32) (k0_hw210 : k0_chk210 v1384), ∀ a, (k0_off210 v1384) a + S1x64x128.size a ≤ S45x64x128.size a := fun v1384 k0_hw210 => k0_hw210

def k0_off211 (v1395 : BitVec 32) : Fin 4 → Nat :=
  let c0_1444 : Index := 0#32
  let v1397 : Index := Scalar.indexCast v1395
  let c0_1445 : Index := 0#32
  let c0_1446 : Index := 0#32
  ![0, v1397.toNat, 0, 0]

def k0_chk211 (v1395 : BitVec 32) : Prop :=
  (∀ a, (k0_off211 v1395) a + S1x1x64x128.size a ≤ S1x9x64x128.size a)
instance k0_chk211.dec : ∀ (v1395 : BitVec 32), Decidable (k0_chk211 v1395) := fun v1395 => decidable_of_iff' _ (Iff.of_eq (k0_chk211.eq_1 v1395))
theorem k0_off211_inb : ∀ (v1395 : BitVec 32) (k0_hw211 : k0_chk211 v1395), ∀ a, (k0_off211 v1395) a + S1x1x64x128.size a ≤ S1x9x64x128.size a := fun v1395 k0_hw211 => k0_hw211

def k0_off212 (v1396 : BitVec 32) : Fin 3 → Nat :=
  let v1400 : Index := Scalar.indexCast v1396
  let c0_1447 : Index := 0#32
  let c0_1448 : Index := 0#32
  ![v1400.toNat, 0, 0]

def k0_chk212 (v1396 : BitVec 32) : Prop :=
  (∀ a, (k0_off212 v1396) a + S1x64x128.size a ≤ S45x64x128.size a)
instance k0_chk212.dec : ∀ (v1396 : BitVec 32), Decidable (k0_chk212 v1396) := fun v1396 => decidable_of_iff' _ (Iff.of_eq (k0_chk212.eq_1 v1396))
theorem k0_off212_inb : ∀ (v1396 : BitVec 32) (k0_hw212 : k0_chk212 v1396), ∀ a, (k0_off212 v1396) a + S1x64x128.size a ≤ S45x64x128.size a := fun v1396 k0_hw212 => k0_hw212

def k0_off213 (v1407 : BitVec 32) : Fin 4 → Nat :=
  let c0_1456 : Index := 0#32
  let v1409 : Index := Scalar.indexCast v1407
  let c0_1457 : Index := 0#32
  let c0_1458 : Index := 0#32
  ![0, v1409.toNat, 0, 0]

def k0_chk213 (v1407 : BitVec 32) : Prop :=
  (∀ a, (k0_off213 v1407) a + S1x1x64x128.size a ≤ S1x9x64x128.size a)
instance k0_chk213.dec : ∀ (v1407 : BitVec 32), Decidable (k0_chk213 v1407) := fun v1407 => decidable_of_iff' _ (Iff.of_eq (k0_chk213.eq_1 v1407))
theorem k0_off213_inb : ∀ (v1407 : BitVec 32) (k0_hw213 : k0_chk213 v1407), ∀ a, (k0_off213 v1407) a + S1x1x64x128.size a ≤ S1x9x64x128.size a := fun v1407 k0_hw213 => k0_hw213

def k0_off214 (v1408 : BitVec 32) : Fin 3 → Nat :=
  let v1412 : Index := Scalar.indexCast v1408
  let c0_1459 : Index := 0#32
  let c0_1460 : Index := 0#32
  ![v1412.toNat, 0, 0]

def k0_chk214 (v1408 : BitVec 32) : Prop :=
  (∀ a, (k0_off214 v1408) a + S1x64x128.size a ≤ S45x64x128.size a)
instance k0_chk214.dec : ∀ (v1408 : BitVec 32), Decidable (k0_chk214 v1408) := fun v1408 => decidable_of_iff' _ (Iff.of_eq (k0_chk214.eq_1 v1408))
theorem k0_off214_inb : ∀ (v1408 : BitVec 32) (k0_hw214 : k0_chk214 v1408), ∀ a, (k0_off214 v1408) a + S1x64x128.size a ≤ S45x64x128.size a := fun v1408 k0_hw214 => k0_hw214

def k0_off215 (v1419 : BitVec 32) : Fin 4 → Nat :=
  let c0_1468 : Index := 0#32
  let v1421 : Index := Scalar.indexCast v1419
  let c0_1469 : Index := 0#32
  let c0_1470 : Index := 0#32
  ![0, v1421.toNat, 0, 0]

def k0_chk215 (v1419 : BitVec 32) : Prop :=
  (∀ a, (k0_off215 v1419) a + S1x1x64x128.size a ≤ S1x9x64x128.size a)
instance k0_chk215.dec : ∀ (v1419 : BitVec 32), Decidable (k0_chk215 v1419) := fun v1419 => decidable_of_iff' _ (Iff.of_eq (k0_chk215.eq_1 v1419))
theorem k0_off215_inb : ∀ (v1419 : BitVec 32) (k0_hw215 : k0_chk215 v1419), ∀ a, (k0_off215 v1419) a + S1x1x64x128.size a ≤ S1x9x64x128.size a := fun v1419 k0_hw215 => k0_hw215

def k0_off216 (v1420 : BitVec 32) : Fin 3 → Nat :=
  let v1424 : Index := Scalar.indexCast v1420
  let c0_1471 : Index := 0#32
  let c0_1472 : Index := 0#32
  ![v1424.toNat, 0, 0]

def k0_chk216 (v1420 : BitVec 32) : Prop :=
  (∀ a, (k0_off216 v1420) a + S1x64x128.size a ≤ S45x64x128.size a)
instance k0_chk216.dec : ∀ (v1420 : BitVec 32), Decidable (k0_chk216 v1420) := fun v1420 => decidable_of_iff' _ (Iff.of_eq (k0_chk216.eq_1 v1420))
theorem k0_off216_inb : ∀ (v1420 : BitVec 32) (k0_hw216 : k0_chk216 v1420), ∀ a, (k0_off216 v1420) a + S1x64x128.size a ≤ S45x64x128.size a := fun v1420 k0_hw216 => k0_hw216

def k0_off217 (v1431 : BitVec 32) : Fin 4 → Nat :=
  let c0_1480 : Index := 0#32
  let v1433 : Index := Scalar.indexCast v1431
  let c0_1481 : Index := 0#32
  let c0_1482 : Index := 0#32
  ![0, v1433.toNat, 0, 0]

def k0_chk217 (v1431 : BitVec 32) : Prop :=
  (∀ a, (k0_off217 v1431) a + S1x1x64x128.size a ≤ S1x9x64x128.size a)
instance k0_chk217.dec : ∀ (v1431 : BitVec 32), Decidable (k0_chk217 v1431) := fun v1431 => decidable_of_iff' _ (Iff.of_eq (k0_chk217.eq_1 v1431))
theorem k0_off217_inb : ∀ (v1431 : BitVec 32) (k0_hw217 : k0_chk217 v1431), ∀ a, (k0_off217 v1431) a + S1x1x64x128.size a ≤ S1x9x64x128.size a := fun v1431 k0_hw217 => k0_hw217

def k0_off218 (v1432 : BitVec 32) : Fin 3 → Nat :=
  let v1436 : Index := Scalar.indexCast v1432
  let c0_1483 : Index := 0#32
  let c0_1484 : Index := 0#32
  ![v1436.toNat, 0, 0]

def k0_chk218 (v1432 : BitVec 32) : Prop :=
  (∀ a, (k0_off218 v1432) a + S1x64x128.size a ≤ S45x64x128.size a)
instance k0_chk218.dec : ∀ (v1432 : BitVec 32), Decidable (k0_chk218 v1432) := fun v1432 => decidable_of_iff' _ (Iff.of_eq (k0_chk218.eq_1 v1432))
theorem k0_off218_inb : ∀ (v1432 : BitVec 32) (k0_hw218 : k0_chk218 v1432), ∀ a, (k0_off218 v1432) a + S1x64x128.size a ≤ S45x64x128.size a := fun v1432 k0_hw218 => k0_hw218

def k0_off219 (v1443 : BitVec 32) : Fin 4 → Nat :=
  let c0_1492 : Index := 0#32
  let v1445 : Index := Scalar.indexCast v1443
  let c0_1493 : Index := 0#32
  let c0_1494 : Index := 0#32
  ![0, v1445.toNat, 0, 0]

def k0_chk219 (v1443 : BitVec 32) : Prop :=
  (∀ a, (k0_off219 v1443) a + S1x1x64x128.size a ≤ S1x9x64x128.size a)
instance k0_chk219.dec : ∀ (v1443 : BitVec 32), Decidable (k0_chk219 v1443) := fun v1443 => decidable_of_iff' _ (Iff.of_eq (k0_chk219.eq_1 v1443))
theorem k0_off219_inb : ∀ (v1443 : BitVec 32) (k0_hw219 : k0_chk219 v1443), ∀ a, (k0_off219 v1443) a + S1x1x64x128.size a ≤ S1x9x64x128.size a := fun v1443 k0_hw219 => k0_hw219

def k0_off220 (v1444 : BitVec 32) : Fin 3 → Nat :=
  let v1448 : Index := Scalar.indexCast v1444
  let c0_1495 : Index := 0#32
  let c0_1496 : Index := 0#32
  ![v1448.toNat, 0, 0]

def k0_chk220 (v1444 : BitVec 32) : Prop :=
  (∀ a, (k0_off220 v1444) a + S1x64x128.size a ≤ S45x64x128.size a)
instance k0_chk220.dec : ∀ (v1444 : BitVec 32), Decidable (k0_chk220 v1444) := fun v1444 => decidable_of_iff' _ (Iff.of_eq (k0_chk220.eq_1 v1444))
theorem k0_off220_inb : ∀ (v1444 : BitVec 32) (k0_hw220 : k0_chk220 v1444), ∀ a, (k0_off220 v1444) a + S1x64x128.size a ≤ S45x64x128.size a := fun v1444 k0_hw220 => k0_hw220

def k0_off221 (v1455 : BitVec 32) : Fin 4 → Nat :=
  let c0_1504 : Index := 0#32
  let v1457 : Index := Scalar.indexCast v1455
  let c0_1505 : Index := 0#32
  let c0_1506 : Index := 0#32
  ![0, v1457.toNat, 0, 0]

def k0_chk221 (v1455 : BitVec 32) : Prop :=
  (∀ a, (k0_off221 v1455) a + S1x1x64x128.size a ≤ S1x9x64x128.size a)
instance k0_chk221.dec : ∀ (v1455 : BitVec 32), Decidable (k0_chk221 v1455) := fun v1455 => decidable_of_iff' _ (Iff.of_eq (k0_chk221.eq_1 v1455))
theorem k0_off221_inb : ∀ (v1455 : BitVec 32) (k0_hw221 : k0_chk221 v1455), ∀ a, (k0_off221 v1455) a + S1x1x64x128.size a ≤ S1x9x64x128.size a := fun v1455 k0_hw221 => k0_hw221

def k0_off222 (v1456 : BitVec 32) : Fin 3 → Nat :=
  let v1460 : Index := Scalar.indexCast v1456
  let c0_1507 : Index := 0#32
  let c0_1508 : Index := 0#32
  ![v1460.toNat, 0, 0]

def k0_chk222 (v1456 : BitVec 32) : Prop :=
  (∀ a, (k0_off222 v1456) a + S1x64x128.size a ≤ S45x64x128.size a)
instance k0_chk222.dec : ∀ (v1456 : BitVec 32), Decidable (k0_chk222 v1456) := fun v1456 => decidable_of_iff' _ (Iff.of_eq (k0_chk222.eq_1 v1456))
theorem k0_off222_inb : ∀ (v1456 : BitVec 32) (k0_hw222 : k0_chk222 v1456), ∀ a, (k0_off222 v1456) a + S1x64x128.size a ≤ S45x64x128.size a := fun v1456 k0_hw222 => k0_hw222

def k0_off223 (v1467 : BitVec 32) : Fin 4 → Nat :=
  let c0_1516 : Index := 0#32
  let v1469 : Index := Scalar.indexCast v1467
  let c0_1517 : Index := 0#32
  let c0_1518 : Index := 0#32
  ![0, v1469.toNat, 0, 0]

def k0_chk223 (v1467 : BitVec 32) : Prop :=
  (∀ a, (k0_off223 v1467) a + S1x1x64x128.size a ≤ S1x9x64x128.size a)
instance k0_chk223.dec : ∀ (v1467 : BitVec 32), Decidable (k0_chk223 v1467) := fun v1467 => decidable_of_iff' _ (Iff.of_eq (k0_chk223.eq_1 v1467))
theorem k0_off223_inb : ∀ (v1467 : BitVec 32) (k0_hw223 : k0_chk223 v1467), ∀ a, (k0_off223 v1467) a + S1x1x64x128.size a ≤ S1x9x64x128.size a := fun v1467 k0_hw223 => k0_hw223

def k0_off224 (v1468 : BitVec 32) : Fin 3 → Nat :=
  let v1472 : Index := Scalar.indexCast v1468
  let c0_1519 : Index := 0#32
  let c0_1520 : Index := 0#32
  ![v1472.toNat, 0, 0]

def k0_chk224 (v1468 : BitVec 32) : Prop :=
  (∀ a, (k0_off224 v1468) a + S1x64x128.size a ≤ S45x64x128.size a)
instance k0_chk224.dec : ∀ (v1468 : BitVec 32), Decidable (k0_chk224 v1468) := fun v1468 => decidable_of_iff' _ (Iff.of_eq (k0_chk224.eq_1 v1468))
theorem k0_off224_inb : ∀ (v1468 : BitVec 32) (k0_hw224 : k0_chk224 v1468), ∀ a, (k0_off224 v1468) a + S1x64x128.size a ≤ S45x64x128.size a := fun v1468 k0_hw224 => k0_hw224

def k0_off225 (v1479 : BitVec 32) : Fin 4 → Nat :=
  let c0_1528 : Index := 0#32
  let v1481 : Index := Scalar.indexCast v1479
  let c0_1529 : Index := 0#32
  let c0_1530 : Index := 0#32
  ![0, v1481.toNat, 0, 0]

def k0_chk225 (v1479 : BitVec 32) : Prop :=
  (∀ a, (k0_off225 v1479) a + S1x1x64x128.size a ≤ S1x9x64x128.size a)
instance k0_chk225.dec : ∀ (v1479 : BitVec 32), Decidable (k0_chk225 v1479) := fun v1479 => decidable_of_iff' _ (Iff.of_eq (k0_chk225.eq_1 v1479))
theorem k0_off225_inb : ∀ (v1479 : BitVec 32) (k0_hw225 : k0_chk225 v1479), ∀ a, (k0_off225 v1479) a + S1x1x64x128.size a ≤ S1x9x64x128.size a := fun v1479 k0_hw225 => k0_hw225

def k0_off226 (v1480 : BitVec 32) : Fin 3 → Nat :=
  let v1484 : Index := Scalar.indexCast v1480
  let c0_1531 : Index := 0#32
  let c0_1532 : Index := 0#32
  ![v1484.toNat, 0, 0]

def k0_chk226 (v1480 : BitVec 32) : Prop :=
  (∀ a, (k0_off226 v1480) a + S1x64x128.size a ≤ S45x64x128.size a)
instance k0_chk226.dec : ∀ (v1480 : BitVec 32), Decidable (k0_chk226 v1480) := fun v1480 => decidable_of_iff' _ (Iff.of_eq (k0_chk226.eq_1 v1480))
theorem k0_off226_inb : ∀ (v1480 : BitVec 32) (k0_hw226 : k0_chk226 v1480), ∀ a, (k0_off226 v1480) a + S1x64x128.size a ≤ S45x64x128.size a := fun v1480 k0_hw226 => k0_hw226

def k0_off227 (v1491 : BitVec 32) : Fin 4 → Nat :=
  let c0_1540 : Index := 0#32
  let v1493 : Index := Scalar.indexCast v1491
  let c0_1541 : Index := 0#32
  let c0_1542 : Index := 0#32
  ![0, v1493.toNat, 0, 0]

def k0_chk227 (v1491 : BitVec 32) : Prop :=
  (∀ a, (k0_off227 v1491) a + S1x1x64x128.size a ≤ S1x9x64x128.size a)
instance k0_chk227.dec : ∀ (v1491 : BitVec 32), Decidable (k0_chk227 v1491) := fun v1491 => decidable_of_iff' _ (Iff.of_eq (k0_chk227.eq_1 v1491))
theorem k0_off227_inb : ∀ (v1491 : BitVec 32) (k0_hw227 : k0_chk227 v1491), ∀ a, (k0_off227 v1491) a + S1x1x64x128.size a ≤ S1x9x64x128.size a := fun v1491 k0_hw227 => k0_hw227

def k0_off228 (v1492 : BitVec 32) : Fin 3 → Nat :=
  let v1496 : Index := Scalar.indexCast v1492
  let c0_1543 : Index := 0#32
  let c0_1544 : Index := 0#32
  ![v1496.toNat, 0, 0]

def k0_chk228 (v1492 : BitVec 32) : Prop :=
  (∀ a, (k0_off228 v1492) a + S1x64x128.size a ≤ S45x64x128.size a)
instance k0_chk228.dec : ∀ (v1492 : BitVec 32), Decidable (k0_chk228 v1492) := fun v1492 => decidable_of_iff' _ (Iff.of_eq (k0_chk228.eq_1 v1492))
theorem k0_off228_inb : ∀ (v1492 : BitVec 32) (k0_hw228 : k0_chk228 v1492), ∀ a, (k0_off228 v1492) a + S1x64x128.size a ≤ S45x64x128.size a := fun v1492 k0_hw228 => k0_hw228

def k0_off229 (v1503 : BitVec 32) : Fin 4 → Nat :=
  let c0_1552 : Index := 0#32
  let v1505 : Index := Scalar.indexCast v1503
  let c0_1553 : Index := 0#32
  let c0_1554 : Index := 0#32
  ![0, v1505.toNat, 0, 0]

def k0_chk229 (v1503 : BitVec 32) : Prop :=
  (∀ a, (k0_off229 v1503) a + S1x1x64x128.size a ≤ S1x9x64x128.size a)
instance k0_chk229.dec : ∀ (v1503 : BitVec 32), Decidable (k0_chk229 v1503) := fun v1503 => decidable_of_iff' _ (Iff.of_eq (k0_chk229.eq_1 v1503))
theorem k0_off229_inb : ∀ (v1503 : BitVec 32) (k0_hw229 : k0_chk229 v1503), ∀ a, (k0_off229 v1503) a + S1x1x64x128.size a ≤ S1x9x64x128.size a := fun v1503 k0_hw229 => k0_hw229

def k0_off230 (v1504 : BitVec 32) : Fin 3 → Nat :=
  let v1508 : Index := Scalar.indexCast v1504
  let c0_1555 : Index := 0#32
  let c0_1556 : Index := 0#32
  ![v1508.toNat, 0, 0]

def k0_chk230 (v1504 : BitVec 32) : Prop :=
  (∀ a, (k0_off230 v1504) a + S1x64x128.size a ≤ S45x64x128.size a)
instance k0_chk230.dec : ∀ (v1504 : BitVec 32), Decidable (k0_chk230 v1504) := fun v1504 => decidable_of_iff' _ (Iff.of_eq (k0_chk230.eq_1 v1504))
theorem k0_off230_inb : ∀ (v1504 : BitVec 32) (k0_hw230 : k0_chk230 v1504), ∀ a, (k0_off230 v1504) a + S1x64x128.size a ≤ S45x64x128.size a := fun v1504 k0_hw230 => k0_hw230

def k0_off231 (v1515 : BitVec 32) : Fin 4 → Nat :=
  let c0_1564 : Index := 0#32
  let v1517 : Index := Scalar.indexCast v1515
  let c0_1565 : Index := 0#32
  let c0_1566 : Index := 0#32
  ![0, v1517.toNat, 0, 0]

def k0_chk231 (v1515 : BitVec 32) : Prop :=
  (∀ a, (k0_off231 v1515) a + S1x1x64x128.size a ≤ S1x9x64x128.size a)
instance k0_chk231.dec : ∀ (v1515 : BitVec 32), Decidable (k0_chk231 v1515) := fun v1515 => decidable_of_iff' _ (Iff.of_eq (k0_chk231.eq_1 v1515))
theorem k0_off231_inb : ∀ (v1515 : BitVec 32) (k0_hw231 : k0_chk231 v1515), ∀ a, (k0_off231 v1515) a + S1x1x64x128.size a ≤ S1x9x64x128.size a := fun v1515 k0_hw231 => k0_hw231

def k0_off232 (v1516 : BitVec 32) : Fin 3 → Nat :=
  let v1520 : Index := Scalar.indexCast v1516
  let c0_1567 : Index := 0#32
  let c0_1568 : Index := 0#32
  ![v1520.toNat, 0, 0]

def k0_chk232 (v1516 : BitVec 32) : Prop :=
  (∀ a, (k0_off232 v1516) a + S1x64x128.size a ≤ S45x64x128.size a)
instance k0_chk232.dec : ∀ (v1516 : BitVec 32), Decidable (k0_chk232 v1516) := fun v1516 => decidable_of_iff' _ (Iff.of_eq (k0_chk232.eq_1 v1516))
theorem k0_off232_inb : ∀ (v1516 : BitVec 32) (k0_hw232 : k0_chk232 v1516), ∀ a, (k0_off232 v1516) a + S1x64x128.size a ≤ S45x64x128.size a := fun v1516 k0_hw232 => k0_hw232

def k0_off233 (v1527 : BitVec 32) : Fin 4 → Nat :=
  let c0_1576 : Index := 0#32
  let v1529 : Index := Scalar.indexCast v1527
  let c0_1577 : Index := 0#32
  let c0_1578 : Index := 0#32
  ![0, v1529.toNat, 0, 0]

def k0_chk233 (v1527 : BitVec 32) : Prop :=
  (∀ a, (k0_off233 v1527) a + S1x1x64x128.size a ≤ S1x9x64x128.size a)
instance k0_chk233.dec : ∀ (v1527 : BitVec 32), Decidable (k0_chk233 v1527) := fun v1527 => decidable_of_iff' _ (Iff.of_eq (k0_chk233.eq_1 v1527))
theorem k0_off233_inb : ∀ (v1527 : BitVec 32) (k0_hw233 : k0_chk233 v1527), ∀ a, (k0_off233 v1527) a + S1x1x64x128.size a ≤ S1x9x64x128.size a := fun v1527 k0_hw233 => k0_hw233

def k0_off234 (v1528 : BitVec 32) : Fin 3 → Nat :=
  let v1532 : Index := Scalar.indexCast v1528
  let c0_1579 : Index := 0#32
  let c0_1580 : Index := 0#32
  ![v1532.toNat, 0, 0]

def k0_chk234 (v1528 : BitVec 32) : Prop :=
  (∀ a, (k0_off234 v1528) a + S1x64x128.size a ≤ S45x64x128.size a)
instance k0_chk234.dec : ∀ (v1528 : BitVec 32), Decidable (k0_chk234 v1528) := fun v1528 => decidable_of_iff' _ (Iff.of_eq (k0_chk234.eq_1 v1528))
theorem k0_off234_inb : ∀ (v1528 : BitVec 32) (k0_hw234 : k0_chk234 v1528), ∀ a, (k0_off234 v1528) a + S1x64x128.size a ≤ S45x64x128.size a := fun v1528 k0_hw234 => k0_hw234

def k0_off235 (v1539 : BitVec 32) : Fin 4 → Nat :=
  let c0_1588 : Index := 0#32
  let v1541 : Index := Scalar.indexCast v1539
  let c0_1589 : Index := 0#32
  let c0_1590 : Index := 0#32
  ![0, v1541.toNat, 0, 0]

def k0_chk235 (v1539 : BitVec 32) : Prop :=
  (∀ a, (k0_off235 v1539) a + S1x1x64x128.size a ≤ S1x9x64x128.size a)
instance k0_chk235.dec : ∀ (v1539 : BitVec 32), Decidable (k0_chk235 v1539) := fun v1539 => decidable_of_iff' _ (Iff.of_eq (k0_chk235.eq_1 v1539))
theorem k0_off235_inb : ∀ (v1539 : BitVec 32) (k0_hw235 : k0_chk235 v1539), ∀ a, (k0_off235 v1539) a + S1x1x64x128.size a ≤ S1x9x64x128.size a := fun v1539 k0_hw235 => k0_hw235

def k0_off236 (v1540 : BitVec 32) : Fin 3 → Nat :=
  let v1544 : Index := Scalar.indexCast v1540
  let c0_1591 : Index := 0#32
  let c0_1592 : Index := 0#32
  ![v1544.toNat, 0, 0]

def k0_chk236 (v1540 : BitVec 32) : Prop :=
  (∀ a, (k0_off236 v1540) a + S1x64x128.size a ≤ S45x64x128.size a)
instance k0_chk236.dec : ∀ (v1540 : BitVec 32), Decidable (k0_chk236 v1540) := fun v1540 => decidable_of_iff' _ (Iff.of_eq (k0_chk236.eq_1 v1540))
theorem k0_off236_inb : ∀ (v1540 : BitVec 32) (k0_hw236 : k0_chk236 v1540), ∀ a, (k0_off236 v1540) a + S1x64x128.size a ≤ S45x64x128.size a := fun v1540 k0_hw236 => k0_hw236

def k0_off237 (v1551 : BitVec 32) : Fin 4 → Nat :=
  let c0_1600 : Index := 0#32
  let v1553 : Index := Scalar.indexCast v1551
  let c0_1601 : Index := 0#32
  let c0_1602 : Index := 0#32
  ![0, v1553.toNat, 0, 0]

def k0_chk237 (v1551 : BitVec 32) : Prop :=
  (∀ a, (k0_off237 v1551) a + S1x1x64x128.size a ≤ S1x9x64x128.size a)
instance k0_chk237.dec : ∀ (v1551 : BitVec 32), Decidable (k0_chk237 v1551) := fun v1551 => decidable_of_iff' _ (Iff.of_eq (k0_chk237.eq_1 v1551))
theorem k0_off237_inb : ∀ (v1551 : BitVec 32) (k0_hw237 : k0_chk237 v1551), ∀ a, (k0_off237 v1551) a + S1x1x64x128.size a ≤ S1x9x64x128.size a := fun v1551 k0_hw237 => k0_hw237

def k0_off238 (v1552 : BitVec 32) : Fin 3 → Nat :=
  let v1556 : Index := Scalar.indexCast v1552
  let c0_1603 : Index := 0#32
  let c0_1604 : Index := 0#32
  ![v1556.toNat, 0, 0]

def k0_chk238 (v1552 : BitVec 32) : Prop :=
  (∀ a, (k0_off238 v1552) a + S1x64x128.size a ≤ S45x64x128.size a)
instance k0_chk238.dec : ∀ (v1552 : BitVec 32), Decidable (k0_chk238 v1552) := fun v1552 => decidable_of_iff' _ (Iff.of_eq (k0_chk238.eq_1 v1552))
theorem k0_off238_inb : ∀ (v1552 : BitVec 32) (k0_hw238 : k0_chk238 v1552), ∀ a, (k0_off238 v1552) a + S1x64x128.size a ≤ S45x64x128.size a := fun v1552 k0_hw238 => k0_hw238

def k0_off239 (v1563 : BitVec 32) : Fin 4 → Nat :=
  let c0_1612 : Index := 0#32
  let v1565 : Index := Scalar.indexCast v1563
  let c0_1613 : Index := 0#32
  let c0_1614 : Index := 0#32
  ![0, v1565.toNat, 0, 0]

def k0_chk239 (v1563 : BitVec 32) : Prop :=
  (∀ a, (k0_off239 v1563) a + S1x1x64x128.size a ≤ S1x9x64x128.size a)
instance k0_chk239.dec : ∀ (v1563 : BitVec 32), Decidable (k0_chk239 v1563) := fun v1563 => decidable_of_iff' _ (Iff.of_eq (k0_chk239.eq_1 v1563))
theorem k0_off239_inb : ∀ (v1563 : BitVec 32) (k0_hw239 : k0_chk239 v1563), ∀ a, (k0_off239 v1563) a + S1x1x64x128.size a ≤ S1x9x64x128.size a := fun v1563 k0_hw239 => k0_hw239

def k0_off240 (v1564 : BitVec 32) : Fin 3 → Nat :=
  let v1568 : Index := Scalar.indexCast v1564
  let c0_1615 : Index := 0#32
  let c0_1616 : Index := 0#32
  ![v1568.toNat, 0, 0]

def k0_chk240 (v1564 : BitVec 32) : Prop :=
  (∀ a, (k0_off240 v1564) a + S1x64x128.size a ≤ S45x64x128.size a)
instance k0_chk240.dec : ∀ (v1564 : BitVec 32), Decidable (k0_chk240 v1564) := fun v1564 => decidable_of_iff' _ (Iff.of_eq (k0_chk240.eq_1 v1564))
theorem k0_off240_inb : ∀ (v1564 : BitVec 32) (k0_hw240 : k0_chk240 v1564), ∀ a, (k0_off240 v1564) a + S1x64x128.size a ≤ S45x64x128.size a := fun v1564 k0_hw240 => k0_hw240

def k0_off241 (v1575 : BitVec 32) : Fin 4 → Nat :=
  let c0_1624 : Index := 0#32
  let v1577 : Index := Scalar.indexCast v1575
  let c0_1625 : Index := 0#32
  let c0_1626 : Index := 0#32
  ![0, v1577.toNat, 0, 0]

def k0_chk241 (v1575 : BitVec 32) : Prop :=
  (∀ a, (k0_off241 v1575) a + S1x1x64x128.size a ≤ S1x9x64x128.size a)
instance k0_chk241.dec : ∀ (v1575 : BitVec 32), Decidable (k0_chk241 v1575) := fun v1575 => decidable_of_iff' _ (Iff.of_eq (k0_chk241.eq_1 v1575))
theorem k0_off241_inb : ∀ (v1575 : BitVec 32) (k0_hw241 : k0_chk241 v1575), ∀ a, (k0_off241 v1575) a + S1x1x64x128.size a ≤ S1x9x64x128.size a := fun v1575 k0_hw241 => k0_hw241

def k0_off242 (v1576 : BitVec 32) : Fin 3 → Nat :=
  let v1580 : Index := Scalar.indexCast v1576
  let c0_1627 : Index := 0#32
  let c0_1628 : Index := 0#32
  ![v1580.toNat, 0, 0]

def k0_chk242 (v1576 : BitVec 32) : Prop :=
  (∀ a, (k0_off242 v1576) a + S1x64x128.size a ≤ S45x64x128.size a)
instance k0_chk242.dec : ∀ (v1576 : BitVec 32), Decidable (k0_chk242 v1576) := fun v1576 => decidable_of_iff' _ (Iff.of_eq (k0_chk242.eq_1 v1576))
theorem k0_off242_inb : ∀ (v1576 : BitVec 32) (k0_hw242 : k0_chk242 v1576), ∀ a, (k0_off242 v1576) a + S1x64x128.size a ≤ S45x64x128.size a := fun v1576 k0_hw242 => k0_hw242

def k0_off243 (v1587 : BitVec 32) : Fin 4 → Nat :=
  let c0_1636 : Index := 0#32
  let v1589 : Index := Scalar.indexCast v1587
  let c0_1637 : Index := 0#32
  let c0_1638 : Index := 0#32
  ![0, v1589.toNat, 0, 0]

def k0_chk243 (v1587 : BitVec 32) : Prop :=
  (∀ a, (k0_off243 v1587) a + S1x1x64x128.size a ≤ S1x9x64x128.size a)
instance k0_chk243.dec : ∀ (v1587 : BitVec 32), Decidable (k0_chk243 v1587) := fun v1587 => decidable_of_iff' _ (Iff.of_eq (k0_chk243.eq_1 v1587))
theorem k0_off243_inb : ∀ (v1587 : BitVec 32) (k0_hw243 : k0_chk243 v1587), ∀ a, (k0_off243 v1587) a + S1x1x64x128.size a ≤ S1x9x64x128.size a := fun v1587 k0_hw243 => k0_hw243

def k0_off244 (v1588 : BitVec 32) : Fin 3 → Nat :=
  let v1592 : Index := Scalar.indexCast v1588
  let c0_1639 : Index := 0#32
  let c0_1640 : Index := 0#32
  ![v1592.toNat, 0, 0]

def k0_chk244 (v1588 : BitVec 32) : Prop :=
  (∀ a, (k0_off244 v1588) a + S1x64x128.size a ≤ S45x64x128.size a)
instance k0_chk244.dec : ∀ (v1588 : BitVec 32), Decidable (k0_chk244 v1588) := fun v1588 => decidable_of_iff' _ (Iff.of_eq (k0_chk244.eq_1 v1588))
theorem k0_off244_inb : ∀ (v1588 : BitVec 32) (k0_hw244 : k0_chk244 v1588), ∀ a, (k0_off244 v1588) a + S1x64x128.size a ≤ S45x64x128.size a := fun v1588 k0_hw244 => k0_hw244

def k0_off245 (v1599 : BitVec 32) : Fin 4 → Nat :=
  let c0_1648 : Index := 0#32
  let v1601 : Index := Scalar.indexCast v1599
  let c0_1649 : Index := 0#32
  let c0_1650 : Index := 0#32
  ![0, v1601.toNat, 0, 0]

def k0_chk245 (v1599 : BitVec 32) : Prop :=
  (∀ a, (k0_off245 v1599) a + S1x1x64x128.size a ≤ S1x9x64x128.size a)
instance k0_chk245.dec : ∀ (v1599 : BitVec 32), Decidable (k0_chk245 v1599) := fun v1599 => decidable_of_iff' _ (Iff.of_eq (k0_chk245.eq_1 v1599))
theorem k0_off245_inb : ∀ (v1599 : BitVec 32) (k0_hw245 : k0_chk245 v1599), ∀ a, (k0_off245 v1599) a + S1x1x64x128.size a ≤ S1x9x64x128.size a := fun v1599 k0_hw245 => k0_hw245

def k0_off246 (v1600 : BitVec 32) : Fin 3 → Nat :=
  let v1604 : Index := Scalar.indexCast v1600
  let c0_1651 : Index := 0#32
  let c0_1652 : Index := 0#32
  ![v1604.toNat, 0, 0]

def k0_chk246 (v1600 : BitVec 32) : Prop :=
  (∀ a, (k0_off246 v1600) a + S1x64x128.size a ≤ S45x64x128.size a)
instance k0_chk246.dec : ∀ (v1600 : BitVec 32), Decidable (k0_chk246 v1600) := fun v1600 => decidable_of_iff' _ (Iff.of_eq (k0_chk246.eq_1 v1600))
theorem k0_off246_inb : ∀ (v1600 : BitVec 32) (k0_hw246 : k0_chk246 v1600), ∀ a, (k0_off246 v1600) a + S1x64x128.size a ≤ S45x64x128.size a := fun v1600 k0_hw246 => k0_hw246

def k0_off247 (v1611 : BitVec 32) : Fin 4 → Nat :=
  let c0_1660 : Index := 0#32
  let v1613 : Index := Scalar.indexCast v1611
  let c0_1661 : Index := 0#32
  let c0_1662 : Index := 0#32
  ![0, v1613.toNat, 0, 0]

def k0_chk247 (v1611 : BitVec 32) : Prop :=
  (∀ a, (k0_off247 v1611) a + S1x1x64x128.size a ≤ S1x9x64x128.size a)
instance k0_chk247.dec : ∀ (v1611 : BitVec 32), Decidable (k0_chk247 v1611) := fun v1611 => decidable_of_iff' _ (Iff.of_eq (k0_chk247.eq_1 v1611))
theorem k0_off247_inb : ∀ (v1611 : BitVec 32) (k0_hw247 : k0_chk247 v1611), ∀ a, (k0_off247 v1611) a + S1x1x64x128.size a ≤ S1x9x64x128.size a := fun v1611 k0_hw247 => k0_hw247

def k0_off248 (v1612 : BitVec 32) : Fin 3 → Nat :=
  let v1616 : Index := Scalar.indexCast v1612
  let c0_1663 : Index := 0#32
  let c0_1664 : Index := 0#32
  ![v1616.toNat, 0, 0]

def k0_chk248 (v1612 : BitVec 32) : Prop :=
  (∀ a, (k0_off248 v1612) a + S1x64x128.size a ≤ S45x64x128.size a)
instance k0_chk248.dec : ∀ (v1612 : BitVec 32), Decidable (k0_chk248 v1612) := fun v1612 => decidable_of_iff' _ (Iff.of_eq (k0_chk248.eq_1 v1612))
theorem k0_off248_inb : ∀ (v1612 : BitVec 32) (k0_hw248 : k0_chk248 v1612), ∀ a, (k0_off248 v1612) a + S1x64x128.size a ≤ S45x64x128.size a := fun v1612 k0_hw248 => k0_hw248

def k0_off249 (v1623 : BitVec 32) : Fin 4 → Nat :=
  let c0_1672 : Index := 0#32
  let v1625 : Index := Scalar.indexCast v1623
  let c0_1673 : Index := 0#32
  let c0_1674 : Index := 0#32
  ![0, v1625.toNat, 0, 0]

def k0_chk249 (v1623 : BitVec 32) : Prop :=
  (∀ a, (k0_off249 v1623) a + S1x1x64x128.size a ≤ S1x9x64x128.size a)
instance k0_chk249.dec : ∀ (v1623 : BitVec 32), Decidable (k0_chk249 v1623) := fun v1623 => decidable_of_iff' _ (Iff.of_eq (k0_chk249.eq_1 v1623))
theorem k0_off249_inb : ∀ (v1623 : BitVec 32) (k0_hw249 : k0_chk249 v1623), ∀ a, (k0_off249 v1623) a + S1x1x64x128.size a ≤ S1x9x64x128.size a := fun v1623 k0_hw249 => k0_hw249

def k0_off250 (v1624 : BitVec 32) : Fin 3 → Nat :=
  let v1628 : Index := Scalar.indexCast v1624
  let c0_1675 : Index := 0#32
  let c0_1676 : Index := 0#32
  ![v1628.toNat, 0, 0]

def k0_chk250 (v1624 : BitVec 32) : Prop :=
  (∀ a, (k0_off250 v1624) a + S1x64x128.size a ≤ S45x64x128.size a)
instance k0_chk250.dec : ∀ (v1624 : BitVec 32), Decidable (k0_chk250 v1624) := fun v1624 => decidable_of_iff' _ (Iff.of_eq (k0_chk250.eq_1 v1624))
theorem k0_off250_inb : ∀ (v1624 : BitVec 32) (k0_hw250 : k0_chk250 v1624), ∀ a, (k0_off250 v1624) a + S1x64x128.size a ≤ S45x64x128.size a := fun v1624 k0_hw250 => k0_hw250

def k0_off251 (v1635 : BitVec 32) : Fin 4 → Nat :=
  let c0_1684 : Index := 0#32
  let v1637 : Index := Scalar.indexCast v1635
  let c0_1685 : Index := 0#32
  let c0_1686 : Index := 0#32
  ![0, v1637.toNat, 0, 0]

def k0_chk251 (v1635 : BitVec 32) : Prop :=
  (∀ a, (k0_off251 v1635) a + S1x1x64x128.size a ≤ S1x9x64x128.size a)
instance k0_chk251.dec : ∀ (v1635 : BitVec 32), Decidable (k0_chk251 v1635) := fun v1635 => decidable_of_iff' _ (Iff.of_eq (k0_chk251.eq_1 v1635))
theorem k0_off251_inb : ∀ (v1635 : BitVec 32) (k0_hw251 : k0_chk251 v1635), ∀ a, (k0_off251 v1635) a + S1x1x64x128.size a ≤ S1x9x64x128.size a := fun v1635 k0_hw251 => k0_hw251

def k0_off252 (v1636 : BitVec 32) : Fin 3 → Nat :=
  let v1640 : Index := Scalar.indexCast v1636
  let c0_1687 : Index := 0#32
  let c0_1688 : Index := 0#32
  ![v1640.toNat, 0, 0]

def k0_chk252 (v1636 : BitVec 32) : Prop :=
  (∀ a, (k0_off252 v1636) a + S1x64x128.size a ≤ S45x64x128.size a)
instance k0_chk252.dec : ∀ (v1636 : BitVec 32), Decidable (k0_chk252 v1636) := fun v1636 => decidable_of_iff' _ (Iff.of_eq (k0_chk252.eq_1 v1636))
theorem k0_off252_inb : ∀ (v1636 : BitVec 32) (k0_hw252 : k0_chk252 v1636), ∀ a, (k0_off252 v1636) a + S1x64x128.size a ≤ S45x64x128.size a := fun v1636 k0_hw252 => k0_hw252

def k0_off253 (v1647 : BitVec 32) : Fin 4 → Nat :=
  let c0_1696 : Index := 0#32
  let v1649 : Index := Scalar.indexCast v1647
  let c0_1697 : Index := 0#32
  let c0_1698 : Index := 0#32
  ![0, v1649.toNat, 0, 0]

def k0_chk253 (v1647 : BitVec 32) : Prop :=
  (∀ a, (k0_off253 v1647) a + S1x1x64x128.size a ≤ S1x9x64x128.size a)
instance k0_chk253.dec : ∀ (v1647 : BitVec 32), Decidable (k0_chk253 v1647) := fun v1647 => decidable_of_iff' _ (Iff.of_eq (k0_chk253.eq_1 v1647))
theorem k0_off253_inb : ∀ (v1647 : BitVec 32) (k0_hw253 : k0_chk253 v1647), ∀ a, (k0_off253 v1647) a + S1x1x64x128.size a ≤ S1x9x64x128.size a := fun v1647 k0_hw253 => k0_hw253

def k0_off254 (v1648 : BitVec 32) : Fin 3 → Nat :=
  let v1652 : Index := Scalar.indexCast v1648
  let c0_1699 : Index := 0#32
  let c0_1700 : Index := 0#32
  ![v1652.toNat, 0, 0]

def k0_chk254 (v1648 : BitVec 32) : Prop :=
  (∀ a, (k0_off254 v1648) a + S1x64x128.size a ≤ S45x64x128.size a)
instance k0_chk254.dec : ∀ (v1648 : BitVec 32), Decidable (k0_chk254 v1648) := fun v1648 => decidable_of_iff' _ (Iff.of_eq (k0_chk254.eq_1 v1648))
theorem k0_off254_inb : ∀ (v1648 : BitVec 32) (k0_hw254 : k0_chk254 v1648), ∀ a, (k0_off254 v1648) a + S1x64x128.size a ≤ S45x64x128.size a := fun v1648 k0_hw254 => k0_hw254

def k0_off255 (v1659 : BitVec 32) : Fin 4 → Nat :=
  let c0_1708 : Index := 0#32
  let v1661 : Index := Scalar.indexCast v1659
  let c0_1709 : Index := 0#32
  let c0_1710 : Index := 0#32
  ![0, v1661.toNat, 0, 0]

def k0_chk255 (v1659 : BitVec 32) : Prop :=
  (∀ a, (k0_off255 v1659) a + S1x1x64x128.size a ≤ S1x9x64x128.size a)
instance k0_chk255.dec : ∀ (v1659 : BitVec 32), Decidable (k0_chk255 v1659) := fun v1659 => decidable_of_iff' _ (Iff.of_eq (k0_chk255.eq_1 v1659))
theorem k0_off255_inb : ∀ (v1659 : BitVec 32) (k0_hw255 : k0_chk255 v1659), ∀ a, (k0_off255 v1659) a + S1x1x64x128.size a ≤ S1x9x64x128.size a := fun v1659 k0_hw255 => k0_hw255

def k0_off256 (v1660 : BitVec 32) : Fin 3 → Nat :=
  let v1664 : Index := Scalar.indexCast v1660
  let c0_1711 : Index := 0#32
  let c0_1712 : Index := 0#32
  ![v1664.toNat, 0, 0]

def k0_chk256 (v1660 : BitVec 32) : Prop :=
  (∀ a, (k0_off256 v1660) a + S1x64x128.size a ≤ S45x64x128.size a)
instance k0_chk256.dec : ∀ (v1660 : BitVec 32), Decidable (k0_chk256 v1660) := fun v1660 => decidable_of_iff' _ (Iff.of_eq (k0_chk256.eq_1 v1660))
theorem k0_off256_inb : ∀ (v1660 : BitVec 32) (k0_hw256 : k0_chk256 v1660), ∀ a, (k0_off256 v1660) a + S1x64x128.size a ≤ S45x64x128.size a := fun v1660 k0_hw256 => k0_hw256

def k0_off257 (v1671 : BitVec 32) : Fin 4 → Nat :=
  let c0_1720 : Index := 0#32
  let v1673 : Index := Scalar.indexCast v1671
  let c0_1721 : Index := 0#32
  let c0_1722 : Index := 0#32
  ![0, v1673.toNat, 0, 0]

def k0_chk257 (v1671 : BitVec 32) : Prop :=
  (∀ a, (k0_off257 v1671) a + S1x1x64x128.size a ≤ S1x9x64x128.size a)
instance k0_chk257.dec : ∀ (v1671 : BitVec 32), Decidable (k0_chk257 v1671) := fun v1671 => decidable_of_iff' _ (Iff.of_eq (k0_chk257.eq_1 v1671))
theorem k0_off257_inb : ∀ (v1671 : BitVec 32) (k0_hw257 : k0_chk257 v1671), ∀ a, (k0_off257 v1671) a + S1x1x64x128.size a ≤ S1x9x64x128.size a := fun v1671 k0_hw257 => k0_hw257

def k0_off258 (v1672 : BitVec 32) : Fin 3 → Nat :=
  let v1676 : Index := Scalar.indexCast v1672
  let c0_1723 : Index := 0#32
  let c0_1724 : Index := 0#32
  ![v1676.toNat, 0, 0]

def k0_chk258 (v1672 : BitVec 32) : Prop :=
  (∀ a, (k0_off258 v1672) a + S1x64x128.size a ≤ S45x64x128.size a)
instance k0_chk258.dec : ∀ (v1672 : BitVec 32), Decidable (k0_chk258 v1672) := fun v1672 => decidable_of_iff' _ (Iff.of_eq (k0_chk258.eq_1 v1672))
theorem k0_off258_inb : ∀ (v1672 : BitVec 32) (k0_hw258 : k0_chk258 v1672), ∀ a, (k0_off258 v1672) a + S1x64x128.size a ≤ S45x64x128.size a := fun v1672 k0_hw258 => k0_hw258

def k0_off259 (v1683 : BitVec 32) : Fin 4 → Nat :=
  let c0_1732 : Index := 0#32
  let v1685 : Index := Scalar.indexCast v1683
  let c0_1733 : Index := 0#32
  let c0_1734 : Index := 0#32
  ![0, v1685.toNat, 0, 0]

def k0_chk259 (v1683 : BitVec 32) : Prop :=
  (∀ a, (k0_off259 v1683) a + S1x1x64x128.size a ≤ S1x9x64x128.size a)
instance k0_chk259.dec : ∀ (v1683 : BitVec 32), Decidable (k0_chk259 v1683) := fun v1683 => decidable_of_iff' _ (Iff.of_eq (k0_chk259.eq_1 v1683))
theorem k0_off259_inb : ∀ (v1683 : BitVec 32) (k0_hw259 : k0_chk259 v1683), ∀ a, (k0_off259 v1683) a + S1x1x64x128.size a ≤ S1x9x64x128.size a := fun v1683 k0_hw259 => k0_hw259

def k0_off260 (v1684 : BitVec 32) : Fin 3 → Nat :=
  let v1688 : Index := Scalar.indexCast v1684
  let c0_1735 : Index := 0#32
  let c0_1736 : Index := 0#32
  ![v1688.toNat, 0, 0]

def k0_chk260 (v1684 : BitVec 32) : Prop :=
  (∀ a, (k0_off260 v1684) a + S1x64x128.size a ≤ S45x64x128.size a)
instance k0_chk260.dec : ∀ (v1684 : BitVec 32), Decidable (k0_chk260 v1684) := fun v1684 => decidable_of_iff' _ (Iff.of_eq (k0_chk260.eq_1 v1684))
theorem k0_off260_inb : ∀ (v1684 : BitVec 32) (k0_hw260 : k0_chk260 v1684), ∀ a, (k0_off260 v1684) a + S1x64x128.size a ≤ S45x64x128.size a := fun v1684 k0_hw260 => k0_hw260

def k0_off261 (v1695 : BitVec 32) : Fin 4 → Nat :=
  let c0_1744 : Index := 0#32
  let v1697 : Index := Scalar.indexCast v1695
  let c0_1745 : Index := 0#32
  let c0_1746 : Index := 0#32
  ![0, v1697.toNat, 0, 0]

def k0_chk261 (v1695 : BitVec 32) : Prop :=
  (∀ a, (k0_off261 v1695) a + S1x1x64x128.size a ≤ S1x9x64x128.size a)
instance k0_chk261.dec : ∀ (v1695 : BitVec 32), Decidable (k0_chk261 v1695) := fun v1695 => decidable_of_iff' _ (Iff.of_eq (k0_chk261.eq_1 v1695))
theorem k0_off261_inb : ∀ (v1695 : BitVec 32) (k0_hw261 : k0_chk261 v1695), ∀ a, (k0_off261 v1695) a + S1x1x64x128.size a ≤ S1x9x64x128.size a := fun v1695 k0_hw261 => k0_hw261

def k0_off262 (v1696 : BitVec 32) : Fin 3 → Nat :=
  let v1700 : Index := Scalar.indexCast v1696
  let c0_1747 : Index := 0#32
  let c0_1748 : Index := 0#32
  ![v1700.toNat, 0, 0]

def k0_chk262 (v1696 : BitVec 32) : Prop :=
  (∀ a, (k0_off262 v1696) a + S1x64x128.size a ≤ S45x64x128.size a)
instance k0_chk262.dec : ∀ (v1696 : BitVec 32), Decidable (k0_chk262 v1696) := fun v1696 => decidable_of_iff' _ (Iff.of_eq (k0_chk262.eq_1 v1696))
theorem k0_off262_inb : ∀ (v1696 : BitVec 32) (k0_hw262 : k0_chk262 v1696), ∀ a, (k0_off262 v1696) a + S1x64x128.size a ≤ S45x64x128.size a := fun v1696 k0_hw262 => k0_hw262

def k0_off263 (v1707 : BitVec 32) : Fin 4 → Nat :=
  let c0_1756 : Index := 0#32
  let v1709 : Index := Scalar.indexCast v1707
  let c0_1757 : Index := 0#32
  let c0_1758 : Index := 0#32
  ![0, v1709.toNat, 0, 0]

def k0_chk263 (v1707 : BitVec 32) : Prop :=
  (∀ a, (k0_off263 v1707) a + S1x1x64x128.size a ≤ S1x9x64x128.size a)
instance k0_chk263.dec : ∀ (v1707 : BitVec 32), Decidable (k0_chk263 v1707) := fun v1707 => decidable_of_iff' _ (Iff.of_eq (k0_chk263.eq_1 v1707))
theorem k0_off263_inb : ∀ (v1707 : BitVec 32) (k0_hw263 : k0_chk263 v1707), ∀ a, (k0_off263 v1707) a + S1x1x64x128.size a ≤ S1x9x64x128.size a := fun v1707 k0_hw263 => k0_hw263

def k0_off264 (v1708 : BitVec 32) : Fin 3 → Nat :=
  let v1712 : Index := Scalar.indexCast v1708
  let c0_1759 : Index := 0#32
  let c0_1760 : Index := 0#32
  ![v1712.toNat, 0, 0]

def k0_chk264 (v1708 : BitVec 32) : Prop :=
  (∀ a, (k0_off264 v1708) a + S1x64x128.size a ≤ S45x64x128.size a)
instance k0_chk264.dec : ∀ (v1708 : BitVec 32), Decidable (k0_chk264 v1708) := fun v1708 => decidable_of_iff' _ (Iff.of_eq (k0_chk264.eq_1 v1708))
theorem k0_off264_inb : ∀ (v1708 : BitVec 32) (k0_hw264 : k0_chk264 v1708), ∀ a, (k0_off264 v1708) a + S1x64x128.size a ≤ S45x64x128.size a := fun v1708 k0_hw264 => k0_hw264

def k0_off265 (v1719 : BitVec 32) : Fin 4 → Nat :=
  let c0_1768 : Index := 0#32
  let v1721 : Index := Scalar.indexCast v1719
  let c0_1769 : Index := 0#32
  let c0_1770 : Index := 0#32
  ![0, v1721.toNat, 0, 0]

def k0_chk265 (v1719 : BitVec 32) : Prop :=
  (∀ a, (k0_off265 v1719) a + S1x1x64x128.size a ≤ S1x9x64x128.size a)
instance k0_chk265.dec : ∀ (v1719 : BitVec 32), Decidable (k0_chk265 v1719) := fun v1719 => decidable_of_iff' _ (Iff.of_eq (k0_chk265.eq_1 v1719))
theorem k0_off265_inb : ∀ (v1719 : BitVec 32) (k0_hw265 : k0_chk265 v1719), ∀ a, (k0_off265 v1719) a + S1x1x64x128.size a ≤ S1x9x64x128.size a := fun v1719 k0_hw265 => k0_hw265

def k0_off266 (v1720 : BitVec 32) : Fin 3 → Nat :=
  let v1724 : Index := Scalar.indexCast v1720
  let c0_1771 : Index := 0#32
  let c0_1772 : Index := 0#32
  ![v1724.toNat, 0, 0]

def k0_chk266 (v1720 : BitVec 32) : Prop :=
  (∀ a, (k0_off266 v1720) a + S1x64x128.size a ≤ S45x64x128.size a)
instance k0_chk266.dec : ∀ (v1720 : BitVec 32), Decidable (k0_chk266 v1720) := fun v1720 => decidable_of_iff' _ (Iff.of_eq (k0_chk266.eq_1 v1720))
theorem k0_off266_inb : ∀ (v1720 : BitVec 32) (k0_hw266 : k0_chk266 v1720), ∀ a, (k0_off266 v1720) a + S1x64x128.size a ≤ S45x64x128.size a := fun v1720 k0_hw266 => k0_hw266

def k0_off267 (v1731 : BitVec 32) : Fin 4 → Nat :=
  let c0_1780 : Index := 0#32
  let v1733 : Index := Scalar.indexCast v1731
  let c0_1781 : Index := 0#32
  let c0_1782 : Index := 0#32
  ![0, v1733.toNat, 0, 0]

def k0_chk267 (v1731 : BitVec 32) : Prop :=
  (∀ a, (k0_off267 v1731) a + S1x1x64x128.size a ≤ S1x9x64x128.size a)
instance k0_chk267.dec : ∀ (v1731 : BitVec 32), Decidable (k0_chk267 v1731) := fun v1731 => decidable_of_iff' _ (Iff.of_eq (k0_chk267.eq_1 v1731))
theorem k0_off267_inb : ∀ (v1731 : BitVec 32) (k0_hw267 : k0_chk267 v1731), ∀ a, (k0_off267 v1731) a + S1x1x64x128.size a ≤ S1x9x64x128.size a := fun v1731 k0_hw267 => k0_hw267

def k0_off268 (v1732 : BitVec 32) : Fin 3 → Nat :=
  let v1736 : Index := Scalar.indexCast v1732
  let c0_1783 : Index := 0#32
  let c0_1784 : Index := 0#32
  ![v1736.toNat, 0, 0]

def k0_chk268 (v1732 : BitVec 32) : Prop :=
  (∀ a, (k0_off268 v1732) a + S1x64x128.size a ≤ S45x64x128.size a)
instance k0_chk268.dec : ∀ (v1732 : BitVec 32), Decidable (k0_chk268 v1732) := fun v1732 => decidable_of_iff' _ (Iff.of_eq (k0_chk268.eq_1 v1732))
theorem k0_off268_inb : ∀ (v1732 : BitVec 32) (k0_hw268 : k0_chk268 v1732), ∀ a, (k0_off268 v1732) a + S1x64x128.size a ≤ S45x64x128.size a := fun v1732 k0_hw268 => k0_hw268

def k0_off269 (v1743 : BitVec 32) : Fin 4 → Nat :=
  let c0_1792 : Index := 0#32
  let v1745 : Index := Scalar.indexCast v1743
  let c0_1793 : Index := 0#32
  let c0_1794 : Index := 0#32
  ![0, v1745.toNat, 0, 0]

def k0_chk269 (v1743 : BitVec 32) : Prop :=
  (∀ a, (k0_off269 v1743) a + S1x1x64x128.size a ≤ S1x9x64x128.size a)
instance k0_chk269.dec : ∀ (v1743 : BitVec 32), Decidable (k0_chk269 v1743) := fun v1743 => decidable_of_iff' _ (Iff.of_eq (k0_chk269.eq_1 v1743))
theorem k0_off269_inb : ∀ (v1743 : BitVec 32) (k0_hw269 : k0_chk269 v1743), ∀ a, (k0_off269 v1743) a + S1x1x64x128.size a ≤ S1x9x64x128.size a := fun v1743 k0_hw269 => k0_hw269

def k0_off270 (v1744 : BitVec 32) : Fin 3 → Nat :=
  let v1748 : Index := Scalar.indexCast v1744
  let c0_1795 : Index := 0#32
  let c0_1796 : Index := 0#32
  ![v1748.toNat, 0, 0]

def k0_chk270 (v1744 : BitVec 32) : Prop :=
  (∀ a, (k0_off270 v1744) a + S1x64x128.size a ≤ S45x64x128.size a)
instance k0_chk270.dec : ∀ (v1744 : BitVec 32), Decidable (k0_chk270 v1744) := fun v1744 => decidable_of_iff' _ (Iff.of_eq (k0_chk270.eq_1 v1744))
theorem k0_off270_inb : ∀ (v1744 : BitVec 32) (k0_hw270 : k0_chk270 v1744), ∀ a, (k0_off270 v1744) a + S1x64x128.size a ≤ S45x64x128.size a := fun v1744 k0_hw270 => k0_hw270

def k0_off271 (v1755 : BitVec 32) : Fin 4 → Nat :=
  let c0_1804 : Index := 0#32
  let v1757 : Index := Scalar.indexCast v1755
  let c0_1805 : Index := 0#32
  let c0_1806 : Index := 0#32
  ![0, v1757.toNat, 0, 0]

def k0_chk271 (v1755 : BitVec 32) : Prop :=
  (∀ a, (k0_off271 v1755) a + S1x1x64x128.size a ≤ S1x9x64x128.size a)
instance k0_chk271.dec : ∀ (v1755 : BitVec 32), Decidable (k0_chk271 v1755) := fun v1755 => decidable_of_iff' _ (Iff.of_eq (k0_chk271.eq_1 v1755))
theorem k0_off271_inb : ∀ (v1755 : BitVec 32) (k0_hw271 : k0_chk271 v1755), ∀ a, (k0_off271 v1755) a + S1x1x64x128.size a ≤ S1x9x64x128.size a := fun v1755 k0_hw271 => k0_hw271

def k0_off272 (v1756 : BitVec 32) : Fin 3 → Nat :=
  let v1760 : Index := Scalar.indexCast v1756
  let c0_1807 : Index := 0#32
  let c0_1808 : Index := 0#32
  ![v1760.toNat, 0, 0]

def k0_chk272 (v1756 : BitVec 32) : Prop :=
  (∀ a, (k0_off272 v1756) a + S1x64x128.size a ≤ S45x64x128.size a)
instance k0_chk272.dec : ∀ (v1756 : BitVec 32), Decidable (k0_chk272 v1756) := fun v1756 => decidable_of_iff' _ (Iff.of_eq (k0_chk272.eq_1 v1756))
theorem k0_off272_inb : ∀ (v1756 : BitVec 32) (k0_hw272 : k0_chk272 v1756), ∀ a, (k0_off272 v1756) a + S1x64x128.size a ≤ S45x64x128.size a := fun v1756 k0_hw272 => k0_hw272

def k0_off273 (v1767 : BitVec 32) : Fin 4 → Nat :=
  let c0_1816 : Index := 0#32
  let v1769 : Index := Scalar.indexCast v1767
  let c0_1817 : Index := 0#32
  let c0_1818 : Index := 0#32
  ![0, v1769.toNat, 0, 0]

def k0_chk273 (v1767 : BitVec 32) : Prop :=
  (∀ a, (k0_off273 v1767) a + S1x1x64x128.size a ≤ S1x9x64x128.size a)
instance k0_chk273.dec : ∀ (v1767 : BitVec 32), Decidable (k0_chk273 v1767) := fun v1767 => decidable_of_iff' _ (Iff.of_eq (k0_chk273.eq_1 v1767))
theorem k0_off273_inb : ∀ (v1767 : BitVec 32) (k0_hw273 : k0_chk273 v1767), ∀ a, (k0_off273 v1767) a + S1x1x64x128.size a ≤ S1x9x64x128.size a := fun v1767 k0_hw273 => k0_hw273

def k0_off274 (v1768 : BitVec 32) : Fin 3 → Nat :=
  let v1772 : Index := Scalar.indexCast v1768
  let c0_1819 : Index := 0#32
  let c0_1820 : Index := 0#32
  ![v1772.toNat, 0, 0]

def k0_chk274 (v1768 : BitVec 32) : Prop :=
  (∀ a, (k0_off274 v1768) a + S1x64x128.size a ≤ S45x64x128.size a)
instance k0_chk274.dec : ∀ (v1768 : BitVec 32), Decidable (k0_chk274 v1768) := fun v1768 => decidable_of_iff' _ (Iff.of_eq (k0_chk274.eq_1 v1768))
theorem k0_off274_inb : ∀ (v1768 : BitVec 32) (k0_hw274 : k0_chk274 v1768), ∀ a, (k0_off274 v1768) a + S1x64x128.size a ≤ S45x64x128.size a := fun v1768 k0_hw274 => k0_hw274

def k0_off275 (v1779 : BitVec 32) : Fin 4 → Nat :=
  let c0_1828 : Index := 0#32
  let v1781 : Index := Scalar.indexCast v1779
  let c0_1829 : Index := 0#32
  let c0_1830 : Index := 0#32
  ![0, v1781.toNat, 0, 0]

def k0_chk275 (v1779 : BitVec 32) : Prop :=
  (∀ a, (k0_off275 v1779) a + S1x1x64x128.size a ≤ S1x9x64x128.size a)
instance k0_chk275.dec : ∀ (v1779 : BitVec 32), Decidable (k0_chk275 v1779) := fun v1779 => decidable_of_iff' _ (Iff.of_eq (k0_chk275.eq_1 v1779))
theorem k0_off275_inb : ∀ (v1779 : BitVec 32) (k0_hw275 : k0_chk275 v1779), ∀ a, (k0_off275 v1779) a + S1x1x64x128.size a ≤ S1x9x64x128.size a := fun v1779 k0_hw275 => k0_hw275

def k0_off276 (v1780 : BitVec 32) : Fin 3 → Nat :=
  let v1784 : Index := Scalar.indexCast v1780
  let c0_1831 : Index := 0#32
  let c0_1832 : Index := 0#32
  ![v1784.toNat, 0, 0]

def k0_chk276 (v1780 : BitVec 32) : Prop :=
  (∀ a, (k0_off276 v1780) a + S1x64x128.size a ≤ S45x64x128.size a)
instance k0_chk276.dec : ∀ (v1780 : BitVec 32), Decidable (k0_chk276 v1780) := fun v1780 => decidable_of_iff' _ (Iff.of_eq (k0_chk276.eq_1 v1780))
theorem k0_off276_inb : ∀ (v1780 : BitVec 32) (k0_hw276 : k0_chk276 v1780), ∀ a, (k0_off276 v1780) a + S1x64x128.size a ≤ S45x64x128.size a := fun v1780 k0_hw276 => k0_hw276

def k0_off277 (v1791 : BitVec 32) : Fin 4 → Nat :=
  let c0_1840 : Index := 0#32
  let v1793 : Index := Scalar.indexCast v1791
  let c0_1841 : Index := 0#32
  let c0_1842 : Index := 0#32
  ![0, v1793.toNat, 0, 0]

def k0_chk277 (v1791 : BitVec 32) : Prop :=
  (∀ a, (k0_off277 v1791) a + S1x1x64x128.size a ≤ S1x9x64x128.size a)
instance k0_chk277.dec : ∀ (v1791 : BitVec 32), Decidable (k0_chk277 v1791) := fun v1791 => decidable_of_iff' _ (Iff.of_eq (k0_chk277.eq_1 v1791))
theorem k0_off277_inb : ∀ (v1791 : BitVec 32) (k0_hw277 : k0_chk277 v1791), ∀ a, (k0_off277 v1791) a + S1x1x64x128.size a ≤ S1x9x64x128.size a := fun v1791 k0_hw277 => k0_hw277

def k0_off278 (v1792 : BitVec 32) : Fin 3 → Nat :=
  let v1796 : Index := Scalar.indexCast v1792
  let c0_1843 : Index := 0#32
  let c0_1844 : Index := 0#32
  ![v1796.toNat, 0, 0]

def k0_chk278 (v1792 : BitVec 32) : Prop :=
  (∀ a, (k0_off278 v1792) a + S1x64x128.size a ≤ S45x64x128.size a)
instance k0_chk278.dec : ∀ (v1792 : BitVec 32), Decidable (k0_chk278 v1792) := fun v1792 => decidable_of_iff' _ (Iff.of_eq (k0_chk278.eq_1 v1792))
theorem k0_off278_inb : ∀ (v1792 : BitVec 32) (k0_hw278 : k0_chk278 v1792), ∀ a, (k0_off278 v1792) a + S1x64x128.size a ≤ S45x64x128.size a := fun v1792 k0_hw278 => k0_hw278

def k0_off279 (v1803 : BitVec 32) : Fin 4 → Nat :=
  let c0_1852 : Index := 0#32
  let v1805 : Index := Scalar.indexCast v1803
  let c0_1853 : Index := 0#32
  let c0_1854 : Index := 0#32
  ![0, v1805.toNat, 0, 0]

def k0_chk279 (v1803 : BitVec 32) : Prop :=
  (∀ a, (k0_off279 v1803) a + S1x1x64x128.size a ≤ S1x9x64x128.size a)
instance k0_chk279.dec : ∀ (v1803 : BitVec 32), Decidable (k0_chk279 v1803) := fun v1803 => decidable_of_iff' _ (Iff.of_eq (k0_chk279.eq_1 v1803))
theorem k0_off279_inb : ∀ (v1803 : BitVec 32) (k0_hw279 : k0_chk279 v1803), ∀ a, (k0_off279 v1803) a + S1x1x64x128.size a ≤ S1x9x64x128.size a := fun v1803 k0_hw279 => k0_hw279

def k0_off280 (v1804 : BitVec 32) : Fin 3 → Nat :=
  let v1808 : Index := Scalar.indexCast v1804
  let c0_1855 : Index := 0#32
  let c0_1856 : Index := 0#32
  ![v1808.toNat, 0, 0]

def k0_chk280 (v1804 : BitVec 32) : Prop :=
  (∀ a, (k0_off280 v1804) a + S1x64x128.size a ≤ S45x64x128.size a)
instance k0_chk280.dec : ∀ (v1804 : BitVec 32), Decidable (k0_chk280 v1804) := fun v1804 => decidable_of_iff' _ (Iff.of_eq (k0_chk280.eq_1 v1804))
theorem k0_off280_inb : ∀ (v1804 : BitVec 32) (k0_hw280 : k0_chk280 v1804), ∀ a, (k0_off280 v1804) a + S1x64x128.size a ≤ S45x64x128.size a := fun v1804 k0_hw280 => k0_hw280

def k0_off281 (v1815 : BitVec 32) : Fin 4 → Nat :=
  let c0_1864 : Index := 0#32
  let v1817 : Index := Scalar.indexCast v1815
  let c0_1865 : Index := 0#32
  let c0_1866 : Index := 0#32
  ![0, v1817.toNat, 0, 0]

def k0_chk281 (v1815 : BitVec 32) : Prop :=
  (∀ a, (k0_off281 v1815) a + S1x1x64x128.size a ≤ S1x9x64x128.size a)
instance k0_chk281.dec : ∀ (v1815 : BitVec 32), Decidable (k0_chk281 v1815) := fun v1815 => decidable_of_iff' _ (Iff.of_eq (k0_chk281.eq_1 v1815))
theorem k0_off281_inb : ∀ (v1815 : BitVec 32) (k0_hw281 : k0_chk281 v1815), ∀ a, (k0_off281 v1815) a + S1x1x64x128.size a ≤ S1x9x64x128.size a := fun v1815 k0_hw281 => k0_hw281

def k0_off282 (v1816 : BitVec 32) : Fin 3 → Nat :=
  let v1820 : Index := Scalar.indexCast v1816
  let c0_1867 : Index := 0#32
  let c0_1868 : Index := 0#32
  ![v1820.toNat, 0, 0]

def k0_chk282 (v1816 : BitVec 32) : Prop :=
  (∀ a, (k0_off282 v1816) a + S1x64x128.size a ≤ S45x64x128.size a)
instance k0_chk282.dec : ∀ (v1816 : BitVec 32), Decidable (k0_chk282 v1816) := fun v1816 => decidable_of_iff' _ (Iff.of_eq (k0_chk282.eq_1 v1816))
theorem k0_off282_inb : ∀ (v1816 : BitVec 32) (k0_hw282 : k0_chk282 v1816), ∀ a, (k0_off282 v1816) a + S1x64x128.size a ≤ S45x64x128.size a := fun v1816 k0_hw282 => k0_hw282

def k0_off283 (v1827 : BitVec 32) : Fin 4 → Nat :=
  let c0_1876 : Index := 0#32
  let v1829 : Index := Scalar.indexCast v1827
  let c0_1877 : Index := 0#32
  let c0_1878 : Index := 0#32
  ![0, v1829.toNat, 0, 0]

def k0_chk283 (v1827 : BitVec 32) : Prop :=
  (∀ a, (k0_off283 v1827) a + S1x1x64x128.size a ≤ S1x9x64x128.size a)
instance k0_chk283.dec : ∀ (v1827 : BitVec 32), Decidable (k0_chk283 v1827) := fun v1827 => decidable_of_iff' _ (Iff.of_eq (k0_chk283.eq_1 v1827))
theorem k0_off283_inb : ∀ (v1827 : BitVec 32) (k0_hw283 : k0_chk283 v1827), ∀ a, (k0_off283 v1827) a + S1x1x64x128.size a ≤ S1x9x64x128.size a := fun v1827 k0_hw283 => k0_hw283

def k0_off284 (v1828 : BitVec 32) : Fin 3 → Nat :=
  let v1832 : Index := Scalar.indexCast v1828
  let c0_1879 : Index := 0#32
  let c0_1880 : Index := 0#32
  ![v1832.toNat, 0, 0]

def k0_chk284 (v1828 : BitVec 32) : Prop :=
  (∀ a, (k0_off284 v1828) a + S1x64x128.size a ≤ S45x64x128.size a)
instance k0_chk284.dec : ∀ (v1828 : BitVec 32), Decidable (k0_chk284 v1828) := fun v1828 => decidable_of_iff' _ (Iff.of_eq (k0_chk284.eq_1 v1828))
theorem k0_off284_inb : ∀ (v1828 : BitVec 32) (k0_hw284 : k0_chk284 v1828), ∀ a, (k0_off284 v1828) a + S1x64x128.size a ≤ S45x64x128.size a := fun v1828 k0_hw284 => k0_hw284

def k0_off285 (v1839 : BitVec 32) : Fin 4 → Nat :=
  let c0_1888 : Index := 0#32
  let v1841 : Index := Scalar.indexCast v1839
  let c0_1889 : Index := 0#32
  let c0_1890 : Index := 0#32
  ![0, v1841.toNat, 0, 0]

def k0_chk285 (v1839 : BitVec 32) : Prop :=
  (∀ a, (k0_off285 v1839) a + S1x1x64x128.size a ≤ S1x9x64x128.size a)
instance k0_chk285.dec : ∀ (v1839 : BitVec 32), Decidable (k0_chk285 v1839) := fun v1839 => decidable_of_iff' _ (Iff.of_eq (k0_chk285.eq_1 v1839))
theorem k0_off285_inb : ∀ (v1839 : BitVec 32) (k0_hw285 : k0_chk285 v1839), ∀ a, (k0_off285 v1839) a + S1x1x64x128.size a ≤ S1x9x64x128.size a := fun v1839 k0_hw285 => k0_hw285

def k0_off286 (v1840 : BitVec 32) : Fin 3 → Nat :=
  let v1844 : Index := Scalar.indexCast v1840
  let c0_1891 : Index := 0#32
  let c0_1892 : Index := 0#32
  ![v1844.toNat, 0, 0]

def k0_chk286 (v1840 : BitVec 32) : Prop :=
  (∀ a, (k0_off286 v1840) a + S1x64x128.size a ≤ S45x64x128.size a)
instance k0_chk286.dec : ∀ (v1840 : BitVec 32), Decidable (k0_chk286 v1840) := fun v1840 => decidable_of_iff' _ (Iff.of_eq (k0_chk286.eq_1 v1840))
theorem k0_off286_inb : ∀ (v1840 : BitVec 32) (k0_hw286 : k0_chk286 v1840), ∀ a, (k0_off286 v1840) a + S1x64x128.size a ≤ S45x64x128.size a := fun v1840 k0_hw286 => k0_hw286

def k0_off287 (v1851 : BitVec 32) : Fin 4 → Nat :=
  let c0_1900 : Index := 0#32
  let v1853 : Index := Scalar.indexCast v1851
  let c0_1901 : Index := 0#32
  let c0_1902 : Index := 0#32
  ![0, v1853.toNat, 0, 0]

def k0_chk287 (v1851 : BitVec 32) : Prop :=
  (∀ a, (k0_off287 v1851) a + S1x1x64x128.size a ≤ S1x9x64x128.size a)
instance k0_chk287.dec : ∀ (v1851 : BitVec 32), Decidable (k0_chk287 v1851) := fun v1851 => decidable_of_iff' _ (Iff.of_eq (k0_chk287.eq_1 v1851))
theorem k0_off287_inb : ∀ (v1851 : BitVec 32) (k0_hw287 : k0_chk287 v1851), ∀ a, (k0_off287 v1851) a + S1x1x64x128.size a ≤ S1x9x64x128.size a := fun v1851 k0_hw287 => k0_hw287

def k0_off288 (v1852 : BitVec 32) : Fin 3 → Nat :=
  let v1856 : Index := Scalar.indexCast v1852
  let c0_1903 : Index := 0#32
  let c0_1904 : Index := 0#32
  ![v1856.toNat, 0, 0]

def k0_chk288 (v1852 : BitVec 32) : Prop :=
  (∀ a, (k0_off288 v1852) a + S1x64x128.size a ≤ S45x64x128.size a)
instance k0_chk288.dec : ∀ (v1852 : BitVec 32), Decidable (k0_chk288 v1852) := fun v1852 => decidable_of_iff' _ (Iff.of_eq (k0_chk288.eq_1 v1852))
theorem k0_off288_inb : ∀ (v1852 : BitVec 32) (k0_hw288 : k0_chk288 v1852), ∀ a, (k0_off288 v1852) a + S1x64x128.size a ≤ S45x64x128.size a := fun v1852 k0_hw288 => k0_hw288

def k0_off289 (v1863 : BitVec 32) : Fin 4 → Nat :=
  let c0_1912 : Index := 0#32
  let v1865 : Index := Scalar.indexCast v1863
  let c0_1913 : Index := 0#32
  let c0_1914 : Index := 0#32
  ![0, v1865.toNat, 0, 0]

def k0_chk289 (v1863 : BitVec 32) : Prop :=
  (∀ a, (k0_off289 v1863) a + S1x1x64x128.size a ≤ S1x9x64x128.size a)
instance k0_chk289.dec : ∀ (v1863 : BitVec 32), Decidable (k0_chk289 v1863) := fun v1863 => decidable_of_iff' _ (Iff.of_eq (k0_chk289.eq_1 v1863))
theorem k0_off289_inb : ∀ (v1863 : BitVec 32) (k0_hw289 : k0_chk289 v1863), ∀ a, (k0_off289 v1863) a + S1x1x64x128.size a ≤ S1x9x64x128.size a := fun v1863 k0_hw289 => k0_hw289

def k0_off290 (v1864 : BitVec 32) : Fin 3 → Nat :=
  let v1868 : Index := Scalar.indexCast v1864
  let c0_1915 : Index := 0#32
  let c0_1916 : Index := 0#32
  ![v1868.toNat, 0, 0]

def k0_chk290 (v1864 : BitVec 32) : Prop :=
  (∀ a, (k0_off290 v1864) a + S1x64x128.size a ≤ S45x64x128.size a)
instance k0_chk290.dec : ∀ (v1864 : BitVec 32), Decidable (k0_chk290 v1864) := fun v1864 => decidable_of_iff' _ (Iff.of_eq (k0_chk290.eq_1 v1864))
theorem k0_off290_inb : ∀ (v1864 : BitVec 32) (k0_hw290 : k0_chk290 v1864), ∀ a, (k0_off290 v1864) a + S1x64x128.size a ≤ S45x64x128.size a := fun v1864 k0_hw290 => k0_hw290

def k0_off291 (v1875 : BitVec 32) : Fin 4 → Nat :=
  let c0_1924 : Index := 0#32
  let v1877 : Index := Scalar.indexCast v1875
  let c0_1925 : Index := 0#32
  let c0_1926 : Index := 0#32
  ![0, v1877.toNat, 0, 0]

def k0_chk291 (v1875 : BitVec 32) : Prop :=
  (∀ a, (k0_off291 v1875) a + S1x1x64x128.size a ≤ S1x9x64x128.size a)
instance k0_chk291.dec : ∀ (v1875 : BitVec 32), Decidable (k0_chk291 v1875) := fun v1875 => decidable_of_iff' _ (Iff.of_eq (k0_chk291.eq_1 v1875))
theorem k0_off291_inb : ∀ (v1875 : BitVec 32) (k0_hw291 : k0_chk291 v1875), ∀ a, (k0_off291 v1875) a + S1x1x64x128.size a ≤ S1x9x64x128.size a := fun v1875 k0_hw291 => k0_hw291

def k0_off292 (v1876 : BitVec 32) : Fin 3 → Nat :=
  let v1880 : Index := Scalar.indexCast v1876
  let c0_1927 : Index := 0#32
  let c0_1928 : Index := 0#32
  ![v1880.toNat, 0, 0]

def k0_chk292 (v1876 : BitVec 32) : Prop :=
  (∀ a, (k0_off292 v1876) a + S1x64x128.size a ≤ S45x64x128.size a)
instance k0_chk292.dec : ∀ (v1876 : BitVec 32), Decidable (k0_chk292 v1876) := fun v1876 => decidable_of_iff' _ (Iff.of_eq (k0_chk292.eq_1 v1876))
theorem k0_off292_inb : ∀ (v1876 : BitVec 32) (k0_hw292 : k0_chk292 v1876), ∀ a, (k0_off292 v1876) a + S1x64x128.size a ≤ S45x64x128.size a := fun v1876 k0_hw292 => k0_hw292

def k0_off293 (v1887 : BitVec 32) : Fin 4 → Nat :=
  let c0_1936 : Index := 0#32
  let v1889 : Index := Scalar.indexCast v1887
  let c0_1937 : Index := 0#32
  let c0_1938 : Index := 0#32
  ![0, v1889.toNat, 0, 0]

def k0_chk293 (v1887 : BitVec 32) : Prop :=
  (∀ a, (k0_off293 v1887) a + S1x1x64x128.size a ≤ S1x9x64x128.size a)
instance k0_chk293.dec : ∀ (v1887 : BitVec 32), Decidable (k0_chk293 v1887) := fun v1887 => decidable_of_iff' _ (Iff.of_eq (k0_chk293.eq_1 v1887))
theorem k0_off293_inb : ∀ (v1887 : BitVec 32) (k0_hw293 : k0_chk293 v1887), ∀ a, (k0_off293 v1887) a + S1x1x64x128.size a ≤ S1x9x64x128.size a := fun v1887 k0_hw293 => k0_hw293

def k0_off294 (v1888 : BitVec 32) : Fin 3 → Nat :=
  let v1892 : Index := Scalar.indexCast v1888
  let c0_1939 : Index := 0#32
  let c0_1940 : Index := 0#32
  ![v1892.toNat, 0, 0]

def k0_chk294 (v1888 : BitVec 32) : Prop :=
  (∀ a, (k0_off294 v1888) a + S1x64x128.size a ≤ S45x64x128.size a)
instance k0_chk294.dec : ∀ (v1888 : BitVec 32), Decidable (k0_chk294 v1888) := fun v1888 => decidable_of_iff' _ (Iff.of_eq (k0_chk294.eq_1 v1888))
theorem k0_off294_inb : ∀ (v1888 : BitVec 32) (k0_hw294 : k0_chk294 v1888), ∀ a, (k0_off294 v1888) a + S1x64x128.size a ≤ S45x64x128.size a := fun v1888 k0_hw294 => k0_hw294

def k0_off295 (v1899 : BitVec 32) : Fin 4 → Nat :=
  let c0_1948 : Index := 0#32
  let v1901 : Index := Scalar.indexCast v1899
  let c0_1949 : Index := 0#32
  let c0_1950 : Index := 0#32
  ![0, v1901.toNat, 0, 0]

def k0_chk295 (v1899 : BitVec 32) : Prop :=
  (∀ a, (k0_off295 v1899) a + S1x1x64x128.size a ≤ S1x9x64x128.size a)
instance k0_chk295.dec : ∀ (v1899 : BitVec 32), Decidable (k0_chk295 v1899) := fun v1899 => decidable_of_iff' _ (Iff.of_eq (k0_chk295.eq_1 v1899))
theorem k0_off295_inb : ∀ (v1899 : BitVec 32) (k0_hw295 : k0_chk295 v1899), ∀ a, (k0_off295 v1899) a + S1x1x64x128.size a ≤ S1x9x64x128.size a := fun v1899 k0_hw295 => k0_hw295

def k0_off296 (v1900 : BitVec 32) : Fin 3 → Nat :=
  let v1904 : Index := Scalar.indexCast v1900
  let c0_1951 : Index := 0#32
  let c0_1952 : Index := 0#32
  ![v1904.toNat, 0, 0]

def k0_chk296 (v1900 : BitVec 32) : Prop :=
  (∀ a, (k0_off296 v1900) a + S1x64x128.size a ≤ S45x64x128.size a)
instance k0_chk296.dec : ∀ (v1900 : BitVec 32), Decidable (k0_chk296 v1900) := fun v1900 => decidable_of_iff' _ (Iff.of_eq (k0_chk296.eq_1 v1900))
theorem k0_off296_inb : ∀ (v1900 : BitVec 32) (k0_hw296 : k0_chk296 v1900), ∀ a, (k0_off296 v1900) a + S1x64x128.size a ≤ S45x64x128.size a := fun v1900 k0_hw296 => k0_hw296

def k0_off297 (v1911 : BitVec 32) : Fin 4 → Nat :=
  let c0_1960 : Index := 0#32
  let v1913 : Index := Scalar.indexCast v1911
  let c0_1961 : Index := 0#32
  let c0_1962 : Index := 0#32
  ![0, v1913.toNat, 0, 0]

def k0_chk297 (v1911 : BitVec 32) : Prop :=
  (∀ a, (k0_off297 v1911) a + S1x1x64x128.size a ≤ S1x9x64x128.size a)
instance k0_chk297.dec : ∀ (v1911 : BitVec 32), Decidable (k0_chk297 v1911) := fun v1911 => decidable_of_iff' _ (Iff.of_eq (k0_chk297.eq_1 v1911))
theorem k0_off297_inb : ∀ (v1911 : BitVec 32) (k0_hw297 : k0_chk297 v1911), ∀ a, (k0_off297 v1911) a + S1x1x64x128.size a ≤ S1x9x64x128.size a := fun v1911 k0_hw297 => k0_hw297

def k0_off298 (v1912 : BitVec 32) : Fin 3 → Nat :=
  let v1916 : Index := Scalar.indexCast v1912
  let c0_1963 : Index := 0#32
  let c0_1964 : Index := 0#32
  ![v1916.toNat, 0, 0]

def k0_chk298 (v1912 : BitVec 32) : Prop :=
  (∀ a, (k0_off298 v1912) a + S1x64x128.size a ≤ S45x64x128.size a)
instance k0_chk298.dec : ∀ (v1912 : BitVec 32), Decidable (k0_chk298 v1912) := fun v1912 => decidable_of_iff' _ (Iff.of_eq (k0_chk298.eq_1 v1912))
theorem k0_off298_inb : ∀ (v1912 : BitVec 32) (k0_hw298 : k0_chk298 v1912), ∀ a, (k0_off298 v1912) a + S1x64x128.size a ≤ S45x64x128.size a := fun v1912 k0_hw298 => k0_hw298

def k0_off299 (v1923 : BitVec 32) : Fin 4 → Nat :=
  let c0_1972 : Index := 0#32
  let v1925 : Index := Scalar.indexCast v1923
  let c0_1973 : Index := 0#32
  let c0_1974 : Index := 0#32
  ![0, v1925.toNat, 0, 0]

def k0_chk299 (v1923 : BitVec 32) : Prop :=
  (∀ a, (k0_off299 v1923) a + S1x1x64x128.size a ≤ S1x9x64x128.size a)
instance k0_chk299.dec : ∀ (v1923 : BitVec 32), Decidable (k0_chk299 v1923) := fun v1923 => decidable_of_iff' _ (Iff.of_eq (k0_chk299.eq_1 v1923))
theorem k0_off299_inb : ∀ (v1923 : BitVec 32) (k0_hw299 : k0_chk299 v1923), ∀ a, (k0_off299 v1923) a + S1x1x64x128.size a ≤ S1x9x64x128.size a := fun v1923 k0_hw299 => k0_hw299

def k0_off300 (v1924 : BitVec 32) : Fin 3 → Nat :=
  let v1928 : Index := Scalar.indexCast v1924
  let c0_1975 : Index := 0#32
  let c0_1976 : Index := 0#32
  ![v1928.toNat, 0, 0]

def k0_chk300 (v1924 : BitVec 32) : Prop :=
  (∀ a, (k0_off300 v1924) a + S1x64x128.size a ≤ S45x64x128.size a)
instance k0_chk300.dec : ∀ (v1924 : BitVec 32), Decidable (k0_chk300 v1924) := fun v1924 => decidable_of_iff' _ (Iff.of_eq (k0_chk300.eq_1 v1924))
theorem k0_off300_inb : ∀ (v1924 : BitVec 32) (k0_hw300 : k0_chk300 v1924), ∀ a, (k0_off300 v1924) a + S1x64x128.size a ≤ S45x64x128.size a := fun v1924 k0_hw300 => k0_hw300

def k0_off301 (v1935 : BitVec 32) : Fin 4 → Nat :=
  let c0_1984 : Index := 0#32
  let v1937 : Index := Scalar.indexCast v1935
  let c0_1985 : Index := 0#32
  let c0_1986 : Index := 0#32
  ![0, v1937.toNat, 0, 0]

def k0_chk301 (v1935 : BitVec 32) : Prop :=
  (∀ a, (k0_off301 v1935) a + S1x1x64x128.size a ≤ S1x9x64x128.size a)
instance k0_chk301.dec : ∀ (v1935 : BitVec 32), Decidable (k0_chk301 v1935) := fun v1935 => decidable_of_iff' _ (Iff.of_eq (k0_chk301.eq_1 v1935))
theorem k0_off301_inb : ∀ (v1935 : BitVec 32) (k0_hw301 : k0_chk301 v1935), ∀ a, (k0_off301 v1935) a + S1x1x64x128.size a ≤ S1x9x64x128.size a := fun v1935 k0_hw301 => k0_hw301

def k0_off302 (v1936 : BitVec 32) : Fin 3 → Nat :=
  let v1940 : Index := Scalar.indexCast v1936
  let c0_1987 : Index := 0#32
  let c0_1988 : Index := 0#32
  ![v1940.toNat, 0, 0]

def k0_chk302 (v1936 : BitVec 32) : Prop :=
  (∀ a, (k0_off302 v1936) a + S1x64x128.size a ≤ S45x64x128.size a)
instance k0_chk302.dec : ∀ (v1936 : BitVec 32), Decidable (k0_chk302 v1936) := fun v1936 => decidable_of_iff' _ (Iff.of_eq (k0_chk302.eq_1 v1936))
theorem k0_off302_inb : ∀ (v1936 : BitVec 32) (k0_hw302 : k0_chk302 v1936), ∀ a, (k0_off302 v1936) a + S1x64x128.size a ≤ S45x64x128.size a := fun v1936 k0_hw302 => k0_hw302

def k0_off303 (v1947 : BitVec 32) : Fin 4 → Nat :=
  let c0_1996 : Index := 0#32
  let v1949 : Index := Scalar.indexCast v1947
  let c0_1997 : Index := 0#32
  let c0_1998 : Index := 0#32
  ![0, v1949.toNat, 0, 0]

def k0_chk303 (v1947 : BitVec 32) : Prop :=
  (∀ a, (k0_off303 v1947) a + S1x1x64x128.size a ≤ S1x9x64x128.size a)
instance k0_chk303.dec : ∀ (v1947 : BitVec 32), Decidable (k0_chk303 v1947) := fun v1947 => decidable_of_iff' _ (Iff.of_eq (k0_chk303.eq_1 v1947))
theorem k0_off303_inb : ∀ (v1947 : BitVec 32) (k0_hw303 : k0_chk303 v1947), ∀ a, (k0_off303 v1947) a + S1x1x64x128.size a ≤ S1x9x64x128.size a := fun v1947 k0_hw303 => k0_hw303

def k0_off304 (v1948 : BitVec 32) : Fin 3 → Nat :=
  let v1952 : Index := Scalar.indexCast v1948
  let c0_1999 : Index := 0#32
  let c0_2000 : Index := 0#32
  ![v1952.toNat, 0, 0]

def k0_chk304 (v1948 : BitVec 32) : Prop :=
  (∀ a, (k0_off304 v1948) a + S1x64x128.size a ≤ S45x64x128.size a)
instance k0_chk304.dec : ∀ (v1948 : BitVec 32), Decidable (k0_chk304 v1948) := fun v1948 => decidable_of_iff' _ (Iff.of_eq (k0_chk304.eq_1 v1948))
theorem k0_off304_inb : ∀ (v1948 : BitVec 32) (k0_hw304 : k0_chk304 v1948), ∀ a, (k0_off304 v1948) a + S1x64x128.size a ≤ S45x64x128.size a := fun v1948 k0_hw304 => k0_hw304

def k0_off305 (v1959 : BitVec 32) : Fin 4 → Nat :=
  let c0_2008 : Index := 0#32
  let v1961 : Index := Scalar.indexCast v1959
  let c0_2009 : Index := 0#32
  let c0_2010 : Index := 0#32
  ![0, v1961.toNat, 0, 0]

def k0_chk305 (v1959 : BitVec 32) : Prop :=
  (∀ a, (k0_off305 v1959) a + S1x1x64x128.size a ≤ S1x9x64x128.size a)
instance k0_chk305.dec : ∀ (v1959 : BitVec 32), Decidable (k0_chk305 v1959) := fun v1959 => decidable_of_iff' _ (Iff.of_eq (k0_chk305.eq_1 v1959))
theorem k0_off305_inb : ∀ (v1959 : BitVec 32) (k0_hw305 : k0_chk305 v1959), ∀ a, (k0_off305 v1959) a + S1x1x64x128.size a ≤ S1x9x64x128.size a := fun v1959 k0_hw305 => k0_hw305

def k0_off306 (v1960 : BitVec 32) : Fin 3 → Nat :=
  let v1964 : Index := Scalar.indexCast v1960
  let c0_2011 : Index := 0#32
  let c0_2012 : Index := 0#32
  ![v1964.toNat, 0, 0]

def k0_chk306 (v1960 : BitVec 32) : Prop :=
  (∀ a, (k0_off306 v1960) a + S1x64x128.size a ≤ S45x64x128.size a)
instance k0_chk306.dec : ∀ (v1960 : BitVec 32), Decidable (k0_chk306 v1960) := fun v1960 => decidable_of_iff' _ (Iff.of_eq (k0_chk306.eq_1 v1960))
theorem k0_off306_inb : ∀ (v1960 : BitVec 32) (k0_hw306 : k0_chk306 v1960), ∀ a, (k0_off306 v1960) a + S1x64x128.size a ≤ S45x64x128.size a := fun v1960 k0_hw306 => k0_hw306

def k0_off307 (v1971 : BitVec 32) : Fin 4 → Nat :=
  let c0_2020 : Index := 0#32
  let v1973 : Index := Scalar.indexCast v1971
  let c0_2021 : Index := 0#32
  let c0_2022 : Index := 0#32
  ![0, v1973.toNat, 0, 0]

def k0_chk307 (v1971 : BitVec 32) : Prop :=
  (∀ a, (k0_off307 v1971) a + S1x1x64x128.size a ≤ S1x9x64x128.size a)
instance k0_chk307.dec : ∀ (v1971 : BitVec 32), Decidable (k0_chk307 v1971) := fun v1971 => decidable_of_iff' _ (Iff.of_eq (k0_chk307.eq_1 v1971))
theorem k0_off307_inb : ∀ (v1971 : BitVec 32) (k0_hw307 : k0_chk307 v1971), ∀ a, (k0_off307 v1971) a + S1x1x64x128.size a ≤ S1x9x64x128.size a := fun v1971 k0_hw307 => k0_hw307

def k0_off308 (v1972 : BitVec 32) : Fin 3 → Nat :=
  let v1976 : Index := Scalar.indexCast v1972
  let c0_2023 : Index := 0#32
  let c0_2024 : Index := 0#32
  ![v1976.toNat, 0, 0]

def k0_chk308 (v1972 : BitVec 32) : Prop :=
  (∀ a, (k0_off308 v1972) a + S1x64x128.size a ≤ S45x64x128.size a)
instance k0_chk308.dec : ∀ (v1972 : BitVec 32), Decidable (k0_chk308 v1972) := fun v1972 => decidable_of_iff' _ (Iff.of_eq (k0_chk308.eq_1 v1972))
theorem k0_off308_inb : ∀ (v1972 : BitVec 32) (k0_hw308 : k0_chk308 v1972), ∀ a, (k0_off308 v1972) a + S1x64x128.size a ≤ S45x64x128.size a := fun v1972 k0_hw308 => k0_hw308

def k0_off309 (v1983 : BitVec 32) : Fin 4 → Nat :=
  let c0_2032 : Index := 0#32
  let v1985 : Index := Scalar.indexCast v1983
  let c0_2033 : Index := 0#32
  let c0_2034 : Index := 0#32
  ![0, v1985.toNat, 0, 0]

def k0_chk309 (v1983 : BitVec 32) : Prop :=
  (∀ a, (k0_off309 v1983) a + S1x1x64x128.size a ≤ S1x9x64x128.size a)
instance k0_chk309.dec : ∀ (v1983 : BitVec 32), Decidable (k0_chk309 v1983) := fun v1983 => decidable_of_iff' _ (Iff.of_eq (k0_chk309.eq_1 v1983))
theorem k0_off309_inb : ∀ (v1983 : BitVec 32) (k0_hw309 : k0_chk309 v1983), ∀ a, (k0_off309 v1983) a + S1x1x64x128.size a ≤ S1x9x64x128.size a := fun v1983 k0_hw309 => k0_hw309

def k0_off310 (v1984 : BitVec 32) : Fin 3 → Nat :=
  let v1988 : Index := Scalar.indexCast v1984
  let c0_2035 : Index := 0#32
  let c0_2036 : Index := 0#32
  ![v1988.toNat, 0, 0]

def k0_chk310 (v1984 : BitVec 32) : Prop :=
  (∀ a, (k0_off310 v1984) a + S1x64x128.size a ≤ S45x64x128.size a)
instance k0_chk310.dec : ∀ (v1984 : BitVec 32), Decidable (k0_chk310 v1984) := fun v1984 => decidable_of_iff' _ (Iff.of_eq (k0_chk310.eq_1 v1984))
theorem k0_off310_inb : ∀ (v1984 : BitVec 32) (k0_hw310 : k0_chk310 v1984), ∀ a, (k0_off310 v1984) a + S1x64x128.size a ≤ S45x64x128.size a := fun v1984 k0_hw310 => k0_hw310

def k0_off311 (v1995 : BitVec 32) : Fin 4 → Nat :=
  let c0_2044 : Index := 0#32
  let v1997 : Index := Scalar.indexCast v1995
  let c0_2045 : Index := 0#32
  let c0_2046 : Index := 0#32
  ![0, v1997.toNat, 0, 0]

def k0_chk311 (v1995 : BitVec 32) : Prop :=
  (∀ a, (k0_off311 v1995) a + S1x1x64x128.size a ≤ S1x9x64x128.size a)
instance k0_chk311.dec : ∀ (v1995 : BitVec 32), Decidable (k0_chk311 v1995) := fun v1995 => decidable_of_iff' _ (Iff.of_eq (k0_chk311.eq_1 v1995))
theorem k0_off311_inb : ∀ (v1995 : BitVec 32) (k0_hw311 : k0_chk311 v1995), ∀ a, (k0_off311 v1995) a + S1x1x64x128.size a ≤ S1x9x64x128.size a := fun v1995 k0_hw311 => k0_hw311

def k0_off312 (v1996 : BitVec 32) : Fin 3 → Nat :=
  let v2000 : Index := Scalar.indexCast v1996
  let c0_2047 : Index := 0#32
  let c0_2048 : Index := 0#32
  ![v2000.toNat, 0, 0]

def k0_chk312 (v1996 : BitVec 32) : Prop :=
  (∀ a, (k0_off312 v1996) a + S1x64x128.size a ≤ S45x64x128.size a)
instance k0_chk312.dec : ∀ (v1996 : BitVec 32), Decidable (k0_chk312 v1996) := fun v1996 => decidable_of_iff' _ (Iff.of_eq (k0_chk312.eq_1 v1996))
theorem k0_off312_inb : ∀ (v1996 : BitVec 32) (k0_hw312 : k0_chk312 v1996), ∀ a, (k0_off312 v1996) a + S1x64x128.size a ≤ S45x64x128.size a := fun v1996 k0_hw312 => k0_hw312

def k0_off313 (v2007 : BitVec 32) : Fin 4 → Nat :=
  let c0_2056 : Index := 0#32
  let v2009 : Index := Scalar.indexCast v2007
  let c0_2057 : Index := 0#32
  let c0_2058 : Index := 0#32
  ![0, v2009.toNat, 0, 0]

def k0_chk313 (v2007 : BitVec 32) : Prop :=
  (∀ a, (k0_off313 v2007) a + S1x1x64x128.size a ≤ S1x9x64x128.size a)
instance k0_chk313.dec : ∀ (v2007 : BitVec 32), Decidable (k0_chk313 v2007) := fun v2007 => decidable_of_iff' _ (Iff.of_eq (k0_chk313.eq_1 v2007))
theorem k0_off313_inb : ∀ (v2007 : BitVec 32) (k0_hw313 : k0_chk313 v2007), ∀ a, (k0_off313 v2007) a + S1x1x64x128.size a ≤ S1x9x64x128.size a := fun v2007 k0_hw313 => k0_hw313

def k0_off314 (v2008 : BitVec 32) : Fin 3 → Nat :=
  let v2012 : Index := Scalar.indexCast v2008
  let c0_2059 : Index := 0#32
  let c0_2060 : Index := 0#32
  ![v2012.toNat, 0, 0]

def k0_chk314 (v2008 : BitVec 32) : Prop :=
  (∀ a, (k0_off314 v2008) a + S1x64x128.size a ≤ S45x64x128.size a)
instance k0_chk314.dec : ∀ (v2008 : BitVec 32), Decidable (k0_chk314 v2008) := fun v2008 => decidable_of_iff' _ (Iff.of_eq (k0_chk314.eq_1 v2008))
theorem k0_off314_inb : ∀ (v2008 : BitVec 32) (k0_hw314 : k0_chk314 v2008), ∀ a, (k0_off314 v2008) a + S1x64x128.size a ≤ S45x64x128.size a := fun v2008 k0_hw314 => k0_hw314

def k0_off315 (v2019 : BitVec 32) : Fin 4 → Nat :=
  let c0_2068 : Index := 0#32
  let v2021 : Index := Scalar.indexCast v2019
  let c0_2069 : Index := 0#32
  let c0_2070 : Index := 0#32
  ![0, v2021.toNat, 0, 0]

def k0_chk315 (v2019 : BitVec 32) : Prop :=
  (∀ a, (k0_off315 v2019) a + S1x1x64x128.size a ≤ S1x9x64x128.size a)
instance k0_chk315.dec : ∀ (v2019 : BitVec 32), Decidable (k0_chk315 v2019) := fun v2019 => decidable_of_iff' _ (Iff.of_eq (k0_chk315.eq_1 v2019))
theorem k0_off315_inb : ∀ (v2019 : BitVec 32) (k0_hw315 : k0_chk315 v2019), ∀ a, (k0_off315 v2019) a + S1x1x64x128.size a ≤ S1x9x64x128.size a := fun v2019 k0_hw315 => k0_hw315

def k0_off316 (v2020 : BitVec 32) : Fin 3 → Nat :=
  let v2024 : Index := Scalar.indexCast v2020
  let c0_2071 : Index := 0#32
  let c0_2072 : Index := 0#32
  ![v2024.toNat, 0, 0]

def k0_chk316 (v2020 : BitVec 32) : Prop :=
  (∀ a, (k0_off316 v2020) a + S1x64x128.size a ≤ S45x64x128.size a)
instance k0_chk316.dec : ∀ (v2020 : BitVec 32), Decidable (k0_chk316 v2020) := fun v2020 => decidable_of_iff' _ (Iff.of_eq (k0_chk316.eq_1 v2020))
theorem k0_off316_inb : ∀ (v2020 : BitVec 32) (k0_hw316 : k0_chk316 v2020), ∀ a, (k0_off316 v2020) a + S1x64x128.size a ≤ S45x64x128.size a := fun v2020 k0_hw316 => k0_hw316

def k0_off317 (v2031 : BitVec 32) : Fin 4 → Nat :=
  let c0_2080 : Index := 0#32
  let v2033 : Index := Scalar.indexCast v2031
  let c0_2081 : Index := 0#32
  let c0_2082 : Index := 0#32
  ![0, v2033.toNat, 0, 0]

def k0_chk317 (v2031 : BitVec 32) : Prop :=
  (∀ a, (k0_off317 v2031) a + S1x1x64x128.size a ≤ S1x9x64x128.size a)
instance k0_chk317.dec : ∀ (v2031 : BitVec 32), Decidable (k0_chk317 v2031) := fun v2031 => decidable_of_iff' _ (Iff.of_eq (k0_chk317.eq_1 v2031))
theorem k0_off317_inb : ∀ (v2031 : BitVec 32) (k0_hw317 : k0_chk317 v2031), ∀ a, (k0_off317 v2031) a + S1x1x64x128.size a ≤ S1x9x64x128.size a := fun v2031 k0_hw317 => k0_hw317

def k0_off318 (v2032 : BitVec 32) : Fin 3 → Nat :=
  let v2036 : Index := Scalar.indexCast v2032
  let c0_2083 : Index := 0#32
  let c0_2084 : Index := 0#32
  ![v2036.toNat, 0, 0]

def k0_chk318 (v2032 : BitVec 32) : Prop :=
  (∀ a, (k0_off318 v2032) a + S1x64x128.size a ≤ S45x64x128.size a)
instance k0_chk318.dec : ∀ (v2032 : BitVec 32), Decidable (k0_chk318 v2032) := fun v2032 => decidable_of_iff' _ (Iff.of_eq (k0_chk318.eq_1 v2032))
theorem k0_off318_inb : ∀ (v2032 : BitVec 32) (k0_hw318 : k0_chk318 v2032), ∀ a, (k0_off318 v2032) a + S1x64x128.size a ≤ S45x64x128.size a := fun v2032 k0_hw318 => k0_hw318

def k0_off319 (v2043 : BitVec 32) : Fin 4 → Nat :=
  let c0_2092 : Index := 0#32
  let v2045 : Index := Scalar.indexCast v2043
  let c0_2093 : Index := 0#32
  let c0_2094 : Index := 0#32
  ![0, v2045.toNat, 0, 0]

def k0_chk319 (v2043 : BitVec 32) : Prop :=
  (∀ a, (k0_off319 v2043) a + S1x1x64x128.size a ≤ S1x9x64x128.size a)
instance k0_chk319.dec : ∀ (v2043 : BitVec 32), Decidable (k0_chk319 v2043) := fun v2043 => decidable_of_iff' _ (Iff.of_eq (k0_chk319.eq_1 v2043))
theorem k0_off319_inb : ∀ (v2043 : BitVec 32) (k0_hw319 : k0_chk319 v2043), ∀ a, (k0_off319 v2043) a + S1x1x64x128.size a ≤ S1x9x64x128.size a := fun v2043 k0_hw319 => k0_hw319

def k0_off320 (v2044 : BitVec 32) : Fin 3 → Nat :=
  let v2048 : Index := Scalar.indexCast v2044
  let c0_2095 : Index := 0#32
  let c0_2096 : Index := 0#32
  ![v2048.toNat, 0, 0]

def k0_chk320 (v2044 : BitVec 32) : Prop :=
  (∀ a, (k0_off320 v2044) a + S1x64x128.size a ≤ S45x64x128.size a)
instance k0_chk320.dec : ∀ (v2044 : BitVec 32), Decidable (k0_chk320 v2044) := fun v2044 => decidable_of_iff' _ (Iff.of_eq (k0_chk320.eq_1 v2044))
theorem k0_off320_inb : ∀ (v2044 : BitVec 32) (k0_hw320 : k0_chk320 v2044), ∀ a, (k0_off320 v2044) a + S1x64x128.size a ≤ S45x64x128.size a := fun v2044 k0_hw320 => k0_hw320

def k0_off321 (v2055 : BitVec 32) : Fin 4 → Nat :=
  let c0_2104 : Index := 0#32
  let v2057 : Index := Scalar.indexCast v2055
  let c0_2105 : Index := 0#32
  let c0_2106 : Index := 0#32
  ![0, v2057.toNat, 0, 0]

def k0_chk321 (v2055 : BitVec 32) : Prop :=
  (∀ a, (k0_off321 v2055) a + S1x1x64x128.size a ≤ S1x9x64x128.size a)
instance k0_chk321.dec : ∀ (v2055 : BitVec 32), Decidable (k0_chk321 v2055) := fun v2055 => decidable_of_iff' _ (Iff.of_eq (k0_chk321.eq_1 v2055))
theorem k0_off321_inb : ∀ (v2055 : BitVec 32) (k0_hw321 : k0_chk321 v2055), ∀ a, (k0_off321 v2055) a + S1x1x64x128.size a ≤ S1x9x64x128.size a := fun v2055 k0_hw321 => k0_hw321

def k0_off322 (v2056 : BitVec 32) : Fin 3 → Nat :=
  let v2060 : Index := Scalar.indexCast v2056
  let c0_2107 : Index := 0#32
  let c0_2108 : Index := 0#32
  ![v2060.toNat, 0, 0]

def k0_chk322 (v2056 : BitVec 32) : Prop :=
  (∀ a, (k0_off322 v2056) a + S1x64x128.size a ≤ S45x64x128.size a)
instance k0_chk322.dec : ∀ (v2056 : BitVec 32), Decidable (k0_chk322 v2056) := fun v2056 => decidable_of_iff' _ (Iff.of_eq (k0_chk322.eq_1 v2056))
theorem k0_off322_inb : ∀ (v2056 : BitVec 32) (k0_hw322 : k0_chk322 v2056), ∀ a, (k0_off322 v2056) a + S1x64x128.size a ≤ S45x64x128.size a := fun v2056 k0_hw322 => k0_hw322

def k0_off323 (v2067 : BitVec 32) : Fin 4 → Nat :=
  let c0_2116 : Index := 0#32
  let v2069 : Index := Scalar.indexCast v2067
  let c0_2117 : Index := 0#32
  let c0_2118 : Index := 0#32
  ![0, v2069.toNat, 0, 0]

def k0_chk323 (v2067 : BitVec 32) : Prop :=
  (∀ a, (k0_off323 v2067) a + S1x1x64x128.size a ≤ S1x9x64x128.size a)
instance k0_chk323.dec : ∀ (v2067 : BitVec 32), Decidable (k0_chk323 v2067) := fun v2067 => decidable_of_iff' _ (Iff.of_eq (k0_chk323.eq_1 v2067))
theorem k0_off323_inb : ∀ (v2067 : BitVec 32) (k0_hw323 : k0_chk323 v2067), ∀ a, (k0_off323 v2067) a + S1x1x64x128.size a ≤ S1x9x64x128.size a := fun v2067 k0_hw323 => k0_hw323

def k0_off324 (v2068 : BitVec 32) : Fin 3 → Nat :=
  let v2072 : Index := Scalar.indexCast v2068
  let c0_2119 : Index := 0#32
  let c0_2120 : Index := 0#32
  ![v2072.toNat, 0, 0]

def k0_chk324 (v2068 : BitVec 32) : Prop :=
  (∀ a, (k0_off324 v2068) a + S1x64x128.size a ≤ S45x64x128.size a)
instance k0_chk324.dec : ∀ (v2068 : BitVec 32), Decidable (k0_chk324 v2068) := fun v2068 => decidable_of_iff' _ (Iff.of_eq (k0_chk324.eq_1 v2068))
theorem k0_off324_inb : ∀ (v2068 : BitVec 32) (k0_hw324 : k0_chk324 v2068), ∀ a, (k0_off324 v2068) a + S1x64x128.size a ≤ S45x64x128.size a := fun v2068 k0_hw324 => k0_hw324

def k0_off325 (v2079 : BitVec 32) : Fin 4 → Nat :=
  let c0_2128 : Index := 0#32
  let v2081 : Index := Scalar.indexCast v2079
  let c0_2129 : Index := 0#32
  let c0_2130 : Index := 0#32
  ![0, v2081.toNat, 0, 0]

def k0_chk325 (v2079 : BitVec 32) : Prop :=
  (∀ a, (k0_off325 v2079) a + S1x1x64x128.size a ≤ S1x9x64x128.size a)
instance k0_chk325.dec : ∀ (v2079 : BitVec 32), Decidable (k0_chk325 v2079) := fun v2079 => decidable_of_iff' _ (Iff.of_eq (k0_chk325.eq_1 v2079))
theorem k0_off325_inb : ∀ (v2079 : BitVec 32) (k0_hw325 : k0_chk325 v2079), ∀ a, (k0_off325 v2079) a + S1x1x64x128.size a ≤ S1x9x64x128.size a := fun v2079 k0_hw325 => k0_hw325

def k0_off326 (v2080 : BitVec 32) : Fin 3 → Nat :=
  let v2084 : Index := Scalar.indexCast v2080
  let c0_2131 : Index := 0#32
  let c0_2132 : Index := 0#32
  ![v2084.toNat, 0, 0]

def k0_chk326 (v2080 : BitVec 32) : Prop :=
  (∀ a, (k0_off326 v2080) a + S1x64x128.size a ≤ S45x64x128.size a)
instance k0_chk326.dec : ∀ (v2080 : BitVec 32), Decidable (k0_chk326 v2080) := fun v2080 => decidable_of_iff' _ (Iff.of_eq (k0_chk326.eq_1 v2080))
theorem k0_off326_inb : ∀ (v2080 : BitVec 32) (k0_hw326 : k0_chk326 v2080), ∀ a, (k0_off326 v2080) a + S1x64x128.size a ≤ S45x64x128.size a := fun v2080 k0_hw326 => k0_hw326

def k0_off327 (v2091 : BitVec 32) : Fin 4 → Nat :=
  let c0_2140 : Index := 0#32
  let v2093 : Index := Scalar.indexCast v2091
  let c0_2141 : Index := 0#32
  let c0_2142 : Index := 0#32
  ![0, v2093.toNat, 0, 0]

def k0_chk327 (v2091 : BitVec 32) : Prop :=
  (∀ a, (k0_off327 v2091) a + S1x1x64x128.size a ≤ S1x9x64x128.size a)
instance k0_chk327.dec : ∀ (v2091 : BitVec 32), Decidable (k0_chk327 v2091) := fun v2091 => decidable_of_iff' _ (Iff.of_eq (k0_chk327.eq_1 v2091))
theorem k0_off327_inb : ∀ (v2091 : BitVec 32) (k0_hw327 : k0_chk327 v2091), ∀ a, (k0_off327 v2091) a + S1x1x64x128.size a ≤ S1x9x64x128.size a := fun v2091 k0_hw327 => k0_hw327

def k0_off328 (v2092 : BitVec 32) : Fin 3 → Nat :=
  let v2096 : Index := Scalar.indexCast v2092
  let c0_2143 : Index := 0#32
  let c0_2144 : Index := 0#32
  ![v2096.toNat, 0, 0]

def k0_chk328 (v2092 : BitVec 32) : Prop :=
  (∀ a, (k0_off328 v2092) a + S1x64x128.size a ≤ S45x64x128.size a)
instance k0_chk328.dec : ∀ (v2092 : BitVec 32), Decidable (k0_chk328 v2092) := fun v2092 => decidable_of_iff' _ (Iff.of_eq (k0_chk328.eq_1 v2092))
theorem k0_off328_inb : ∀ (v2092 : BitVec 32) (k0_hw328 : k0_chk328 v2092), ∀ a, (k0_off328 v2092) a + S1x64x128.size a ≤ S45x64x128.size a := fun v2092 k0_hw328 => k0_hw328

def k0_off329 (v2103 : BitVec 32) : Fin 4 → Nat :=
  let c0_2152 : Index := 0#32
  let v2105 : Index := Scalar.indexCast v2103
  let c0_2153 : Index := 0#32
  let c0_2154 : Index := 0#32
  ![0, v2105.toNat, 0, 0]

def k0_chk329 (v2103 : BitVec 32) : Prop :=
  (∀ a, (k0_off329 v2103) a + S1x1x64x128.size a ≤ S1x9x64x128.size a)
instance k0_chk329.dec : ∀ (v2103 : BitVec 32), Decidable (k0_chk329 v2103) := fun v2103 => decidable_of_iff' _ (Iff.of_eq (k0_chk329.eq_1 v2103))
theorem k0_off329_inb : ∀ (v2103 : BitVec 32) (k0_hw329 : k0_chk329 v2103), ∀ a, (k0_off329 v2103) a + S1x1x64x128.size a ≤ S1x9x64x128.size a := fun v2103 k0_hw329 => k0_hw329

def k0_off330 (v2104 : BitVec 32) : Fin 3 → Nat :=
  let v2108 : Index := Scalar.indexCast v2104
  let c0_2155 : Index := 0#32
  let c0_2156 : Index := 0#32
  ![v2108.toNat, 0, 0]

def k0_chk330 (v2104 : BitVec 32) : Prop :=
  (∀ a, (k0_off330 v2104) a + S1x64x128.size a ≤ S45x64x128.size a)
instance k0_chk330.dec : ∀ (v2104 : BitVec 32), Decidable (k0_chk330 v2104) := fun v2104 => decidable_of_iff' _ (Iff.of_eq (k0_chk330.eq_1 v2104))
theorem k0_off330_inb : ∀ (v2104 : BitVec 32) (k0_hw330 : k0_chk330 v2104), ∀ a, (k0_off330 v2104) a + S1x64x128.size a ≤ S45x64x128.size a := fun v2104 k0_hw330 => k0_hw330

def k0_off331 (v2115 : BitVec 32) : Fin 4 → Nat :=
  let c0_2164 : Index := 0#32
  let v2117 : Index := Scalar.indexCast v2115
  let c0_2165 : Index := 0#32
  let c0_2166 : Index := 0#32
  ![0, v2117.toNat, 0, 0]

def k0_chk331 (v2115 : BitVec 32) : Prop :=
  (∀ a, (k0_off331 v2115) a + S1x1x64x128.size a ≤ S1x9x64x128.size a)
instance k0_chk331.dec : ∀ (v2115 : BitVec 32), Decidable (k0_chk331 v2115) := fun v2115 => decidable_of_iff' _ (Iff.of_eq (k0_chk331.eq_1 v2115))
theorem k0_off331_inb : ∀ (v2115 : BitVec 32) (k0_hw331 : k0_chk331 v2115), ∀ a, (k0_off331 v2115) a + S1x1x64x128.size a ≤ S1x9x64x128.size a := fun v2115 k0_hw331 => k0_hw331

def k0_off332 (v2116 : BitVec 32) : Fin 3 → Nat :=
  let v2120 : Index := Scalar.indexCast v2116
  let c0_2167 : Index := 0#32
  let c0_2168 : Index := 0#32
  ![v2120.toNat, 0, 0]

def k0_chk332 (v2116 : BitVec 32) : Prop :=
  (∀ a, (k0_off332 v2116) a + S1x64x128.size a ≤ S45x64x128.size a)
instance k0_chk332.dec : ∀ (v2116 : BitVec 32), Decidable (k0_chk332 v2116) := fun v2116 => decidable_of_iff' _ (Iff.of_eq (k0_chk332.eq_1 v2116))
theorem k0_off332_inb : ∀ (v2116 : BitVec 32) (k0_hw332 : k0_chk332 v2116), ∀ a, (k0_off332 v2116) a + S1x64x128.size a ≤ S45x64x128.size a := fun v2116 k0_hw332 => k0_hw332

def k0_off333 (v2127 : BitVec 32) : Fin 4 → Nat :=
  let c0_2176 : Index := 0#32
  let v2129 : Index := Scalar.indexCast v2127
  let c0_2177 : Index := 0#32
  let c0_2178 : Index := 0#32
  ![0, v2129.toNat, 0, 0]

def k0_chk333 (v2127 : BitVec 32) : Prop :=
  (∀ a, (k0_off333 v2127) a + S1x1x64x128.size a ≤ S1x9x64x128.size a)
instance k0_chk333.dec : ∀ (v2127 : BitVec 32), Decidable (k0_chk333 v2127) := fun v2127 => decidable_of_iff' _ (Iff.of_eq (k0_chk333.eq_1 v2127))
theorem k0_off333_inb : ∀ (v2127 : BitVec 32) (k0_hw333 : k0_chk333 v2127), ∀ a, (k0_off333 v2127) a + S1x1x64x128.size a ≤ S1x9x64x128.size a := fun v2127 k0_hw333 => k0_hw333

def k0_off334 (v2128 : BitVec 32) : Fin 3 → Nat :=
  let v2132 : Index := Scalar.indexCast v2128
  let c0_2179 : Index := 0#32
  let c0_2180 : Index := 0#32
  ![v2132.toNat, 0, 0]

def k0_chk334 (v2128 : BitVec 32) : Prop :=
  (∀ a, (k0_off334 v2128) a + S1x64x128.size a ≤ S45x64x128.size a)
instance k0_chk334.dec : ∀ (v2128 : BitVec 32), Decidable (k0_chk334 v2128) := fun v2128 => decidable_of_iff' _ (Iff.of_eq (k0_chk334.eq_1 v2128))
theorem k0_off334_inb : ∀ (v2128 : BitVec 32) (k0_hw334 : k0_chk334 v2128), ∀ a, (k0_off334 v2128) a + S1x64x128.size a ≤ S45x64x128.size a := fun v2128 k0_hw334 => k0_hw334

def k0_off335 (v2139 : BitVec 32) : Fin 4 → Nat :=
  let c0_2188 : Index := 0#32
  let v2141 : Index := Scalar.indexCast v2139
  let c0_2189 : Index := 0#32
  let c0_2190 : Index := 0#32
  ![0, v2141.toNat, 0, 0]

def k0_chk335 (v2139 : BitVec 32) : Prop :=
  (∀ a, (k0_off335 v2139) a + S1x1x64x128.size a ≤ S1x9x64x128.size a)
instance k0_chk335.dec : ∀ (v2139 : BitVec 32), Decidable (k0_chk335 v2139) := fun v2139 => decidable_of_iff' _ (Iff.of_eq (k0_chk335.eq_1 v2139))
theorem k0_off335_inb : ∀ (v2139 : BitVec 32) (k0_hw335 : k0_chk335 v2139), ∀ a, (k0_off335 v2139) a + S1x1x64x128.size a ≤ S1x9x64x128.size a := fun v2139 k0_hw335 => k0_hw335

def k0_off336 (v2140 : BitVec 32) : Fin 3 → Nat :=
  let v2144 : Index := Scalar.indexCast v2140
  let c0_2191 : Index := 0#32
  let c0_2192 : Index := 0#32
  ![v2144.toNat, 0, 0]

def k0_chk336 (v2140 : BitVec 32) : Prop :=
  (∀ a, (k0_off336 v2140) a + S1x64x128.size a ≤ S45x64x128.size a)
instance k0_chk336.dec : ∀ (v2140 : BitVec 32), Decidable (k0_chk336 v2140) := fun v2140 => decidable_of_iff' _ (Iff.of_eq (k0_chk336.eq_1 v2140))
theorem k0_off336_inb : ∀ (v2140 : BitVec 32) (k0_hw336 : k0_chk336 v2140), ∀ a, (k0_off336 v2140) a + S1x64x128.size a ≤ S45x64x128.size a := fun v2140 k0_hw336 => k0_hw336

def k0_off337 (v2151 : BitVec 32) : Fin 4 → Nat :=
  let c0_2200 : Index := 0#32
  let v2153 : Index := Scalar.indexCast v2151
  let c0_2201 : Index := 0#32
  let c0_2202 : Index := 0#32
  ![0, v2153.toNat, 0, 0]

def k0_chk337 (v2151 : BitVec 32) : Prop :=
  (∀ a, (k0_off337 v2151) a + S1x1x64x128.size a ≤ S1x9x64x128.size a)
instance k0_chk337.dec : ∀ (v2151 : BitVec 32), Decidable (k0_chk337 v2151) := fun v2151 => decidable_of_iff' _ (Iff.of_eq (k0_chk337.eq_1 v2151))
theorem k0_off337_inb : ∀ (v2151 : BitVec 32) (k0_hw337 : k0_chk337 v2151), ∀ a, (k0_off337 v2151) a + S1x1x64x128.size a ≤ S1x9x64x128.size a := fun v2151 k0_hw337 => k0_hw337

def k0_off338 (v2152 : BitVec 32) : Fin 3 → Nat :=
  let v2156 : Index := Scalar.indexCast v2152
  let c0_2203 : Index := 0#32
  let c0_2204 : Index := 0#32
  ![v2156.toNat, 0, 0]

def k0_chk338 (v2152 : BitVec 32) : Prop :=
  (∀ a, (k0_off338 v2152) a + S1x64x128.size a ≤ S45x64x128.size a)
instance k0_chk338.dec : ∀ (v2152 : BitVec 32), Decidable (k0_chk338 v2152) := fun v2152 => decidable_of_iff' _ (Iff.of_eq (k0_chk338.eq_1 v2152))
theorem k0_off338_inb : ∀ (v2152 : BitVec 32) (k0_hw338 : k0_chk338 v2152), ∀ a, (k0_off338 v2152) a + S1x64x128.size a ≤ S45x64x128.size a := fun v2152 k0_hw338 => k0_hw338

def k0_off339 (v2163 : BitVec 32) : Fin 4 → Nat :=
  let c0_2212 : Index := 0#32
  let v2165 : Index := Scalar.indexCast v2163
  let c0_2213 : Index := 0#32
  let c0_2214 : Index := 0#32
  ![0, v2165.toNat, 0, 0]

def k0_chk339 (v2163 : BitVec 32) : Prop :=
  (∀ a, (k0_off339 v2163) a + S1x1x64x128.size a ≤ S1x9x64x128.size a)
instance k0_chk339.dec : ∀ (v2163 : BitVec 32), Decidable (k0_chk339 v2163) := fun v2163 => decidable_of_iff' _ (Iff.of_eq (k0_chk339.eq_1 v2163))
theorem k0_off339_inb : ∀ (v2163 : BitVec 32) (k0_hw339 : k0_chk339 v2163), ∀ a, (k0_off339 v2163) a + S1x1x64x128.size a ≤ S1x9x64x128.size a := fun v2163 k0_hw339 => k0_hw339

def k0_off340 (v2164 : BitVec 32) : Fin 3 → Nat :=
  let v2168 : Index := Scalar.indexCast v2164
  let c0_2215 : Index := 0#32
  let c0_2216 : Index := 0#32
  ![v2168.toNat, 0, 0]

def k0_chk340 (v2164 : BitVec 32) : Prop :=
  (∀ a, (k0_off340 v2164) a + S1x64x128.size a ≤ S45x64x128.size a)
instance k0_chk340.dec : ∀ (v2164 : BitVec 32), Decidable (k0_chk340 v2164) := fun v2164 => decidable_of_iff' _ (Iff.of_eq (k0_chk340.eq_1 v2164))
theorem k0_off340_inb : ∀ (v2164 : BitVec 32) (k0_hw340 : k0_chk340 v2164), ∀ a, (k0_off340 v2164) a + S1x64x128.size a ≤ S45x64x128.size a := fun v2164 k0_hw340 => k0_hw340

def k0_off341 (v2175 : BitVec 32) : Fin 4 → Nat :=
  let c0_2224 : Index := 0#32
  let v2177 : Index := Scalar.indexCast v2175
  let c0_2225 : Index := 0#32
  let c0_2226 : Index := 0#32
  ![0, v2177.toNat, 0, 0]

def k0_chk341 (v2175 : BitVec 32) : Prop :=
  (∀ a, (k0_off341 v2175) a + S1x1x64x128.size a ≤ S1x9x64x128.size a)
instance k0_chk341.dec : ∀ (v2175 : BitVec 32), Decidable (k0_chk341 v2175) := fun v2175 => decidable_of_iff' _ (Iff.of_eq (k0_chk341.eq_1 v2175))
theorem k0_off341_inb : ∀ (v2175 : BitVec 32) (k0_hw341 : k0_chk341 v2175), ∀ a, (k0_off341 v2175) a + S1x1x64x128.size a ≤ S1x9x64x128.size a := fun v2175 k0_hw341 => k0_hw341

def k0_off342 (v2176 : BitVec 32) : Fin 3 → Nat :=
  let v2180 : Index := Scalar.indexCast v2176
  let c0_2227 : Index := 0#32
  let c0_2228 : Index := 0#32
  ![v2180.toNat, 0, 0]

def k0_chk342 (v2176 : BitVec 32) : Prop :=
  (∀ a, (k0_off342 v2176) a + S1x64x128.size a ≤ S45x64x128.size a)
instance k0_chk342.dec : ∀ (v2176 : BitVec 32), Decidable (k0_chk342 v2176) := fun v2176 => decidable_of_iff' _ (Iff.of_eq (k0_chk342.eq_1 v2176))
theorem k0_off342_inb : ∀ (v2176 : BitVec 32) (k0_hw342 : k0_chk342 v2176), ∀ a, (k0_off342 v2176) a + S1x64x128.size a ≤ S45x64x128.size a := fun v2176 k0_hw342 => k0_hw342

def k0_off343 (v2187 : BitVec 32) : Fin 4 → Nat :=
  let c0_2236 : Index := 0#32
  let v2189 : Index := Scalar.indexCast v2187
  let c0_2237 : Index := 0#32
  let c0_2238 : Index := 0#32
  ![0, v2189.toNat, 0, 0]

def k0_chk343 (v2187 : BitVec 32) : Prop :=
  (∀ a, (k0_off343 v2187) a + S1x1x64x128.size a ≤ S1x9x64x128.size a)
instance k0_chk343.dec : ∀ (v2187 : BitVec 32), Decidable (k0_chk343 v2187) := fun v2187 => decidable_of_iff' _ (Iff.of_eq (k0_chk343.eq_1 v2187))
theorem k0_off343_inb : ∀ (v2187 : BitVec 32) (k0_hw343 : k0_chk343 v2187), ∀ a, (k0_off343 v2187) a + S1x1x64x128.size a ≤ S1x9x64x128.size a := fun v2187 k0_hw343 => k0_hw343

def k0_off344 (v2188 : BitVec 32) : Fin 3 → Nat :=
  let v2192 : Index := Scalar.indexCast v2188
  let c0_2239 : Index := 0#32
  let c0_2240 : Index := 0#32
  ![v2192.toNat, 0, 0]

def k0_chk344 (v2188 : BitVec 32) : Prop :=
  (∀ a, (k0_off344 v2188) a + S1x64x128.size a ≤ S45x64x128.size a)
instance k0_chk344.dec : ∀ (v2188 : BitVec 32), Decidable (k0_chk344 v2188) := fun v2188 => decidable_of_iff' _ (Iff.of_eq (k0_chk344.eq_1 v2188))
theorem k0_off344_inb : ∀ (v2188 : BitVec 32) (k0_hw344 : k0_chk344 v2188), ∀ a, (k0_off344 v2188) a + S1x64x128.size a ≤ S45x64x128.size a := fun v2188 k0_hw344 => k0_hw344

def k0_off345 (v2199 : BitVec 32) : Fin 4 → Nat :=
  let c0_2248 : Index := 0#32
  let v2201 : Index := Scalar.indexCast v2199
  let c0_2249 : Index := 0#32
  let c0_2250 : Index := 0#32
  ![0, v2201.toNat, 0, 0]

def k0_chk345 (v2199 : BitVec 32) : Prop :=
  (∀ a, (k0_off345 v2199) a + S1x1x64x128.size a ≤ S1x9x64x128.size a)
instance k0_chk345.dec : ∀ (v2199 : BitVec 32), Decidable (k0_chk345 v2199) := fun v2199 => decidable_of_iff' _ (Iff.of_eq (k0_chk345.eq_1 v2199))
theorem k0_off345_inb : ∀ (v2199 : BitVec 32) (k0_hw345 : k0_chk345 v2199), ∀ a, (k0_off345 v2199) a + S1x1x64x128.size a ≤ S1x9x64x128.size a := fun v2199 k0_hw345 => k0_hw345

def k0_off346 (v2200 : BitVec 32) : Fin 3 → Nat :=
  let v2204 : Index := Scalar.indexCast v2200
  let c0_2251 : Index := 0#32
  let c0_2252 : Index := 0#32
  ![v2204.toNat, 0, 0]

def k0_chk346 (v2200 : BitVec 32) : Prop :=
  (∀ a, (k0_off346 v2200) a + S1x64x128.size a ≤ S45x64x128.size a)
instance k0_chk346.dec : ∀ (v2200 : BitVec 32), Decidable (k0_chk346 v2200) := fun v2200 => decidable_of_iff' _ (Iff.of_eq (k0_chk346.eq_1 v2200))
theorem k0_off346_inb : ∀ (v2200 : BitVec 32) (k0_hw346 : k0_chk346 v2200), ∀ a, (k0_off346 v2200) a + S1x64x128.size a ≤ S45x64x128.size a := fun v2200 k0_hw346 => k0_hw346

def k0_off347 (v2211 : BitVec 32) : Fin 4 → Nat :=
  let c0_2260 : Index := 0#32
  let v2213 : Index := Scalar.indexCast v2211
  let c0_2261 : Index := 0#32
  let c0_2262 : Index := 0#32
  ![0, v2213.toNat, 0, 0]

def k0_chk347 (v2211 : BitVec 32) : Prop :=
  (∀ a, (k0_off347 v2211) a + S1x1x64x128.size a ≤ S1x9x64x128.size a)
instance k0_chk347.dec : ∀ (v2211 : BitVec 32), Decidable (k0_chk347 v2211) := fun v2211 => decidable_of_iff' _ (Iff.of_eq (k0_chk347.eq_1 v2211))
theorem k0_off347_inb : ∀ (v2211 : BitVec 32) (k0_hw347 : k0_chk347 v2211), ∀ a, (k0_off347 v2211) a + S1x1x64x128.size a ≤ S1x9x64x128.size a := fun v2211 k0_hw347 => k0_hw347

def k0_off348 (v2212 : BitVec 32) : Fin 3 → Nat :=
  let v2216 : Index := Scalar.indexCast v2212
  let c0_2263 : Index := 0#32
  let c0_2264 : Index := 0#32
  ![v2216.toNat, 0, 0]

def k0_chk348 (v2212 : BitVec 32) : Prop :=
  (∀ a, (k0_off348 v2212) a + S1x64x128.size a ≤ S45x64x128.size a)
instance k0_chk348.dec : ∀ (v2212 : BitVec 32), Decidable (k0_chk348 v2212) := fun v2212 => decidable_of_iff' _ (Iff.of_eq (k0_chk348.eq_1 v2212))
theorem k0_off348_inb : ∀ (v2212 : BitVec 32) (k0_hw348 : k0_chk348 v2212), ∀ a, (k0_off348 v2212) a + S1x64x128.size a ≤ S45x64x128.size a := fun v2212 k0_hw348 => k0_hw348

def k0_off349 (v2223 : BitVec 32) : Fin 4 → Nat :=
  let c0_2272 : Index := 0#32
  let v2225 : Index := Scalar.indexCast v2223
  let c0_2273 : Index := 0#32
  let c0_2274 : Index := 0#32
  ![0, v2225.toNat, 0, 0]

def k0_chk349 (v2223 : BitVec 32) : Prop :=
  (∀ a, (k0_off349 v2223) a + S1x1x64x128.size a ≤ S1x9x64x128.size a)
instance k0_chk349.dec : ∀ (v2223 : BitVec 32), Decidable (k0_chk349 v2223) := fun v2223 => decidable_of_iff' _ (Iff.of_eq (k0_chk349.eq_1 v2223))
theorem k0_off349_inb : ∀ (v2223 : BitVec 32) (k0_hw349 : k0_chk349 v2223), ∀ a, (k0_off349 v2223) a + S1x1x64x128.size a ≤ S1x9x64x128.size a := fun v2223 k0_hw349 => k0_hw349

def k0_off350 (v2224 : BitVec 32) : Fin 3 → Nat :=
  let v2228 : Index := Scalar.indexCast v2224
  let c0_2275 : Index := 0#32
  let c0_2276 : Index := 0#32
  ![v2228.toNat, 0, 0]

def k0_chk350 (v2224 : BitVec 32) : Prop :=
  (∀ a, (k0_off350 v2224) a + S1x64x128.size a ≤ S45x64x128.size a)
instance k0_chk350.dec : ∀ (v2224 : BitVec 32), Decidable (k0_chk350 v2224) := fun v2224 => decidable_of_iff' _ (Iff.of_eq (k0_chk350.eq_1 v2224))
theorem k0_off350_inb : ∀ (v2224 : BitVec 32) (k0_hw350 : k0_chk350 v2224), ∀ a, (k0_off350 v2224) a + S1x64x128.size a ≤ S45x64x128.size a := fun v2224 k0_hw350 => k0_hw350

def k0_off351 (v2235 : BitVec 32) : Fin 4 → Nat :=
  let c0_2284 : Index := 0#32
  let v2237 : Index := Scalar.indexCast v2235
  let c0_2285 : Index := 0#32
  let c0_2286 : Index := 0#32
  ![0, v2237.toNat, 0, 0]

def k0_chk351 (v2235 : BitVec 32) : Prop :=
  (∀ a, (k0_off351 v2235) a + S1x1x64x128.size a ≤ S1x9x64x128.size a)
instance k0_chk351.dec : ∀ (v2235 : BitVec 32), Decidable (k0_chk351 v2235) := fun v2235 => decidable_of_iff' _ (Iff.of_eq (k0_chk351.eq_1 v2235))
theorem k0_off351_inb : ∀ (v2235 : BitVec 32) (k0_hw351 : k0_chk351 v2235), ∀ a, (k0_off351 v2235) a + S1x1x64x128.size a ≤ S1x9x64x128.size a := fun v2235 k0_hw351 => k0_hw351

def k0_off352 (v2236 : BitVec 32) : Fin 3 → Nat :=
  let v2240 : Index := Scalar.indexCast v2236
  let c0_2287 : Index := 0#32
  let c0_2288 : Index := 0#32
  ![v2240.toNat, 0, 0]

def k0_chk352 (v2236 : BitVec 32) : Prop :=
  (∀ a, (k0_off352 v2236) a + S1x64x128.size a ≤ S45x64x128.size a)
instance k0_chk352.dec : ∀ (v2236 : BitVec 32), Decidable (k0_chk352 v2236) := fun v2236 => decidable_of_iff' _ (Iff.of_eq (k0_chk352.eq_1 v2236))
theorem k0_off352_inb : ∀ (v2236 : BitVec 32) (k0_hw352 : k0_chk352 v2236), ∀ a, (k0_off352 v2236) a + S1x64x128.size a ≤ S45x64x128.size a := fun v2236 k0_hw352 => k0_hw352

def k0_off353 (v2247 : BitVec 32) : Fin 4 → Nat :=
  let c0_2296 : Index := 0#32
  let v2249 : Index := Scalar.indexCast v2247
  let c0_2297 : Index := 0#32
  let c0_2298 : Index := 0#32
  ![0, v2249.toNat, 0, 0]

def k0_chk353 (v2247 : BitVec 32) : Prop :=
  (∀ a, (k0_off353 v2247) a + S1x1x64x128.size a ≤ S1x9x64x128.size a)
instance k0_chk353.dec : ∀ (v2247 : BitVec 32), Decidable (k0_chk353 v2247) := fun v2247 => decidable_of_iff' _ (Iff.of_eq (k0_chk353.eq_1 v2247))
theorem k0_off353_inb : ∀ (v2247 : BitVec 32) (k0_hw353 : k0_chk353 v2247), ∀ a, (k0_off353 v2247) a + S1x1x64x128.size a ≤ S1x9x64x128.size a := fun v2247 k0_hw353 => k0_hw353

def k0_off354 (v2248 : BitVec 32) : Fin 3 → Nat :=
  let v2252 : Index := Scalar.indexCast v2248
  let c0_2299 : Index := 0#32
  let c0_2300 : Index := 0#32
  ![v2252.toNat, 0, 0]

def k0_chk354 (v2248 : BitVec 32) : Prop :=
  (∀ a, (k0_off354 v2248) a + S1x64x128.size a ≤ S45x64x128.size a)
instance k0_chk354.dec : ∀ (v2248 : BitVec 32), Decidable (k0_chk354 v2248) := fun v2248 => decidable_of_iff' _ (Iff.of_eq (k0_chk354.eq_1 v2248))
theorem k0_off354_inb : ∀ (v2248 : BitVec 32) (k0_hw354 : k0_chk354 v2248), ∀ a, (k0_off354 v2248) a + S1x64x128.size a ≤ S45x64x128.size a := fun v2248 k0_hw354 => k0_hw354

def k0_off355 (v2259 : BitVec 32) : Fin 4 → Nat :=
  let c0_2308 : Index := 0#32
  let v2261 : Index := Scalar.indexCast v2259
  let c0_2309 : Index := 0#32
  let c0_2310 : Index := 0#32
  ![0, v2261.toNat, 0, 0]

def k0_chk355 (v2259 : BitVec 32) : Prop :=
  (∀ a, (k0_off355 v2259) a + S1x1x64x128.size a ≤ S1x9x64x128.size a)
instance k0_chk355.dec : ∀ (v2259 : BitVec 32), Decidable (k0_chk355 v2259) := fun v2259 => decidable_of_iff' _ (Iff.of_eq (k0_chk355.eq_1 v2259))
theorem k0_off355_inb : ∀ (v2259 : BitVec 32) (k0_hw355 : k0_chk355 v2259), ∀ a, (k0_off355 v2259) a + S1x1x64x128.size a ≤ S1x9x64x128.size a := fun v2259 k0_hw355 => k0_hw355

def k0_off356 (v2260 : BitVec 32) : Fin 3 → Nat :=
  let v2264 : Index := Scalar.indexCast v2260
  let c0_2311 : Index := 0#32
  let c0_2312 : Index := 0#32
  ![v2264.toNat, 0, 0]

def k0_chk356 (v2260 : BitVec 32) : Prop :=
  (∀ a, (k0_off356 v2260) a + S1x64x128.size a ≤ S45x64x128.size a)
instance k0_chk356.dec : ∀ (v2260 : BitVec 32), Decidable (k0_chk356 v2260) := fun v2260 => decidable_of_iff' _ (Iff.of_eq (k0_chk356.eq_1 v2260))
theorem k0_off356_inb : ∀ (v2260 : BitVec 32) (k0_hw356 : k0_chk356 v2260), ∀ a, (k0_off356 v2260) a + S1x64x128.size a ≤ S45x64x128.size a := fun v2260 k0_hw356 => k0_hw356

def k0_off357 (v2271 : BitVec 32) : Fin 4 → Nat :=
  let c0_2320 : Index := 0#32
  let v2273 : Index := Scalar.indexCast v2271
  let c0_2321 : Index := 0#32
  let c0_2322 : Index := 0#32
  ![0, v2273.toNat, 0, 0]

def k0_chk357 (v2271 : BitVec 32) : Prop :=
  (∀ a, (k0_off357 v2271) a + S1x1x64x128.size a ≤ S1x9x64x128.size a)
instance k0_chk357.dec : ∀ (v2271 : BitVec 32), Decidable (k0_chk357 v2271) := fun v2271 => decidable_of_iff' _ (Iff.of_eq (k0_chk357.eq_1 v2271))
theorem k0_off357_inb : ∀ (v2271 : BitVec 32) (k0_hw357 : k0_chk357 v2271), ∀ a, (k0_off357 v2271) a + S1x1x64x128.size a ≤ S1x9x64x128.size a := fun v2271 k0_hw357 => k0_hw357

def k0_off358 (v2272 : BitVec 32) : Fin 3 → Nat :=
  let v2276 : Index := Scalar.indexCast v2272
  let c0_2323 : Index := 0#32
  let c0_2324 : Index := 0#32
  ![v2276.toNat, 0, 0]

def k0_chk358 (v2272 : BitVec 32) : Prop :=
  (∀ a, (k0_off358 v2272) a + S1x64x128.size a ≤ S45x64x128.size a)
instance k0_chk358.dec : ∀ (v2272 : BitVec 32), Decidable (k0_chk358 v2272) := fun v2272 => decidable_of_iff' _ (Iff.of_eq (k0_chk358.eq_1 v2272))
theorem k0_off358_inb : ∀ (v2272 : BitVec 32) (k0_hw358 : k0_chk358 v2272), ∀ a, (k0_off358 v2272) a + S1x64x128.size a ≤ S45x64x128.size a := fun v2272 k0_hw358 => k0_hw358

def k0_off359 (v2283 : BitVec 32) : Fin 4 → Nat :=
  let c0_2332 : Index := 0#32
  let v2285 : Index := Scalar.indexCast v2283
  let c0_2333 : Index := 0#32
  let c0_2334 : Index := 0#32
  ![0, v2285.toNat, 0, 0]

def k0_chk359 (v2283 : BitVec 32) : Prop :=
  (∀ a, (k0_off359 v2283) a + S1x1x64x128.size a ≤ S1x9x64x128.size a)
instance k0_chk359.dec : ∀ (v2283 : BitVec 32), Decidable (k0_chk359 v2283) := fun v2283 => decidable_of_iff' _ (Iff.of_eq (k0_chk359.eq_1 v2283))
theorem k0_off359_inb : ∀ (v2283 : BitVec 32) (k0_hw359 : k0_chk359 v2283), ∀ a, (k0_off359 v2283) a + S1x1x64x128.size a ≤ S1x9x64x128.size a := fun v2283 k0_hw359 => k0_hw359

def k0_off360 (v2284 : BitVec 32) : Fin 3 → Nat :=
  let v2288 : Index := Scalar.indexCast v2284
  let c0_2335 : Index := 0#32
  let c0_2336 : Index := 0#32
  ![v2288.toNat, 0, 0]

def k0_chk360 (v2284 : BitVec 32) : Prop :=
  (∀ a, (k0_off360 v2284) a + S1x64x128.size a ≤ S45x64x128.size a)
instance k0_chk360.dec : ∀ (v2284 : BitVec 32), Decidable (k0_chk360 v2284) := fun v2284 => decidable_of_iff' _ (Iff.of_eq (k0_chk360.eq_1 v2284))
theorem k0_off360_inb : ∀ (v2284 : BitVec 32) (k0_hw360 : k0_chk360 v2284), ∀ a, (k0_off360 v2284) a + S1x64x128.size a ≤ S45x64x128.size a := fun v2284 k0_hw360 => k0_hw360

def k0_off361 (v2295 : BitVec 32) : Fin 4 → Nat :=
  let c0_2344 : Index := 0#32
  let v2297 : Index := Scalar.indexCast v2295
  let c0_2345 : Index := 0#32
  let c0_2346 : Index := 0#32
  ![0, v2297.toNat, 0, 0]

def k0_chk361 (v2295 : BitVec 32) : Prop :=
  (∀ a, (k0_off361 v2295) a + S1x1x64x128.size a ≤ S1x9x64x128.size a)
instance k0_chk361.dec : ∀ (v2295 : BitVec 32), Decidable (k0_chk361 v2295) := fun v2295 => decidable_of_iff' _ (Iff.of_eq (k0_chk361.eq_1 v2295))
theorem k0_off361_inb : ∀ (v2295 : BitVec 32) (k0_hw361 : k0_chk361 v2295), ∀ a, (k0_off361 v2295) a + S1x1x64x128.size a ≤ S1x9x64x128.size a := fun v2295 k0_hw361 => k0_hw361

def k0_off362 (v2296 : BitVec 32) : Fin 3 → Nat :=
  let v2300 : Index := Scalar.indexCast v2296
  let c0_2347 : Index := 0#32
  let c0_2348 : Index := 0#32
  ![v2300.toNat, 0, 0]

def k0_chk362 (v2296 : BitVec 32) : Prop :=
  (∀ a, (k0_off362 v2296) a + S1x64x128.size a ≤ S45x64x128.size a)
instance k0_chk362.dec : ∀ (v2296 : BitVec 32), Decidable (k0_chk362 v2296) := fun v2296 => decidable_of_iff' _ (Iff.of_eq (k0_chk362.eq_1 v2296))
theorem k0_off362_inb : ∀ (v2296 : BitVec 32) (k0_hw362 : k0_chk362 v2296), ∀ a, (k0_off362 v2296) a + S1x64x128.size a ≤ S45x64x128.size a := fun v2296 k0_hw362 => k0_hw362

def k0_off363 (v2307 : BitVec 32) : Fin 4 → Nat :=
  let c0_2356 : Index := 0#32
  let v2309 : Index := Scalar.indexCast v2307
  let c0_2357 : Index := 0#32
  let c0_2358 : Index := 0#32
  ![0, v2309.toNat, 0, 0]

def k0_chk363 (v2307 : BitVec 32) : Prop :=
  (∀ a, (k0_off363 v2307) a + S1x1x64x128.size a ≤ S1x9x64x128.size a)
instance k0_chk363.dec : ∀ (v2307 : BitVec 32), Decidable (k0_chk363 v2307) := fun v2307 => decidable_of_iff' _ (Iff.of_eq (k0_chk363.eq_1 v2307))
theorem k0_off363_inb : ∀ (v2307 : BitVec 32) (k0_hw363 : k0_chk363 v2307), ∀ a, (k0_off363 v2307) a + S1x1x64x128.size a ≤ S1x9x64x128.size a := fun v2307 k0_hw363 => k0_hw363

def k0_off364 (v2308 : BitVec 32) : Fin 3 → Nat :=
  let v2312 : Index := Scalar.indexCast v2308
  let c0_2359 : Index := 0#32
  let c0_2360 : Index := 0#32
  ![v2312.toNat, 0, 0]

def k0_chk364 (v2308 : BitVec 32) : Prop :=
  (∀ a, (k0_off364 v2308) a + S1x64x128.size a ≤ S45x64x128.size a)
instance k0_chk364.dec : ∀ (v2308 : BitVec 32), Decidable (k0_chk364 v2308) := fun v2308 => decidable_of_iff' _ (Iff.of_eq (k0_chk364.eq_1 v2308))
theorem k0_off364_inb : ∀ (v2308 : BitVec 32) (k0_hw364 : k0_chk364 v2308), ∀ a, (k0_off364 v2308) a + S1x64x128.size a ≤ S45x64x128.size a := fun v2308 k0_hw364 => k0_hw364

def k0_off365 (v2319 : BitVec 32) : Fin 4 → Nat :=
  let c0_2368 : Index := 0#32
  let v2321 : Index := Scalar.indexCast v2319
  let c0_2369 : Index := 0#32
  let c0_2370 : Index := 0#32
  ![0, v2321.toNat, 0, 0]

def k0_chk365 (v2319 : BitVec 32) : Prop :=
  (∀ a, (k0_off365 v2319) a + S1x1x64x128.size a ≤ S1x9x64x128.size a)
instance k0_chk365.dec : ∀ (v2319 : BitVec 32), Decidable (k0_chk365 v2319) := fun v2319 => decidable_of_iff' _ (Iff.of_eq (k0_chk365.eq_1 v2319))
theorem k0_off365_inb : ∀ (v2319 : BitVec 32) (k0_hw365 : k0_chk365 v2319), ∀ a, (k0_off365 v2319) a + S1x1x64x128.size a ≤ S1x9x64x128.size a := fun v2319 k0_hw365 => k0_hw365

def k0_off366 (v2320 : BitVec 32) : Fin 3 → Nat :=
  let v2324 : Index := Scalar.indexCast v2320
  let c0_2371 : Index := 0#32
  let c0_2372 : Index := 0#32
  ![v2324.toNat, 0, 0]

def k0_chk366 (v2320 : BitVec 32) : Prop :=
  (∀ a, (k0_off366 v2320) a + S1x64x128.size a ≤ S45x64x128.size a)
instance k0_chk366.dec : ∀ (v2320 : BitVec 32), Decidable (k0_chk366 v2320) := fun v2320 => decidable_of_iff' _ (Iff.of_eq (k0_chk366.eq_1 v2320))
theorem k0_off366_inb : ∀ (v2320 : BitVec 32) (k0_hw366 : k0_chk366 v2320), ∀ a, (k0_off366 v2320) a + S1x64x128.size a ≤ S45x64x128.size a := fun v2320 k0_hw366 => k0_hw366

def k0_off367 (v2331 : BitVec 32) : Fin 4 → Nat :=
  let c0_2380 : Index := 0#32
  let v2333 : Index := Scalar.indexCast v2331
  let c0_2381 : Index := 0#32
  let c0_2382 : Index := 0#32
  ![0, v2333.toNat, 0, 0]

def k0_chk367 (v2331 : BitVec 32) : Prop :=
  (∀ a, (k0_off367 v2331) a + S1x1x64x128.size a ≤ S1x9x64x128.size a)
instance k0_chk367.dec : ∀ (v2331 : BitVec 32), Decidable (k0_chk367 v2331) := fun v2331 => decidable_of_iff' _ (Iff.of_eq (k0_chk367.eq_1 v2331))
theorem k0_off367_inb : ∀ (v2331 : BitVec 32) (k0_hw367 : k0_chk367 v2331), ∀ a, (k0_off367 v2331) a + S1x1x64x128.size a ≤ S1x9x64x128.size a := fun v2331 k0_hw367 => k0_hw367

def k0_off368 (v2332 : BitVec 32) : Fin 3 → Nat :=
  let v2336 : Index := Scalar.indexCast v2332
  let c0_2383 : Index := 0#32
  let c0_2384 : Index := 0#32
  ![v2336.toNat, 0, 0]

def k0_chk368 (v2332 : BitVec 32) : Prop :=
  (∀ a, (k0_off368 v2332) a + S1x64x128.size a ≤ S45x64x128.size a)
instance k0_chk368.dec : ∀ (v2332 : BitVec 32), Decidable (k0_chk368 v2332) := fun v2332 => decidable_of_iff' _ (Iff.of_eq (k0_chk368.eq_1 v2332))
theorem k0_off368_inb : ∀ (v2332 : BitVec 32) (k0_hw368 : k0_chk368 v2332), ∀ a, (k0_off368 v2332) a + S1x64x128.size a ≤ S45x64x128.size a := fun v2332 k0_hw368 => k0_hw368

def k0_off369 (v2343 : BitVec 32) : Fin 4 → Nat :=
  let c0_2392 : Index := 0#32
  let v2345 : Index := Scalar.indexCast v2343
  let c0_2393 : Index := 0#32
  let c0_2394 : Index := 0#32
  ![0, v2345.toNat, 0, 0]

def k0_chk369 (v2343 : BitVec 32) : Prop :=
  (∀ a, (k0_off369 v2343) a + S1x1x64x128.size a ≤ S1x9x64x128.size a)
instance k0_chk369.dec : ∀ (v2343 : BitVec 32), Decidable (k0_chk369 v2343) := fun v2343 => decidable_of_iff' _ (Iff.of_eq (k0_chk369.eq_1 v2343))
theorem k0_off369_inb : ∀ (v2343 : BitVec 32) (k0_hw369 : k0_chk369 v2343), ∀ a, (k0_off369 v2343) a + S1x1x64x128.size a ≤ S1x9x64x128.size a := fun v2343 k0_hw369 => k0_hw369

def k0_off370 (v2344 : BitVec 32) : Fin 3 → Nat :=
  let v2348 : Index := Scalar.indexCast v2344
  let c0_2395 : Index := 0#32
  let c0_2396 : Index := 0#32
  ![v2348.toNat, 0, 0]

def k0_chk370 (v2344 : BitVec 32) : Prop :=
  (∀ a, (k0_off370 v2344) a + S1x64x128.size a ≤ S45x64x128.size a)
instance k0_chk370.dec : ∀ (v2344 : BitVec 32), Decidable (k0_chk370 v2344) := fun v2344 => decidable_of_iff' _ (Iff.of_eq (k0_chk370.eq_1 v2344))
theorem k0_off370_inb : ∀ (v2344 : BitVec 32) (k0_hw370 : k0_chk370 v2344), ∀ a, (k0_off370 v2344) a + S1x64x128.size a ≤ S45x64x128.size a := fun v2344 k0_hw370 => k0_hw370

def k0_off371 (v2355 : BitVec 32) : Fin 4 → Nat :=
  let c0_2404 : Index := 0#32
  let v2357 : Index := Scalar.indexCast v2355
  let c0_2405 : Index := 0#32
  let c0_2406 : Index := 0#32
  ![0, v2357.toNat, 0, 0]

def k0_chk371 (v2355 : BitVec 32) : Prop :=
  (∀ a, (k0_off371 v2355) a + S1x1x64x128.size a ≤ S1x9x64x128.size a)
instance k0_chk371.dec : ∀ (v2355 : BitVec 32), Decidable (k0_chk371 v2355) := fun v2355 => decidable_of_iff' _ (Iff.of_eq (k0_chk371.eq_1 v2355))
theorem k0_off371_inb : ∀ (v2355 : BitVec 32) (k0_hw371 : k0_chk371 v2355), ∀ a, (k0_off371 v2355) a + S1x1x64x128.size a ≤ S1x9x64x128.size a := fun v2355 k0_hw371 => k0_hw371

def k0_off372 (v2356 : BitVec 32) : Fin 3 → Nat :=
  let v2360 : Index := Scalar.indexCast v2356
  let c0_2407 : Index := 0#32
  let c0_2408 : Index := 0#32
  ![v2360.toNat, 0, 0]

def k0_chk372 (v2356 : BitVec 32) : Prop :=
  (∀ a, (k0_off372 v2356) a + S1x64x128.size a ≤ S45x64x128.size a)
instance k0_chk372.dec : ∀ (v2356 : BitVec 32), Decidable (k0_chk372 v2356) := fun v2356 => decidable_of_iff' _ (Iff.of_eq (k0_chk372.eq_1 v2356))
theorem k0_off372_inb : ∀ (v2356 : BitVec 32) (k0_hw372 : k0_chk372 v2356), ∀ a, (k0_off372 v2356) a + S1x64x128.size a ≤ S45x64x128.size a := fun v2356 k0_hw372 => k0_hw372

def k0_off373 (v2367 : BitVec 32) : Fin 4 → Nat :=
  let c0_2416 : Index := 0#32
  let v2369 : Index := Scalar.indexCast v2367
  let c0_2417 : Index := 0#32
  let c0_2418 : Index := 0#32
  ![0, v2369.toNat, 0, 0]

def k0_chk373 (v2367 : BitVec 32) : Prop :=
  (∀ a, (k0_off373 v2367) a + S1x1x64x128.size a ≤ S1x9x64x128.size a)
instance k0_chk373.dec : ∀ (v2367 : BitVec 32), Decidable (k0_chk373 v2367) := fun v2367 => decidable_of_iff' _ (Iff.of_eq (k0_chk373.eq_1 v2367))
theorem k0_off373_inb : ∀ (v2367 : BitVec 32) (k0_hw373 : k0_chk373 v2367), ∀ a, (k0_off373 v2367) a + S1x1x64x128.size a ≤ S1x9x64x128.size a := fun v2367 k0_hw373 => k0_hw373

def k0_off374 (v2368 : BitVec 32) : Fin 3 → Nat :=
  let v2372 : Index := Scalar.indexCast v2368
  let c0_2419 : Index := 0#32
  let c0_2420 : Index := 0#32
  ![v2372.toNat, 0, 0]

def k0_chk374 (v2368 : BitVec 32) : Prop :=
  (∀ a, (k0_off374 v2368) a + S1x64x128.size a ≤ S45x64x128.size a)
instance k0_chk374.dec : ∀ (v2368 : BitVec 32), Decidable (k0_chk374 v2368) := fun v2368 => decidable_of_iff' _ (Iff.of_eq (k0_chk374.eq_1 v2368))
theorem k0_off374_inb : ∀ (v2368 : BitVec 32) (k0_hw374 : k0_chk374 v2368), ∀ a, (k0_off374 v2368) a + S1x64x128.size a ≤ S45x64x128.size a := fun v2368 k0_hw374 => k0_hw374

def k0_off375 (v2379 : BitVec 32) : Fin 4 → Nat :=
  let c0_2428 : Index := 0#32
  let v2381 : Index := Scalar.indexCast v2379
  let c0_2429 : Index := 0#32
  let c0_2430 : Index := 0#32
  ![0, v2381.toNat, 0, 0]

def k0_chk375 (v2379 : BitVec 32) : Prop :=
  (∀ a, (k0_off375 v2379) a + S1x1x64x128.size a ≤ S1x9x64x128.size a)
instance k0_chk375.dec : ∀ (v2379 : BitVec 32), Decidable (k0_chk375 v2379) := fun v2379 => decidable_of_iff' _ (Iff.of_eq (k0_chk375.eq_1 v2379))
theorem k0_off375_inb : ∀ (v2379 : BitVec 32) (k0_hw375 : k0_chk375 v2379), ∀ a, (k0_off375 v2379) a + S1x1x64x128.size a ≤ S1x9x64x128.size a := fun v2379 k0_hw375 => k0_hw375

def k0_off376 (v2380 : BitVec 32) : Fin 3 → Nat :=
  let v2384 : Index := Scalar.indexCast v2380
  let c0_2431 : Index := 0#32
  let c0_2432 : Index := 0#32
  ![v2384.toNat, 0, 0]

def k0_chk376 (v2380 : BitVec 32) : Prop :=
  (∀ a, (k0_off376 v2380) a + S1x64x128.size a ≤ S45x64x128.size a)
instance k0_chk376.dec : ∀ (v2380 : BitVec 32), Decidable (k0_chk376 v2380) := fun v2380 => decidable_of_iff' _ (Iff.of_eq (k0_chk376.eq_1 v2380))
theorem k0_off376_inb : ∀ (v2380 : BitVec 32) (k0_hw376 : k0_chk376 v2380), ∀ a, (k0_off376 v2380) a + S1x64x128.size a ≤ S45x64x128.size a := fun v2380 k0_hw376 => k0_hw376

def k0_off377 (v2391 : BitVec 32) : Fin 4 → Nat :=
  let c0_2440 : Index := 0#32
  let v2393 : Index := Scalar.indexCast v2391
  let c0_2441 : Index := 0#32
  let c0_2442 : Index := 0#32
  ![0, v2393.toNat, 0, 0]

def k0_chk377 (v2391 : BitVec 32) : Prop :=
  (∀ a, (k0_off377 v2391) a + S1x1x64x128.size a ≤ S1x9x64x128.size a)
instance k0_chk377.dec : ∀ (v2391 : BitVec 32), Decidable (k0_chk377 v2391) := fun v2391 => decidable_of_iff' _ (Iff.of_eq (k0_chk377.eq_1 v2391))
theorem k0_off377_inb : ∀ (v2391 : BitVec 32) (k0_hw377 : k0_chk377 v2391), ∀ a, (k0_off377 v2391) a + S1x1x64x128.size a ≤ S1x9x64x128.size a := fun v2391 k0_hw377 => k0_hw377

def k0_off378 (v2392 : BitVec 32) : Fin 3 → Nat :=
  let v2396 : Index := Scalar.indexCast v2392
  let c0_2443 : Index := 0#32
  let c0_2444 : Index := 0#32
  ![v2396.toNat, 0, 0]

def k0_chk378 (v2392 : BitVec 32) : Prop :=
  (∀ a, (k0_off378 v2392) a + S1x64x128.size a ≤ S45x64x128.size a)
instance k0_chk378.dec : ∀ (v2392 : BitVec 32), Decidable (k0_chk378 v2392) := fun v2392 => decidable_of_iff' _ (Iff.of_eq (k0_chk378.eq_1 v2392))
theorem k0_off378_inb : ∀ (v2392 : BitVec 32) (k0_hw378 : k0_chk378 v2392), ∀ a, (k0_off378 v2392) a + S1x64x128.size a ≤ S45x64x128.size a := fun v2392 k0_hw378 => k0_hw378

def k0_off379 (v2403 : BitVec 32) : Fin 4 → Nat :=
  let c0_2452 : Index := 0#32
  let v2405 : Index := Scalar.indexCast v2403
  let c0_2453 : Index := 0#32
  let c0_2454 : Index := 0#32
  ![0, v2405.toNat, 0, 0]

def k0_chk379 (v2403 : BitVec 32) : Prop :=
  (∀ a, (k0_off379 v2403) a + S1x1x64x128.size a ≤ S1x9x64x128.size a)
instance k0_chk379.dec : ∀ (v2403 : BitVec 32), Decidable (k0_chk379 v2403) := fun v2403 => decidable_of_iff' _ (Iff.of_eq (k0_chk379.eq_1 v2403))
theorem k0_off379_inb : ∀ (v2403 : BitVec 32) (k0_hw379 : k0_chk379 v2403), ∀ a, (k0_off379 v2403) a + S1x1x64x128.size a ≤ S1x9x64x128.size a := fun v2403 k0_hw379 => k0_hw379

def k0_off380 (v2404 : BitVec 32) : Fin 3 → Nat :=
  let v2408 : Index := Scalar.indexCast v2404
  let c0_2455 : Index := 0#32
  let c0_2456 : Index := 0#32
  ![v2408.toNat, 0, 0]

def k0_chk380 (v2404 : BitVec 32) : Prop :=
  (∀ a, (k0_off380 v2404) a + S1x64x128.size a ≤ S45x64x128.size a)
instance k0_chk380.dec : ∀ (v2404 : BitVec 32), Decidable (k0_chk380 v2404) := fun v2404 => decidable_of_iff' _ (Iff.of_eq (k0_chk380.eq_1 v2404))
theorem k0_off380_inb : ∀ (v2404 : BitVec 32) (k0_hw380 : k0_chk380 v2404), ∀ a, (k0_off380 v2404) a + S1x64x128.size a ≤ S45x64x128.size a := fun v2404 k0_hw380 => k0_hw380

def k0_off381 (v2415 : BitVec 32) : Fin 4 → Nat :=
  let c0_2464 : Index := 0#32
  let v2417 : Index := Scalar.indexCast v2415
  let c0_2465 : Index := 0#32
  let c0_2466 : Index := 0#32
  ![0, v2417.toNat, 0, 0]

def k0_chk381 (v2415 : BitVec 32) : Prop :=
  (∀ a, (k0_off381 v2415) a + S1x1x64x128.size a ≤ S1x9x64x128.size a)
instance k0_chk381.dec : ∀ (v2415 : BitVec 32), Decidable (k0_chk381 v2415) := fun v2415 => decidable_of_iff' _ (Iff.of_eq (k0_chk381.eq_1 v2415))
theorem k0_off381_inb : ∀ (v2415 : BitVec 32) (k0_hw381 : k0_chk381 v2415), ∀ a, (k0_off381 v2415) a + S1x1x64x128.size a ≤ S1x9x64x128.size a := fun v2415 k0_hw381 => k0_hw381

def k0_off382 (v2416 : BitVec 32) : Fin 3 → Nat :=
  let v2420 : Index := Scalar.indexCast v2416
  let c0_2467 : Index := 0#32
  let c0_2468 : Index := 0#32
  ![v2420.toNat, 0, 0]

def k0_chk382 (v2416 : BitVec 32) : Prop :=
  (∀ a, (k0_off382 v2416) a + S1x64x128.size a ≤ S45x64x128.size a)
instance k0_chk382.dec : ∀ (v2416 : BitVec 32), Decidable (k0_chk382 v2416) := fun v2416 => decidable_of_iff' _ (Iff.of_eq (k0_chk382.eq_1 v2416))
theorem k0_off382_inb : ∀ (v2416 : BitVec 32) (k0_hw382 : k0_chk382 v2416), ∀ a, (k0_off382 v2416) a + S1x64x128.size a ≤ S45x64x128.size a := fun v2416 k0_hw382 => k0_hw382

def k0_off383 (v2427 : BitVec 32) : Fin 4 → Nat :=
  let c0_2476 : Index := 0#32
  let v2429 : Index := Scalar.indexCast v2427
  let c0_2477 : Index := 0#32
  let c0_2478 : Index := 0#32
  ![0, v2429.toNat, 0, 0]

def k0_chk383 (v2427 : BitVec 32) : Prop :=
  (∀ a, (k0_off383 v2427) a + S1x1x64x128.size a ≤ S1x9x64x128.size a)
instance k0_chk383.dec : ∀ (v2427 : BitVec 32), Decidable (k0_chk383 v2427) := fun v2427 => decidable_of_iff' _ (Iff.of_eq (k0_chk383.eq_1 v2427))
theorem k0_off383_inb : ∀ (v2427 : BitVec 32) (k0_hw383 : k0_chk383 v2427), ∀ a, (k0_off383 v2427) a + S1x1x64x128.size a ≤ S1x9x64x128.size a := fun v2427 k0_hw383 => k0_hw383

def k0_off384 (v2428 : BitVec 32) : Fin 3 → Nat :=
  let v2432 : Index := Scalar.indexCast v2428
  let c0_2479 : Index := 0#32
  let c0_2480 : Index := 0#32
  ![v2432.toNat, 0, 0]

def k0_chk384 (v2428 : BitVec 32) : Prop :=
  (∀ a, (k0_off384 v2428) a + S1x64x128.size a ≤ S45x64x128.size a)
instance k0_chk384.dec : ∀ (v2428 : BitVec 32), Decidable (k0_chk384 v2428) := fun v2428 => decidable_of_iff' _ (Iff.of_eq (k0_chk384.eq_1 v2428))
theorem k0_off384_inb : ∀ (v2428 : BitVec 32) (k0_hw384 : k0_chk384 v2428), ∀ a, (k0_off384 v2428) a + S1x64x128.size a ≤ S45x64x128.size a := fun v2428 k0_hw384 => k0_hw384

def k0_off385 (v2439 : BitVec 32) : Fin 4 → Nat :=
  let c0_2488 : Index := 0#32
  let v2441 : Index := Scalar.indexCast v2439
  let c0_2489 : Index := 0#32
  let c0_2490 : Index := 0#32
  ![0, v2441.toNat, 0, 0]

def k0_chk385 (v2439 : BitVec 32) : Prop :=
  (∀ a, (k0_off385 v2439) a + S1x1x64x128.size a ≤ S1x9x64x128.size a)
instance k0_chk385.dec : ∀ (v2439 : BitVec 32), Decidable (k0_chk385 v2439) := fun v2439 => decidable_of_iff' _ (Iff.of_eq (k0_chk385.eq_1 v2439))
theorem k0_off385_inb : ∀ (v2439 : BitVec 32) (k0_hw385 : k0_chk385 v2439), ∀ a, (k0_off385 v2439) a + S1x1x64x128.size a ≤ S1x9x64x128.size a := fun v2439 k0_hw385 => k0_hw385

def k0_off386 (v2440 : BitVec 32) : Fin 3 → Nat :=
  let v2444 : Index := Scalar.indexCast v2440
  let c0_2491 : Index := 0#32
  let c0_2492 : Index := 0#32
  ![v2444.toNat, 0, 0]

def k0_chk386 (v2440 : BitVec 32) : Prop :=
  (∀ a, (k0_off386 v2440) a + S1x64x128.size a ≤ S45x64x128.size a)
instance k0_chk386.dec : ∀ (v2440 : BitVec 32), Decidable (k0_chk386 v2440) := fun v2440 => decidable_of_iff' _ (Iff.of_eq (k0_chk386.eq_1 v2440))
theorem k0_off386_inb : ∀ (v2440 : BitVec 32) (k0_hw386 : k0_chk386 v2440), ∀ a, (k0_off386 v2440) a + S1x64x128.size a ≤ S45x64x128.size a := fun v2440 k0_hw386 => k0_hw386

def k0_off387 (v2451 : BitVec 32) : Fin 4 → Nat :=
  let c0_2500 : Index := 0#32
  let v2453 : Index := Scalar.indexCast v2451
  let c0_2501 : Index := 0#32
  let c0_2502 : Index := 0#32
  ![0, v2453.toNat, 0, 0]

def k0_chk387 (v2451 : BitVec 32) : Prop :=
  (∀ a, (k0_off387 v2451) a + S1x1x64x128.size a ≤ S1x9x64x128.size a)
instance k0_chk387.dec : ∀ (v2451 : BitVec 32), Decidable (k0_chk387 v2451) := fun v2451 => decidable_of_iff' _ (Iff.of_eq (k0_chk387.eq_1 v2451))
theorem k0_off387_inb : ∀ (v2451 : BitVec 32) (k0_hw387 : k0_chk387 v2451), ∀ a, (k0_off387 v2451) a + S1x1x64x128.size a ≤ S1x9x64x128.size a := fun v2451 k0_hw387 => k0_hw387

def k0_off388 (v2452 : BitVec 32) : Fin 3 → Nat :=
  let v2456 : Index := Scalar.indexCast v2452
  let c0_2503 : Index := 0#32
  let c0_2504 : Index := 0#32
  ![v2456.toNat, 0, 0]

def k0_chk388 (v2452 : BitVec 32) : Prop :=
  (∀ a, (k0_off388 v2452) a + S1x64x128.size a ≤ S45x64x128.size a)
instance k0_chk388.dec : ∀ (v2452 : BitVec 32), Decidable (k0_chk388 v2452) := fun v2452 => decidable_of_iff' _ (Iff.of_eq (k0_chk388.eq_1 v2452))
theorem k0_off388_inb : ∀ (v2452 : BitVec 32) (k0_hw388 : k0_chk388 v2452), ∀ a, (k0_off388 v2452) a + S1x64x128.size a ≤ S45x64x128.size a := fun v2452 k0_hw388 => k0_hw388

def k0_off389 (v2463 : BitVec 32) : Fin 4 → Nat :=
  let c0_2512 : Index := 0#32
  let v2465 : Index := Scalar.indexCast v2463
  let c0_2513 : Index := 0#32
  let c0_2514 : Index := 0#32
  ![0, v2465.toNat, 0, 0]

def k0_chk389 (v2463 : BitVec 32) : Prop :=
  (∀ a, (k0_off389 v2463) a + S1x1x64x128.size a ≤ S1x9x64x128.size a)
instance k0_chk389.dec : ∀ (v2463 : BitVec 32), Decidable (k0_chk389 v2463) := fun v2463 => decidable_of_iff' _ (Iff.of_eq (k0_chk389.eq_1 v2463))
theorem k0_off389_inb : ∀ (v2463 : BitVec 32) (k0_hw389 : k0_chk389 v2463), ∀ a, (k0_off389 v2463) a + S1x1x64x128.size a ≤ S1x9x64x128.size a := fun v2463 k0_hw389 => k0_hw389

def k0_off390 (v2464 : BitVec 32) : Fin 3 → Nat :=
  let v2468 : Index := Scalar.indexCast v2464
  let c0_2515 : Index := 0#32
  let c0_2516 : Index := 0#32
  ![v2468.toNat, 0, 0]

def k0_chk390 (v2464 : BitVec 32) : Prop :=
  (∀ a, (k0_off390 v2464) a + S1x64x128.size a ≤ S45x64x128.size a)
instance k0_chk390.dec : ∀ (v2464 : BitVec 32), Decidable (k0_chk390 v2464) := fun v2464 => decidable_of_iff' _ (Iff.of_eq (k0_chk390.eq_1 v2464))
theorem k0_off390_inb : ∀ (v2464 : BitVec 32) (k0_hw390 : k0_chk390 v2464), ∀ a, (k0_off390 v2464) a + S1x64x128.size a ≤ S45x64x128.size a := fun v2464 k0_hw390 => k0_hw390

def k0_off391 (v2475 : BitVec 32) : Fin 4 → Nat :=
  let c0_2524 : Index := 0#32
  let v2477 : Index := Scalar.indexCast v2475
  let c0_2525 : Index := 0#32
  let c0_2526 : Index := 0#32
  ![0, v2477.toNat, 0, 0]

def k0_chk391 (v2475 : BitVec 32) : Prop :=
  (∀ a, (k0_off391 v2475) a + S1x1x64x128.size a ≤ S1x9x64x128.size a)
instance k0_chk391.dec : ∀ (v2475 : BitVec 32), Decidable (k0_chk391 v2475) := fun v2475 => decidable_of_iff' _ (Iff.of_eq (k0_chk391.eq_1 v2475))
theorem k0_off391_inb : ∀ (v2475 : BitVec 32) (k0_hw391 : k0_chk391 v2475), ∀ a, (k0_off391 v2475) a + S1x1x64x128.size a ≤ S1x9x64x128.size a := fun v2475 k0_hw391 => k0_hw391

def k0_off392 (v2476 : BitVec 32) : Fin 3 → Nat :=
  let v2480 : Index := Scalar.indexCast v2476
  let c0_2527 : Index := 0#32
  let c0_2528 : Index := 0#32
  ![v2480.toNat, 0, 0]

def k0_chk392 (v2476 : BitVec 32) : Prop :=
  (∀ a, (k0_off392 v2476) a + S1x64x128.size a ≤ S45x64x128.size a)
instance k0_chk392.dec : ∀ (v2476 : BitVec 32), Decidable (k0_chk392 v2476) := fun v2476 => decidable_of_iff' _ (Iff.of_eq (k0_chk392.eq_1 v2476))
theorem k0_off392_inb : ∀ (v2476 : BitVec 32) (k0_hw392 : k0_chk392 v2476), ∀ a, (k0_off392 v2476) a + S1x64x128.size a ≤ S45x64x128.size a := fun v2476 k0_hw392 => k0_hw392

def k0_off393 (v2487 : BitVec 32) : Fin 4 → Nat :=
  let c0_2536 : Index := 0#32
  let v2489 : Index := Scalar.indexCast v2487
  let c0_2537 : Index := 0#32
  let c0_2538 : Index := 0#32
  ![0, v2489.toNat, 0, 0]

def k0_chk393 (v2487 : BitVec 32) : Prop :=
  (∀ a, (k0_off393 v2487) a + S1x1x64x128.size a ≤ S1x9x64x128.size a)
instance k0_chk393.dec : ∀ (v2487 : BitVec 32), Decidable (k0_chk393 v2487) := fun v2487 => decidable_of_iff' _ (Iff.of_eq (k0_chk393.eq_1 v2487))
theorem k0_off393_inb : ∀ (v2487 : BitVec 32) (k0_hw393 : k0_chk393 v2487), ∀ a, (k0_off393 v2487) a + S1x1x64x128.size a ≤ S1x9x64x128.size a := fun v2487 k0_hw393 => k0_hw393

def k0_off394 (v2488 : BitVec 32) : Fin 3 → Nat :=
  let v2492 : Index := Scalar.indexCast v2488
  let c0_2539 : Index := 0#32
  let c0_2540 : Index := 0#32
  ![v2492.toNat, 0, 0]

def k0_chk394 (v2488 : BitVec 32) : Prop :=
  (∀ a, (k0_off394 v2488) a + S1x64x128.size a ≤ S45x64x128.size a)
instance k0_chk394.dec : ∀ (v2488 : BitVec 32), Decidable (k0_chk394 v2488) := fun v2488 => decidable_of_iff' _ (Iff.of_eq (k0_chk394.eq_1 v2488))
theorem k0_off394_inb : ∀ (v2488 : BitVec 32) (k0_hw394 : k0_chk394 v2488), ∀ a, (k0_off394 v2488) a + S1x64x128.size a ≤ S45x64x128.size a := fun v2488 k0_hw394 => k0_hw394

def k0_off395 (v2499 : BitVec 32) : Fin 4 → Nat :=
  let c0_2548 : Index := 0#32
  let v2501 : Index := Scalar.indexCast v2499
  let c0_2549 : Index := 0#32
  let c0_2550 : Index := 0#32
  ![0, v2501.toNat, 0, 0]

def k0_chk395 (v2499 : BitVec 32) : Prop :=
  (∀ a, (k0_off395 v2499) a + S1x1x64x128.size a ≤ S1x9x64x128.size a)
instance k0_chk395.dec : ∀ (v2499 : BitVec 32), Decidable (k0_chk395 v2499) := fun v2499 => decidable_of_iff' _ (Iff.of_eq (k0_chk395.eq_1 v2499))
theorem k0_off395_inb : ∀ (v2499 : BitVec 32) (k0_hw395 : k0_chk395 v2499), ∀ a, (k0_off395 v2499) a + S1x1x64x128.size a ≤ S1x9x64x128.size a := fun v2499 k0_hw395 => k0_hw395

def k0_off396 (v2500 : BitVec 32) : Fin 3 → Nat :=
  let v2504 : Index := Scalar.indexCast v2500
  let c0_2551 : Index := 0#32
  let c0_2552 : Index := 0#32
  ![v2504.toNat, 0, 0]

def k0_chk396 (v2500 : BitVec 32) : Prop :=
  (∀ a, (k0_off396 v2500) a + S1x64x128.size a ≤ S45x64x128.size a)
instance k0_chk396.dec : ∀ (v2500 : BitVec 32), Decidable (k0_chk396 v2500) := fun v2500 => decidable_of_iff' _ (Iff.of_eq (k0_chk396.eq_1 v2500))
theorem k0_off396_inb : ∀ (v2500 : BitVec 32) (k0_hw396 : k0_chk396 v2500), ∀ a, (k0_off396 v2500) a + S1x64x128.size a ≤ S45x64x128.size a := fun v2500 k0_hw396 => k0_hw396

def k0_off397 (v2511 : BitVec 32) : Fin 4 → Nat :=
  let c0_2560 : Index := 0#32
  let v2513 : Index := Scalar.indexCast v2511
  let c0_2561 : Index := 0#32
  let c0_2562 : Index := 0#32
  ![0, v2513.toNat, 0, 0]

def k0_chk397 (v2511 : BitVec 32) : Prop :=
  (∀ a, (k0_off397 v2511) a + S1x1x64x128.size a ≤ S1x9x64x128.size a)
instance k0_chk397.dec : ∀ (v2511 : BitVec 32), Decidable (k0_chk397 v2511) := fun v2511 => decidable_of_iff' _ (Iff.of_eq (k0_chk397.eq_1 v2511))
theorem k0_off397_inb : ∀ (v2511 : BitVec 32) (k0_hw397 : k0_chk397 v2511), ∀ a, (k0_off397 v2511) a + S1x1x64x128.size a ≤ S1x9x64x128.size a := fun v2511 k0_hw397 => k0_hw397

def k0_off398 (v2512 : BitVec 32) : Fin 3 → Nat :=
  let v2516 : Index := Scalar.indexCast v2512
  let c0_2563 : Index := 0#32
  let c0_2564 : Index := 0#32
  ![v2516.toNat, 0, 0]

def k0_chk398 (v2512 : BitVec 32) : Prop :=
  (∀ a, (k0_off398 v2512) a + S1x64x128.size a ≤ S45x64x128.size a)
instance k0_chk398.dec : ∀ (v2512 : BitVec 32), Decidable (k0_chk398 v2512) := fun v2512 => decidable_of_iff' _ (Iff.of_eq (k0_chk398.eq_1 v2512))
theorem k0_off398_inb : ∀ (v2512 : BitVec 32) (k0_hw398 : k0_chk398 v2512), ∀ a, (k0_off398 v2512) a + S1x64x128.size a ≤ S45x64x128.size a := fun v2512 k0_hw398 => k0_hw398

def k0_off399 (v2523 : BitVec 32) : Fin 4 → Nat :=
  let c0_2572 : Index := 0#32
  let v2525 : Index := Scalar.indexCast v2523
  let c0_2573 : Index := 0#32
  let c0_2574 : Index := 0#32
  ![0, v2525.toNat, 0, 0]

def k0_chk399 (v2523 : BitVec 32) : Prop :=
  (∀ a, (k0_off399 v2523) a + S1x1x64x128.size a ≤ S1x9x64x128.size a)
instance k0_chk399.dec : ∀ (v2523 : BitVec 32), Decidable (k0_chk399 v2523) := fun v2523 => decidable_of_iff' _ (Iff.of_eq (k0_chk399.eq_1 v2523))
theorem k0_off399_inb : ∀ (v2523 : BitVec 32) (k0_hw399 : k0_chk399 v2523), ∀ a, (k0_off399 v2523) a + S1x1x64x128.size a ≤ S1x9x64x128.size a := fun v2523 k0_hw399 => k0_hw399

def k0_off400 (v2524 : BitVec 32) : Fin 3 → Nat :=
  let v2528 : Index := Scalar.indexCast v2524
  let c0_2575 : Index := 0#32
  let c0_2576 : Index := 0#32
  ![v2528.toNat, 0, 0]

def k0_chk400 (v2524 : BitVec 32) : Prop :=
  (∀ a, (k0_off400 v2524) a + S1x64x128.size a ≤ S45x64x128.size a)
instance k0_chk400.dec : ∀ (v2524 : BitVec 32), Decidable (k0_chk400 v2524) := fun v2524 => decidable_of_iff' _ (Iff.of_eq (k0_chk400.eq_1 v2524))
theorem k0_off400_inb : ∀ (v2524 : BitVec 32) (k0_hw400 : k0_chk400 v2524), ∀ a, (k0_off400 v2524) a + S1x64x128.size a ≤ S45x64x128.size a := fun v2524 k0_hw400 => k0_hw400

def k0_off401 (v2535 : BitVec 32) : Fin 4 → Nat :=
  let c0_2584 : Index := 0#32
  let v2537 : Index := Scalar.indexCast v2535
  let c0_2585 : Index := 0#32
  let c0_2586 : Index := 0#32
  ![0, v2537.toNat, 0, 0]

def k0_chk401 (v2535 : BitVec 32) : Prop :=
  (∀ a, (k0_off401 v2535) a + S1x1x64x128.size a ≤ S1x9x64x128.size a)
instance k0_chk401.dec : ∀ (v2535 : BitVec 32), Decidable (k0_chk401 v2535) := fun v2535 => decidable_of_iff' _ (Iff.of_eq (k0_chk401.eq_1 v2535))
theorem k0_off401_inb : ∀ (v2535 : BitVec 32) (k0_hw401 : k0_chk401 v2535), ∀ a, (k0_off401 v2535) a + S1x1x64x128.size a ≤ S1x9x64x128.size a := fun v2535 k0_hw401 => k0_hw401

def k0_off402 (v2536 : BitVec 32) : Fin 3 → Nat :=
  let v2540 : Index := Scalar.indexCast v2536
  let c0_2587 : Index := 0#32
  let c0_2588 : Index := 0#32
  ![v2540.toNat, 0, 0]

def k0_chk402 (v2536 : BitVec 32) : Prop :=
  (∀ a, (k0_off402 v2536) a + S1x64x128.size a ≤ S45x64x128.size a)
instance k0_chk402.dec : ∀ (v2536 : BitVec 32), Decidable (k0_chk402 v2536) := fun v2536 => decidable_of_iff' _ (Iff.of_eq (k0_chk402.eq_1 v2536))
theorem k0_off402_inb : ∀ (v2536 : BitVec 32) (k0_hw402 : k0_chk402 v2536), ∀ a, (k0_off402 v2536) a + S1x64x128.size a ≤ S45x64x128.size a := fun v2536 k0_hw402 => k0_hw402

def k0_off403 (v2547 : BitVec 32) : Fin 4 → Nat :=
  let c0_2596 : Index := 0#32
  let v2549 : Index := Scalar.indexCast v2547
  let c0_2597 : Index := 0#32
  let c0_2598 : Index := 0#32
  ![0, v2549.toNat, 0, 0]

def k0_chk403 (v2547 : BitVec 32) : Prop :=
  (∀ a, (k0_off403 v2547) a + S1x1x64x128.size a ≤ S1x9x64x128.size a)
instance k0_chk403.dec : ∀ (v2547 : BitVec 32), Decidable (k0_chk403 v2547) := fun v2547 => decidable_of_iff' _ (Iff.of_eq (k0_chk403.eq_1 v2547))
theorem k0_off403_inb : ∀ (v2547 : BitVec 32) (k0_hw403 : k0_chk403 v2547), ∀ a, (k0_off403 v2547) a + S1x1x64x128.size a ≤ S1x9x64x128.size a := fun v2547 k0_hw403 => k0_hw403

def k0_off404 (v2548 : BitVec 32) : Fin 3 → Nat :=
  let v2552 : Index := Scalar.indexCast v2548
  let c0_2599 : Index := 0#32
  let c0_2600 : Index := 0#32
  ![v2552.toNat, 0, 0]

def k0_chk404 (v2548 : BitVec 32) : Prop :=
  (∀ a, (k0_off404 v2548) a + S1x64x128.size a ≤ S45x64x128.size a)
instance k0_chk404.dec : ∀ (v2548 : BitVec 32), Decidable (k0_chk404 v2548) := fun v2548 => decidable_of_iff' _ (Iff.of_eq (k0_chk404.eq_1 v2548))
theorem k0_off404_inb : ∀ (v2548 : BitVec 32) (k0_hw404 : k0_chk404 v2548), ∀ a, (k0_off404 v2548) a + S1x64x128.size a ≤ S45x64x128.size a := fun v2548 k0_hw404 => k0_hw404

def k0_off405 (v2559 : BitVec 32) : Fin 4 → Nat :=
  let c0_2608 : Index := 0#32
  let v2561 : Index := Scalar.indexCast v2559
  let c0_2609 : Index := 0#32
  let c0_2610 : Index := 0#32
  ![0, v2561.toNat, 0, 0]

def k0_chk405 (v2559 : BitVec 32) : Prop :=
  (∀ a, (k0_off405 v2559) a + S1x1x64x128.size a ≤ S1x9x64x128.size a)
instance k0_chk405.dec : ∀ (v2559 : BitVec 32), Decidable (k0_chk405 v2559) := fun v2559 => decidable_of_iff' _ (Iff.of_eq (k0_chk405.eq_1 v2559))
theorem k0_off405_inb : ∀ (v2559 : BitVec 32) (k0_hw405 : k0_chk405 v2559), ∀ a, (k0_off405 v2559) a + S1x1x64x128.size a ≤ S1x9x64x128.size a := fun v2559 k0_hw405 => k0_hw405

def k0_off406 (v2560 : BitVec 32) : Fin 3 → Nat :=
  let v2564 : Index := Scalar.indexCast v2560
  let c0_2611 : Index := 0#32
  let c0_2612 : Index := 0#32
  ![v2564.toNat, 0, 0]

def k0_chk406 (v2560 : BitVec 32) : Prop :=
  (∀ a, (k0_off406 v2560) a + S1x64x128.size a ≤ S45x64x128.size a)
instance k0_chk406.dec : ∀ (v2560 : BitVec 32), Decidable (k0_chk406 v2560) := fun v2560 => decidable_of_iff' _ (Iff.of_eq (k0_chk406.eq_1 v2560))
theorem k0_off406_inb : ∀ (v2560 : BitVec 32) (k0_hw406 : k0_chk406 v2560), ∀ a, (k0_off406 v2560) a + S1x64x128.size a ≤ S45x64x128.size a := fun v2560 k0_hw406 => k0_hw406

def k0_off407 (v2571 : BitVec 32) : Fin 4 → Nat :=
  let c0_2620 : Index := 0#32
  let v2573 : Index := Scalar.indexCast v2571
  let c0_2621 : Index := 0#32
  let c0_2622 : Index := 0#32
  ![0, v2573.toNat, 0, 0]

def k0_chk407 (v2571 : BitVec 32) : Prop :=
  (∀ a, (k0_off407 v2571) a + S1x1x64x128.size a ≤ S1x9x64x128.size a)
instance k0_chk407.dec : ∀ (v2571 : BitVec 32), Decidable (k0_chk407 v2571) := fun v2571 => decidable_of_iff' _ (Iff.of_eq (k0_chk407.eq_1 v2571))
theorem k0_off407_inb : ∀ (v2571 : BitVec 32) (k0_hw407 : k0_chk407 v2571), ∀ a, (k0_off407 v2571) a + S1x1x64x128.size a ≤ S1x9x64x128.size a := fun v2571 k0_hw407 => k0_hw407

def k0_off408 (v2572 : BitVec 32) : Fin 3 → Nat :=
  let v2576 : Index := Scalar.indexCast v2572
  let c0_2623 : Index := 0#32
  let c0_2624 : Index := 0#32
  ![v2576.toNat, 0, 0]

def k0_chk408 (v2572 : BitVec 32) : Prop :=
  (∀ a, (k0_off408 v2572) a + S1x64x128.size a ≤ S45x64x128.size a)
instance k0_chk408.dec : ∀ (v2572 : BitVec 32), Decidable (k0_chk408 v2572) := fun v2572 => decidable_of_iff' _ (Iff.of_eq (k0_chk408.eq_1 v2572))
theorem k0_off408_inb : ∀ (v2572 : BitVec 32) (k0_hw408 : k0_chk408 v2572), ∀ a, (k0_off408 v2572) a + S1x64x128.size a ≤ S45x64x128.size a := fun v2572 k0_hw408 => k0_hw408

def k0_off409 (v2583 : BitVec 32) : Fin 4 → Nat :=
  let c0_2632 : Index := 0#32
  let v2585 : Index := Scalar.indexCast v2583
  let c0_2633 : Index := 0#32
  let c0_2634 : Index := 0#32
  ![0, v2585.toNat, 0, 0]

def k0_chk409 (v2583 : BitVec 32) : Prop :=
  (∀ a, (k0_off409 v2583) a + S1x1x64x128.size a ≤ S1x9x64x128.size a)
instance k0_chk409.dec : ∀ (v2583 : BitVec 32), Decidable (k0_chk409 v2583) := fun v2583 => decidable_of_iff' _ (Iff.of_eq (k0_chk409.eq_1 v2583))
theorem k0_off409_inb : ∀ (v2583 : BitVec 32) (k0_hw409 : k0_chk409 v2583), ∀ a, (k0_off409 v2583) a + S1x1x64x128.size a ≤ S1x9x64x128.size a := fun v2583 k0_hw409 => k0_hw409

def k0_off410 (v2584 : BitVec 32) : Fin 3 → Nat :=
  let v2588 : Index := Scalar.indexCast v2584
  let c0_2635 : Index := 0#32
  let c0_2636 : Index := 0#32
  ![v2588.toNat, 0, 0]

def k0_chk410 (v2584 : BitVec 32) : Prop :=
  (∀ a, (k0_off410 v2584) a + S1x64x128.size a ≤ S45x64x128.size a)
instance k0_chk410.dec : ∀ (v2584 : BitVec 32), Decidable (k0_chk410 v2584) := fun v2584 => decidable_of_iff' _ (Iff.of_eq (k0_chk410.eq_1 v2584))
theorem k0_off410_inb : ∀ (v2584 : BitVec 32) (k0_hw410 : k0_chk410 v2584), ∀ a, (k0_off410 v2584) a + S1x64x128.size a ≤ S45x64x128.size a := fun v2584 k0_hw410 => k0_hw410

def k0_off411 (v2595 : BitVec 32) : Fin 4 → Nat :=
  let c0_2644 : Index := 0#32
  let v2597 : Index := Scalar.indexCast v2595
  let c0_2645 : Index := 0#32
  let c0_2646 : Index := 0#32
  ![0, v2597.toNat, 0, 0]

def k0_chk411 (v2595 : BitVec 32) : Prop :=
  (∀ a, (k0_off411 v2595) a + S1x1x64x128.size a ≤ S1x9x64x128.size a)
instance k0_chk411.dec : ∀ (v2595 : BitVec 32), Decidable (k0_chk411 v2595) := fun v2595 => decidable_of_iff' _ (Iff.of_eq (k0_chk411.eq_1 v2595))
theorem k0_off411_inb : ∀ (v2595 : BitVec 32) (k0_hw411 : k0_chk411 v2595), ∀ a, (k0_off411 v2595) a + S1x1x64x128.size a ≤ S1x9x64x128.size a := fun v2595 k0_hw411 => k0_hw411

def k0_off412 (v2596 : BitVec 32) : Fin 3 → Nat :=
  let v2600 : Index := Scalar.indexCast v2596
  let c0_2647 : Index := 0#32
  let c0_2648 : Index := 0#32
  ![v2600.toNat, 0, 0]

def k0_chk412 (v2596 : BitVec 32) : Prop :=
  (∀ a, (k0_off412 v2596) a + S1x64x128.size a ≤ S45x64x128.size a)
instance k0_chk412.dec : ∀ (v2596 : BitVec 32), Decidable (k0_chk412 v2596) := fun v2596 => decidable_of_iff' _ (Iff.of_eq (k0_chk412.eq_1 v2596))
theorem k0_off412_inb : ∀ (v2596 : BitVec 32) (k0_hw412 : k0_chk412 v2596), ∀ a, (k0_off412 v2596) a + S1x64x128.size a ≤ S45x64x128.size a := fun v2596 k0_hw412 => k0_hw412

def k0_off413 (v2607 : BitVec 32) : Fin 4 → Nat :=
  let c0_2656 : Index := 0#32
  let v2609 : Index := Scalar.indexCast v2607
  let c0_2657 : Index := 0#32
  let c0_2658 : Index := 0#32
  ![0, v2609.toNat, 0, 0]

def k0_chk413 (v2607 : BitVec 32) : Prop :=
  (∀ a, (k0_off413 v2607) a + S1x1x64x128.size a ≤ S1x9x64x128.size a)
instance k0_chk413.dec : ∀ (v2607 : BitVec 32), Decidable (k0_chk413 v2607) := fun v2607 => decidable_of_iff' _ (Iff.of_eq (k0_chk413.eq_1 v2607))
theorem k0_off413_inb : ∀ (v2607 : BitVec 32) (k0_hw413 : k0_chk413 v2607), ∀ a, (k0_off413 v2607) a + S1x1x64x128.size a ≤ S1x9x64x128.size a := fun v2607 k0_hw413 => k0_hw413

def k0_off414 (v2608 : BitVec 32) : Fin 3 → Nat :=
  let v2612 : Index := Scalar.indexCast v2608
  let c0_2659 : Index := 0#32
  let c0_2660 : Index := 0#32
  ![v2612.toNat, 0, 0]

def k0_chk414 (v2608 : BitVec 32) : Prop :=
  (∀ a, (k0_off414 v2608) a + S1x64x128.size a ≤ S45x64x128.size a)
instance k0_chk414.dec : ∀ (v2608 : BitVec 32), Decidable (k0_chk414 v2608) := fun v2608 => decidable_of_iff' _ (Iff.of_eq (k0_chk414.eq_1 v2608))
theorem k0_off414_inb : ∀ (v2608 : BitVec 32) (k0_hw414 : k0_chk414 v2608), ∀ a, (k0_off414 v2608) a + S1x64x128.size a ≤ S45x64x128.size a := fun v2608 k0_hw414 => k0_hw414

def k0_off415 (v2619 : BitVec 32) : Fin 4 → Nat :=
  let c0_2668 : Index := 0#32
  let v2621 : Index := Scalar.indexCast v2619
  let c0_2669 : Index := 0#32
  let c0_2670 : Index := 0#32
  ![0, v2621.toNat, 0, 0]

def k0_chk415 (v2619 : BitVec 32) : Prop :=
  (∀ a, (k0_off415 v2619) a + S1x1x64x128.size a ≤ S1x9x64x128.size a)
instance k0_chk415.dec : ∀ (v2619 : BitVec 32), Decidable (k0_chk415 v2619) := fun v2619 => decidable_of_iff' _ (Iff.of_eq (k0_chk415.eq_1 v2619))
theorem k0_off415_inb : ∀ (v2619 : BitVec 32) (k0_hw415 : k0_chk415 v2619), ∀ a, (k0_off415 v2619) a + S1x1x64x128.size a ≤ S1x9x64x128.size a := fun v2619 k0_hw415 => k0_hw415

def k0_off416 (v2620 : BitVec 32) : Fin 3 → Nat :=
  let v2624 : Index := Scalar.indexCast v2620
  let c0_2671 : Index := 0#32
  let c0_2672 : Index := 0#32
  ![v2624.toNat, 0, 0]

def k0_chk416 (v2620 : BitVec 32) : Prop :=
  (∀ a, (k0_off416 v2620) a + S1x64x128.size a ≤ S45x64x128.size a)
instance k0_chk416.dec : ∀ (v2620 : BitVec 32), Decidable (k0_chk416 v2620) := fun v2620 => decidable_of_iff' _ (Iff.of_eq (k0_chk416.eq_1 v2620))
theorem k0_off416_inb : ∀ (v2620 : BitVec 32) (k0_hw416 : k0_chk416 v2620), ∀ a, (k0_off416 v2620) a + S1x64x128.size a ≤ S45x64x128.size a := fun v2620 k0_hw416 => k0_hw416

def k0_off417 (v2631 : BitVec 32) : Fin 4 → Nat :=
  let c0_2680 : Index := 0#32
  let v2633 : Index := Scalar.indexCast v2631
  let c0_2681 : Index := 0#32
  let c0_2682 : Index := 0#32
  ![0, v2633.toNat, 0, 0]

def k0_chk417 (v2631 : BitVec 32) : Prop :=
  (∀ a, (k0_off417 v2631) a + S1x1x64x128.size a ≤ S1x9x64x128.size a)
instance k0_chk417.dec : ∀ (v2631 : BitVec 32), Decidable (k0_chk417 v2631) := fun v2631 => decidable_of_iff' _ (Iff.of_eq (k0_chk417.eq_1 v2631))
theorem k0_off417_inb : ∀ (v2631 : BitVec 32) (k0_hw417 : k0_chk417 v2631), ∀ a, (k0_off417 v2631) a + S1x1x64x128.size a ≤ S1x9x64x128.size a := fun v2631 k0_hw417 => k0_hw417

def k0_off418 (v2632 : BitVec 32) : Fin 3 → Nat :=
  let v2636 : Index := Scalar.indexCast v2632
  let c0_2683 : Index := 0#32
  let c0_2684 : Index := 0#32
  ![v2636.toNat, 0, 0]

def k0_chk418 (v2632 : BitVec 32) : Prop :=
  (∀ a, (k0_off418 v2632) a + S1x64x128.size a ≤ S45x64x128.size a)
instance k0_chk418.dec : ∀ (v2632 : BitVec 32), Decidable (k0_chk418 v2632) := fun v2632 => decidable_of_iff' _ (Iff.of_eq (k0_chk418.eq_1 v2632))
theorem k0_off418_inb : ∀ (v2632 : BitVec 32) (k0_hw418 : k0_chk418 v2632), ∀ a, (k0_off418 v2632) a + S1x64x128.size a ≤ S45x64x128.size a := fun v2632 k0_hw418 => k0_hw418

def k0_off419 (v2643 : BitVec 32) : Fin 4 → Nat :=
  let c0_2692 : Index := 0#32
  let v2645 : Index := Scalar.indexCast v2643
  let c0_2693 : Index := 0#32
  let c0_2694 : Index := 0#32
  ![0, v2645.toNat, 0, 0]

def k0_chk419 (v2643 : BitVec 32) : Prop :=
  (∀ a, (k0_off419 v2643) a + S1x1x64x128.size a ≤ S1x9x64x128.size a)
instance k0_chk419.dec : ∀ (v2643 : BitVec 32), Decidable (k0_chk419 v2643) := fun v2643 => decidable_of_iff' _ (Iff.of_eq (k0_chk419.eq_1 v2643))
theorem k0_off419_inb : ∀ (v2643 : BitVec 32) (k0_hw419 : k0_chk419 v2643), ∀ a, (k0_off419 v2643) a + S1x1x64x128.size a ≤ S1x9x64x128.size a := fun v2643 k0_hw419 => k0_hw419

def k0_off420 (v2644 : BitVec 32) : Fin 3 → Nat :=
  let v2648 : Index := Scalar.indexCast v2644
  let c0_2695 : Index := 0#32
  let c0_2696 : Index := 0#32
  ![v2648.toNat, 0, 0]

def k0_chk420 (v2644 : BitVec 32) : Prop :=
  (∀ a, (k0_off420 v2644) a + S1x64x128.size a ≤ S45x64x128.size a)
instance k0_chk420.dec : ∀ (v2644 : BitVec 32), Decidable (k0_chk420 v2644) := fun v2644 => decidable_of_iff' _ (Iff.of_eq (k0_chk420.eq_1 v2644))
theorem k0_off420_inb : ∀ (v2644 : BitVec 32) (k0_hw420 : k0_chk420 v2644), ∀ a, (k0_off420 v2644) a + S1x64x128.size a ≤ S45x64x128.size a := fun v2644 k0_hw420 => k0_hw420

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x9x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x210x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  pads_S4x8x128x128_S4x8x130x130_000_000_110_110 : S4x8x128x128.Pads (![0, 0, 1, 1] : Fin 4 → Nat) ![0, 0, 1, 1] ![0, 0, 0, 0] S4x8x130x130
  h_S_ : 0 < S_.numel
  slices_S4x8x130x130_S4x8x128x128_0_0_0_0 : S4x8x130x130.Slices ![0, 0, 0, 0] S4x8x128x128
  slices_S4x8x130x130_S4x8x128x128_0_0_0_1 : S4x8x130x130.Slices ![0, 0, 0, 1] S4x8x128x128
  slices_S4x8x130x130_S4x8x128x128_0_0_0_2 : S4x8x130x130.Slices ![0, 0, 0, 2] S4x8x128x128
  slices_S4x8x130x130_S4x8x128x128_0_0_1_0 : S4x8x130x130.Slices ![0, 0, 1, 0] S4x8x128x128
  slices_S4x8x130x130_S4x8x128x128_0_0_1_1 : S4x8x130x130.Slices ![0, 0, 1, 1] S4x8x128x128
  slices_S4x8x130x130_S4x8x128x128_0_0_1_2 : S4x8x130x130.Slices ![0, 0, 1, 2] S4x8x128x128
  slices_S4x8x130x130_S4x8x128x128_0_0_2_0 : S4x8x130x130.Slices ![0, 0, 2, 0] S4x8x128x128
  slices_S4x8x130x130_S4x8x128x128_0_0_2_1 : S4x8x130x130.Slices ![0, 0, 2, 1] S4x8x128x128
  slices_S4x8x130x130_S4x8x128x128_0_0_2_2 : S4x8x130x130.Slices ![0, 0, 2, 2] S4x8x128x128
  bcast_S4x8x128x128_S4x8x1x128x128_0_1_3_4 : S4x8x128x128.BroadcastsInDim S4x8x1x128x128 (![0, 1, 3, 4] : Fin 4 → Fin S4x8x1x128x128.rank)
  concatenates_S4x8x1x128x128_S4x8x1x128x128_S4x8x1x128x128_S4x8x1x128x128_S4x8x1x128x128_S4x8x1x128x128_S4x8x1x128x128_S4x8x1x128x128_S4x8x1x128x128_S4x8x9x128x128_d2 : Shape.Concatenates [S4x8x1x128x128, S4x8x1x128x128, S4x8x1x128x128, S4x8x1x128x128, S4x8x1x128x128, S4x8x1x128x128, S4x8x1x128x128, S4x8x1x128x128, S4x8x1x128x128] S4x8x9x128x128 2
  shapeCasts_S4x8x9x128x128_S4x8x9x16384 : S4x8x9x128x128.ShapeCasts S4x8x9x16384
  shapeCasts_S4x8x9x16384_S32x9x128x128 : S4x8x9x16384.ShapeCasts S32x9x128x128
  inb_S45x2_S1x1_0_0 : ∀ a, (![0, 0] : Fin 2 → Nat) a + S1x1.size a ≤ S45x2.size a
  numel1_S1x1 : S1x1.numel = 1
  inb_S45x2_S1x1_0_1 : ∀ a, (![0, 1] : Fin 2 → Nat) a + S1x1.size a ≤ S45x2.size a
  h_S1x1x64x128 : 0 < S1x1x64x128.numel
  shapeCasts_S1x1x64x128_S64x128 : S1x1x64x128.ShapeCasts S64x128
  inb_S1x210x64x128_S1x1x64x128_0_0_0_0 : ∀ a, (![0, 0, 0, 0] : Fin 4 → Nat) a + S1x1x64x128.size a ≤ S1x210x64x128.size a
  shapeCasts_S64x128_S1x1x64x128 : S64x128.ShapeCasts S1x1x64x128
  inb_S45x64x128_S1x64x128_0_0_0 : ∀ a, (![0, 0, 0] : Fin 3 → Nat) a + S1x64x128.size a ≤ S45x64x128.size a
  h_S1x64x128 : 0 < S1x64x128.numel
  shapeCasts_S1x64x128_S64x128 : S1x64x128.ShapeCasts S64x128
  shapeCasts_S64x128_S1x64x128 : S64x128.ShapeCasts S1x64x128
  inb_S45x2_S1x1_1_0 : ∀ a, (![1, 0] : Fin 2 → Nat) a + S1x1.size a ≤ S45x2.size a
  inb_S45x2_S1x1_1_1 : ∀ a, (![1, 1] : Fin 2 → Nat) a + S1x1.size a ≤ S45x2.size a
  inb_S1x210x64x128_S1x1x64x128_0_1_0_0 : ∀ a, (![0, 1, 0, 0] : Fin 4 → Nat) a + S1x1x64x128.size a ≤ S1x210x64x128.size a
  inb_S45x64x128_S1x64x128_1_0_0 : ∀ a, (![1, 0, 0] : Fin 3 → Nat) a + S1x64x128.size a ≤ S45x64x128.size a
  inb_S45x2_S1x1_2_0 : ∀ a, (![2, 0] : Fin 2 → Nat) a + S1x1.size a ≤ S45x2.size a
  inb_S45x2_S1x1_2_1 : ∀ a, (![2, 1] : Fin 2 → Nat) a + S1x1.size a ≤ S45x2.size a
  inb_S1x210x64x128_S1x1x64x128_0_2_0_0 : ∀ a, (![0, 2, 0, 0] : Fin 4 → Nat) a + S1x1x64x128.size a ≤ S1x210x64x128.size a
  inb_S45x64x128_S1x64x128_2_0_0 : ∀ a, (![2, 0, 0] : Fin 3 → Nat) a + S1x64x128.size a ≤ S45x64x128.size a
  inb_S45x2_S1x1_3_0 : ∀ a, (![3, 0] : Fin 2 → Nat) a + S1x1.size a ≤ S45x2.size a
  inb_S45x2_S1x1_3_1 : ∀ a, (![3, 1] : Fin 2 → Nat) a + S1x1.size a ≤ S45x2.size a
  inb_S1x210x64x128_S1x1x64x128_0_3_0_0 : ∀ a, (![0, 3, 0, 0] : Fin 4 → Nat) a + S1x1x64x128.size a ≤ S1x210x64x128.size a
  inb_S45x64x128_S1x64x128_3_0_0 : ∀ a, (![3, 0, 0] : Fin 3 → Nat) a + S1x64x128.size a ≤ S45x64x128.size a
  inb_S45x2_S1x1_4_0 : ∀ a, (![4, 0] : Fin 2 → Nat) a + S1x1.size a ≤ S45x2.size a
  inb_S45x2_S1x1_4_1 : ∀ a, (![4, 1] : Fin 2 → Nat) a + S1x1.size a ≤ S45x2.size a
  inb_S1x210x64x128_S1x1x64x128_0_4_0_0 : ∀ a, (![0, 4, 0, 0] : Fin 4 → Nat) a + S1x1x64x128.size a ≤ S1x210x64x128.size a
  inb_S45x64x128_S1x64x128_4_0_0 : ∀ a, (![4, 0, 0] : Fin 3 → Nat) a + S1x64x128.size a ≤ S45x64x128.size a
  inb_S45x2_S1x1_5_0 : ∀ a, (![5, 0] : Fin 2 → Nat) a + S1x1.size a ≤ S45x2.size a
  inb_S45x2_S1x1_5_1 : ∀ a, (![5, 1] : Fin 2 → Nat) a + S1x1.size a ≤ S45x2.size a
  inb_S1x210x64x128_S1x1x64x128_0_5_0_0 : ∀ a, (![0, 5, 0, 0] : Fin 4 → Nat) a + S1x1x64x128.size a ≤ S1x210x64x128.size a
  inb_S45x64x128_S1x64x128_5_0_0 : ∀ a, (![5, 0, 0] : Fin 3 → Nat) a + S1x64x128.size a ≤ S45x64x128.size a
  inb_S45x2_S1x1_6_0 : ∀ a, (![6, 0] : Fin 2 → Nat) a + S1x1.size a ≤ S45x2.size a
  inb_S45x2_S1x1_6_1 : ∀ a, (![6, 1] : Fin 2 → Nat) a + S1x1.size a ≤ S45x2.size a
  inb_S1x210x64x128_S1x1x64x128_0_6_0_0 : ∀ a, (![0, 6, 0, 0] : Fin 4 → Nat) a + S1x1x64x128.size a ≤ S1x210x64x128.size a
  inb_S45x64x128_S1x64x128_6_0_0 : ∀ a, (![6, 0, 0] : Fin 3 → Nat) a + S1x64x128.size a ≤ S45x64x128.size a
  inb_S45x2_S1x1_7_0 : ∀ a, (![7, 0] : Fin 2 → Nat) a + S1x1.size a ≤ S45x2.size a
  inb_S45x2_S1x1_7_1 : ∀ a, (![7, 1] : Fin 2 → Nat) a + S1x1.size a ≤ S45x2.size a
  inb_S1x210x64x128_S1x1x64x128_0_7_0_0 : ∀ a, (![0, 7, 0, 0] : Fin 4 → Nat) a + S1x1x64x128.size a ≤ S1x210x64x128.size a
  inb_S45x64x128_S1x64x128_7_0_0 : ∀ a, (![7, 0, 0] : Fin 3 → Nat) a + S1x64x128.size a ≤ S45x64x128.size a
  inb_S45x2_S1x1_8_0 : ∀ a, (![8, 0] : Fin 2 → Nat) a + S1x1.size a ≤ S45x2.size a
  inb_S45x2_S1x1_8_1 : ∀ a, (![8, 1] : Fin 2 → Nat) a + S1x1.size a ≤ S45x2.size a
  inb_S1x210x64x128_S1x1x64x128_0_8_0_0 : ∀ a, (![0, 8, 0, 0] : Fin 4 → Nat) a + S1x1x64x128.size a ≤ S1x210x64x128.size a
  inb_S45x64x128_S1x64x128_8_0_0 : ∀ a, (![8, 0, 0] : Fin 3 → Nat) a + S1x64x128.size a ≤ S45x64x128.size a
  inb_S45x2_S1x1_9_0 : ∀ a, (![9, 0] : Fin 2 → Nat) a + S1x1.size a ≤ S45x2.size a
  inb_S45x2_S1x1_9_1 : ∀ a, (![9, 1] : Fin 2 → Nat) a + S1x1.size a ≤ S45x2.size a
  inb_S1x210x64x128_S1x1x64x128_0_9_0_0 : ∀ a, (![0, 9, 0, 0] : Fin 4 → Nat) a + S1x1x64x128.size a ≤ S1x210x64x128.size a
  inb_S45x64x128_S1x64x128_9_0_0 : ∀ a, (![9, 0, 0] : Fin 3 → Nat) a + S1x64x128.size a ≤ S45x64x128.size a
  inb_S45x2_S1x1_10_0 : ∀ a, (![10, 0] : Fin 2 → Nat) a + S1x1.size a ≤ S45x2.size a
  inb_S45x2_S1x1_10_1 : ∀ a, (![10, 1] : Fin 2 → Nat) a + S1x1.size a ≤ S45x2.size a
  inb_S1x210x64x128_S1x1x64x128_0_10_0_0 : ∀ a, (![0, 10, 0, 0] : Fin 4 → Nat) a + S1x1x64x128.size a ≤ S1x210x64x128.size a
  inb_S45x64x128_S1x64x128_10_0_0 : ∀ a, (![10, 0, 0] : Fin 3 → Nat) a + S1x64x128.size a ≤ S45x64x128.size a
  inb_S45x2_S1x1_11_0 : ∀ a, (![11, 0] : Fin 2 → Nat) a + S1x1.size a ≤ S45x2.size a
  inb_S45x2_S1x1_11_1 : ∀ a, (![11, 1] : Fin 2 → Nat) a + S1x1.size a ≤ S45x2.size a
  inb_S1x210x64x128_S1x1x64x128_0_11_0_0 : ∀ a, (![0, 11, 0, 0] : Fin 4 → Nat) a + S1x1x64x128.size a ≤ S1x210x64x128.size a
  inb_S45x64x128_S1x64x128_11_0_0 : ∀ a, (![11, 0, 0] : Fin 3 → Nat) a + S1x64x128.size a ≤ S45x64x128.size a
  inb_S45x2_S1x1_12_0 : ∀ a, (![12, 0] : Fin 2 → Nat) a + S1x1.size a ≤ S45x2.size a
  inb_S45x2_S1x1_12_1 : ∀ a, (![12, 1] : Fin 2 → Nat) a + S1x1.size a ≤ S45x2.size a
  inb_S1x210x64x128_S1x1x64x128_0_12_0_0 : ∀ a, (![0, 12, 0, 0] : Fin 4 → Nat) a + S1x1x64x128.size a ≤ S1x210x64x128.size a
  inb_S45x64x128_S1x64x128_12_0_0 : ∀ a, (![12, 0, 0] : Fin 3 → Nat) a + S1x64x128.size a ≤ S45x64x128.size a
  inb_S45x2_S1x1_13_0 : ∀ a, (![13, 0] : Fin 2 → Nat) a + S1x1.size a ≤ S45x2.size a
  inb_S45x2_S1x1_13_1 : ∀ a, (![13, 1] : Fin 2 → Nat) a + S1x1.size a ≤ S45x2.size a
  inb_S1x210x64x128_S1x1x64x128_0_13_0_0 : ∀ a, (![0, 13, 0, 0] : Fin 4 → Nat) a + S1x1x64x128.size a ≤ S1x210x64x128.size a
  inb_S45x64x128_S1x64x128_13_0_0 : ∀ a, (![13, 0, 0] : Fin 3 → Nat) a + S1x64x128.size a ≤ S45x64x128.size a
  inb_S45x2_S1x1_14_0 : ∀ a, (![14, 0] : Fin 2 → Nat) a + S1x1.size a ≤ S45x2.size a
  inb_S45x2_S1x1_14_1 : ∀ a, (![14, 1] : Fin 2 → Nat) a + S1x1.size a ≤ S45x2.size a
  inb_S1x210x64x128_S1x1x64x128_0_14_0_0 : ∀ a, (![0, 14, 0, 0] : Fin 4 → Nat) a + S1x1x64x128.size a ≤ S1x210x64x128.size a
  inb_S45x64x128_S1x64x128_14_0_0 : ∀ a, (![14, 0, 0] : Fin 3 → Nat) a + S1x64x128.size a ≤ S45x64x128.size a
  inb_S45x2_S1x1_15_0 : ∀ a, (![15, 0] : Fin 2 → Nat) a + S1x1.size a ≤ S45x2.size a
  inb_S45x2_S1x1_15_1 : ∀ a, (![15, 1] : Fin 2 → Nat) a + S1x1.size a ≤ S45x2.size a
  inb_S1x210x64x128_S1x1x64x128_0_15_0_0 : ∀ a, (![0, 15, 0, 0] : Fin 4 → Nat) a + S1x1x64x128.size a ≤ S1x210x64x128.size a
  inb_S45x64x128_S1x64x128_15_0_0 : ∀ a, (![15, 0, 0] : Fin 3 → Nat) a + S1x64x128.size a ≤ S45x64x128.size a
  inb_S45x2_S1x1_16_0 : ∀ a, (![16, 0] : Fin 2 → Nat) a + S1x1.size a ≤ S45x2.size a
  inb_S45x2_S1x1_16_1 : ∀ a, (![16, 1] : Fin 2 → Nat) a + S1x1.size a ≤ S45x2.size a
  inb_S1x210x64x128_S1x1x64x128_0_16_0_0 : ∀ a, (![0, 16, 0, 0] : Fin 4 → Nat) a + S1x1x64x128.size a ≤ S1x210x64x128.size a
  inb_S45x64x128_S1x64x128_16_0_0 : ∀ a, (![16, 0, 0] : Fin 3 → Nat) a + S1x64x128.size a ≤ S45x64x128.size a
  inb_S45x2_S1x1_17_0 : ∀ a, (![17, 0] : Fin 2 → Nat) a + S1x1.size a ≤ S45x2.size a
  inb_S45x2_S1x1_17_1 : ∀ a, (![17, 1] : Fin 2 → Nat) a + S1x1.size a ≤ S45x2.size a
  inb_S1x210x64x128_S1x1x64x128_0_17_0_0 : ∀ a, (![0, 17, 0, 0] : Fin 4 → Nat) a + S1x1x64x128.size a ≤ S1x210x64x128.size a
  inb_S45x64x128_S1x64x128_17_0_0 : ∀ a, (![17, 0, 0] : Fin 3 → Nat) a + S1x64x128.size a ≤ S45x64x128.size a
  inb_S45x2_S1x1_18_0 : ∀ a, (![18, 0] : Fin 2 → Nat) a + S1x1.size a ≤ S45x2.size a
  inb_S45x2_S1x1_18_1 : ∀ a, (![18, 1] : Fin 2 → Nat) a + S1x1.size a ≤ S45x2.size a
  inb_S1x210x64x128_S1x1x64x128_0_18_0_0 : ∀ a, (![0, 18, 0, 0] : Fin 4 → Nat) a + S1x1x64x128.size a ≤ S1x210x64x128.size a
  inb_S45x64x128_S1x64x128_18_0_0 : ∀ a, (![18, 0, 0] : Fin 3 → Nat) a + S1x64x128.size a ≤ S45x64x128.size a
  inb_S45x2_S1x1_19_0 : ∀ a, (![19, 0] : Fin 2 → Nat) a + S1x1.size a ≤ S45x2.size a
  inb_S45x2_S1x1_19_1 : ∀ a, (![19, 1] : Fin 2 → Nat) a + S1x1.size a ≤ S45x2.size a
  inb_S1x210x64x128_S1x1x64x128_0_19_0_0 : ∀ a, (![0, 19, 0, 0] : Fin 4 → Nat) a + S1x1x64x128.size a ≤ S1x210x64x128.size a
  inb_S45x64x128_S1x64x128_19_0_0 : ∀ a, (![19, 0, 0] : Fin 3 → Nat) a + S1x64x128.size a ≤ S45x64x128.size a
  inb_S45x2_S1x1_20_0 : ∀ a, (![20, 0] : Fin 2 → Nat) a + S1x1.size a ≤ S45x2.size a
  inb_S45x2_S1x1_20_1 : ∀ a, (![20, 1] : Fin 2 → Nat) a + S1x1.size a ≤ S45x2.size a
  inb_S1x210x64x128_S1x1x64x128_0_20_0_0 : ∀ a, (![0, 20, 0, 0] : Fin 4 → Nat) a + S1x1x64x128.size a ≤ S1x210x64x128.size a
  inb_S45x64x128_S1x64x128_20_0_0 : ∀ a, (![20, 0, 0] : Fin 3 → Nat) a + S1x64x128.size a ≤ S45x64x128.size a
  inb_S45x2_S1x1_21_0 : ∀ a, (![21, 0] : Fin 2 → Nat) a + S1x1.size a ≤ S45x2.size a
  inb_S45x2_S1x1_21_1 : ∀ a, (![21, 1] : Fin 2 → Nat) a + S1x1.size a ≤ S45x2.size a
  inb_S1x210x64x128_S1x1x64x128_0_21_0_0 : ∀ a, (![0, 21, 0, 0] : Fin 4 → Nat) a + S1x1x64x128.size a ≤ S1x210x64x128.size a
  inb_S45x64x128_S1x64x128_21_0_0 : ∀ a, (![21, 0, 0] : Fin 3 → Nat) a + S1x64x128.size a ≤ S45x64x128.size a
  inb_S45x2_S1x1_22_0 : ∀ a, (![22, 0] : Fin 2 → Nat) a + S1x1.size a ≤ S45x2.size a
  inb_S45x2_S1x1_22_1 : ∀ a, (![22, 1] : Fin 2 → Nat) a + S1x1.size a ≤ S45x2.size a
  inb_S1x210x64x128_S1x1x64x128_0_22_0_0 : ∀ a, (![0, 22, 0, 0] : Fin 4 → Nat) a + S1x1x64x128.size a ≤ S1x210x64x128.size a
  inb_S45x64x128_S1x64x128_22_0_0 : ∀ a, (![22, 0, 0] : Fin 3 → Nat) a + S1x64x128.size a ≤ S45x64x128.size a
  inb_S45x2_S1x1_23_0 : ∀ a, (![23, 0] : Fin 2 → Nat) a + S1x1.size a ≤ S45x2.size a
  inb_S45x2_S1x1_23_1 : ∀ a, (![23, 1] : Fin 2 → Nat) a + S1x1.size a ≤ S45x2.size a
  inb_S1x210x64x128_S1x1x64x128_0_23_0_0 : ∀ a, (![0, 23, 0, 0] : Fin 4 → Nat) a + S1x1x64x128.size a ≤ S1x210x64x128.size a
  inb_S45x64x128_S1x64x128_23_0_0 : ∀ a, (![23, 0, 0] : Fin 3 → Nat) a + S1x64x128.size a ≤ S45x64x128.size a
  inb_S45x2_S1x1_24_0 : ∀ a, (![24, 0] : Fin 2 → Nat) a + S1x1.size a ≤ S45x2.size a
  inb_S45x2_S1x1_24_1 : ∀ a, (![24, 1] : Fin 2 → Nat) a + S1x1.size a ≤ S45x2.size a
  inb_S1x210x64x128_S1x1x64x128_0_24_0_0 : ∀ a, (![0, 24, 0, 0] : Fin 4 → Nat) a + S1x1x64x128.size a ≤ S1x210x64x128.size a
  inb_S45x64x128_S1x64x128_24_0_0 : ∀ a, (![24, 0, 0] : Fin 3 → Nat) a + S1x64x128.size a ≤ S45x64x128.size a
  inb_S45x2_S1x1_25_0 : ∀ a, (![25, 0] : Fin 2 → Nat) a + S1x1.size a ≤ S45x2.size a
  inb_S45x2_S1x1_25_1 : ∀ a, (![25, 1] : Fin 2 → Nat) a + S1x1.size a ≤ S45x2.size a
  inb_S1x210x64x128_S1x1x64x128_0_25_0_0 : ∀ a, (![0, 25, 0, 0] : Fin 4 → Nat) a + S1x1x64x128.size a ≤ S1x210x64x128.size a
  inb_S45x64x128_S1x64x128_25_0_0 : ∀ a, (![25, 0, 0] : Fin 3 → Nat) a + S1x64x128.size a ≤ S45x64x128.size a
  inb_S45x2_S1x1_26_0 : ∀ a, (![26, 0] : Fin 2 → Nat) a + S1x1.size a ≤ S45x2.size a
  inb_S45x2_S1x1_26_1 : ∀ a, (![26, 1] : Fin 2 → Nat) a + S1x1.size a ≤ S45x2.size a
  inb_S1x210x64x128_S1x1x64x128_0_26_0_0 : ∀ a, (![0, 26, 0, 0] : Fin 4 → Nat) a + S1x1x64x128.size a ≤ S1x210x64x128.size a
  inb_S45x64x128_S1x64x128_26_0_0 : ∀ a, (![26, 0, 0] : Fin 3 → Nat) a + S1x64x128.size a ≤ S45x64x128.size a
  inb_S45x2_S1x1_27_0 : ∀ a, (![27, 0] : Fin 2 → Nat) a + S1x1.size a ≤ S45x2.size a
  inb_S45x2_S1x1_27_1 : ∀ a, (![27, 1] : Fin 2 → Nat) a + S1x1.size a ≤ S45x2.size a
  inb_S1x210x64x128_S1x1x64x128_0_27_0_0 : ∀ a, (![0, 27, 0, 0] : Fin 4 → Nat) a + S1x1x64x128.size a ≤ S1x210x64x128.size a
  inb_S45x64x128_S1x64x128_27_0_0 : ∀ a, (![27, 0, 0] : Fin 3 → Nat) a + S1x64x128.size a ≤ S45x64x128.size a
  inb_S45x2_S1x1_28_0 : ∀ a, (![28, 0] : Fin 2 → Nat) a + S1x1.size a ≤ S45x2.size a
  inb_S45x2_S1x1_28_1 : ∀ a, (![28, 1] : Fin 2 → Nat) a + S1x1.size a ≤ S45x2.size a
  inb_S1x210x64x128_S1x1x64x128_0_28_0_0 : ∀ a, (![0, 28, 0, 0] : Fin 4 → Nat) a + S1x1x64x128.size a ≤ S1x210x64x128.size a
  inb_S45x64x128_S1x64x128_28_0_0 : ∀ a, (![28, 0, 0] : Fin 3 → Nat) a + S1x64x128.size a ≤ S45x64x128.size a
  inb_S45x2_S1x1_29_0 : ∀ a, (![29, 0] : Fin 2 → Nat) a + S1x1.size a ≤ S45x2.size a
  inb_S45x2_S1x1_29_1 : ∀ a, (![29, 1] : Fin 2 → Nat) a + S1x1.size a ≤ S45x2.size a
  inb_S1x210x64x128_S1x1x64x128_0_29_0_0 : ∀ a, (![0, 29, 0, 0] : Fin 4 → Nat) a + S1x1x64x128.size a ≤ S1x210x64x128.size a
  inb_S45x64x128_S1x64x128_29_0_0 : ∀ a, (![29, 0, 0] : Fin 3 → Nat) a + S1x64x128.size a ≤ S45x64x128.size a
  inb_S45x2_S1x1_30_0 : ∀ a, (![30, 0] : Fin 2 → Nat) a + S1x1.size a ≤ S45x2.size a
  inb_S45x2_S1x1_30_1 : ∀ a, (![30, 1] : Fin 2 → Nat) a + S1x1.size a ≤ S45x2.size a
  inb_S1x210x64x128_S1x1x64x128_0_30_0_0 : ∀ a, (![0, 30, 0, 0] : Fin 4 → Nat) a + S1x1x64x128.size a ≤ S1x210x64x128.size a
  inb_S45x64x128_S1x64x128_30_0_0 : ∀ a, (![30, 0, 0] : Fin 3 → Nat) a + S1x64x128.size a ≤ S45x64x128.size a
  inb_S45x2_S1x1_31_0 : ∀ a, (![31, 0] : Fin 2 → Nat) a + S1x1.size a ≤ S45x2.size a
  inb_S45x2_S1x1_31_1 : ∀ a, (![31, 1] : Fin 2 → Nat) a + S1x1.size a ≤ S45x2.size a
  inb_S1x210x64x128_S1x1x64x128_0_31_0_0 : ∀ a, (![0, 31, 0, 0] : Fin 4 → Nat) a + S1x1x64x128.size a ≤ S1x210x64x128.size a
  inb_S45x64x128_S1x64x128_31_0_0 : ∀ a, (![31, 0, 0] : Fin 3 → Nat) a + S1x64x128.size a ≤ S45x64x128.size a
  inb_S45x2_S1x1_32_0 : ∀ a, (![32, 0] : Fin 2 → Nat) a + S1x1.size a ≤ S45x2.size a
  inb_S45x2_S1x1_32_1 : ∀ a, (![32, 1] : Fin 2 → Nat) a + S1x1.size a ≤ S45x2.size a
  inb_S1x210x64x128_S1x1x64x128_0_32_0_0 : ∀ a, (![0, 32, 0, 0] : Fin 4 → Nat) a + S1x1x64x128.size a ≤ S1x210x64x128.size a
  inb_S45x64x128_S1x64x128_32_0_0 : ∀ a, (![32, 0, 0] : Fin 3 → Nat) a + S1x64x128.size a ≤ S45x64x128.size a
  inb_S45x2_S1x1_33_0 : ∀ a, (![33, 0] : Fin 2 → Nat) a + S1x1.size a ≤ S45x2.size a
  inb_S45x2_S1x1_33_1 : ∀ a, (![33, 1] : Fin 2 → Nat) a + S1x1.size a ≤ S45x2.size a
  inb_S1x210x64x128_S1x1x64x128_0_33_0_0 : ∀ a, (![0, 33, 0, 0] : Fin 4 → Nat) a + S1x1x64x128.size a ≤ S1x210x64x128.size a
  inb_S45x64x128_S1x64x128_33_0_0 : ∀ a, (![33, 0, 0] : Fin 3 → Nat) a + S1x64x128.size a ≤ S45x64x128.size a
  inb_S45x2_S1x1_34_0 : ∀ a, (![34, 0] : Fin 2 → Nat) a + S1x1.size a ≤ S45x2.size a
  inb_S45x2_S1x1_34_1 : ∀ a, (![34, 1] : Fin 2 → Nat) a + S1x1.size a ≤ S45x2.size a
  inb_S1x210x64x128_S1x1x64x128_0_34_0_0 : ∀ a, (![0, 34, 0, 0] : Fin 4 → Nat) a + S1x1x64x128.size a ≤ S1x210x64x128.size a
  inb_S45x64x128_S1x64x128_34_0_0 : ∀ a, (![34, 0, 0] : Fin 3 → Nat) a + S1x64x128.size a ≤ S45x64x128.size a
  inb_S45x2_S1x1_35_0 : ∀ a, (![35, 0] : Fin 2 → Nat) a + S1x1.size a ≤ S45x2.size a
  inb_S45x2_S1x1_35_1 : ∀ a, (![35, 1] : Fin 2 → Nat) a + S1x1.size a ≤ S45x2.size a
  inb_S1x210x64x128_S1x1x64x128_0_35_0_0 : ∀ a, (![0, 35, 0, 0] : Fin 4 → Nat) a + S1x1x64x128.size a ≤ S1x210x64x128.size a
  inb_S45x64x128_S1x64x128_35_0_0 : ∀ a, (![35, 0, 0] : Fin 3 → Nat) a + S1x64x128.size a ≤ S45x64x128.size a
  inb_S45x2_S1x1_36_0 : ∀ a, (![36, 0] : Fin 2 → Nat) a + S1x1.size a ≤ S45x2.size a
  inb_S45x2_S1x1_36_1 : ∀ a, (![36, 1] : Fin 2 → Nat) a + S1x1.size a ≤ S45x2.size a
  inb_S1x210x64x128_S1x1x64x128_0_36_0_0 : ∀ a, (![0, 36, 0, 0] : Fin 4 → Nat) a + S1x1x64x128.size a ≤ S1x210x64x128.size a
  inb_S45x64x128_S1x64x128_36_0_0 : ∀ a, (![36, 0, 0] : Fin 3 → Nat) a + S1x64x128.size a ≤ S45x64x128.size a
  inb_S45x2_S1x1_37_0 : ∀ a, (![37, 0] : Fin 2 → Nat) a + S1x1.size a ≤ S45x2.size a
  inb_S45x2_S1x1_37_1 : ∀ a, (![37, 1] : Fin 2 → Nat) a + S1x1.size a ≤ S45x2.size a
  inb_S1x210x64x128_S1x1x64x128_0_37_0_0 : ∀ a, (![0, 37, 0, 0] : Fin 4 → Nat) a + S1x1x64x128.size a ≤ S1x210x64x128.size a
  inb_S45x64x128_S1x64x128_37_0_0 : ∀ a, (![37, 0, 0] : Fin 3 → Nat) a + S1x64x128.size a ≤ S45x64x128.size a
  inb_S45x2_S1x1_38_0 : ∀ a, (![38, 0] : Fin 2 → Nat) a + S1x1.size a ≤ S45x2.size a
  inb_S45x2_S1x1_38_1 : ∀ a, (![38, 1] : Fin 2 → Nat) a + S1x1.size a ≤ S45x2.size a
  inb_S1x210x64x128_S1x1x64x128_0_38_0_0 : ∀ a, (![0, 38, 0, 0] : Fin 4 → Nat) a + S1x1x64x128.size a ≤ S1x210x64x128.size a
  inb_S45x64x128_S1x64x128_38_0_0 : ∀ a, (![38, 0, 0] : Fin 3 → Nat) a + S1x64x128.size a ≤ S45x64x128.size a
  inb_S45x2_S1x1_39_0 : ∀ a, (![39, 0] : Fin 2 → Nat) a + S1x1.size a ≤ S45x2.size a
  inb_S45x2_S1x1_39_1 : ∀ a, (![39, 1] : Fin 2 → Nat) a + S1x1.size a ≤ S45x2.size a
  inb_S1x210x64x128_S1x1x64x128_0_39_0_0 : ∀ a, (![0, 39, 0, 0] : Fin 4 → Nat) a + S1x1x64x128.size a ≤ S1x210x64x128.size a
  inb_S45x64x128_S1x64x128_39_0_0 : ∀ a, (![39, 0, 0] : Fin 3 → Nat) a + S1x64x128.size a ≤ S45x64x128.size a
  inb_S45x2_S1x1_40_0 : ∀ a, (![40, 0] : Fin 2 → Nat) a + S1x1.size a ≤ S45x2.size a
  inb_S45x2_S1x1_40_1 : ∀ a, (![40, 1] : Fin 2 → Nat) a + S1x1.size a ≤ S45x2.size a
  inb_S1x210x64x128_S1x1x64x128_0_40_0_0 : ∀ a, (![0, 40, 0, 0] : Fin 4 → Nat) a + S1x1x64x128.size a ≤ S1x210x64x128.size a
  inb_S45x64x128_S1x64x128_40_0_0 : ∀ a, (![40, 0, 0] : Fin 3 → Nat) a + S1x64x128.size a ≤ S45x64x128.size a
  inb_S45x2_S1x1_41_0 : ∀ a, (![41, 0] : Fin 2 → Nat) a + S1x1.size a ≤ S45x2.size a
  inb_S45x2_S1x1_41_1 : ∀ a, (![41, 1] : Fin 2 → Nat) a + S1x1.size a ≤ S45x2.size a
  inb_S1x210x64x128_S1x1x64x128_0_41_0_0 : ∀ a, (![0, 41, 0, 0] : Fin 4 → Nat) a + S1x1x64x128.size a ≤ S1x210x64x128.size a
  inb_S45x64x128_S1x64x128_41_0_0 : ∀ a, (![41, 0, 0] : Fin 3 → Nat) a + S1x64x128.size a ≤ S45x64x128.size a
  inb_S45x2_S1x1_42_0 : ∀ a, (![42, 0] : Fin 2 → Nat) a + S1x1.size a ≤ S45x2.size a
  inb_S45x2_S1x1_42_1 : ∀ a, (![42, 1] : Fin 2 → Nat) a + S1x1.size a ≤ S45x2.size a
  inb_S1x210x64x128_S1x1x64x128_0_42_0_0 : ∀ a, (![0, 42, 0, 0] : Fin 4 → Nat) a + S1x1x64x128.size a ≤ S1x210x64x128.size a
  inb_S45x64x128_S1x64x128_42_0_0 : ∀ a, (![42, 0, 0] : Fin 3 → Nat) a + S1x64x128.size a ≤ S45x64x128.size a
  inb_S45x2_S1x1_43_0 : ∀ a, (![43, 0] : Fin 2 → Nat) a + S1x1.size a ≤ S45x2.size a
  inb_S45x2_S1x1_43_1 : ∀ a, (![43, 1] : Fin 2 → Nat) a + S1x1.size a ≤ S45x2.size a
  inb_S1x210x64x128_S1x1x64x128_0_43_0_0 : ∀ a, (![0, 43, 0, 0] : Fin 4 → Nat) a + S1x1x64x128.size a ≤ S1x210x64x128.size a
  inb_S45x64x128_S1x64x128_43_0_0 : ∀ a, (![43, 0, 0] : Fin 3 → Nat) a + S1x64x128.size a ≤ S45x64x128.size a
  inb_S45x2_S1x1_44_0 : ∀ a, (![44, 0] : Fin 2 → Nat) a + S1x1.size a ≤ S45x2.size a
  inb_S45x2_S1x1_44_1 : ∀ a, (![44, 1] : Fin 2 → Nat) a + S1x1.size a ≤ S45x2.size a
  inb_S1x210x64x128_S1x1x64x128_0_44_0_0 : ∀ a, (![0, 44, 0, 0] : Fin 4 → Nat) a + S1x1x64x128.size a ≤ S1x210x64x128.size a
  inb_S45x64x128_S1x64x128_44_0_0 : ∀ a, (![44, 0, 0] : Fin 3 → Nat) a + S1x64x128.size a ≤ S45x64x128.size a
  inb_S165x2_S1x1_0_0 : ∀ a, (![0, 0] : Fin 2 → Nat) a + S1x1.size a ≤ S165x2.size a
  inb_S165x2_S1x1_0_1 : ∀ a, (![0, 1] : Fin 2 → Nat) a + S1x1.size a ≤ S165x2.size a
  inb_S1x210x64x128_S1x1x64x128_0_45_0_0 : ∀ a, (![0, 45, 0, 0] : Fin 4 → Nat) a + S1x1x64x128.size a ≤ S1x210x64x128.size a
  inb_S165x2_S1x1_1_0 : ∀ a, (![1, 0] : Fin 2 → Nat) a + S1x1.size a ≤ S165x2.size a
  inb_S165x2_S1x1_1_1 : ∀ a, (![1, 1] : Fin 2 → Nat) a + S1x1.size a ≤ S165x2.size a
  inb_S1x210x64x128_S1x1x64x128_0_46_0_0 : ∀ a, (![0, 46, 0, 0] : Fin 4 → Nat) a + S1x1x64x128.size a ≤ S1x210x64x128.size a
  inb_S165x2_S1x1_2_0 : ∀ a, (![2, 0] : Fin 2 → Nat) a + S1x1.size a ≤ S165x2.size a
  inb_S165x2_S1x1_2_1 : ∀ a, (![2, 1] : Fin 2 → Nat) a + S1x1.size a ≤ S165x2.size a
  inb_S1x210x64x128_S1x1x64x128_0_47_0_0 : ∀ a, (![0, 47, 0, 0] : Fin 4 → Nat) a + S1x1x64x128.size a ≤ S1x210x64x128.size a
  inb_S165x2_S1x1_3_0 : ∀ a, (![3, 0] : Fin 2 → Nat) a + S1x1.size a ≤ S165x2.size a
  inb_S165x2_S1x1_3_1 : ∀ a, (![3, 1] : Fin 2 → Nat) a + S1x1.size a ≤ S165x2.size a
  inb_S1x210x64x128_S1x1x64x128_0_48_0_0 : ∀ a, (![0, 48, 0, 0] : Fin 4 → Nat) a + S1x1x64x128.size a ≤ S1x210x64x128.size a
  inb_S165x2_S1x1_4_0 : ∀ a, (![4, 0] : Fin 2 → Nat) a + S1x1.size a ≤ S165x2.size a
  inb_S165x2_S1x1_4_1 : ∀ a, (![4, 1] : Fin 2 → Nat) a + S1x1.size a ≤ S165x2.size a
  inb_S1x210x64x128_S1x1x64x128_0_49_0_0 : ∀ a, (![0, 49, 0, 0] : Fin 4 → Nat) a + S1x1x64x128.size a ≤ S1x210x64x128.size a
  inb_S165x2_S1x1_5_0 : ∀ a, (![5, 0] : Fin 2 → Nat) a + S1x1.size a ≤ S165x2.size a
  inb_S165x2_S1x1_5_1 : ∀ a, (![5, 1] : Fin 2 → Nat) a + S1x1.size a ≤ S165x2.size a
  inb_S1x210x64x128_S1x1x64x128_0_50_0_0 : ∀ a, (![0, 50, 0, 0] : Fin 4 → Nat) a + S1x1x64x128.size a ≤ S1x210x64x128.size a
  inb_S165x2_S1x1_6_0 : ∀ a, (![6, 0] : Fin 2 → Nat) a + S1x1.size a ≤ S165x2.size a
  inb_S165x2_S1x1_6_1 : ∀ a, (![6, 1] : Fin 2 → Nat) a + S1x1.size a ≤ S165x2.size a
  inb_S1x210x64x128_S1x1x64x128_0_51_0_0 : ∀ a, (![0, 51, 0, 0] : Fin 4 → Nat) a + S1x1x64x128.size a ≤ S1x210x64x128.size a
  inb_S165x2_S1x1_7_0 : ∀ a, (![7, 0] : Fin 2 → Nat) a + S1x1.size a ≤ S165x2.size a
  inb_S165x2_S1x1_7_1 : ∀ a, (![7, 1] : Fin 2 → Nat) a + S1x1.size a ≤ S165x2.size a
  inb_S1x210x64x128_S1x1x64x128_0_52_0_0 : ∀ a, (![0, 52, 0, 0] : Fin 4 → Nat) a + S1x1x64x128.size a ≤ S1x210x64x128.size a
  inb_S165x2_S1x1_8_0 : ∀ a, (![8, 0] : Fin 2 → Nat) a + S1x1.size a ≤ S165x2.size a
  inb_S165x2_S1x1_8_1 : ∀ a, (![8, 1] : Fin 2 → Nat) a + S1x1.size a ≤ S165x2.size a
  inb_S1x210x64x128_S1x1x64x128_0_53_0_0 : ∀ a, (![0, 53, 0, 0] : Fin 4 → Nat) a + S1x1x64x128.size a ≤ S1x210x64x128.size a
  inb_S165x2_S1x1_9_0 : ∀ a, (![9, 0] : Fin 2 → Nat) a + S1x1.size a ≤ S165x2.size a
  inb_S165x2_S1x1_9_1 : ∀ a, (![9, 1] : Fin 2 → Nat) a + S1x1.size a ≤ S165x2.size a
  inb_S1x210x64x128_S1x1x64x128_0_54_0_0 : ∀ a, (![0, 54, 0, 0] : Fin 4 → Nat) a + S1x1x64x128.size a ≤ S1x210x64x128.size a
  inb_S165x2_S1x1_10_0 : ∀ a, (![10, 0] : Fin 2 → Nat) a + S1x1.size a ≤ S165x2.size a
  inb_S165x2_S1x1_10_1 : ∀ a, (![10, 1] : Fin 2 → Nat) a + S1x1.size a ≤ S165x2.size a
  inb_S1x210x64x128_S1x1x64x128_0_55_0_0 : ∀ a, (![0, 55, 0, 0] : Fin 4 → Nat) a + S1x1x64x128.size a ≤ S1x210x64x128.size a
  inb_S165x2_S1x1_11_0 : ∀ a, (![11, 0] : Fin 2 → Nat) a + S1x1.size a ≤ S165x2.size a
  inb_S165x2_S1x1_11_1 : ∀ a, (![11, 1] : Fin 2 → Nat) a + S1x1.size a ≤ S165x2.size a
  inb_S1x210x64x128_S1x1x64x128_0_56_0_0 : ∀ a, (![0, 56, 0, 0] : Fin 4 → Nat) a + S1x1x64x128.size a ≤ S1x210x64x128.size a
  inb_S165x2_S1x1_12_0 : ∀ a, (![12, 0] : Fin 2 → Nat) a + S1x1.size a ≤ S165x2.size a
  inb_S165x2_S1x1_12_1 : ∀ a, (![12, 1] : Fin 2 → Nat) a + S1x1.size a ≤ S165x2.size a
  inb_S1x210x64x128_S1x1x64x128_0_57_0_0 : ∀ a, (![0, 57, 0, 0] : Fin 4 → Nat) a + S1x1x64x128.size a ≤ S1x210x64x128.size a
  inb_S165x2_S1x1_13_0 : ∀ a, (![13, 0] : Fin 2 → Nat) a + S1x1.size a ≤ S165x2.size a
  inb_S165x2_S1x1_13_1 : ∀ a, (![13, 1] : Fin 2 → Nat) a + S1x1.size a ≤ S165x2.size a
  inb_S1x210x64x128_S1x1x64x128_0_58_0_0 : ∀ a, (![0, 58, 0, 0] : Fin 4 → Nat) a + S1x1x64x128.size a ≤ S1x210x64x128.size a
  inb_S165x2_S1x1_14_0 : ∀ a, (![14, 0] : Fin 2 → Nat) a + S1x1.size a ≤ S165x2.size a
  inb_S165x2_S1x1_14_1 : ∀ a, (![14, 1] : Fin 2 → Nat) a + S1x1.size a ≤ S165x2.size a
  inb_S1x210x64x128_S1x1x64x128_0_59_0_0 : ∀ a, (![0, 59, 0, 0] : Fin 4 → Nat) a + S1x1x64x128.size a ≤ S1x210x64x128.size a
  inb_S165x2_S1x1_15_0 : ∀ a, (![15, 0] : Fin 2 → Nat) a + S1x1.size a ≤ S165x2.size a
  inb_S165x2_S1x1_15_1 : ∀ a, (![15, 1] : Fin 2 → Nat) a + S1x1.size a ≤ S165x2.size a
  inb_S1x210x64x128_S1x1x64x128_0_60_0_0 : ∀ a, (![0, 60, 0, 0] : Fin 4 → Nat) a + S1x1x64x128.size a ≤ S1x210x64x128.size a
  inb_S165x2_S1x1_16_0 : ∀ a, (![16, 0] : Fin 2 → Nat) a + S1x1.size a ≤ S165x2.size a
  inb_S165x2_S1x1_16_1 : ∀ a, (![16, 1] : Fin 2 → Nat) a + S1x1.size a ≤ S165x2.size a
  inb_S1x210x64x128_S1x1x64x128_0_61_0_0 : ∀ a, (![0, 61, 0, 0] : Fin 4 → Nat) a + S1x1x64x128.size a ≤ S1x210x64x128.size a
  inb_S165x2_S1x1_17_0 : ∀ a, (![17, 0] : Fin 2 → Nat) a + S1x1.size a ≤ S165x2.size a
  inb_S165x2_S1x1_17_1 : ∀ a, (![17, 1] : Fin 2 → Nat) a + S1x1.size a ≤ S165x2.size a
  inb_S1x210x64x128_S1x1x64x128_0_62_0_0 : ∀ a, (![0, 62, 0, 0] : Fin 4 → Nat) a + S1x1x64x128.size a ≤ S1x210x64x128.size a
  inb_S165x2_S1x1_18_0 : ∀ a, (![18, 0] : Fin 2 → Nat) a + S1x1.size a ≤ S165x2.size a
  inb_S165x2_S1x1_18_1 : ∀ a, (![18, 1] : Fin 2 → Nat) a + S1x1.size a ≤ S165x2.size a
  inb_S1x210x64x128_S1x1x64x128_0_63_0_0 : ∀ a, (![0, 63, 0, 0] : Fin 4 → Nat) a + S1x1x64x128.size a ≤ S1x210x64x128.size a
  inb_S165x2_S1x1_19_0 : ∀ a, (![19, 0] : Fin 2 → Nat) a + S1x1.size a ≤ S165x2.size a
  inb_S165x2_S1x1_19_1 : ∀ a, (![19, 1] : Fin 2 → Nat) a + S1x1.size a ≤ S165x2.size a
  inb_S1x210x64x128_S1x1x64x128_0_64_0_0 : ∀ a, (![0, 64, 0, 0] : Fin 4 → Nat) a + S1x1x64x128.size a ≤ S1x210x64x128.size a
  inb_S165x2_S1x1_20_0 : ∀ a, (![20, 0] : Fin 2 → Nat) a + S1x1.size a ≤ S165x2.size a
  inb_S165x2_S1x1_20_1 : ∀ a, (![20, 1] : Fin 2 → Nat) a + S1x1.size a ≤ S165x2.size a
  inb_S1x210x64x128_S1x1x64x128_0_65_0_0 : ∀ a, (![0, 65, 0, 0] : Fin 4 → Nat) a + S1x1x64x128.size a ≤ S1x210x64x128.size a
  inb_S165x2_S1x1_21_0 : ∀ a, (![21, 0] : Fin 2 → Nat) a + S1x1.size a ≤ S165x2.size a
  inb_S165x2_S1x1_21_1 : ∀ a, (![21, 1] : Fin 2 → Nat) a + S1x1.size a ≤ S165x2.size a
  inb_S1x210x64x128_S1x1x64x128_0_66_0_0 : ∀ a, (![0, 66, 0, 0] : Fin 4 → Nat) a + S1x1x64x128.size a ≤ S1x210x64x128.size a
  inb_S165x2_S1x1_22_0 : ∀ a, (![22, 0] : Fin 2 → Nat) a + S1x1.size a ≤ S165x2.size a
  inb_S165x2_S1x1_22_1 : ∀ a, (![22, 1] : Fin 2 → Nat) a + S1x1.size a ≤ S165x2.size a
  inb_S1x210x64x128_S1x1x64x128_0_67_0_0 : ∀ a, (![0, 67, 0, 0] : Fin 4 → Nat) a + S1x1x64x128.size a ≤ S1x210x64x128.size a
  inb_S165x2_S1x1_23_0 : ∀ a, (![23, 0] : Fin 2 → Nat) a + S1x1.size a ≤ S165x2.size a
  inb_S165x2_S1x1_23_1 : ∀ a, (![23, 1] : Fin 2 → Nat) a + S1x1.size a ≤ S165x2.size a
  inb_S1x210x64x128_S1x1x64x128_0_68_0_0 : ∀ a, (![0, 68, 0, 0] : Fin 4 → Nat) a + S1x1x64x128.size a ≤ S1x210x64x128.size a
  inb_S165x2_S1x1_24_0 : ∀ a, (![24, 0] : Fin 2 → Nat) a + S1x1.size a ≤ S165x2.size a
  inb_S165x2_S1x1_24_1 : ∀ a, (![24, 1] : Fin 2 → Nat) a + S1x1.size a ≤ S165x2.size a
  inb_S1x210x64x128_S1x1x64x128_0_69_0_0 : ∀ a, (![0, 69, 0, 0] : Fin 4 → Nat) a + S1x1x64x128.size a ≤ S1x210x64x128.size a
  inb_S165x2_S1x1_25_0 : ∀ a, (![25, 0] : Fin 2 → Nat) a + S1x1.size a ≤ S165x2.size a
  inb_S165x2_S1x1_25_1 : ∀ a, (![25, 1] : Fin 2 → Nat) a + S1x1.size a ≤ S165x2.size a
  inb_S1x210x64x128_S1x1x64x128_0_70_0_0 : ∀ a, (![0, 70, 0, 0] : Fin 4 → Nat) a + S1x1x64x128.size a ≤ S1x210x64x128.size a
  inb_S165x2_S1x1_26_0 : ∀ a, (![26, 0] : Fin 2 → Nat) a + S1x1.size a ≤ S165x2.size a
  inb_S165x2_S1x1_26_1 : ∀ a, (![26, 1] : Fin 2 → Nat) a + S1x1.size a ≤ S165x2.size a
  inb_S1x210x64x128_S1x1x64x128_0_71_0_0 : ∀ a, (![0, 71, 0, 0] : Fin 4 → Nat) a + S1x1x64x128.size a ≤ S1x210x64x128.size a
  inb_S165x2_S1x1_27_0 : ∀ a, (![27, 0] : Fin 2 → Nat) a + S1x1.size a ≤ S165x2.size a
  inb_S165x2_S1x1_27_1 : ∀ a, (![27, 1] : Fin 2 → Nat) a + S1x1.size a ≤ S165x2.size a
  inb_S1x210x64x128_S1x1x64x128_0_72_0_0 : ∀ a, (![0, 72, 0, 0] : Fin 4 → Nat) a + S1x1x64x128.size a ≤ S1x210x64x128.size a
  inb_S165x2_S1x1_28_0 : ∀ a, (![28, 0] : Fin 2 → Nat) a + S1x1.size a ≤ S165x2.size a
  inb_S165x2_S1x1_28_1 : ∀ a, (![28, 1] : Fin 2 → Nat) a + S1x1.size a ≤ S165x2.size a
  inb_S1x210x64x128_S1x1x64x128_0_73_0_0 : ∀ a, (![0, 73, 0, 0] : Fin 4 → Nat) a + S1x1x64x128.size a ≤ S1x210x64x128.size a
  inb_S165x2_S1x1_29_0 : ∀ a, (![29, 0] : Fin 2 → Nat) a + S1x1.size a ≤ S165x2.size a
  inb_S165x2_S1x1_29_1 : ∀ a, (![29, 1] : Fin 2 → Nat) a + S1x1.size a ≤ S165x2.size a
  inb_S1x210x64x128_S1x1x64x128_0_74_0_0 : ∀ a, (![0, 74, 0, 0] : Fin 4 → Nat) a + S1x1x64x128.size a ≤ S1x210x64x128.size a
  inb_S165x2_S1x1_30_0 : ∀ a, (![30, 0] : Fin 2 → Nat) a + S1x1.size a ≤ S165x2.size a
  inb_S165x2_S1x1_30_1 : ∀ a, (![30, 1] : Fin 2 → Nat) a + S1x1.size a ≤ S165x2.size a
  inb_S1x210x64x128_S1x1x64x128_0_75_0_0 : ∀ a, (![0, 75, 0, 0] : Fin 4 → Nat) a + S1x1x64x128.size a ≤ S1x210x64x128.size a
  inb_S165x2_S1x1_31_0 : ∀ a, (![31, 0] : Fin 2 → Nat) a + S1x1.size a ≤ S165x2.size a
  inb_S165x2_S1x1_31_1 : ∀ a, (![31, 1] : Fin 2 → Nat) a + S1x1.size a ≤ S165x2.size a
  inb_S1x210x64x128_S1x1x64x128_0_76_0_0 : ∀ a, (![0, 76, 0, 0] : Fin 4 → Nat) a + S1x1x64x128.size a ≤ S1x210x64x128.size a
  inb_S165x2_S1x1_32_0 : ∀ a, (![32, 0] : Fin 2 → Nat) a + S1x1.size a ≤ S165x2.size a
  inb_S165x2_S1x1_32_1 : ∀ a, (![32, 1] : Fin 2 → Nat) a + S1x1.size a ≤ S165x2.size a
  inb_S1x210x64x128_S1x1x64x128_0_77_0_0 : ∀ a, (![0, 77, 0, 0] : Fin 4 → Nat) a + S1x1x64x128.size a ≤ S1x210x64x128.size a
  inb_S165x2_S1x1_33_0 : ∀ a, (![33, 0] : Fin 2 → Nat) a + S1x1.size a ≤ S165x2.size a
  inb_S165x2_S1x1_33_1 : ∀ a, (![33, 1] : Fin 2 → Nat) a + S1x1.size a ≤ S165x2.size a
  inb_S1x210x64x128_S1x1x64x128_0_78_0_0 : ∀ a, (![0, 78, 0, 0] : Fin 4 → Nat) a + S1x1x64x128.size a ≤ S1x210x64x128.size a
  inb_S165x2_S1x1_34_0 : ∀ a, (![34, 0] : Fin 2 → Nat) a + S1x1.size a ≤ S165x2.size a
  inb_S165x2_S1x1_34_1 : ∀ a, (![34, 1] : Fin 2 → Nat) a + S1x1.size a ≤ S165x2.size a
  inb_S1x210x64x128_S1x1x64x128_0_79_0_0 : ∀ a, (![0, 79, 0, 0] : Fin 4 → Nat) a + S1x1x64x128.size a ≤ S1x210x64x128.size a
  inb_S165x2_S1x1_35_0 : ∀ a, (![35, 0] : Fin 2 → Nat) a + S1x1.size a ≤ S165x2.size a
  inb_S165x2_S1x1_35_1 : ∀ a, (![35, 1] : Fin 2 → Nat) a + S1x1.size a ≤ S165x2.size a
  inb_S1x210x64x128_S1x1x64x128_0_80_0_0 : ∀ a, (![0, 80, 0, 0] : Fin 4 → Nat) a + S1x1x64x128.size a ≤ S1x210x64x128.size a
  inb_S165x2_S1x1_36_0 : ∀ a, (![36, 0] : Fin 2 → Nat) a + S1x1.size a ≤ S165x2.size a
  inb_S165x2_S1x1_36_1 : ∀ a, (![36, 1] : Fin 2 → Nat) a + S1x1.size a ≤ S165x2.size a
  inb_S1x210x64x128_S1x1x64x128_0_81_0_0 : ∀ a, (![0, 81, 0, 0] : Fin 4 → Nat) a + S1x1x64x128.size a ≤ S1x210x64x128.size a
  inb_S165x2_S1x1_37_0 : ∀ a, (![37, 0] : Fin 2 → Nat) a + S1x1.size a ≤ S165x2.size a
  inb_S165x2_S1x1_37_1 : ∀ a, (![37, 1] : Fin 2 → Nat) a + S1x1.size a ≤ S165x2.size a
  inb_S1x210x64x128_S1x1x64x128_0_82_0_0 : ∀ a, (![0, 82, 0, 0] : Fin 4 → Nat) a + S1x1x64x128.size a ≤ S1x210x64x128.size a
  inb_S165x2_S1x1_38_0 : ∀ a, (![38, 0] : Fin 2 → Nat) a + S1x1.size a ≤ S165x2.size a
  inb_S165x2_S1x1_38_1 : ∀ a, (![38, 1] : Fin 2 → Nat) a + S1x1.size a ≤ S165x2.size a
  inb_S1x210x64x128_S1x1x64x128_0_83_0_0 : ∀ a, (![0, 83, 0, 0] : Fin 4 → Nat) a + S1x1x64x128.size a ≤ S1x210x64x128.size a
  inb_S165x2_S1x1_39_0 : ∀ a, (![39, 0] : Fin 2 → Nat) a + S1x1.size a ≤ S165x2.size a
  inb_S165x2_S1x1_39_1 : ∀ a, (![39, 1] : Fin 2 → Nat) a + S1x1.size a ≤ S165x2.size a
  inb_S1x210x64x128_S1x1x64x128_0_84_0_0 : ∀ a, (![0, 84, 0, 0] : Fin 4 → Nat) a + S1x1x64x128.size a ≤ S1x210x64x128.size a
  inb_S165x2_S1x1_40_0 : ∀ a, (![40, 0] : Fin 2 → Nat) a + S1x1.size a ≤ S165x2.size a
  inb_S165x2_S1x1_40_1 : ∀ a, (![40, 1] : Fin 2 → Nat) a + S1x1.size a ≤ S165x2.size a
  inb_S1x210x64x128_S1x1x64x128_0_85_0_0 : ∀ a, (![0, 85, 0, 0] : Fin 4 → Nat) a + S1x1x64x128.size a ≤ S1x210x64x128.size a
  inb_S165x2_S1x1_41_0 : ∀ a, (![41, 0] : Fin 2 → Nat) a + S1x1.size a ≤ S165x2.size a
  inb_S165x2_S1x1_41_1 : ∀ a, (![41, 1] : Fin 2 → Nat) a + S1x1.size a ≤ S165x2.size a
  inb_S1x210x64x128_S1x1x64x128_0_86_0_0 : ∀ a, (![0, 86, 0, 0] : Fin 4 → Nat) a + S1x1x64x128.size a ≤ S1x210x64x128.size a
  inb_S165x2_S1x1_42_0 : ∀ a, (![42, 0] : Fin 2 → Nat) a + S1x1.size a ≤ S165x2.size a
  inb_S165x2_S1x1_42_1 : ∀ a, (![42, 1] : Fin 2 → Nat) a + S1x1.size a ≤ S165x2.size a
  inb_S1x210x64x128_S1x1x64x128_0_87_0_0 : ∀ a, (![0, 87, 0, 0] : Fin 4 → Nat) a + S1x1x64x128.size a ≤ S1x210x64x128.size a
  inb_S165x2_S1x1_43_0 : ∀ a, (![43, 0] : Fin 2 → Nat) a + S1x1.size a ≤ S165x2.size a
  inb_S165x2_S1x1_43_1 : ∀ a, (![43, 1] : Fin 2 → Nat) a + S1x1.size a ≤ S165x2.size a
  inb_S1x210x64x128_S1x1x64x128_0_88_0_0 : ∀ a, (![0, 88, 0, 0] : Fin 4 → Nat) a + S1x1x64x128.size a ≤ S1x210x64x128.size a
  inb_S165x2_S1x1_44_0 : ∀ a, (![44, 0] : Fin 2 → Nat) a + S1x1.size a ≤ S165x2.size a
  inb_S165x2_S1x1_44_1 : ∀ a, (![44, 1] : Fin 2 → Nat) a + S1x1.size a ≤ S165x2.size a
  inb_S1x210x64x128_S1x1x64x128_0_89_0_0 : ∀ a, (![0, 89, 0, 0] : Fin 4 → Nat) a + S1x1x64x128.size a ≤ S1x210x64x128.size a
  inb_S165x2_S1x1_45_0 : ∀ a, (![45, 0] : Fin 2 → Nat) a + S1x1.size a ≤ S165x2.size a
  inb_S165x2_S1x1_45_1 : ∀ a, (![45, 1] : Fin 2 → Nat) a + S1x1.size a ≤ S165x2.size a
  inb_S1x210x64x128_S1x1x64x128_0_90_0_0 : ∀ a, (![0, 90, 0, 0] : Fin 4 → Nat) a + S1x1x64x128.size a ≤ S1x210x64x128.size a
  inb_S165x2_S1x1_46_0 : ∀ a, (![46, 0] : Fin 2 → Nat) a + S1x1.size a ≤ S165x2.size a
  inb_S165x2_S1x1_46_1 : ∀ a, (![46, 1] : Fin 2 → Nat) a + S1x1.size a ≤ S165x2.size a
  inb_S1x210x64x128_S1x1x64x128_0_91_0_0 : ∀ a, (![0, 91, 0, 0] : Fin 4 → Nat) a + S1x1x64x128.size a ≤ S1x210x64x128.size a
  inb_S165x2_S1x1_47_0 : ∀ a, (![47, 0] : Fin 2 → Nat) a + S1x1.size a ≤ S165x2.size a
  inb_S165x2_S1x1_47_1 : ∀ a, (![47, 1] : Fin 2 → Nat) a + S1x1.size a ≤ S165x2.size a
  inb_S1x210x64x128_S1x1x64x128_0_92_0_0 : ∀ a, (![0, 92, 0, 0] : Fin 4 → Nat) a + S1x1x64x128.size a ≤ S1x210x64x128.size a
  inb_S165x2_S1x1_48_0 : ∀ a, (![48, 0] : Fin 2 → Nat) a + S1x1.size a ≤ S165x2.size a
  inb_S165x2_S1x1_48_1 : ∀ a, (![48, 1] : Fin 2 → Nat) a + S1x1.size a ≤ S165x2.size a
  inb_S1x210x64x128_S1x1x64x128_0_93_0_0 : ∀ a, (![0, 93, 0, 0] : Fin 4 → Nat) a + S1x1x64x128.size a ≤ S1x210x64x128.size a
  inb_S165x2_S1x1_49_0 : ∀ a, (![49, 0] : Fin 2 → Nat) a + S1x1.size a ≤ S165x2.size a
  inb_S165x2_S1x1_49_1 : ∀ a, (![49, 1] : Fin 2 → Nat) a + S1x1.size a ≤ S165x2.size a
  inb_S1x210x64x128_S1x1x64x128_0_94_0_0 : ∀ a, (![0, 94, 0, 0] : Fin 4 → Nat) a + S1x1x64x128.size a ≤ S1x210x64x128.size a
  inb_S165x2_S1x1_50_0 : ∀ a, (![50, 0] : Fin 2 → Nat) a + S1x1.size a ≤ S165x2.size a
  inb_S165x2_S1x1_50_1 : ∀ a, (![50, 1] : Fin 2 → Nat) a + S1x1.size a ≤ S165x2.size a
  inb_S1x210x64x128_S1x1x64x128_0_95_0_0 : ∀ a, (![0, 95, 0, 0] : Fin 4 → Nat) a + S1x1x64x128.size a ≤ S1x210x64x128.size a
  inb_S165x2_S1x1_51_0 : ∀ a, (![51, 0] : Fin 2 → Nat) a + S1x1.size a ≤ S165x2.size a
  inb_S165x2_S1x1_51_1 : ∀ a, (![51, 1] : Fin 2 → Nat) a + S1x1.size a ≤ S165x2.size a
  inb_S1x210x64x128_S1x1x64x128_0_96_0_0 : ∀ a, (![0, 96, 0, 0] : Fin 4 → Nat) a + S1x1x64x128.size a ≤ S1x210x64x128.size a
  inb_S165x2_S1x1_52_0 : ∀ a, (![52, 0] : Fin 2 → Nat) a + S1x1.size a ≤ S165x2.size a
  inb_S165x2_S1x1_52_1 : ∀ a, (![52, 1] : Fin 2 → Nat) a + S1x1.size a ≤ S165x2.size a
  inb_S1x210x64x128_S1x1x64x128_0_97_0_0 : ∀ a, (![0, 97, 0, 0] : Fin 4 → Nat) a + S1x1x64x128.size a ≤ S1x210x64x128.size a
  inb_S165x2_S1x1_53_0 : ∀ a, (![53, 0] : Fin 2 → Nat) a + S1x1.size a ≤ S165x2.size a
  inb_S165x2_S1x1_53_1 : ∀ a, (![53, 1] : Fin 2 → Nat) a + S1x1.size a ≤ S165x2.size a
  inb_S1x210x64x128_S1x1x64x128_0_98_0_0 : ∀ a, (![0, 98, 0, 0] : Fin 4 → Nat) a + S1x1x64x128.size a ≤ S1x210x64x128.size a
  inb_S165x2_S1x1_54_0 : ∀ a, (![54, 0] : Fin 2 → Nat) a + S1x1.size a ≤ S165x2.size a
  inb_S165x2_S1x1_54_1 : ∀ a, (![54, 1] : Fin 2 → Nat) a + S1x1.size a ≤ S165x2.size a
  inb_S1x210x64x128_S1x1x64x128_0_99_0_0 : ∀ a, (![0, 99, 0, 0] : Fin 4 → Nat) a + S1x1x64x128.size a ≤ S1x210x64x128.size a
  inb_S165x2_S1x1_55_0 : ∀ a, (![55, 0] : Fin 2 → Nat) a + S1x1.size a ≤ S165x2.size a
  inb_S165x2_S1x1_55_1 : ∀ a, (![55, 1] : Fin 2 → Nat) a + S1x1.size a ≤ S165x2.size a
  inb_S1x210x64x128_S1x1x64x128_0_100_0_0 : ∀ a, (![0, 100, 0, 0] : Fin 4 → Nat) a + S1x1x64x128.size a ≤ S1x210x64x128.size a
  inb_S165x2_S1x1_56_0 : ∀ a, (![56, 0] : Fin 2 → Nat) a + S1x1.size a ≤ S165x2.size a
  inb_S165x2_S1x1_56_1 : ∀ a, (![56, 1] : Fin 2 → Nat) a + S1x1.size a ≤ S165x2.size a
  inb_S1x210x64x128_S1x1x64x128_0_101_0_0 : ∀ a, (![0, 101, 0, 0] : Fin 4 → Nat) a + S1x1x64x128.size a ≤ S1x210x64x128.size a
  inb_S165x2_S1x1_57_0 : ∀ a, (![57, 0] : Fin 2 → Nat) a + S1x1.size a ≤ S165x2.size a
  inb_S165x2_S1x1_57_1 : ∀ a, (![57, 1] : Fin 2 → Nat) a + S1x1.size a ≤ S165x2.size a
  inb_S1x210x64x128_S1x1x64x128_0_102_0_0 : ∀ a, (![0, 102, 0, 0] : Fin 4 → Nat) a + S1x1x64x128.size a ≤ S1x210x64x128.size a
  inb_S165x2_S1x1_58_0 : ∀ a, (![58, 0] : Fin 2 → Nat) a + S1x1.size a ≤ S165x2.size a
  inb_S165x2_S1x1_58_1 : ∀ a, (![58, 1] : Fin 2 → Nat) a + S1x1.size a ≤ S165x2.size a
  inb_S1x210x64x128_S1x1x64x128_0_103_0_0 : ∀ a, (![0, 103, 0, 0] : Fin 4 → Nat) a + S1x1x64x128.size a ≤ S1x210x64x128.size a
  inb_S165x2_S1x1_59_0 : ∀ a, (![59, 0] : Fin 2 → Nat) a + S1x1.size a ≤ S165x2.size a
  inb_S165x2_S1x1_59_1 : ∀ a, (![59, 1] : Fin 2 → Nat) a + S1x1.size a ≤ S165x2.size a
  inb_S1x210x64x128_S1x1x64x128_0_104_0_0 : ∀ a, (![0, 104, 0, 0] : Fin 4 → Nat) a + S1x1x64x128.size a ≤ S1x210x64x128.size a
  inb_S165x2_S1x1_60_0 : ∀ a, (![60, 0] : Fin 2 → Nat) a + S1x1.size a ≤ S165x2.size a
  inb_S165x2_S1x1_60_1 : ∀ a, (![60, 1] : Fin 2 → Nat) a + S1x1.size a ≤ S165x2.size a
  inb_S1x210x64x128_S1x1x64x128_0_105_0_0 : ∀ a, (![0, 105, 0, 0] : Fin 4 → Nat) a + S1x1x64x128.size a ≤ S1x210x64x128.size a
  inb_S165x2_S1x1_61_0 : ∀ a, (![61, 0] : Fin 2 → Nat) a + S1x1.size a ≤ S165x2.size a
  inb_S165x2_S1x1_61_1 : ∀ a, (![61, 1] : Fin 2 → Nat) a + S1x1.size a ≤ S165x2.size a
  inb_S1x210x64x128_S1x1x64x128_0_106_0_0 : ∀ a, (![0, 106, 0, 0] : Fin 4 → Nat) a + S1x1x64x128.size a ≤ S1x210x64x128.size a
  inb_S165x2_S1x1_62_0 : ∀ a, (![62, 0] : Fin 2 → Nat) a + S1x1.size a ≤ S165x2.size a
  inb_S165x2_S1x1_62_1 : ∀ a, (![62, 1] : Fin 2 → Nat) a + S1x1.size a ≤ S165x2.size a
  inb_S1x210x64x128_S1x1x64x128_0_107_0_0 : ∀ a, (![0, 107, 0, 0] : Fin 4 → Nat) a + S1x1x64x128.size a ≤ S1x210x64x128.size a
  inb_S165x2_S1x1_63_0 : ∀ a, (![63, 0] : Fin 2 → Nat) a + S1x1.size a ≤ S165x2.size a
  inb_S165x2_S1x1_63_1 : ∀ a, (![63, 1] : Fin 2 → Nat) a + S1x1.size a ≤ S165x2.size a
  inb_S1x210x64x128_S1x1x64x128_0_108_0_0 : ∀ a, (![0, 108, 0, 0] : Fin 4 → Nat) a + S1x1x64x128.size a ≤ S1x210x64x128.size a
  inb_S165x2_S1x1_64_0 : ∀ a, (![64, 0] : Fin 2 → Nat) a + S1x1.size a ≤ S165x2.size a
  inb_S165x2_S1x1_64_1 : ∀ a, (![64, 1] : Fin 2 → Nat) a + S1x1.size a ≤ S165x2.size a
  inb_S1x210x64x128_S1x1x64x128_0_109_0_0 : ∀ a, (![0, 109, 0, 0] : Fin 4 → Nat) a + S1x1x64x128.size a ≤ S1x210x64x128.size a
  inb_S165x2_S1x1_65_0 : ∀ a, (![65, 0] : Fin 2 → Nat) a + S1x1.size a ≤ S165x2.size a
  inb_S165x2_S1x1_65_1 : ∀ a, (![65, 1] : Fin 2 → Nat) a + S1x1.size a ≤ S165x2.size a
  inb_S1x210x64x128_S1x1x64x128_0_110_0_0 : ∀ a, (![0, 110, 0, 0] : Fin 4 → Nat) a + S1x1x64x128.size a ≤ S1x210x64x128.size a
  inb_S165x2_S1x1_66_0 : ∀ a, (![66, 0] : Fin 2 → Nat) a + S1x1.size a ≤ S165x2.size a
  inb_S165x2_S1x1_66_1 : ∀ a, (![66, 1] : Fin 2 → Nat) a + S1x1.size a ≤ S165x2.size a
  inb_S1x210x64x128_S1x1x64x128_0_111_0_0 : ∀ a, (![0, 111, 0, 0] : Fin 4 → Nat) a + S1x1x64x128.size a ≤ S1x210x64x128.size a
  inb_S165x2_S1x1_67_0 : ∀ a, (![67, 0] : Fin 2 → Nat) a + S1x1.size a ≤ S165x2.size a
  inb_S165x2_S1x1_67_1 : ∀ a, (![67, 1] : Fin 2 → Nat) a + S1x1.size a ≤ S165x2.size a
  inb_S1x210x64x128_S1x1x64x128_0_112_0_0 : ∀ a, (![0, 112, 0, 0] : Fin 4 → Nat) a + S1x1x64x128.size a ≤ S1x210x64x128.size a
  inb_S165x2_S1x1_68_0 : ∀ a, (![68, 0] : Fin 2 → Nat) a + S1x1.size a ≤ S165x2.size a
  inb_S165x2_S1x1_68_1 : ∀ a, (![68, 1] : Fin 2 → Nat) a + S1x1.size a ≤ S165x2.size a
  inb_S1x210x64x128_S1x1x64x128_0_113_0_0 : ∀ a, (![0, 113, 0, 0] : Fin 4 → Nat) a + S1x1x64x128.size a ≤ S1x210x64x128.size a
  inb_S165x2_S1x1_69_0 : ∀ a, (![69, 0] : Fin 2 → Nat) a + S1x1.size a ≤ S165x2.size a
  inb_S165x2_S1x1_69_1 : ∀ a, (![69, 1] : Fin 2 → Nat) a + S1x1.size a ≤ S165x2.size a
  inb_S1x210x64x128_S1x1x64x128_0_114_0_0 : ∀ a, (![0, 114, 0, 0] : Fin 4 → Nat) a + S1x1x64x128.size a ≤ S1x210x64x128.size a
  inb_S165x2_S1x1_70_0 : ∀ a, (![70, 0] : Fin 2 → Nat) a + S1x1.size a ≤ S165x2.size a
  inb_S165x2_S1x1_70_1 : ∀ a, (![70, 1] : Fin 2 → Nat) a + S1x1.size a ≤ S165x2.size a
  inb_S1x210x64x128_S1x1x64x128_0_115_0_0 : ∀ a, (![0, 115, 0, 0] : Fin 4 → Nat) a + S1x1x64x128.size a ≤ S1x210x64x128.size a
  inb_S165x2_S1x1_71_0 : ∀ a, (![71, 0] : Fin 2 → Nat) a + S1x1.size a ≤ S165x2.size a
  inb_S165x2_S1x1_71_1 : ∀ a, (![71, 1] : Fin 2 → Nat) a + S1x1.size a ≤ S165x2.size a
  inb_S1x210x64x128_S1x1x64x128_0_116_0_0 : ∀ a, (![0, 116, 0, 0] : Fin 4 → Nat) a + S1x1x64x128.size a ≤ S1x210x64x128.size a
  inb_S165x2_S1x1_72_0 : ∀ a, (![72, 0] : Fin 2 → Nat) a + S1x1.size a ≤ S165x2.size a
  inb_S165x2_S1x1_72_1 : ∀ a, (![72, 1] : Fin 2 → Nat) a + S1x1.size a ≤ S165x2.size a
  inb_S1x210x64x128_S1x1x64x128_0_117_0_0 : ∀ a, (![0, 117, 0, 0] : Fin 4 → Nat) a + S1x1x64x128.size a ≤ S1x210x64x128.size a
  inb_S165x2_S1x1_73_0 : ∀ a, (![73, 0] : Fin 2 → Nat) a + S1x1.size a ≤ S165x2.size a
  inb_S165x2_S1x1_73_1 : ∀ a, (![73, 1] : Fin 2 → Nat) a + S1x1.size a ≤ S165x2.size a
  inb_S1x210x64x128_S1x1x64x128_0_118_0_0 : ∀ a, (![0, 118, 0, 0] : Fin 4 → Nat) a + S1x1x64x128.size a ≤ S1x210x64x128.size a
  inb_S165x2_S1x1_74_0 : ∀ a, (![74, 0] : Fin 2 → Nat) a + S1x1.size a ≤ S165x2.size a
  inb_S165x2_S1x1_74_1 : ∀ a, (![74, 1] : Fin 2 → Nat) a + S1x1.size a ≤ S165x2.size a
  inb_S1x210x64x128_S1x1x64x128_0_119_0_0 : ∀ a, (![0, 119, 0, 0] : Fin 4 → Nat) a + S1x1x64x128.size a ≤ S1x210x64x128.size a
  inb_S165x2_S1x1_75_0 : ∀ a, (![75, 0] : Fin 2 → Nat) a + S1x1.size a ≤ S165x2.size a
  inb_S165x2_S1x1_75_1 : ∀ a, (![75, 1] : Fin 2 → Nat) a + S1x1.size a ≤ S165x2.size a
  inb_S1x210x64x128_S1x1x64x128_0_120_0_0 : ∀ a, (![0, 120, 0, 0] : Fin 4 → Nat) a + S1x1x64x128.size a ≤ S1x210x64x128.size a
  inb_S165x2_S1x1_76_0 : ∀ a, (![76, 0] : Fin 2 → Nat) a + S1x1.size a ≤ S165x2.size a
  inb_S165x2_S1x1_76_1 : ∀ a, (![76, 1] : Fin 2 → Nat) a + S1x1.size a ≤ S165x2.size a
  inb_S1x210x64x128_S1x1x64x128_0_121_0_0 : ∀ a, (![0, 121, 0, 0] : Fin 4 → Nat) a + S1x1x64x128.size a ≤ S1x210x64x128.size a
  inb_S165x2_S1x1_77_0 : ∀ a, (![77, 0] : Fin 2 → Nat) a + S1x1.size a ≤ S165x2.size a
  inb_S165x2_S1x1_77_1 : ∀ a, (![77, 1] : Fin 2 → Nat) a + S1x1.size a ≤ S165x2.size a
  inb_S1x210x64x128_S1x1x64x128_0_122_0_0 : ∀ a, (![0, 122, 0, 0] : Fin 4 → Nat) a + S1x1x64x128.size a ≤ S1x210x64x128.size a
  inb_S165x2_S1x1_78_0 : ∀ a, (![78, 0] : Fin 2 → Nat) a + S1x1.size a ≤ S165x2.size a
  inb_S165x2_S1x1_78_1 : ∀ a, (![78, 1] : Fin 2 → Nat) a + S1x1.size a ≤ S165x2.size a
  inb_S1x210x64x128_S1x1x64x128_0_123_0_0 : ∀ a, (![0, 123, 0, 0] : Fin 4 → Nat) a + S1x1x64x128.size a ≤ S1x210x64x128.size a
  inb_S165x2_S1x1_79_0 : ∀ a, (![79, 0] : Fin 2 → Nat) a + S1x1.size a ≤ S165x2.size a
  inb_S165x2_S1x1_79_1 : ∀ a, (![79, 1] : Fin 2 → Nat) a + S1x1.size a ≤ S165x2.size a
  inb_S1x210x64x128_S1x1x64x128_0_124_0_0 : ∀ a, (![0, 124, 0, 0] : Fin 4 → Nat) a + S1x1x64x128.size a ≤ S1x210x64x128.size a
  inb_S165x2_S1x1_80_0 : ∀ a, (![80, 0] : Fin 2 → Nat) a + S1x1.size a ≤ S165x2.size a
  inb_S165x2_S1x1_80_1 : ∀ a, (![80, 1] : Fin 2 → Nat) a + S1x1.size a ≤ S165x2.size a
  inb_S1x210x64x128_S1x1x64x128_0_125_0_0 : ∀ a, (![0, 125, 0, 0] : Fin 4 → Nat) a + S1x1x64x128.size a ≤ S1x210x64x128.size a
  inb_S165x2_S1x1_81_0 : ∀ a, (![81, 0] : Fin 2 → Nat) a + S1x1.size a ≤ S165x2.size a
  inb_S165x2_S1x1_81_1 : ∀ a, (![81, 1] : Fin 2 → Nat) a + S1x1.size a ≤ S165x2.size a
  inb_S1x210x64x128_S1x1x64x128_0_126_0_0 : ∀ a, (![0, 126, 0, 0] : Fin 4 → Nat) a + S1x1x64x128.size a ≤ S1x210x64x128.size a
  inb_S165x2_S1x1_82_0 : ∀ a, (![82, 0] : Fin 2 → Nat) a + S1x1.size a ≤ S165x2.size a
  inb_S165x2_S1x1_82_1 : ∀ a, (![82, 1] : Fin 2 → Nat) a + S1x1.size a ≤ S165x2.size a
  inb_S1x210x64x128_S1x1x64x128_0_127_0_0 : ∀ a, (![0, 127, 0, 0] : Fin 4 → Nat) a + S1x1x64x128.size a ≤ S1x210x64x128.size a
  inb_S165x2_S1x1_83_0 : ∀ a, (![83, 0] : Fin 2 → Nat) a + S1x1.size a ≤ S165x2.size a
  inb_S165x2_S1x1_83_1 : ∀ a, (![83, 1] : Fin 2 → Nat) a + S1x1.size a ≤ S165x2.size a
  inb_S1x210x64x128_S1x1x64x128_0_128_0_0 : ∀ a, (![0, 128, 0, 0] : Fin 4 → Nat) a + S1x1x64x128.size a ≤ S1x210x64x128.size a
  inb_S165x2_S1x1_84_0 : ∀ a, (![84, 0] : Fin 2 → Nat) a + S1x1.size a ≤ S165x2.size a
  inb_S165x2_S1x1_84_1 : ∀ a, (![84, 1] : Fin 2 → Nat) a + S1x1.size a ≤ S165x2.size a
  inb_S1x210x64x128_S1x1x64x128_0_129_0_0 : ∀ a, (![0, 129, 0, 0] : Fin 4 → Nat) a + S1x1x64x128.size a ≤ S1x210x64x128.size a
  inb_S165x2_S1x1_85_0 : ∀ a, (![85, 0] : Fin 2 → Nat) a + S1x1.size a ≤ S165x2.size a
  inb_S165x2_S1x1_85_1 : ∀ a, (![85, 1] : Fin 2 → Nat) a + S1x1.size a ≤ S165x2.size a
  inb_S1x210x64x128_S1x1x64x128_0_130_0_0 : ∀ a, (![0, 130, 0, 0] : Fin 4 → Nat) a + S1x1x64x128.size a ≤ S1x210x64x128.size a
  inb_S165x2_S1x1_86_0 : ∀ a, (![86, 0] : Fin 2 → Nat) a + S1x1.size a ≤ S165x2.size a
  inb_S165x2_S1x1_86_1 : ∀ a, (![86, 1] : Fin 2 → Nat) a + S1x1.size a ≤ S165x2.size a
  inb_S1x210x64x128_S1x1x64x128_0_131_0_0 : ∀ a, (![0, 131, 0, 0] : Fin 4 → Nat) a + S1x1x64x128.size a ≤ S1x210x64x128.size a
  inb_S165x2_S1x1_87_0 : ∀ a, (![87, 0] : Fin 2 → Nat) a + S1x1.size a ≤ S165x2.size a
  inb_S165x2_S1x1_87_1 : ∀ a, (![87, 1] : Fin 2 → Nat) a + S1x1.size a ≤ S165x2.size a
  inb_S1x210x64x128_S1x1x64x128_0_132_0_0 : ∀ a, (![0, 132, 0, 0] : Fin 4 → Nat) a + S1x1x64x128.size a ≤ S1x210x64x128.size a
  inb_S165x2_S1x1_88_0 : ∀ a, (![88, 0] : Fin 2 → Nat) a + S1x1.size a ≤ S165x2.size a
  inb_S165x2_S1x1_88_1 : ∀ a, (![88, 1] : Fin 2 → Nat) a + S1x1.size a ≤ S165x2.size a
  inb_S1x210x64x128_S1x1x64x128_0_133_0_0 : ∀ a, (![0, 133, 0, 0] : Fin 4 → Nat) a + S1x1x64x128.size a ≤ S1x210x64x128.size a
  inb_S165x2_S1x1_89_0 : ∀ a, (![89, 0] : Fin 2 → Nat) a + S1x1.size a ≤ S165x2.size a
  inb_S165x2_S1x1_89_1 : ∀ a, (![89, 1] : Fin 2 → Nat) a + S1x1.size a ≤ S165x2.size a
  inb_S1x210x64x128_S1x1x64x128_0_134_0_0 : ∀ a, (![0, 134, 0, 0] : Fin 4 → Nat) a + S1x1x64x128.size a ≤ S1x210x64x128.size a
  inb_S165x2_S1x1_90_0 : ∀ a, (![90, 0] : Fin 2 → Nat) a + S1x1.size a ≤ S165x2.size a
  inb_S165x2_S1x1_90_1 : ∀ a, (![90, 1] : Fin 2 → Nat) a + S1x1.size a ≤ S165x2.size a
  inb_S1x210x64x128_S1x1x64x128_0_135_0_0 : ∀ a, (![0, 135, 0, 0] : Fin 4 → Nat) a + S1x1x64x128.size a ≤ S1x210x64x128.size a
  inb_S165x2_S1x1_91_0 : ∀ a, (![91, 0] : Fin 2 → Nat) a + S1x1.size a ≤ S165x2.size a
  inb_S165x2_S1x1_91_1 : ∀ a, (![91, 1] : Fin 2 → Nat) a + S1x1.size a ≤ S165x2.size a
  inb_S1x210x64x128_S1x1x64x128_0_136_0_0 : ∀ a, (![0, 136, 0, 0] : Fin 4 → Nat) a + S1x1x64x128.size a ≤ S1x210x64x128.size a
  inb_S165x2_S1x1_92_0 : ∀ a, (![92, 0] : Fin 2 → Nat) a + S1x1.size a ≤ S165x2.size a
  inb_S165x2_S1x1_92_1 : ∀ a, (![92, 1] : Fin 2 → Nat) a + S1x1.size a ≤ S165x2.size a
  inb_S1x210x64x128_S1x1x64x128_0_137_0_0 : ∀ a, (![0, 137, 0, 0] : Fin 4 → Nat) a + S1x1x64x128.size a ≤ S1x210x64x128.size a
  inb_S165x2_S1x1_93_0 : ∀ a, (![93, 0] : Fin 2 → Nat) a + S1x1.size a ≤ S165x2.size a
  inb_S165x2_S1x1_93_1 : ∀ a, (![93, 1] : Fin 2 → Nat) a + S1x1.size a ≤ S165x2.size a
  inb_S1x210x64x128_S1x1x64x128_0_138_0_0 : ∀ a, (![0, 138, 0, 0] : Fin 4 → Nat) a + S1x1x64x128.size a ≤ S1x210x64x128.size a
  inb_S165x2_S1x1_94_0 : ∀ a, (![94, 0] : Fin 2 → Nat) a + S1x1.size a ≤ S165x2.size a
  inb_S165x2_S1x1_94_1 : ∀ a, (![94, 1] : Fin 2 → Nat) a + S1x1.size a ≤ S165x2.size a
  inb_S1x210x64x128_S1x1x64x128_0_139_0_0 : ∀ a, (![0, 139, 0, 0] : Fin 4 → Nat) a + S1x1x64x128.size a ≤ S1x210x64x128.size a
  inb_S165x2_S1x1_95_0 : ∀ a, (![95, 0] : Fin 2 → Nat) a + S1x1.size a ≤ S165x2.size a
  inb_S165x2_S1x1_95_1 : ∀ a, (![95, 1] : Fin 2 → Nat) a + S1x1.size a ≤ S165x2.size a
  inb_S1x210x64x128_S1x1x64x128_0_140_0_0 : ∀ a, (![0, 140, 0, 0] : Fin 4 → Nat) a + S1x1x64x128.size a ≤ S1x210x64x128.size a
  inb_S165x2_S1x1_96_0 : ∀ a, (![96, 0] : Fin 2 → Nat) a + S1x1.size a ≤ S165x2.size a
  inb_S165x2_S1x1_96_1 : ∀ a, (![96, 1] : Fin 2 → Nat) a + S1x1.size a ≤ S165x2.size a
  inb_S1x210x64x128_S1x1x64x128_0_141_0_0 : ∀ a, (![0, 141, 0, 0] : Fin 4 → Nat) a + S1x1x64x128.size a ≤ S1x210x64x128.size a
  inb_S165x2_S1x1_97_0 : ∀ a, (![97, 0] : Fin 2 → Nat) a + S1x1.size a ≤ S165x2.size a
  inb_S165x2_S1x1_97_1 : ∀ a, (![97, 1] : Fin 2 → Nat) a + S1x1.size a ≤ S165x2.size a
  inb_S1x210x64x128_S1x1x64x128_0_142_0_0 : ∀ a, (![0, 142, 0, 0] : Fin 4 → Nat) a + S1x1x64x128.size a ≤ S1x210x64x128.size a
  inb_S165x2_S1x1_98_0 : ∀ a, (![98, 0] : Fin 2 → Nat) a + S1x1.size a ≤ S165x2.size a
  inb_S165x2_S1x1_98_1 : ∀ a, (![98, 1] : Fin 2 → Nat) a + S1x1.size a ≤ S165x2.size a
  inb_S1x210x64x128_S1x1x64x128_0_143_0_0 : ∀ a, (![0, 143, 0, 0] : Fin 4 → Nat) a + S1x1x64x128.size a ≤ S1x210x64x128.size a
  inb_S165x2_S1x1_99_0 : ∀ a, (![99, 0] : Fin 2 → Nat) a + S1x1.size a ≤ S165x2.size a
  inb_S165x2_S1x1_99_1 : ∀ a, (![99, 1] : Fin 2 → Nat) a + S1x1.size a ≤ S165x2.size a
  inb_S1x210x64x128_S1x1x64x128_0_144_0_0 : ∀ a, (![0, 144, 0, 0] : Fin 4 → Nat) a + S1x1x64x128.size a ≤ S1x210x64x128.size a
  inb_S165x2_S1x1_100_0 : ∀ a, (![100, 0] : Fin 2 → Nat) a + S1x1.size a ≤ S165x2.size a
  inb_S165x2_S1x1_100_1 : ∀ a, (![100, 1] : Fin 2 → Nat) a + S1x1.size a ≤ S165x2.size a
  inb_S1x210x64x128_S1x1x64x128_0_145_0_0 : ∀ a, (![0, 145, 0, 0] : Fin 4 → Nat) a + S1x1x64x128.size a ≤ S1x210x64x128.size a
  inb_S165x2_S1x1_101_0 : ∀ a, (![101, 0] : Fin 2 → Nat) a + S1x1.size a ≤ S165x2.size a
  inb_S165x2_S1x1_101_1 : ∀ a, (![101, 1] : Fin 2 → Nat) a + S1x1.size a ≤ S165x2.size a
  inb_S1x210x64x128_S1x1x64x128_0_146_0_0 : ∀ a, (![0, 146, 0, 0] : Fin 4 → Nat) a + S1x1x64x128.size a ≤ S1x210x64x128.size a
  inb_S165x2_S1x1_102_0 : ∀ a, (![102, 0] : Fin 2 → Nat) a + S1x1.size a ≤ S165x2.size a
  inb_S165x2_S1x1_102_1 : ∀ a, (![102, 1] : Fin 2 → Nat) a + S1x1.size a ≤ S165x2.size a
  inb_S1x210x64x128_S1x1x64x128_0_147_0_0 : ∀ a, (![0, 147, 0, 0] : Fin 4 → Nat) a + S1x1x64x128.size a ≤ S1x210x64x128.size a
  inb_S165x2_S1x1_103_0 : ∀ a, (![103, 0] : Fin 2 → Nat) a + S1x1.size a ≤ S165x2.size a
  inb_S165x2_S1x1_103_1 : ∀ a, (![103, 1] : Fin 2 → Nat) a + S1x1.size a ≤ S165x2.size a
  inb_S1x210x64x128_S1x1x64x128_0_148_0_0 : ∀ a, (![0, 148, 0, 0] : Fin 4 → Nat) a + S1x1x64x128.size a ≤ S1x210x64x128.size a
  inb_S165x2_S1x1_104_0 : ∀ a, (![104, 0] : Fin 2 → Nat) a + S1x1.size a ≤ S165x2.size a
  inb_S165x2_S1x1_104_1 : ∀ a, (![104, 1] : Fin 2 → Nat) a + S1x1.size a ≤ S165x2.size a
  inb_S1x210x64x128_S1x1x64x128_0_149_0_0 : ∀ a, (![0, 149, 0, 0] : Fin 4 → Nat) a + S1x1x64x128.size a ≤ S1x210x64x128.size a
  inb_S165x2_S1x1_105_0 : ∀ a, (![105, 0] : Fin 2 → Nat) a + S1x1.size a ≤ S165x2.size a
  inb_S165x2_S1x1_105_1 : ∀ a, (![105, 1] : Fin 2 → Nat) a + S1x1.size a ≤ S165x2.size a
  inb_S1x210x64x128_S1x1x64x128_0_150_0_0 : ∀ a, (![0, 150, 0, 0] : Fin 4 → Nat) a + S1x1x64x128.size a ≤ S1x210x64x128.size a
  inb_S165x2_S1x1_106_0 : ∀ a, (![106, 0] : Fin 2 → Nat) a + S1x1.size a ≤ S165x2.size a
  inb_S165x2_S1x1_106_1 : ∀ a, (![106, 1] : Fin 2 → Nat) a + S1x1.size a ≤ S165x2.size a
  inb_S1x210x64x128_S1x1x64x128_0_151_0_0 : ∀ a, (![0, 151, 0, 0] : Fin 4 → Nat) a + S1x1x64x128.size a ≤ S1x210x64x128.size a
  inb_S165x2_S1x1_107_0 : ∀ a, (![107, 0] : Fin 2 → Nat) a + S1x1.size a ≤ S165x2.size a
  inb_S165x2_S1x1_107_1 : ∀ a, (![107, 1] : Fin 2 → Nat) a + S1x1.size a ≤ S165x2.size a
  inb_S1x210x64x128_S1x1x64x128_0_152_0_0 : ∀ a, (![0, 152, 0, 0] : Fin 4 → Nat) a + S1x1x64x128.size a ≤ S1x210x64x128.size a
  inb_S165x2_S1x1_108_0 : ∀ a, (![108, 0] : Fin 2 → Nat) a + S1x1.size a ≤ S165x2.size a
  inb_S165x2_S1x1_108_1 : ∀ a, (![108, 1] : Fin 2 → Nat) a + S1x1.size a ≤ S165x2.size a
  inb_S1x210x64x128_S1x1x64x128_0_153_0_0 : ∀ a, (![0, 153, 0, 0] : Fin 4 → Nat) a + S1x1x64x128.size a ≤ S1x210x64x128.size a
  inb_S165x2_S1x1_109_0 : ∀ a, (![109, 0] : Fin 2 → Nat) a + S1x1.size a ≤ S165x2.size a
  inb_S165x2_S1x1_109_1 : ∀ a, (![109, 1] : Fin 2 → Nat) a + S1x1.size a ≤ S165x2.size a
  inb_S1x210x64x128_S1x1x64x128_0_154_0_0 : ∀ a, (![0, 154, 0, 0] : Fin 4 → Nat) a + S1x1x64x128.size a ≤ S1x210x64x128.size a
  inb_S165x2_S1x1_110_0 : ∀ a, (![110, 0] : Fin 2 → Nat) a + S1x1.size a ≤ S165x2.size a
  inb_S165x2_S1x1_110_1 : ∀ a, (![110, 1] : Fin 2 → Nat) a + S1x1.size a ≤ S165x2.size a
  inb_S1x210x64x128_S1x1x64x128_0_155_0_0 : ∀ a, (![0, 155, 0, 0] : Fin 4 → Nat) a + S1x1x64x128.size a ≤ S1x210x64x128.size a
  inb_S165x2_S1x1_111_0 : ∀ a, (![111, 0] : Fin 2 → Nat) a + S1x1.size a ≤ S165x2.size a
  inb_S165x2_S1x1_111_1 : ∀ a, (![111, 1] : Fin 2 → Nat) a + S1x1.size a ≤ S165x2.size a
  inb_S1x210x64x128_S1x1x64x128_0_156_0_0 : ∀ a, (![0, 156, 0, 0] : Fin 4 → Nat) a + S1x1x64x128.size a ≤ S1x210x64x128.size a
  inb_S165x2_S1x1_112_0 : ∀ a, (![112, 0] : Fin 2 → Nat) a + S1x1.size a ≤ S165x2.size a
  inb_S165x2_S1x1_112_1 : ∀ a, (![112, 1] : Fin 2 → Nat) a + S1x1.size a ≤ S165x2.size a
  inb_S1x210x64x128_S1x1x64x128_0_157_0_0 : ∀ a, (![0, 157, 0, 0] : Fin 4 → Nat) a + S1x1x64x128.size a ≤ S1x210x64x128.size a
  inb_S165x2_S1x1_113_0 : ∀ a, (![113, 0] : Fin 2 → Nat) a + S1x1.size a ≤ S165x2.size a
  inb_S165x2_S1x1_113_1 : ∀ a, (![113, 1] : Fin 2 → Nat) a + S1x1.size a ≤ S165x2.size a
  inb_S1x210x64x128_S1x1x64x128_0_158_0_0 : ∀ a, (![0, 158, 0, 0] : Fin 4 → Nat) a + S1x1x64x128.size a ≤ S1x210x64x128.size a
  inb_S165x2_S1x1_114_0 : ∀ a, (![114, 0] : Fin 2 → Nat) a + S1x1.size a ≤ S165x2.size a
  inb_S165x2_S1x1_114_1 : ∀ a, (![114, 1] : Fin 2 → Nat) a + S1x1.size a ≤ S165x2.size a
  inb_S1x210x64x128_S1x1x64x128_0_159_0_0 : ∀ a, (![0, 159, 0, 0] : Fin 4 → Nat) a + S1x1x64x128.size a ≤ S1x210x64x128.size a
  inb_S165x2_S1x1_115_0 : ∀ a, (![115, 0] : Fin 2 → Nat) a + S1x1.size a ≤ S165x2.size a
  inb_S165x2_S1x1_115_1 : ∀ a, (![115, 1] : Fin 2 → Nat) a + S1x1.size a ≤ S165x2.size a
  inb_S1x210x64x128_S1x1x64x128_0_160_0_0 : ∀ a, (![0, 160, 0, 0] : Fin 4 → Nat) a + S1x1x64x128.size a ≤ S1x210x64x128.size a
  inb_S165x2_S1x1_116_0 : ∀ a, (![116, 0] : Fin 2 → Nat) a + S1x1.size a ≤ S165x2.size a
  inb_S165x2_S1x1_116_1 : ∀ a, (![116, 1] : Fin 2 → Nat) a + S1x1.size a ≤ S165x2.size a
  inb_S1x210x64x128_S1x1x64x128_0_161_0_0 : ∀ a, (![0, 161, 0, 0] : Fin 4 → Nat) a + S1x1x64x128.size a ≤ S1x210x64x128.size a
  inb_S165x2_S1x1_117_0 : ∀ a, (![117, 0] : Fin 2 → Nat) a + S1x1.size a ≤ S165x2.size a
  inb_S165x2_S1x1_117_1 : ∀ a, (![117, 1] : Fin 2 → Nat) a + S1x1.size a ≤ S165x2.size a
  inb_S1x210x64x128_S1x1x64x128_0_162_0_0 : ∀ a, (![0, 162, 0, 0] : Fin 4 → Nat) a + S1x1x64x128.size a ≤ S1x210x64x128.size a
  inb_S165x2_S1x1_118_0 : ∀ a, (![118, 0] : Fin 2 → Nat) a + S1x1.size a ≤ S165x2.size a
  inb_S165x2_S1x1_118_1 : ∀ a, (![118, 1] : Fin 2 → Nat) a + S1x1.size a ≤ S165x2.size a
  inb_S1x210x64x128_S1x1x64x128_0_163_0_0 : ∀ a, (![0, 163, 0, 0] : Fin 4 → Nat) a + S1x1x64x128.size a ≤ S1x210x64x128.size a
  inb_S165x2_S1x1_119_0 : ∀ a, (![119, 0] : Fin 2 → Nat) a + S1x1.size a ≤ S165x2.size a
  inb_S165x2_S1x1_119_1 : ∀ a, (![119, 1] : Fin 2 → Nat) a + S1x1.size a ≤ S165x2.size a
  inb_S1x210x64x128_S1x1x64x128_0_164_0_0 : ∀ a, (![0, 164, 0, 0] : Fin 4 → Nat) a + S1x1x64x128.size a ≤ S1x210x64x128.size a
  inb_S165x2_S1x1_120_0 : ∀ a, (![120, 0] : Fin 2 → Nat) a + S1x1.size a ≤ S165x2.size a
  inb_S165x2_S1x1_120_1 : ∀ a, (![120, 1] : Fin 2 → Nat) a + S1x1.size a ≤ S165x2.size a
  inb_S1x210x64x128_S1x1x64x128_0_165_0_0 : ∀ a, (![0, 165, 0, 0] : Fin 4 → Nat) a + S1x1x64x128.size a ≤ S1x210x64x128.size a
  inb_S165x2_S1x1_121_0 : ∀ a, (![121, 0] : Fin 2 → Nat) a + S1x1.size a ≤ S165x2.size a
  inb_S165x2_S1x1_121_1 : ∀ a, (![121, 1] : Fin 2 → Nat) a + S1x1.size a ≤ S165x2.size a
  inb_S1x210x64x128_S1x1x64x128_0_166_0_0 : ∀ a, (![0, 166, 0, 0] : Fin 4 → Nat) a + S1x1x64x128.size a ≤ S1x210x64x128.size a
  inb_S165x2_S1x1_122_0 : ∀ a, (![122, 0] : Fin 2 → Nat) a + S1x1.size a ≤ S165x2.size a
  inb_S165x2_S1x1_122_1 : ∀ a, (![122, 1] : Fin 2 → Nat) a + S1x1.size a ≤ S165x2.size a
  inb_S1x210x64x128_S1x1x64x128_0_167_0_0 : ∀ a, (![0, 167, 0, 0] : Fin 4 → Nat) a + S1x1x64x128.size a ≤ S1x210x64x128.size a
  inb_S165x2_S1x1_123_0 : ∀ a, (![123, 0] : Fin 2 → Nat) a + S1x1.size a ≤ S165x2.size a
  inb_S165x2_S1x1_123_1 : ∀ a, (![123, 1] : Fin 2 → Nat) a + S1x1.size a ≤ S165x2.size a
  inb_S1x210x64x128_S1x1x64x128_0_168_0_0 : ∀ a, (![0, 168, 0, 0] : Fin 4 → Nat) a + S1x1x64x128.size a ≤ S1x210x64x128.size a
  inb_S165x2_S1x1_124_0 : ∀ a, (![124, 0] : Fin 2 → Nat) a + S1x1.size a ≤ S165x2.size a
  inb_S165x2_S1x1_124_1 : ∀ a, (![124, 1] : Fin 2 → Nat) a + S1x1.size a ≤ S165x2.size a
  inb_S1x210x64x128_S1x1x64x128_0_169_0_0 : ∀ a, (![0, 169, 0, 0] : Fin 4 → Nat) a + S1x1x64x128.size a ≤ S1x210x64x128.size a
  inb_S165x2_S1x1_125_0 : ∀ a, (![125, 0] : Fin 2 → Nat) a + S1x1.size a ≤ S165x2.size a
  inb_S165x2_S1x1_125_1 : ∀ a, (![125, 1] : Fin 2 → Nat) a + S1x1.size a ≤ S165x2.size a
  inb_S1x210x64x128_S1x1x64x128_0_170_0_0 : ∀ a, (![0, 170, 0, 0] : Fin 4 → Nat) a + S1x1x64x128.size a ≤ S1x210x64x128.size a
  inb_S165x2_S1x1_126_0 : ∀ a, (![126, 0] : Fin 2 → Nat) a + S1x1.size a ≤ S165x2.size a
  inb_S165x2_S1x1_126_1 : ∀ a, (![126, 1] : Fin 2 → Nat) a + S1x1.size a ≤ S165x2.size a
  inb_S1x210x64x128_S1x1x64x128_0_171_0_0 : ∀ a, (![0, 171, 0, 0] : Fin 4 → Nat) a + S1x1x64x128.size a ≤ S1x210x64x128.size a
  inb_S165x2_S1x1_127_0 : ∀ a, (![127, 0] : Fin 2 → Nat) a + S1x1.size a ≤ S165x2.size a
  inb_S165x2_S1x1_127_1 : ∀ a, (![127, 1] : Fin 2 → Nat) a + S1x1.size a ≤ S165x2.size a
  inb_S1x210x64x128_S1x1x64x128_0_172_0_0 : ∀ a, (![0, 172, 0, 0] : Fin 4 → Nat) a + S1x1x64x128.size a ≤ S1x210x64x128.size a
  inb_S165x2_S1x1_128_0 : ∀ a, (![128, 0] : Fin 2 → Nat) a + S1x1.size a ≤ S165x2.size a
  inb_S165x2_S1x1_128_1 : ∀ a, (![128, 1] : Fin 2 → Nat) a + S1x1.size a ≤ S165x2.size a
  inb_S1x210x64x128_S1x1x64x128_0_173_0_0 : ∀ a, (![0, 173, 0, 0] : Fin 4 → Nat) a + S1x1x64x128.size a ≤ S1x210x64x128.size a
  inb_S165x2_S1x1_129_0 : ∀ a, (![129, 0] : Fin 2 → Nat) a + S1x1.size a ≤ S165x2.size a
  inb_S165x2_S1x1_129_1 : ∀ a, (![129, 1] : Fin 2 → Nat) a + S1x1.size a ≤ S165x2.size a
  inb_S1x210x64x128_S1x1x64x128_0_174_0_0 : ∀ a, (![0, 174, 0, 0] : Fin 4 → Nat) a + S1x1x64x128.size a ≤ S1x210x64x128.size a
  inb_S165x2_S1x1_130_0 : ∀ a, (![130, 0] : Fin 2 → Nat) a + S1x1.size a ≤ S165x2.size a
  inb_S165x2_S1x1_130_1 : ∀ a, (![130, 1] : Fin 2 → Nat) a + S1x1.size a ≤ S165x2.size a
  inb_S1x210x64x128_S1x1x64x128_0_175_0_0 : ∀ a, (![0, 175, 0, 0] : Fin 4 → Nat) a + S1x1x64x128.size a ≤ S1x210x64x128.size a
  inb_S165x2_S1x1_131_0 : ∀ a, (![131, 0] : Fin 2 → Nat) a + S1x1.size a ≤ S165x2.size a
  inb_S165x2_S1x1_131_1 : ∀ a, (![131, 1] : Fin 2 → Nat) a + S1x1.size a ≤ S165x2.size a
  inb_S1x210x64x128_S1x1x64x128_0_176_0_0 : ∀ a, (![0, 176, 0, 0] : Fin 4 → Nat) a + S1x1x64x128.size a ≤ S1x210x64x128.size a
  inb_S165x2_S1x1_132_0 : ∀ a, (![132, 0] : Fin 2 → Nat) a + S1x1.size a ≤ S165x2.size a
  inb_S165x2_S1x1_132_1 : ∀ a, (![132, 1] : Fin 2 → Nat) a + S1x1.size a ≤ S165x2.size a
  inb_S1x210x64x128_S1x1x64x128_0_177_0_0 : ∀ a, (![0, 177, 0, 0] : Fin 4 → Nat) a + S1x1x64x128.size a ≤ S1x210x64x128.size a
  inb_S165x2_S1x1_133_0 : ∀ a, (![133, 0] : Fin 2 → Nat) a + S1x1.size a ≤ S165x2.size a
  inb_S165x2_S1x1_133_1 : ∀ a, (![133, 1] : Fin 2 → Nat) a + S1x1.size a ≤ S165x2.size a
  inb_S1x210x64x128_S1x1x64x128_0_178_0_0 : ∀ a, (![0, 178, 0, 0] : Fin 4 → Nat) a + S1x1x64x128.size a ≤ S1x210x64x128.size a
  inb_S165x2_S1x1_134_0 : ∀ a, (![134, 0] : Fin 2 → Nat) a + S1x1.size a ≤ S165x2.size a
  inb_S165x2_S1x1_134_1 : ∀ a, (![134, 1] : Fin 2 → Nat) a + S1x1.size a ≤ S165x2.size a
  inb_S1x210x64x128_S1x1x64x128_0_179_0_0 : ∀ a, (![0, 179, 0, 0] : Fin 4 → Nat) a + S1x1x64x128.size a ≤ S1x210x64x128.size a
  inb_S165x2_S1x1_135_0 : ∀ a, (![135, 0] : Fin 2 → Nat) a + S1x1.size a ≤ S165x2.size a
  inb_S165x2_S1x1_135_1 : ∀ a, (![135, 1] : Fin 2 → Nat) a + S1x1.size a ≤ S165x2.size a
  inb_S1x210x64x128_S1x1x64x128_0_180_0_0 : ∀ a, (![0, 180, 0, 0] : Fin 4 → Nat) a + S1x1x64x128.size a ≤ S1x210x64x128.size a
  inb_S165x2_S1x1_136_0 : ∀ a, (![136, 0] : Fin 2 → Nat) a + S1x1.size a ≤ S165x2.size a
  inb_S165x2_S1x1_136_1 : ∀ a, (![136, 1] : Fin 2 → Nat) a + S1x1.size a ≤ S165x2.size a
  inb_S1x210x64x128_S1x1x64x128_0_181_0_0 : ∀ a, (![0, 181, 0, 0] : Fin 4 → Nat) a + S1x1x64x128.size a ≤ S1x210x64x128.size a
  inb_S165x2_S1x1_137_0 : ∀ a, (![137, 0] : Fin 2 → Nat) a + S1x1.size a ≤ S165x2.size a
  inb_S165x2_S1x1_137_1 : ∀ a, (![137, 1] : Fin 2 → Nat) a + S1x1.size a ≤ S165x2.size a
  inb_S1x210x64x128_S1x1x64x128_0_182_0_0 : ∀ a, (![0, 182, 0, 0] : Fin 4 → Nat) a + S1x1x64x128.size a ≤ S1x210x64x128.size a
  inb_S165x2_S1x1_138_0 : ∀ a, (![138, 0] : Fin 2 → Nat) a + S1x1.size a ≤ S165x2.size a
  inb_S165x2_S1x1_138_1 : ∀ a, (![138, 1] : Fin 2 → Nat) a + S1x1.size a ≤ S165x2.size a
  inb_S1x210x64x128_S1x1x64x128_0_183_0_0 : ∀ a, (![0, 183, 0, 0] : Fin 4 → Nat) a + S1x1x64x128.size a ≤ S1x210x64x128.size a
  inb_S165x2_S1x1_139_0 : ∀ a, (![139, 0] : Fin 2 → Nat) a + S1x1.size a ≤ S165x2.size a
  inb_S165x2_S1x1_139_1 : ∀ a, (![139, 1] : Fin 2 → Nat) a + S1x1.size a ≤ S165x2.size a
  inb_S1x210x64x128_S1x1x64x128_0_184_0_0 : ∀ a, (![0, 184, 0, 0] : Fin 4 → Nat) a + S1x1x64x128.size a ≤ S1x210x64x128.size a
  inb_S165x2_S1x1_140_0 : ∀ a, (![140, 0] : Fin 2 → Nat) a + S1x1.size a ≤ S165x2.size a
  inb_S165x2_S1x1_140_1 : ∀ a, (![140, 1] : Fin 2 → Nat) a + S1x1.size a ≤ S165x2.size a
  inb_S1x210x64x128_S1x1x64x128_0_185_0_0 : ∀ a, (![0, 185, 0, 0] : Fin 4 → Nat) a + S1x1x64x128.size a ≤ S1x210x64x128.size a
  inb_S165x2_S1x1_141_0 : ∀ a, (![141, 0] : Fin 2 → Nat) a + S1x1.size a ≤ S165x2.size a
  inb_S165x2_S1x1_141_1 : ∀ a, (![141, 1] : Fin 2 → Nat) a + S1x1.size a ≤ S165x2.size a
  inb_S1x210x64x128_S1x1x64x128_0_186_0_0 : ∀ a, (![0, 186, 0, 0] : Fin 4 → Nat) a + S1x1x64x128.size a ≤ S1x210x64x128.size a
  inb_S165x2_S1x1_142_0 : ∀ a, (![142, 0] : Fin 2 → Nat) a + S1x1.size a ≤ S165x2.size a
  inb_S165x2_S1x1_142_1 : ∀ a, (![142, 1] : Fin 2 → Nat) a + S1x1.size a ≤ S165x2.size a
  inb_S1x210x64x128_S1x1x64x128_0_187_0_0 : ∀ a, (![0, 187, 0, 0] : Fin 4 → Nat) a + S1x1x64x128.size a ≤ S1x210x64x128.size a
  inb_S165x2_S1x1_143_0 : ∀ a, (![143, 0] : Fin 2 → Nat) a + S1x1.size a ≤ S165x2.size a
  inb_S165x2_S1x1_143_1 : ∀ a, (![143, 1] : Fin 2 → Nat) a + S1x1.size a ≤ S165x2.size a
  inb_S1x210x64x128_S1x1x64x128_0_188_0_0 : ∀ a, (![0, 188, 0, 0] : Fin 4 → Nat) a + S1x1x64x128.size a ≤ S1x210x64x128.size a
  inb_S165x2_S1x1_144_0 : ∀ a, (![144, 0] : Fin 2 → Nat) a + S1x1.size a ≤ S165x2.size a
  inb_S165x2_S1x1_144_1 : ∀ a, (![144, 1] : Fin 2 → Nat) a + S1x1.size a ≤ S165x2.size a
  inb_S1x210x64x128_S1x1x64x128_0_189_0_0 : ∀ a, (![0, 189, 0, 0] : Fin 4 → Nat) a + S1x1x64x128.size a ≤ S1x210x64x128.size a
  inb_S165x2_S1x1_145_0 : ∀ a, (![145, 0] : Fin 2 → Nat) a + S1x1.size a ≤ S165x2.size a
  inb_S165x2_S1x1_145_1 : ∀ a, (![145, 1] : Fin 2 → Nat) a + S1x1.size a ≤ S165x2.size a
  inb_S1x210x64x128_S1x1x64x128_0_190_0_0 : ∀ a, (![0, 190, 0, 0] : Fin 4 → Nat) a + S1x1x64x128.size a ≤ S1x210x64x128.size a
  inb_S165x2_S1x1_146_0 : ∀ a, (![146, 0] : Fin 2 → Nat) a + S1x1.size a ≤ S165x2.size a
  inb_S165x2_S1x1_146_1 : ∀ a, (![146, 1] : Fin 2 → Nat) a + S1x1.size a ≤ S165x2.size a
  inb_S1x210x64x128_S1x1x64x128_0_191_0_0 : ∀ a, (![0, 191, 0, 0] : Fin 4 → Nat) a + S1x1x64x128.size a ≤ S1x210x64x128.size a
  inb_S165x2_S1x1_147_0 : ∀ a, (![147, 0] : Fin 2 → Nat) a + S1x1.size a ≤ S165x2.size a
  inb_S165x2_S1x1_147_1 : ∀ a, (![147, 1] : Fin 2 → Nat) a + S1x1.size a ≤ S165x2.size a
  inb_S1x210x64x128_S1x1x64x128_0_192_0_0 : ∀ a, (![0, 192, 0, 0] : Fin 4 → Nat) a + S1x1x64x128.size a ≤ S1x210x64x128.size a
  inb_S165x2_S1x1_148_0 : ∀ a, (![148, 0] : Fin 2 → Nat) a + S1x1.size a ≤ S165x2.size a
  inb_S165x2_S1x1_148_1 : ∀ a, (![148, 1] : Fin 2 → Nat) a + S1x1.size a ≤ S165x2.size a
  inb_S1x210x64x128_S1x1x64x128_0_193_0_0 : ∀ a, (![0, 193, 0, 0] : Fin 4 → Nat) a + S1x1x64x128.size a ≤ S1x210x64x128.size a
  inb_S165x2_S1x1_149_0 : ∀ a, (![149, 0] : Fin 2 → Nat) a + S1x1.size a ≤ S165x2.size a
  inb_S165x2_S1x1_149_1 : ∀ a, (![149, 1] : Fin 2 → Nat) a + S1x1.size a ≤ S165x2.size a
  inb_S1x210x64x128_S1x1x64x128_0_194_0_0 : ∀ a, (![0, 194, 0, 0] : Fin 4 → Nat) a + S1x1x64x128.size a ≤ S1x210x64x128.size a
  inb_S165x2_S1x1_150_0 : ∀ a, (![150, 0] : Fin 2 → Nat) a + S1x1.size a ≤ S165x2.size a
  inb_S165x2_S1x1_150_1 : ∀ a, (![150, 1] : Fin 2 → Nat) a + S1x1.size a ≤ S165x2.size a
  inb_S1x210x64x128_S1x1x64x128_0_195_0_0 : ∀ a, (![0, 195, 0, 0] : Fin 4 → Nat) a + S1x1x64x128.size a ≤ S1x210x64x128.size a
  inb_S165x2_S1x1_151_0 : ∀ a, (![151, 0] : Fin 2 → Nat) a + S1x1.size a ≤ S165x2.size a
  inb_S165x2_S1x1_151_1 : ∀ a, (![151, 1] : Fin 2 → Nat) a + S1x1.size a ≤ S165x2.size a
  inb_S1x210x64x128_S1x1x64x128_0_196_0_0 : ∀ a, (![0, 196, 0, 0] : Fin 4 → Nat) a + S1x1x64x128.size a ≤ S1x210x64x128.size a
  inb_S165x2_S1x1_152_0 : ∀ a, (![152, 0] : Fin 2 → Nat) a + S1x1.size a ≤ S165x2.size a
  inb_S165x2_S1x1_152_1 : ∀ a, (![152, 1] : Fin 2 → Nat) a + S1x1.size a ≤ S165x2.size a
  inb_S1x210x64x128_S1x1x64x128_0_197_0_0 : ∀ a, (![0, 197, 0, 0] : Fin 4 → Nat) a + S1x1x64x128.size a ≤ S1x210x64x128.size a
  inb_S165x2_S1x1_153_0 : ∀ a, (![153, 0] : Fin 2 → Nat) a + S1x1.size a ≤ S165x2.size a
  inb_S165x2_S1x1_153_1 : ∀ a, (![153, 1] : Fin 2 → Nat) a + S1x1.size a ≤ S165x2.size a
  inb_S1x210x64x128_S1x1x64x128_0_198_0_0 : ∀ a, (![0, 198, 0, 0] : Fin 4 → Nat) a + S1x1x64x128.size a ≤ S1x210x64x128.size a
  inb_S165x2_S1x1_154_0 : ∀ a, (![154, 0] : Fin 2 → Nat) a + S1x1.size a ≤ S165x2.size a
  inb_S165x2_S1x1_154_1 : ∀ a, (![154, 1] : Fin 2 → Nat) a + S1x1.size a ≤ S165x2.size a
  inb_S1x210x64x128_S1x1x64x128_0_199_0_0 : ∀ a, (![0, 199, 0, 0] : Fin 4 → Nat) a + S1x1x64x128.size a ≤ S1x210x64x128.size a
  inb_S165x2_S1x1_155_0 : ∀ a, (![155, 0] : Fin 2 → Nat) a + S1x1.size a ≤ S165x2.size a
  inb_S165x2_S1x1_155_1 : ∀ a, (![155, 1] : Fin 2 → Nat) a + S1x1.size a ≤ S165x2.size a
  inb_S1x210x64x128_S1x1x64x128_0_200_0_0 : ∀ a, (![0, 200, 0, 0] : Fin 4 → Nat) a + S1x1x64x128.size a ≤ S1x210x64x128.size a
  inb_S165x2_S1x1_156_0 : ∀ a, (![156, 0] : Fin 2 → Nat) a + S1x1.size a ≤ S165x2.size a
  inb_S165x2_S1x1_156_1 : ∀ a, (![156, 1] : Fin 2 → Nat) a + S1x1.size a ≤ S165x2.size a
  inb_S1x210x64x128_S1x1x64x128_0_201_0_0 : ∀ a, (![0, 201, 0, 0] : Fin 4 → Nat) a + S1x1x64x128.size a ≤ S1x210x64x128.size a
  inb_S165x2_S1x1_157_0 : ∀ a, (![157, 0] : Fin 2 → Nat) a + S1x1.size a ≤ S165x2.size a
  inb_S165x2_S1x1_157_1 : ∀ a, (![157, 1] : Fin 2 → Nat) a + S1x1.size a ≤ S165x2.size a
  inb_S1x210x64x128_S1x1x64x128_0_202_0_0 : ∀ a, (![0, 202, 0, 0] : Fin 4 → Nat) a + S1x1x64x128.size a ≤ S1x210x64x128.size a
  inb_S165x2_S1x1_158_0 : ∀ a, (![158, 0] : Fin 2 → Nat) a + S1x1.size a ≤ S165x2.size a
  inb_S165x2_S1x1_158_1 : ∀ a, (![158, 1] : Fin 2 → Nat) a + S1x1.size a ≤ S165x2.size a
  inb_S1x210x64x128_S1x1x64x128_0_203_0_0 : ∀ a, (![0, 203, 0, 0] : Fin 4 → Nat) a + S1x1x64x128.size a ≤ S1x210x64x128.size a
  inb_S165x2_S1x1_159_0 : ∀ a, (![159, 0] : Fin 2 → Nat) a + S1x1.size a ≤ S165x2.size a
  inb_S165x2_S1x1_159_1 : ∀ a, (![159, 1] : Fin 2 → Nat) a + S1x1.size a ≤ S165x2.size a
  inb_S1x210x64x128_S1x1x64x128_0_204_0_0 : ∀ a, (![0, 204, 0, 0] : Fin 4 → Nat) a + S1x1x64x128.size a ≤ S1x210x64x128.size a
  inb_S165x2_S1x1_160_0 : ∀ a, (![160, 0] : Fin 2 → Nat) a + S1x1.size a ≤ S165x2.size a
  inb_S165x2_S1x1_160_1 : ∀ a, (![160, 1] : Fin 2 → Nat) a + S1x1.size a ≤ S165x2.size a
  inb_S1x210x64x128_S1x1x64x128_0_205_0_0 : ∀ a, (![0, 205, 0, 0] : Fin 4 → Nat) a + S1x1x64x128.size a ≤ S1x210x64x128.size a
  inb_S165x2_S1x1_161_0 : ∀ a, (![161, 0] : Fin 2 → Nat) a + S1x1.size a ≤ S165x2.size a
  inb_S165x2_S1x1_161_1 : ∀ a, (![161, 1] : Fin 2 → Nat) a + S1x1.size a ≤ S165x2.size a
  inb_S1x210x64x128_S1x1x64x128_0_206_0_0 : ∀ a, (![0, 206, 0, 0] : Fin 4 → Nat) a + S1x1x64x128.size a ≤ S1x210x64x128.size a
  inb_S165x2_S1x1_162_0 : ∀ a, (![162, 0] : Fin 2 → Nat) a + S1x1.size a ≤ S165x2.size a
  inb_S165x2_S1x1_162_1 : ∀ a, (![162, 1] : Fin 2 → Nat) a + S1x1.size a ≤ S165x2.size a
  inb_S1x210x64x128_S1x1x64x128_0_207_0_0 : ∀ a, (![0, 207, 0, 0] : Fin 4 → Nat) a + S1x1x64x128.size a ≤ S1x210x64x128.size a
  inb_S165x2_S1x1_163_0 : ∀ a, (![163, 0] : Fin 2 → Nat) a + S1x1.size a ≤ S165x2.size a
  inb_S165x2_S1x1_163_1 : ∀ a, (![163, 1] : Fin 2 → Nat) a + S1x1.size a ≤ S165x2.size a
  inb_S1x210x64x128_S1x1x64x128_0_208_0_0 : ∀ a, (![0, 208, 0, 0] : Fin 4 → Nat) a + S1x1x64x128.size a ≤ S1x210x64x128.size a
  inb_S165x2_S1x1_164_0 : ∀ a, (![164, 0] : Fin 2 → Nat) a + S1x1.size a ≤ S165x2.size a
  inb_S165x2_S1x1_164_1 : ∀ a, (![164, 1] : Fin 2 → Nat) a + S1x1.size a ≤ S165x2.size a
  inb_S1x210x64x128_S1x1x64x128_0_209_0_0 : ∀ a, (![0, 209, 0, 0] : Fin 4 → Nat) a + S1x1x64x128.size a ≤ S1x210x64x128.size a
  shapeCasts_S32x210x128x128_S4x8x210x16384 : S32x210x128x128.ShapeCasts S4x8x210x16384
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x9x64x128.size a ≤ S32x9x128x128.size a
  hwx0_0 : ∀ i : grid0.Coords, EltTy.bits .f32 = 32 ∨ (Rect.block (s := S32x9x128x128) S1x9x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x210x64x128.size a ≤ S32x210x128x128.size a
  hwx0_1 : ∀ i : grid0.Coords, EltTy.bits .f32 = 32 ∨ (Rect.block (s := S32x210x128x128) S1x210x64x128.size (cc0_transform_1 i) (hinb0_1 i)).WholeWords (EltTy.packing .f32)

variable [Facts₀]

abbrev spec0_0 : Pipeline.WinSpec sig grid0.rank :=
  Pipeline.WinSpec.ofSpec (Memref.whole main_v21) S1x9x64x128.size reads0_0 false false 2 stage0_0 sem0_0 nbuf0_0 hstage0_0

abbrev spec0_1 : Pipeline.WinSpec sig grid0.rank :=
  Pipeline.WinSpec.ofSpec (Memref.whole main_v22) S1x210x64x128.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S4x8x128x128 : Shape := ⟨4, ![4, 8, 128, 128]⟩
abbrev S45x2 : Shape := ⟨2, ![45, 2]⟩
abbrev S165x2 : Shape := ⟨2, ![165, 2]⟩
abbrev S_ : Shape := ⟨0, ![]⟩
abbrev S4x8x130x130 : Shape := ⟨4, ![4, 8, 130, 130]⟩
abbrev S4x8x1x128x128 : Shape := ⟨5, ![4, 8, 1, 128, 128]⟩
abbrev S4x8x9x128x128 : Shape := ⟨5, ![4, 8, 9, 128, 128]⟩
abbrev S4x8x9x16384 : Shape := ⟨4, ![4, 8, 9, 16384]⟩
abbrev S45x1 : Shape := ⟨2, ![45, 1]⟩
abbrev S45 : Shape := ⟨1, ![45]⟩
abbrev S4x8x45x16384 : Shape := ⟨4, ![4, 8, 45, 16384]⟩
abbrev S165x1 : Shape := ⟨2, ![165, 1]⟩
abbrev S165 : Shape := ⟨1, ![165]⟩
abbrev S4x8x165x16384 : Shape := ⟨4, ![4, 8, 165, 16384]⟩
abbrev S4x8x210x16384 : Shape := ⟨4, ![4, 8, 210, 16384]⟩

abbrev nBuf : Space → Nat
  | .hbm => 73
  | .vmem => 0
  | .smem => 0
  | _ => 0

abbrev bufTy : (tb : Table) → Fin (tcTables nBuf tb) → BufTy
  | .hbm, ⟨0, _⟩ => ⟨S4x8x128x128, .f32⟩
  | .hbm, ⟨1, _⟩ => ⟨S45x2, .i32⟩
  | .hbm, ⟨2, _⟩ => ⟨S165x2, .i32⟩
  | .hbm, ⟨3, _⟩ => ⟨S_, .i32⟩
  | .hbm, ⟨4, _⟩ => ⟨S_, .f32⟩
  | .hbm, ⟨5, _⟩ => ⟨S4x8x130x130, .f32⟩
  | .hbm, ⟨6, _⟩ => ⟨S4x8x128x128, .f32⟩
  | .hbm, ⟨7, _⟩ => ⟨S4x8x128x128, .f32⟩
  | .hbm, ⟨8, _⟩ => ⟨S4x8x128x128, .f32⟩
  | .hbm, ⟨9, _⟩ => ⟨S4x8x128x128, .f32⟩
  | .hbm, ⟨10, _⟩ => ⟨S4x8x128x128, .f32⟩
  | .hbm, ⟨11, _⟩ => ⟨S4x8x128x128, .f32⟩
  | .hbm, ⟨12, _⟩ => ⟨S4x8x128x128, .f32⟩
  | .hbm, ⟨13, _⟩ => ⟨S4x8x128x128, .f32⟩
  | .hbm, ⟨14, _⟩ => ⟨S4x8x128x128, .f32⟩
  | .hbm, ⟨15, _⟩ => ⟨S4x8x1x128x128, .f32⟩
  | .hbm, ⟨16, _⟩ => ⟨S4x8x1x128x128, .f32⟩
  | .hbm, ⟨17, _⟩ => ⟨S4x8x1x128x128, .f32⟩
  | .hbm, ⟨18, _⟩ => ⟨S4x8x1x128x128, .f32⟩
  | .hbm, ⟨19, _⟩ => ⟨S4x8x1x128x128, .f32⟩
  | .hbm, ⟨20, _⟩ => ⟨S4x8x1x128x128, .f32⟩
  | .hbm, ⟨21, _⟩ => ⟨S4x8x1x128x128, .f32⟩
  | .hbm, ⟨22, _⟩ => ⟨S4x8x1x128x128, .f32⟩
  | .hbm, ⟨23, _⟩ => ⟨S4x8x1x128x128, .f32⟩
  | .hbm, ⟨24, _⟩ => ⟨S4x8x9x128x128, .f32⟩
  | .hbm, ⟨25, _⟩ => ⟨S4x8x9x16384, .f32⟩
  | .hbm, ⟨26, _⟩ => ⟨S45x1, .i32⟩
  | .hbm, ⟨27, _⟩ => ⟨S45, .i32⟩
  | .hbm, ⟨28, _⟩ => ⟨S_, .i32⟩
  | .hbm, ⟨29, _⟩ => ⟨S45, .i32⟩
  | .hbm, ⟨30, _⟩ => ⟨S45, .i1⟩
  | .hbm, ⟨31, _⟩ => ⟨S_, .i32⟩
  | .hbm, ⟨32, _⟩ => ⟨S45, .i32⟩
  | .hbm, ⟨33, _⟩ => ⟨S45, .i32⟩
  | .hbm, ⟨34, _⟩ => ⟨S45, .i32⟩
  | .hbm, ⟨35, _⟩ => ⟨S45x1, .i32⟩
  | .hbm, ⟨36, _⟩ => ⟨S4x8x45x16384, .f32⟩
  | .hbm, ⟨37, _⟩ => ⟨S45x1, .i32⟩
  | .hbm, ⟨38, _⟩ => ⟨S45, .i32⟩
  | .hbm, ⟨39, _⟩ => ⟨S_, .i32⟩
  | .hbm, ⟨40, _⟩ => ⟨S45, .i32⟩
  | .hbm, ⟨41, _⟩ => ⟨S45, .i1⟩
  | .hbm, ⟨42, _⟩ => ⟨S_, .i32⟩
  | .hbm, ⟨43, _⟩ => ⟨S45, .i32⟩
  | .hbm, ⟨44, _⟩ => ⟨S45, .i32⟩
  | .hbm, ⟨45, _⟩ => ⟨S45, .i32⟩
  | .hbm, ⟨46, _⟩ => ⟨S45x1, .i32⟩
  | .hbm, ⟨47, _⟩ => ⟨S4x8x45x16384, .f32⟩
  | .hbm, ⟨48, _⟩ => ⟨S4x8x45x16384, .f32⟩
  | .hbm, ⟨49, _⟩ => ⟨S165x1, .i32⟩
  | .hbm, ⟨50, _⟩ => ⟨S165, .i32⟩
  | .hbm, ⟨51, _⟩ => ⟨S_, .i32⟩
  | .hbm, ⟨52, _⟩ => ⟨S165, .i32⟩
  | .hbm, ⟨53, _⟩ => ⟨S165, .i1⟩
  | .hbm, ⟨54, _⟩ => ⟨S_, .i32⟩
  | .hbm, ⟨55, _⟩ => ⟨S165, .i32⟩
  | .hbm, ⟨56, _⟩ => ⟨S165, .i32⟩
  | .hbm, ⟨57, _⟩ => ⟨S165, .i32⟩
  | .hbm, ⟨58, _⟩ => ⟨S165x1, .i32⟩
  | .hbm, ⟨59, _⟩ => ⟨S4x8x165x16384, .f32⟩
  | .hbm, ⟨60, _⟩ => ⟨S165x1, .i32⟩
  | .hbm, ⟨61, _⟩ => ⟨S165, .i32⟩
  | .hbm, ⟨62, _⟩ => ⟨S_, .i32⟩
  | .hbm, ⟨63, _⟩ => ⟨S165, .i32⟩
  | .hbm, ⟨64, _⟩ => ⟨S165, .i1⟩
  | .hbm, ⟨65, _⟩ => ⟨S_, .i32⟩
  | .hbm, ⟨66, _⟩ => ⟨S165, .i32⟩
  | .hbm, ⟨67, _⟩ => ⟨S165, .i32⟩
  | .hbm, ⟨68, _⟩ => ⟨S165, .i32⟩
  | .hbm, ⟨69, _⟩ => ⟨S165x1, .i32⟩
  | .hbm, ⟨70, _⟩ => ⟨S4x8x165x16384, .f32⟩
  | .hbm, ⟨71, _⟩ => ⟨S4x8x165x16384, .f32⟩
  | .hbm, ⟨72, _⟩ => ⟨S4x8x210x16384, .f32⟩
  | _, _ => ⟨S4x8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c_0 : Ref sig .tc := ⟨.hbm, 28, rfl⟩
abbrev main_v23 : Ref sig .tc := ⟨.hbm, 29, rfl⟩
abbrev main_v24 : Ref sig .tc := ⟨.hbm, 30, rfl⟩
abbrev main_c_1 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_c_2 : Ref sig .tc := ⟨.hbm, 39, rfl⟩
abbrev main_v32 : Ref sig .tc := ⟨.hbm, 40, rfl⟩
abbrev main_v33 : Ref sig .tc := ⟨.hbm, 41, rfl⟩
abbrev main_c_3 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_c_4 : Ref sig .tc := ⟨.hbm, 51, rfl⟩
abbrev main_v42 : Ref sig .tc := ⟨.hbm, 52, rfl⟩
abbrev main_v43 : Ref sig .tc := ⟨.hbm, 53, rfl⟩
abbrev main_c_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_c_6 : Ref sig .tc := ⟨.hbm, 62, rfl⟩
abbrev main_v51 : Ref sig .tc := ⟨.hbm, 63, rfl⟩
abbrev main_v52 : Ref sig .tc := ⟨.hbm, 64, rfl⟩
abbrev main_c_7 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩

abbrev nD : Nat := 1
abbrev τ : Topo := Topo.v7x

variable {F : FTy → Type} [FloatOps F]

class Facts₀ : Prop where
  pads_S4x8x128x128_S4x8x130x130_000_000_110_110 : S4x8x128x128.Pads (![0, 0, 1, 1] : Fin 4 → Nat) ![0, 0, 1, 1] ![0, 0, 0, 0] S4x8x130x130
  h_S_ : 0 < S_.numel
  slices_S4x8x130x130_S4x8x128x128_0_0_0_0 : S4x8x130x130.Slices ![0, 0, 0, 0] S4x8x128x128
  slices_S4x8x130x130_S4x8x128x128_0_0_0_1 : S4x8x130x130.Slices ![0, 0, 0, 1] S4x8x128x128
  slices_S4x8x130x130_S4x8x128x128_0_0_0_2 : S4x8x130x130.Slices ![0, 0, 0, 2] S4x8x128x128
  slices_S4x8x130x130_S4x8x128x128_0_0_1_0 : S4x8x130x130.Slices ![0, 0, 1, 0] S4x8x128x128
  slices_S4x8x130x130_S4x8x128x128_0_0_1_1 : S4x8x130x130.Slices ![0, 0, 1, 1] S4x8x128x128
  slices_S4x8x130x130_S4x8x128x128_0_0_1_2 : S4x8x130x130.Slices ![0, 0, 1, 2] S4x8x128x128
  slices_S4x8x130x130_S4x8x128x128_0_0_2_0 : S4x8x130x130.Slices ![0, 0, 2, 0] S4x8x128x128
  slices_S4x8x130x130_S4x8x128x128_0_0_2_1 : S4x8x130x130.Slices ![0, 0, 2, 1] S4x8x128x128
  slices_S4x8x130x130_S4x8x128x128_0_0_2_2 : S4x8x130x130.Slices ![0, 0, 2, 2] S4x8x128x128
  bcast_S4x8x128x128_S4x8x1x128x128_0_1_3_4 : S4x8x128x128.BroadcastsInDim S4x8x1x128x128 (![0, 1, 3, 4] : Fin 4 → Fin S4x8x1x128x128.rank)
  concatenates_S4x8x1x128x128_S4x8x1x128x128_S4x8x1x128x128_S4x8x1x128x128_S4x8x1x128x128_S4x8x1x128x128_S4x8x1x128x128_S4x8x1x128x128_S4x8x1x128x128_S4x8x9x128x128_d2 : Shape.Concatenates [S4x8x1x128x128, S4x8x1x128x128, S4x8x1x128x128, S4x8x1x128x128, S4x8x1x128x128, S4x8x1x128x128, S4x8x1x128x128, S4x8x1x128x128, S4x8x1x128x128] S4x8x9x128x128 2
  shapeCasts_S4x8x9x128x128_S4x8x9x16384 : S4x8x9x128x128.ShapeCasts S4x8x9x16384
  slices_S45x2_S45x1_0_0 : S45x2.Slices ![0, 0] S45x1
  shapeCasts_S45x1_S45 : S45x1.ShapeCasts S45
  bcast_S_S45 : S_.BroadcastsInDim S45 (![] : Fin 0 → Fin S45.rank)
  bcast_S45_S45x1_0 : S45.BroadcastsInDim S45x1 (![0] : Fin 1 → Fin S45x1.rank)
  slices_S45x2_S45x1_0_1 : S45x2.Slices ![0, 1] S45x1
  slices_S165x2_S165x1_0_0 : S165x2.Slices ![0, 0] S165x1
  shapeCasts_S165x1_S165 : S165x1.ShapeCasts S165
  bcast_S_S165 : S_.BroadcastsInDim S165 (![] : Fin 0 → Fin S165.rank)
  bcast_S165_S165x1_0 : S165.BroadcastsInDim S165x1 (![0] : Fin 1 → Fin S165x1.rank)
  slices_S165x2_S165x1_0_1 : S165x2.Slices ![0, 1] S165x1
  concatenates_S4x8x45x16384_S4x8x165x16384_S4x8x210x16384_d2 : Shape.Concatenates [S4x8x45x16384, S4x8x165x16384] S4x8x210x16384 2
  gather_S4x8x9x16384_S45x1_S4x8x45x16384_013_2_n_n_2_1_48116384_wf : GatherDims.WF S4x8x9x16384 S45x1 S4x8x45x16384 [0, 1, 3] [2] [] [2] [] 1 ![4, 8, 1, 16384]
  gather_S4x8x9x16384_S165x1_S4x8x165x16384_013_2_n_n_2_1_48116384_wf : GatherDims.WF S4x8x9x16384 S165x1 S4x8x165x16384 [0, 1, 3] [2] [] [2] [] 1 ![4, 8, 1, 16384]
  gather_S4x8x45x16384_S165x1_S4x8x165x16384_013_2_n_n_2_1_48116384_wf : GatherDims.WF S4x8x45x16384 S165x1 S4x8x165x16384 [0, 1, 3] [2] [] [2] [] 1 ![4, 8, 1, 16384]

variable [Facts₀]

def gather_S4x8x9x16384_S45x1_S4x8x45x16384_013_2_n_n_2_1_48116384 : GatherDims S4x8x9x16384 S45x1 S4x8x45x16384 where
  offsetDims := [0, 1, 3]
  collapsedSliceDims := [2]
  operandBatchingDims := []
  startIndicesBatchingDims := []
  startIndexMap := [2]
  indexVectorDim := 1
  sliceSizes := ![4, 8, 1, 16384]
  wf := gather_S4x8x9x16384_S45x1_S4x8x45x16384_013_2_n_n_2_1_48116384_wf
def gather_S4x8x9x16384_S165x1_S4x8x165x16384_013_2_n_n_2_1_48116384 : GatherDims S4x8x9x16384 S165x1 S4x8x165x16384 where
  offsetDims := [0, 1, 3]
  collapsedSliceDims := [2]
  operandBatchingDims := []
  startIndicesBatchingDims := []
  startIndexMap := [2]
  indexVectorDim := 1
  sliceSizes := ![4, 8, 1, 16384]
  wf := gather_S4x8x9x16384_S165x1_S4x8x165x16384_013_2_n_n_2_1_48116384_wf
def gather_S4x8x45x16384_S165x1_S4x8x165x16384_013_2_n_n_2_1_48116384 : GatherDims S4x8x45x16384 S165x1 S4x8x165x16384 where
  offsetDims := [0, 1, 3]
  collapsedSliceDims := [2]
  operandBatchingDims := []
  startIndicesBatchingDims := []
  startIndexMap := [2]
  indexVectorDim := 1
  sliceSizes := ![4, 8, 1, 16384]
  wf := gather_S4x8x45x16384_S165x1_S4x8x165x16384_013_2_n_n_2_1_48116384_wf

class Facts : Prop extends Facts₀ where

variable [Facts]
-- ==== Proof.K.Base.lean ====
/-
  The two index tables as the kernel body is handed them, and the arithmetic that turns "the word names a row"
  into the in-bounds fact of the block the body loads at that word.

  The body reads a word `w` of a table and then loads the `[1, 1, 64, 128]` slab at row `w` of the nine-row input
  block, or the `[1, 64, 128]` slab at row `w` of the 45-row scratch of second-order products. The slab lies inside its
  buffer exactly when `w < 9`, respectively `w < 45`, as an unsigned number.
-/
import proofs.«430841_j5506148073824_3_alg».proof.Proof.Gen.Kernel.Launch
import proofs.«430841_j5506148073824_3_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Each table as the body is handed it: its whole buffer as a memref. -/
abbrev tbM0_0 : Memref sig .tc .smem S45x2 .i32 := Memref.whole main_arg1
abbrev htbM0_0 : tbM0_0.IsWhole := Memref.isWhole_whole _
abbrev tbM0_1 : Memref sig .tc .smem S165x2 .i32 := Memref.whole main_arg2
abbrev htbM0_1 : tbM0_1.IsWhole := Memref.isWhole_whole _

/-- A table memref's contents type on core `c`, and the table held at half the full share (read only). -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- A word below 9 names a row of the nine-row input block: the `[1, 1, 64, 128]` slab at that row is inside it. -/
theorem chk_col (w : BitVec 32) (hw : w.toNat < 9) :
    ∀ a : Fin 4, (![0, (Scalar.indexCast w).toNat, 0, 0] : Fin 4 → Nat) a + S1x1x64x128.size a ≤ S1x9x64x128.size a := by
  intro a
  have : (Scalar.indexCast w).toNat = w.toNat := rfl
  fin_cases a <;> simp [this, S1x1x64x128, S1x9x64x128] <;> omega

/-- A word below 45 names a row of the 45-row scratch: the `[1, 64, 128]` slab at that row is inside it. -/
theorem chk_ht2 (w : BitVec 32) (hw : w.toNat < 45) :
    ∀ a : Fin 3, (![(Scalar.indexCast w).toNat, 0, 0] : Fin 3 → Nat) a + S1x64x128.size a ≤ S45x64x128.size a := by
  intro a
  have : (Scalar.indexCast w).toNat = w.toNat := rfl
  fin_cases a <;> simp [this, S1x64x128, S45x64x128] <;> omega

end Cert.Kernel.Hand

end
-- ==== Proof.K.Kit.lean ====
/-
  The frame kit of the program: what @main holds when its one pipelined region is entered, the region's two
  prefetched index tables read off the launch memory, the windows' blocks, the staging and scratch memrefs
  the body is called on, and the facts about the host operations around the region that the launch of the
  region asks for.

  @main is three stretches of host operations (a constant; a pad; nine slices, nine broadcasts, one nine-fold
  concatenation and two reshapes), then the region, then one reshape of the region's output. None of the
  operations before the region writes an argument, so the region finds the three arguments, the two tables
  among them, as launched. The reshape after the region reads the output array and writes a fresh buffer:
  it touches no table and writes no array of the pipeline.
-/
import proofs.«430841_j5506148073824_3_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffers when the region is entered, as a valuation: the launch contents after the three
    stretches of host operations that come before the region. -/
abbrev V0 (c : Dev nD) : Valuation τ sig (Elt F) :=
  StableHlo.after (List.flatten [hostOps0, hostOps0_1, hostOps0_2]) (fun b => m (c, b))
/-- The same, read at a TensorCore reference. -/
abbrev V (c : Dev nD) (b : Ref sig .tc) : Buf (Elt F) ((c : Thread nD τ).loc b) := V0 m c (Proc.devRef .tc b)

/-- No host operation allocates a buffer: each writes the buffer of its own result, which the signature already has. -/
theorem hostOps0_fresh : (hostOps0 : List (HloOp τ sig (Elt F))).Forall fun op => op.fresh = ∅ := by
  simp only [List.Forall]; rfl
theorem hostOps0_1_fresh : (hostOps0_1 : List (HloOp τ sig (Elt F))).Forall fun op => op.fresh = ∅ := by
  simp only [List.Forall]; exact ⟨rfl, rfl⟩
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; rfl

/-- @main around the region: the three stretches before it run from the launch contents to `V`, and what is left is
    the region continued by the one reshape after it. -/
theorem hmain (𝒱₀ : Variants) :
    Pipeline.HMainPK (Ix := Unit) (Name := ℕ) (U := UR sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩)
    main_chain

/-! ## The reshape after the region -/

/-- The reshape after the region reads the output array and writes the buffer of its result: two TensorCore
    references, neither of them a prefetched table, so both are an array of the pipeline or bypass the region. -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  subst hops
  refine Pipeline.sub_tailRefs pre0 spec0 op ((List.forall_iff_forall_mem.mp hostOps1_sub) op hop) ?_
  simp only [hostOps1, List.mem_cons, List.mem_nil_iff, or_false] at hop
  subst hop
  intro j
  fin_cases j <;> simp only [StableHlo.reshape_bufs, Finset.mem_insert, Finset.mem_singleton, not_or] <;>
    exact ⟨StableHlo.devRef_ne_of_ne (by decide), StableHlo.devRef_ne_of_ne (by decide)⟩
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop
/-- And it writes no array of the pipeline: its result buffer is neither the input array nor the output array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w
  fin_cases w <;> simp only [StableHlo.reshape_writes, Finset.mem_singleton] <;>
    exact StableHlo.devRef_ne_of_ne (by decide)

/-! ## The arguments as the region finds them -/

/-- The result buffers of the operations before the region are the constant, the pad's two values and `main_v1` to
    `main_v21`: no argument is among them, so each argument is as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))

/-! ## The prefetched tables, read off the launch memory -/

/-- The two tables' contents when the region is entered (`V`; there is one device: device 0's). -/
def tbl : pre0.Contents (Elt F) := fun j => V m (0 : Dev nD) (pre0.ref j)
/-- On every device the tables hold those contents (there is only the one). -/
theorem V_pre (c : Dev nD) (j : Fin 2) : V m c (pre0.ref j) = tbl m j := by
  obtain rfl : c = 0 := Subsingleton.elim _ _; rfl
/-- The tables are the second and the third argument, as launched. -/
theorem tbl_0 : tbl m 0 = m (((0 : Dev nD) : Thread nD τ).loc main_arg1) := V_main_arg1 m 0
theorem tbl_1 : tbl m 1 = m (((0 : Dev nD) : Thread nD τ).loc main_arg2) := V_main_arg2 m 0

/-- The pipeline's side condition of the tables' contents. Neither window's index map reads a table, so it asks
    nothing. -/
abbrev Ok : Prop := ok0 (F := F) (tbl m)
theorem ok : Ok m := trivial
/-- The tables' contents as admissible contents, and the pipeline at them. -/
abbrev adm : (pcfg0 (F := F)).Adm := ⟨tbl m, trivial⟩
abbrev cfgM : Pipeline.Cfg sig Λ₀ := cfg0 (adm m)

/-- The tables' halves the region hands the body, table by table. -/
theorem PhiT0_eq (c : Dev nD) :
    (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The scratch of second-order products: a whole scoped buffer of the kernel's own, passed beside the windows. -/
abbrev scM0_0 : Memref sig .tc .vmem S45x64x128 .f32 := Memref.whole cc0_scratch0
abbrev hscM0_0 : scM0_0.IsWhole := Memref.isWhole_whole _

/-- The region's invariant with the scratch as a memref owned at some contents, beside the generator register at some
    state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The windows' blocks -/

/-- Window `w`'s block at point `t`, read off its array as the region finds it (`V`). -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- The input window's current staging buffer holds its block at every point, fetched there or not, for any proof data
    whose array is `V`'s and whose body leaves the block in place: where the block is not fetched the index map has
    not moved, and the window is never cut and never idle. -/
theorem before0_0_of {c : Dev nD} (dat : Dat τ (Elt F) Unit ℕ (UR sig nD τ) ℕ (cfgM m) c)
    (hA : dat.A 0 = V m c (Pipeline.arrRef spec0 0)) (hafter : ∀ t, dat.after 0 t = iblk m c 0 t)
    (t : Fin (cfgM m).N) (d) : dat.before 0 t d = iblk m c 0 t :=
  (dat.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)

/-! ## The memrefs the body is called on -/

/-- Each window's current staging memref at point `t`, as the pipeline passes it, and its wholeness. -/
abbrev ms0_0 (t : Fin (cfgM m).N) : Memref sig .tc .vmem S1x9x64x128 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S1x210x64x128 .f32 := spec0_1.stage ((cfgM m).slots t 1)
abbrev hs0_1 (t : Fin (cfgM m).N) : (ms0_1 m t).IsWhole := hstage0_1 (((cfgM m).slots t 1).cast nbuf0_1)

/-- The kernel body at point `t`, on what the pipeline calls it with: the point's coordinates, the two tables, the
    windows' current staging memrefs, the scratch. -/
abbrev bodyAt0 (t : Fin (cfgM m).N) : Prog (TpuEff nD τ sig (Elt F) Λ₀ .tc) PUnit :=
  cc0__kernel (grid0.coords t) tbM0_0 htbM0_0 tbM0_1 htbM0_1 (ms0_0 m t) (hs0_0 m t) (ms0_1 m t) (hs0_1 m t)
    scM0_0 hscM0_0

/-- It is the body table's row at the point and the slots. -/
theorem bodyAt0_eq (t : Fin (cfgM m).N) :
    bodyAt0 m t = defs₀ (F := F) .tc (0 : Fin 1) (t, (cfgM m).slots t) := rfl

end Cert.Kernel.Hand

end
-- ==== Proof.K.Run.lean ====
/-
  The kernel body run once, at symbolic operands.

  At one grid point the body is a straight line of 210 rows. Row `r < 45` reads the two words of table entry `r`,
  loads the two `[64, 128]` slabs of the nine-row input block those words name, multiplies them entry by entry, and
  stores the product both as row `r` of the 210-row output block and as row `r` of the 45-row scratch. Row `45 + r`
  reads the two words of the second table's entry `r`, loads the input slab the first word names and the scratch row
  the second word names, and stores their product as row `45 + r` of the output block.
  Every load at a word is preceded by the assumption that the slab it names lies inside its buffer; under the
  hypothesis that the first table's words and the second table's first column are below 9, and the second table's
  second column below 45, each of those 420 assumptions holds (`chk_col`, `chk_ht2`), so the body runs to its return.
  What it leaves is found by the run: the output block as the list of its 210 row stores, the scratch as the list of
  its 45, each over the contents the buffer had; the input block and the tables are handed back as they were.
-/
import proofs.«430841_j5506148073824_3_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run is one elaboration step of some thousands of rule applications over 105 printed parts
set_option maxHeartbeats 4000000 in
/-- The output block's and the scratch's stores, last first, WITH the proof that from the input block held at `x0`,
    the output block and the scratch held at anything, and the two tables held (read only) at `xt0`, `xt1` whose
    words are in range, the body runs to its return handing back the input block and the tables as they were and
    the two written buffers with those stores written. -/
noncomputable def kernelRun0 (c : Dev nD) (i : grid0.Coords)
    (arg4 : Memref sig .tc .vmem S1x9x64x128 .f32) (harg4 : arg4.IsWhole)
    (arg5 : Memref sig .tc .vmem S1x210x64x128 .f32) (harg5 : arg5.IsWhole)
    (arg6 : Memref sig .tc .vmem S45x64x128 .f32) (harg6 : arg6.IsWhole)
    (x0 : Vec F S1x9x64x128 .f32) (xt0 : TbBuf0 (F := F) c tbM0_0) (xt1 : TbBuf0 (F := F) c tbM0_1)
    (hT0 : ∀ x : S45x2.Idx, (xt0 x : BitVec 32).toNat < 9)
    (hT1a : ∀ x : S165x2.Idx, (x 1).val = 0 → (xt1 x : BitVec 32).toNat < 9)
    (hT1b : ∀ x : S165x2.Idx, (x 1).val = 1 → (xt1 x : BitVec 32).toNat < 45) :
    Σ' (L1 : List (View.Piece (Elt F) S1x210x64x128 .f32)), { LS0 : List (View.Piece (Elt F) S45x64x128 .f32) //
      ∀ (E : Set ℕ) (K : PUnit → sProp 𝕄),
        iprop(owns (c : Thread nD τ) arg4 fullShare x0 ∗ (∃ d, owns (c : Thread nD τ) arg5 fullShare d) ∗ (∃ d, owns (c : Thread nD τ) arg6 fullShare d)
            ∗ tbPt0 c tbM0_0 xt0 ∗ tbPt0 c tbM0_1 xt1
            ∗ (iprop(owns (c : Thread nD τ) arg4 fullShare x0
                ∗ (∃ f, arg5.view.loc (c : Thread nD τ) ↦[arg5.view.set]{fullShare} arg5.view.writes (Elt F) f L1)
                ∗ (∃ f, arg6.view.loc (c : Thread nD τ) ↦[arg6.view.set]{fullShare} arg6.view.writes (Elt F) f LS0)
                ∗ tbPt0 c tbM0_0 xt0 ∗ tbPt0 c tbM0_1 xt1) -∗ K ⟨⟩))
          ⊢ wp frame (wpE (defs₀ (F := F)) Variants.none c none) E (cc0__kernel i tbM0_0 htbM0_0 tbM0_1 htbM0_1 arg4 harg4 arg5 harg5 arg6 harg6) K } := by
  refine ⟨?_, ?_, fun E K => ?run⟩
  case run =>
    unfold owns
    iintro ⟨⟨%f0, %hf0, H0⟩, ⟨%d1, %f1, -, H1⟩, ⟨%ds0, %fs0, -, HS0⟩, HT0, HT1, Hk⟩
    obtain rfl := harg4.eq_unread hf0
    sl_exec_parts! (disch := first | exact chk_col _ (hT0 _) | exact chk_col _ (hT1a _ rfl) | exact chk_ht2 _ (hT1b _ rfl))
    sl_step
    iapply Hk
    isplitl [H0]
    · iexists _; isplitr; · ipureintro; exact harg4.read_unread _
      iexact H0
    isplitl [H1]; · iexists _; iexact H1
    isplitl [HS0]; · iexists _; iexact HS0
    isplitl [HT0]; · iexact HT0
    iexact HT1

end Cert.Kernel.Hand

end
-- ==== Proof.K.Frame.lean ====
/-
  The frame of the program, from the body's run: at every grid point the pipeline calls the body on the input block
  it staged, the body fills the output block row by row, and the pipeline writes that block back; the host reshape
  after the region then lays the output array out as the program's result.

  Everything here holds under one hypothesis on the two index tables as launched (`TabOk`): the first table's words
  and the second table's first column name a row of the nine-row input block, the second table's second column a
  row of the 45-row scratch. Under it the body runs at every point; its 210 row stores tile the output block, so
  what the block holds afterwards does not depend on what it held before; the scratch is written before it is read
  within the same point, so the region's invariant need not say what it holds between points.
-/
import proofs.«430841_j5506148073824_3_alg».proof.Proof.K.Kit
import proofs.«430841_j5506148073824_3_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The hypothesis on the tables -/

/-- The tables' words are in range: every word of the first table, and every word in the first column of the second,
    is below 9 (a row of the input block); every word in the second column of the second table is below 45 (a row of
    the scratch). The tables are read as the body is handed them, at the launch contents (`tbl`). -/
structure TabOk : Prop where
  h0 : ∀ x : S45x2.Idx, ((tbl m 0 : TbBuf0 (F := F) (0 : Dev nD) tbM0_0) x : BitVec 32).toNat < 9
  h1a : ∀ x : S165x2.Idx, (x 1).val = 0 → ((tbl m 1 : TbBuf0 (F := F) (0 : Dev nD) tbM0_1) x : BitVec 32).toNat < 9
  h1b : ∀ x : S165x2.Idx, (x 1).val = 1 → ((tbl m 1 : TbBuf0 (F := F) (0 : Dev nD) tbM0_1) x : BitVec 32).toNat < 45

/-! ## What the body leaves in the output block -/

/-- The run's 210 stores into the output block are one `[1, 1, 64, 128]` row each, at the rows `0` to `209`: they tile
    the block, so every entry of it lies in one of them. -/
theorem cover0_1 (c : Dev nD) (i : grid0.Coords)
    (arg4 : Memref sig .tc .vmem S1x9x64x128 .f32) (harg4 : arg4.IsWhole)
    (arg5 : Memref sig .tc .vmem S1x210x64x128 .f32) (harg5 : arg5.IsWhole)
    (arg6 : Memref sig .tc .vmem S45x64x128 .f32) (harg6 : arg6.IsWhole)
    (x0 : Vec F S1x9x64x128 .f32) (xt0 : TbBuf0 (F := F) c tbM0_0) (xt1 : TbBuf0 (F := F) c tbM0_1)
    (hT0 : ∀ x : S45x2.Idx, (xt0 x : BitVec 32).toNat < 9)
    (hT1a : ∀ x : S165x2.Idx, (x 1).val = 0 → (xt1 x : BitVec 32).toNat < 9)
    (hT1b : ∀ x : S165x2.Idx, (x 1).val = 1 → (xt1 x : BitVec 32).toNat < 45) (y : S1x210x64x128.Idx) :
    ∃ pc ∈ (kernelRun0 c i arg4 harg4 arg5 harg5 arg6 harg6 x0 xt0 xt1 hT0 hT1a hT1b).1, y ∈ pc.1.set :=
  View.cover_of_tiledL (kernelRun0 c i arg4 harg4 arg5 harg5 arg6 harg6 x0 xt0 xt1 hT0 hT1a hT1b).1 S1x1x64x128.size
    (by sl_kernel_rfl) y

/-- One staging buffer of the output window, through which its contents are stated (the choice does not matter: the
    stores cover the block). -/
abbrev VO0_1 : View sig .tc .vmem S1x210x64x128 .f32 :=
  (Memref.whole cc0_stg1_0 : Memref sig .tc .vmem S1x210x64x128 .f32).view

/-- What the run leaves in the output block: its stores read back over arbitrary contents. -/
def out0_1 (c : Dev nD) (i : grid0.Coords)
    (arg4 : Memref sig .tc .vmem S1x9x64x128 .f32) (harg4 : arg4.IsWhole)
    (arg5 : Memref sig .tc .vmem S1x210x64x128 .f32) (harg5 : arg5.IsWhole)
    (arg6 : Memref sig .tc .vmem S45x64x128 .f32) (harg6 : arg6.IsWhole)
    (x0 : Vec F S1x9x64x128 .f32) (xt0 : TbBuf0 (F := F) c tbM0_0) (xt1 : TbBuf0 (F := F) c tbM0_1)
    (hT0 : ∀ x : S45x2.Idx, (xt0 x : BitVec 32).toNat < 9)
    (hT1a : ∀ x : S165x2.Idx, (x 1).val = 0 → (xt1 x : BitVec 32).toNat < 9)
    (hT1b : ∀ x : S165x2.Idx, (x 1).val = 1 → (xt1 x : BitVec 32).toNat < 45) : Vec F S1x210x64x128 .f32 :=
  VO0_1.read (Elt F) (VO0_1.writes (Elt F) VO0_1.junk
    (kernelRun0 c i arg4 harg4 arg5 harg5 arg6 harg6 x0 xt0 xt1 hT0 hT1a hT1b).1)

/-- What the output window's staging buffer holds after the body at point `t`: the run's contents at the point's
    memrefs, the input block there, and the tables. -/
def outsAt0 (hT : TabOk m) (c : Dev nD) (t : Fin (cfgM m).N) : Vec F S1x210x64x128 .f32 :=
  out0_1 c (grid0.coords t) (ms0_0 m t) (hs0_0 m t) (ms0_1 m t) (hs0_1 m t) scM0_0 hscM0_0 (iblk m c 0 t)
    (tbl m 0) (tbl m 1) hT.h0 hT.h1a hT.h1b

/-! ## The pipeline's proof data -/

/-- The proof data of the pipeline on core `c`: the arrays as the region finds them (`V`); after the body at point `t`
    the input's buffer at its block and the output's at `outsAt0`; the invariant the scratch and the generator register
    at anything, beside the tables' read-only halves; nothing owed; full shares. -/
def dats (hT : TabOk m) (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => outsAt0 m hT c t
  Φ _ := iprop(Pipeline.ΦA spec0 c ∗ Pipeline.ΦT pre0 (tbl m) c)
  q _ := fullShare
  owed _ := 0

/-- The proof data's arrays are the region-entry contents. -/
theorem A_eq (hT : TabOk m) (c : Dev nD) (w : Fin (cfgM m).W) :
    (dats m hT 0 c).A w = V m c (Pipeline.arrRef spec0 w) := by
  dsimp only [dats]

/-- What the body leaves, window by window. -/
theorem after0_0 (hT : TabOk m) (c : Dev nD) (t : Fin (cfgM m).N) : (dats m hT 0 c).after 0 t = iblk m c 0 t := by
  dsimp only [dats]; try rfl
theorem after0_1 (hT : TabOk m) (c : Dev nD) (t : Fin (cfgM m).N) : (dats m hT 0 c).after 1 t = outsAt0 m hT c t := by
  dsimp only [dats]; try rfl

/-- The input's current staging buffer holds its block at every point, fetched there or not. -/
theorem before0_0 (hT : TabOk m) (c : Dev nD) (t : Fin (cfgM m).N) (d) :
    (dats m hT 0 c).before 0 t d = iblk m c 0 t :=
  before0_0_of m (dats m hT 0 c) (A_eq m hT c 0) (after0_0 m hT c) t d

/-! ## The body obligation, at a generic point -/

/-- What the body is called with at point `t`, the windows one by one, -/
def bodyPre (hT : TabOk m) (c : Dev nD) (t : Fin (cfgM m).N) : sProp 𝕄 :=
  iprop((dats m hT 0 c).Φ t.castSucc ∗ (dats m hT 0 c).owesAt () t.castSucc
    ∗ (∃ d, owns (c : Thread nD τ) (ms0_0 m t) fullShare ((dats m hT 0 c).before 0 t d))
    ∗ (∃ d, owns (c : Thread nD τ) (ms0_1 m t) fullShare ((dats m hT 0 c).before 1 t d)))

/-- and what it returns. -/
def bodyPost (hT : TabOk m) (c : Dev nD) (t : Fin (cfgM m).N) : sProp 𝕄 :=
  iprop((dats m hT 0 c).Φ t.succ ∗ (dats m hT 0 c).owesAt () t.succ
    ∗ owns (c : Thread nD τ) (ms0_0 m t) fullShare ((dats m hT 0 c).after 0 t)
    ∗ owns (c : Thread nD τ) (ms0_1 m t) fullShare ((dats m hT 0 c).after 1 t))

/-- The body at any point. The input's memref holds its block; the invariant hands the body the scratch at anything
    and the tables' halves, whose words are in range (`hT`): so the run applies. It hands back the input block and the
    tables as they were, the scratch at what its 45 stores left (which the invariant forgets), and the output block with
    its 210 stores written, which cover it. The core owes nothing throughout. -/
theorem sound_body (hT : TabOk m) (c : Dev nD) (t : Fin (cfgM m).N) :
    bodyPre m hT c t ⊢ wp frame (wpE (defs₀ (F := F)) Variants.none c none) Set.univ (bodyAt0 m t)
      (fun _ => bodyPost m hT c t) := by
  unfold bodyPre bodyPost bodyAt0
  simp only [before0_0]
  rw [show (dats m hT 0 c).Φ t.succ = (dats m hT 0 c).Φ t.castSucc from rfl,
    show (dats m hT 0 c).owesAt () t.succ = (dats m hT 0 c).owesAt () t.castSucc from rfl,
    after0_0, after0_1]
  rw [show (dats m hT 0 c).Φ t.castSucc = iprop(Pipeline.ΦA spec0 c ∗ Pipeline.ΦT pre0 (tbl m) c) from rfl,
    PhiA0_eq, PhiT0_eq]
  unfold outsAt0
  unfold out0_1
  iintro ⟨⟨⟨HS0, Hg⟩, ⟨HT0, HT1⟩⟩, Ho, ⟨%d0, H0⟩, ⟨%d1, H1⟩⟩
  iapply ((kernelRun0 c (grid0.coords t) _ _ _ _ _ _ (iblk m c 0 t) (tbl m 0) (tbl m 1) hT.h0 hT.h1a hT.h1b).2.2
    Set.univ _)
  isplitl [H0]; · iexact H0
  isplitl [H1]; · iexists _; iexact H1
  isplitl [HS0]; · iexact HS0
  isplitl [HT0]; · iexact HT0
  isplitl [HT1]; · iexact HT1
  iintro ⟨H0, ⟨%e1, H1⟩, ⟨%es0, HS0⟩, HT0, HT1⟩
  isplitl [HS0 Hg HT0 HT1]
  · isplitl [HS0 Hg]
    · isplitl [HS0]
      · iexists _; unfold owns; iexists _; isplitr
        swap; · iexact HS0
        ipureintro; rfl
      iexact Hg
    isplitl [HT0]; · iexact HT0
    iexact HT1
  isplitl [Ho]; · iexact Ho
  isplitl [H0]; · iexact H0
  unfold owns; iexists _; isplitr
  swap; · iexact H1
  ipureintro; exact View.read_writes_of_cover _ _ _ _ _ (cover0_1 c _ _ _ _ _ _ _ _ _ _ _ _ _)

set_option maxRecDepth 131072 in
/-- The library's body obligation, at every point. -/
theorem body_obligation (hT : TabOk m) (c : Dev nD) :
    BodyObligation (dats (F := F) m hT 0 c) (defs₀ (F := F)) Variants.none () Set.univ := fun t => by
  rw [bigSep_W0, bigSep_W0]
  exact sound_body m hT c t

/-! ## The run -/

set_option backward.isDefEq.respectTransparency.types false in
/-- At the compiled mesh, for any values, from any memory with zero counters: every weakly fair execution of @main on the
    TensorCores terminates, and every final state has every array of the pipeline at what the write-backs of the proof
    data leave in it and every other unscoped buffer as the reshape after the region leaves it. -/
theorem run_main (hT : TabOk m) : θ_run defs (onTc (τ := τ) (main (F := F))) (s₀ m ρ)
    (Pipeline.FramePost (Pipeline.pin pcfgs fun _ => adm m) (dats m hT) 0
      (Pipeline.afterTail pcfgs (fun _ => adm m) (dats m hT) 0 (V0 m) [hostOps1])) :=
  Pipeline.θ_run_frameP_around pcfgs (fun _ => adm m) (dats m hT) (0 : Fin 1) launch0 defs₀ Variants.none m ρ main
    (hbody := fun c => (body_obligation m hT c).loose) (hshare := fun c => (dats m hT 0 c).share_full fun _ => rfl)
    (howed := fun _ _ => rfl) (V₀ := V0 m) (opss := [hostOps1]) (hsub := sfx_sub) (hfresh := sfx_fresh)
    (hkeep := sfx_keeps) (hmain := hmain m Variants.none) (hA := A_eq m hT) (hpf := V_pre m) (hΦ := fun _ _ => rfl)

/-! ## What the buffers hold at the end -/

/-- The reshape after the region writes its result only: an argument, being no array of the pipeline either, ends as the
    region found it, which is as launched. -/
theorem tail_main_arg0 (hT : TabOk m) (c : Dev nD) :
    Pipeline.afterTail pcfgs (fun _ => adm m) (dats m hT) 0 (V0 m) [hostOps1] c main_arg0
      = m ((c.tc : Thread nD τ).loc main_arg0) := by
  unfold Pipeline.afterTail
  show StableHlo.after hostOps1 _ (Proc.devRef .tc main_arg0) = _
  after_results
  exact (Pipeline.withArrays_of_ne spec0 c _ _ main_arg0 (by decide)).trans (V_main_arg0 m c)
theorem tail_main_arg1 (hT : TabOk m) (c : Dev nD) :
    Pipeline.afterTail pcfgs (fun _ => adm m) (dats m hT) 0 (V0 m) [hostOps1] c main_arg1
      = m ((c.tc : Thread nD τ).loc main_arg1) := by
  unfold Pipeline.afterTail
  show StableHlo.after hostOps1 _ (Proc.devRef .tc main_arg1) = _
  after_results
  exact (Pipeline.withArrays_of_ne spec0 c _ _ main_arg1 (by decide)).trans (V_main_arg1 m c)
theorem tail_main_arg2 (hT : TabOk m) (c : Dev nD) :
    Pipeline.afterTail pcfgs (fun _ => adm m) (dats m hT) 0 (V0 m) [hostOps1] c main_arg2
      = m ((c.tc : Thread nD τ).loc main_arg2) := by
  unfold Pipeline.afterTail
  show StableHlo.after hostOps1 _ (Proc.devRef .tc main_arg2) = _
  after_results
  exact (Pipeline.withArrays_of_ne spec0 c _ _ main_arg2 (by decide)).trans (V_main_arg2 m c)

/-- The reshape's result is the output array, as the region's write-backs left it, laid out at the result's shape. -/
theorem tail_main_v23 (hT : TabOk m) (c : Dev nD) :
    Pipeline.afterTail pcfgs (fun _ => adm m) (dats m hT) 0 (V0 m) [hostOps1] c main_v23
      = shapeCast S4x8x210x16384 ((dats m hT 0 c).arrAt 1 (cfgM m).N) shapeCasts_S32x210x128x128_S4x8x210x16384 := by
  unfold Pipeline.afterTail
  show StableHlo.after hostOps1 _ (Proc.devRef .tc main_v23) = _
  after_results
  exact congrArg (fun v => shapeCast S4x8x210x16384 v shapeCasts_S32x210x128x128_S4x8x210x16384)
    (Pipeline.withArrays_arr spec0 (launch0 (F := F)).win.arr_inj c (V0 m c) (fun w => (dats m hT 0 c).arrAt w (cfgM m).N) 1)

/-- THE POST READ: under the hypothesis on the tables every weakly fair execution of @main terminates with the result
    buffer at the output array's final contents reshaped, and the three arguments as launched. -/
theorem post_of (hT : TabOk m) : θ_run defs (onTc (τ := τ) (main (F := F))) ⟨m, fun _ => 0, ρ⟩ (fun r => ∀ c : Dev nD,
      r.2.mem ((c.tc : Thread nD τ).loc main_v23)
        = shapeCast S4x8x210x16384 ((dats m hT 0 c).arrAt 1 (cfgM m).N) shapeCasts_S32x210x128x128_S4x8x210x16384
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v23 (Pipeline.mem_restRefs_of (win := spec0) main_v23 (by decide) (by decide))).trans (tail_main_v23 m hT c),
      ((h c).2 main_arg0 (Pipeline.mem_restRefs_of (win := spec0) main_arg0 (by decide) (by decide))).trans (tail_main_arg0 m hT c),
      ((h c).2 main_arg1 (Pipeline.mem_restRefs_of (win := spec0) main_arg1 (by decide) (by decide))).trans (tail_main_arg1 m hT c),
      ((h c).2 main_arg2 (Pipeline.mem_restRefs_of (win := spec0) main_arg2 (by decide) (by decide))).trans (tail_main_arg2 m hT c)⟩)
    (run_main m ρ hT)

/-- THE FRAME: the three arguments end as launched. -/
theorem frame (hT : TabOk m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (post_of m ρ hT)

end Cert.Kernel.Hand

end
-- ==== Proof.Spec.lean ====
/-
  The mathematics of the gather-multiply, over the extended reals.

  `C` is the unfolded input, one row of 16384 entries per batch `b`, channel `c` and patch position `p < 9`.
  A table word names a row: the word itself when it is below the axis' extent (the domain both programs are
  compared on), the last row otherwise (`row9`, `row45`: total functions, so that the specification needs no
  hypothesis to be stated).
  Second-order rows, `r < 45`:   `ht2[b, c, r, l] = C[b, c, t2[r, 0], l] · C[b, c, t2[r, 1], l]`.
  Third-order rows,  `r < 165`:  `ht3[b, c, r, l] = C[b, c, t3[r, 0], l] · ht2[b, c, t3[r, 1], l]`.
  The result stacks them along axis 2: rows `0 … 44` are `ht2`, rows `45 … 209` are `ht3`.
-/
import Idealize.ShloMosaic.PureOps.Ideal
import Idealize.ShloMosaic.Lib.ValueIdx

noncomputable section

namespace Cert.Spec

open Idealize.ShloMosaic Idealize.ShloMosaic.ValueIdx

/-- The unfolded input's shape, the two tables' and the result's. -/
abbrev SCol : Shape := ⟨4, ![4, 8, 9, 16384]⟩
abbrev ST2 : Shape := ⟨2, ![45, 2]⟩
abbrev ST3 : Shape := ⟨2, ![165, 2]⟩
abbrev SOut : Shape := ⟨4, ![4, 8, 210, 16384]⟩

/-- A table word as a patch position: the word when it is below 9, position 8 otherwise. -/
def row9 (w : BitVec 32) : Fin 9 := ⟨min w.toNat 8, by omega⟩
/-- A table word as a second-order row: the word when it is below 45, row 44 otherwise. -/
def row45 (w : BitVec 32) : Fin 45 := ⟨min w.toNat 44, by omega⟩

theorem row9_val {w : BitVec 32} (h : w.toNat < 9) : (row9 w).val = w.toNat := by
  show min w.toNat 8 = w.toNat; omega
theorem row45_val {w : BitVec 32} (h : w.toNat < 45) : (row45 w).val = w.toNat := by
  show min w.toNat 44 = w.toNat; omega

/-- The domain the two programs are compared on: every word of the first table names a patch position, and of the
    second table the first column names a patch position, the second a second-order row. -/
structure InRange (t2 : ST2.Idx → BitVec 32) (t3 : ST3.Idx → BitVec 32) : Prop where
  h2 : ∀ i : ST2.Idx, (t2 i).toNat < 9
  h30 : ∀ r : Fin 165, (t3 (ix2 r (0 : Fin 2))).toNat < 9
  h31 : ∀ r : Fin 165, (t3 (ix2 r (1 : Fin 2))).toNat < 45

variable (C : SCol.Idx → EReal) (t2 : ST2.Idx → BitVec 32) (t3 : ST3.Idx → BitVec 32)

/-- A second-order row: the product of the two patch rows its table entry names. -/
def ht2 (b : Fin 4) (c : Fin 8) (r : Fin 45) (l : Fin 16384) : EReal :=
  C (ix4 b c (row9 (t2 (ix2 r (0 : Fin 2)))) l) * C (ix4 b c (row9 (t2 (ix2 r (1 : Fin 2)))) l)

/-- A third-order row: a patch row times the second-order row its table entry names. -/
def ht3 (b : Fin 4) (c : Fin 8) (r : Fin 165) (l : Fin 16384) : EReal :=
  C (ix4 b c (row9 (t3 (ix2 r (0 : Fin 2)))) l) * ht2 C t2 b c (row45 (t3 (ix2 r (1 : Fin 2)))) l

/-- The result at coordinates: the second-order rows, then the third-order rows. -/
def outAt (b : Fin 4) (c : Fin 8) (r : Fin 210) (l : Fin 16384) : EReal :=
  if h : r.val < 45 then ht2 C t2 b c ⟨r.val, h⟩ l else ht3 C t2 t3 b c ⟨r.val - 45, by omega⟩ l

/-- The result as an array. -/
def out : SOut.Idx → EReal := fun j => outAt C t2 t3 (j 0) (j 1) (j 2) (j 3)

theorem out_ix4 (b : Fin 4) (c : Fin 8) (r : Fin 210) (l : Fin 16384) :
    out C t2 t3 (ix4 b c r l) = outAt C t2 t3 b c r l := rfl

theorem outAt_lt (b : Fin 4) (c : Fin 8) (r : Fin 210) (l : Fin 16384) (h : r.val < 45) :
    outAt C t2 t3 b c r l = ht2 C t2 b c ⟨r.val, h⟩ l := by
  unfold outAt; rw [dif_pos h]

theorem outAt_ge (b : Fin 4) (c : Fin 8) (r : Fin 210) (l : Fin 16384) (h : ¬ r.val < 45) :
    outAt C t2 t3 b c r l = ht3 C t2 t3 b c ⟨r.val - 45, by omega⟩ l := by
  unfold outAt; rw [dif_neg h]

end Cert.Spec

end
-- ==== Proof.PreRange.lean ====
/-
  The printed precondition, read back as range facts about the two integer tables.

  The precondition is a conjunction of five "all" clauses, each an and-reduction of a one-bit array to a scalar:
  every input is finite; every word of the first table is in [0, 9) signed; every word of the second table is
  non-negative signed; the second table's column 0 is below 9 signed; its column 1 is below 45 signed. A word that
  is non-negative signed and below a small bound signed has its unsigned value below that bound. The float clause
  is dropped unopened, so the statement holds at every float instance.
-/
import proofs.«430841_j5506148073824_3_alg».proof.Pre_finite_inputs
import proofs.«430841_j5506148073824_3_alg».proof.Proof.Spec
import Idealize.ShloMosaic.Lib.ReduceAll
import Idealize.ShloMosaic.Lib.StableHlo.Predicate
import Idealize.ShloMosaic.Lib.ValueIdx
import Idealize.ShloMosaic.Lib.ValueLayout
import Idealize.ShloMosaic.Lib.Pipeline.Value

namespace Cert.PreRange

open Idealize.ShloMosaic Idealize.ShloMosaic.ValueIdx
open Cert.Pre_finite_inputs

/-- The scalar shape has one index. -/
instance : Subsingleton S_.Idx := ⟨fun a b => funext fun d => d.elim0⟩

/-- A word in [0, n) signed, n small, is below n unsigned. -/
theorem toNat_lt_of_signed (w : BitVec 32) (n : Nat) (hn : n < 2 ^ 31) (h0 : IntOp.cmpi .sge w (0#32) = 1#1)
    (h1 : IntOp.cmpi .slt w (BitVec.ofNat 32 n) = 1#1) : w.toNat < n := by
  rw [IntOp.cmpi_sge, show (0#32 : BitVec 32).toInt = 0 from by decide] at h0
  rw [IntOp.cmpi_slt, StableHlo.Predicate.toInt_ofNat_small n hn] at h1
  have hw : 2 * w.toNat < 2 ^ 32 := BitVec.toInt_pos_iff.mp h0
  rw [BitVec.toInt_eq_toNat_of_lt hw] at h1
  omega

/-- Column k of the second table, as a vector of 165 words, read at row r (o is k as a number). -/
theorem column_apply (o : Nat) (k : Fin 2) (hk : k.val = o) (t3 : IVec S165x2 32) (hs : S165x2.Slices ![0, o] S165x1)
    (hc : S165x1.ShapeCasts S165) (r : Fin 165) :
    shapeCast S165 (extractStridedSlice S165x1 ![0, o] t3 hs) hc (ix1 r) = t3 (ix2 r k) := by
  refine (shapeCast_apply _ hc (ix1 r) (ix2 r (0 : Fin 1)) ?_).trans ?_
  · rw [Shape.rowMajor_val_two, Shape.rowMajor_val_one]
    show r.val * 1 + 0 = r.val
    omega
  · exact slice2_axis1_apply o t3 hs r (0 : Fin 1) k (by rw [hk]; rfl)

theorem inRange {F : FTy → Type} [FloatOps F] [Cert.Pre_finite_inputs.Facts]
    (x : FVec F Cert.Pre_finite_inputs.S4x8x128x128 .f32) (t2 : IVec Cert.Pre_finite_inputs.S45x2 32)
    (t3 : IVec Cert.Pre_finite_inputs.S165x2 32)
    (h : Cert.Pre_finite_inputs.fn (F := F) x t2 t3 = fun _ => 1#1) : Cert.Spec.InRange t2 t3 := by
  have e := congrFun h ix0
  unfold Cert.Pre_finite_inputs.fn Cert.Pre_finite_inputs.fn_part1 at e
  -- the five clauses, the float one dropped unopened
  simp only [andi, IntOp.andi_eq_one] at e
  obtain ⟨⟨⟨⟨-, h2⟩, h3⟩, h30⟩, h31⟩ := e
  -- every word of the second table is non-negative signed
  have nn : ∀ i, IntOp.cmpi .sge (t3 i) (0#32) = 1#1 := fun i => Host.reduce_andi_all _ _ _ _ _ h3 i
  refine ⟨fun i => ?_, fun r => ?_, fun r => ?_⟩
  · have a := Host.reduce_andi_all _ _ _ _ _ h2 i
    simp only [andi, cmpi, broadcastInDim, constantI, IntOp.andi_eq_one] at a
    exact toNat_lt_of_signed _ 9 (by decide) a.1 a.2
  · have a := Host.reduce_andi_all _ _ _ _ _ h30 (ix1 r)
    simp only [cmpi, broadcastInDim, constantI] at a
    rw [column_apply 0 0 rfl] at a
    exact toNat_lt_of_signed _ 9 (by decide) (nn _) a
  · have a := Host.reduce_andi_all _ _ _ _ _ h31 (ix1 r)
    simp only [cmpi, broadcastInDim, constantI] at a
    rw [column_apply 1 1 rfl] at a
    exact toNat_lt_of_signed _ 45 (by decide) (nn _) a

end Cert.PreRange
-- ==== Proof.K.Pre.lean ====
/-
  The certificate's precondition, read as the hypothesis the frame holds under.

  The precondition says of the launch memory that the predicate `finite_inputs` of the three arguments is all ones on
  every device. Read back, that makes every word of the first table and of the second table's first column name one of
  the nine patch rows, and every word of the second table's second column one of the 45 second-order rows. The region
  finds the two tables as launched, so these are the range facts about the tables as the body is handed them.
-/
import proofs.«430841_j5506148073824_3_alg».proof.Proof.K.Frame
import proofs.«430841_j5506148073824_3_alg».proof.Proof.PreRange

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Under the precondition the tables the body is handed are in range, as the specification states it. -/
theorem inRange_of_fn [Cert.Pre_finite_inputs.Facts] (m : (ℓ : Loc nD τ sig) → Buf (Elt F) ℓ)
    (h : ∀ c : Dev nD, Cert.Pre_finite_inputs.fn (F := F) (m ((c.tc : Thread nD τ).loc main_arg0))
      (m ((c.tc : Thread nD τ).loc main_arg1)) (m ((c.tc : Thread nD τ).loc main_arg2)) = fun _ => 1#1) :
    Cert.Spec.InRange (tbl m 0 : Cert.Spec.ST2.Idx → BitVec 32) (tbl m 1 : Cert.Spec.ST3.Idx → BitVec 32) := by
  rw [tbl_0, tbl_1]
  exact Cert.PreRange.inRange _ _ _ (h 0)

/-- Under the precondition the hypothesis on the tables holds: a word of the second table sits in column 0 or in
    column 1, and an index whose second coordinate is `k` is the pair of its first coordinate and `k`. -/
theorem tabOk_of_fn [Cert.Pre_finite_inputs.Facts] (m : (ℓ : Loc nD τ sig) → Buf (Elt F) ℓ)
    (h : ∀ c : Dev nD, Cert.Pre_finite_inputs.fn (F := F) (m ((c.tc : Thread nD τ).loc main_arg0))
      (m ((c.tc : Thread nD τ).loc main_arg1)) (m ((c.tc : Thread nD τ).loc main_arg2)) = fun _ => 1#1) :
    TabOk m := by
  have e := inRange_of_fn m h
  refine ⟨fun x => e.h2 x, fun x hx => ?_, fun x hx => ?_⟩
  · have hxe : x = ValueIdx.ix2 (x 0) (0 : Fin 2) := by
      funext a
      match a with
      | ⟨0, _⟩ => rfl
      | ⟨1, _⟩ => exact Fin.ext hx
    rw [hxe]; exact e.h30 (x 0)
  · have hxe : x = ValueIdx.ix2 (x 0) (1 : Fin 2) := by
      funext a
      match a with
      | ⟨0, _⟩ => rfl
      | ⟨1, _⟩ => exact Fin.ext hx
    rw [hxe]; exact e.h31 (x 0)

end Cert.Kernel.Hand

end
-- ==== Proof.KI.Base.lean ====
/-
  The two index tables as the kernel body is handed them, and the arithmetic that turns "the word names a row"
  into the in-bounds fact of the block the body loads at that word.

  The body reads a word `w` of a table and then loads the `[1, 1, 64, 128]` slab at row `w` of the nine-row input
  block, or the `[1, 64, 128]` slab at row `w` of the 45-row scratch of second-order products. The slab lies inside its
  buffer exactly when `w < 9`, respectively `w < 45`, as an unsigned number.
-/
import proofs.«430841_j5506148073824_3_alg».proof.Proof.Gen.KernelIdeal.Launch
import proofs.«430841_j5506148073824_3_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Each table as the body is handed it: its whole buffer as a memref. -/
abbrev tbM0_0 : Memref sig .tc .smem S45x2 .i32 := Memref.whole main_arg1
abbrev htbM0_0 : tbM0_0.IsWhole := Memref.isWhole_whole _
abbrev tbM0_1 : Memref sig .tc .smem S165x2 .i32 := Memref.whole main_arg2
abbrev htbM0_1 : tbM0_1.IsWhole := Memref.isWhole_whole _

/-- A table memref's contents type on core `c`, and the table held at half the full share (read only). -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- A word below 9 names a row of the nine-row input block: the `[1, 1, 64, 128]` slab at that row is inside it. -/
theorem chk_col (w : BitVec 32) (hw : w.toNat < 9) :
    ∀ a : Fin 4, (![0, (Scalar.indexCast w).toNat, 0, 0] : Fin 4 → Nat) a + S1x1x64x128.size a ≤ S1x9x64x128.size a := by
  intro a
  have : (Scalar.indexCast w).toNat = w.toNat := rfl
  fin_cases a <;> simp [this, S1x1x64x128, S1x9x64x128] <;> omega

/-- A word below 45 names a row of the 45-row scratch: the `[1, 64, 128]` slab at that row is inside it. -/
theorem chk_ht2 (w : BitVec 32) (hw : w.toNat < 45) :
    ∀ a : Fin 3, (![(Scalar.indexCast w).toNat, 0, 0] : Fin 3 → Nat) a + S1x64x128.size a ≤ S45x64x128.size a := by
  intro a
  have : (Scalar.indexCast w).toNat = w.toNat := rfl
  fin_cases a <;> simp [this, S1x64x128, S45x64x128] <;> omega

end Cert.KernelIdeal.Hand

end
-- ==== Proof.KI.Kit.lean ====
/-
  The frame kit of the program: what @main holds when its one pipelined region is entered, the region's two
  prefetched index tables read off the launch memory, the windows' blocks, the staging and scratch memrefs
  the body is called on, and the facts about the host operations around the region that the launch of the
  region asks for.

  @main is three stretches of host operations (a constant; a pad; nine slices, nine broadcasts, one nine-fold
  concatenation and two reshapes), then the region, then one reshape of the region's output. None of the
  operations before the region writes an argument, so the region finds the three arguments, the two tables
  among them, as launched. The reshape after the region reads the output array and writes a fresh buffer:
  it touches no table and writes no array of the pipeline.
-/
import proofs.«430841_j5506148073824_3_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffers when the region is entered, as a valuation: the launch contents after the three
    stretches of host operations that come before the region. -/
abbrev V0 (c : Dev nD) : Valuation τ sig (Elt F) :=
  StableHlo.after (List.flatten [hostOps0, hostOps0_1, hostOps0_2]) (fun b => m (c, b))
/-- The same, read at a TensorCore reference. -/
abbrev V (c : Dev nD) (b : Ref sig .tc) : Buf (Elt F) ((c : Thread nD τ).loc b) := V0 m c (Proc.devRef .tc b)

/-- No host operation allocates a buffer: each writes the buffer of its own result, which the signature already has. -/
theorem hostOps0_fresh : (hostOps0 : List (HloOp τ sig (Elt F))).Forall fun op => op.fresh = ∅ := by
  simp only [List.Forall]; rfl
theorem hostOps0_1_fresh : (hostOps0_1 : List (HloOp τ sig (Elt F))).Forall fun op => op.fresh = ∅ := by
  simp only [List.Forall]; exact ⟨rfl, rfl⟩
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; rfl

/-- @main around the region: the three stretches before it run from the launch contents to `V`, and what is left is
    the region continued by the one reshape after it. -/
theorem hmain (𝒱₀ : Variants) :
    Pipeline.HMainPK (Ix := Unit) (Name := ℕ) (U := UR sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩)
    main_chain

/-! ## The reshape after the region -/

/-- The reshape after the region reads the output array and writes the buffer of its result: two TensorCore
    references, neither of them a prefetched table, so both are an array of the pipeline or bypass the region. -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  subst hops
  refine Pipeline.sub_tailRefs pre0 spec0 op ((List.forall_iff_forall_mem.mp hostOps1_sub) op hop) ?_
  simp only [hostOps1, List.mem_cons, List.mem_nil_iff, or_false] at hop
  subst hop
  intro j
  fin_cases j <;> simp only [StableHlo.reshape_bufs, Finset.mem_insert, Finset.mem_singleton, not_or] <;>
    exact ⟨StableHlo.devRef_ne_of_ne (by decide), StableHlo.devRef_ne_of_ne (by decide)⟩
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop
/-- And it writes no array of the pipeline: its result buffer is neither the input array nor the output array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w
  fin_cases w <;> simp only [StableHlo.reshape_writes, Finset.mem_singleton] <;>
    exact StableHlo.devRef_ne_of_ne (by decide)

/-! ## The arguments as the region finds them -/

/-- The result buffers of the operations before the region are the constant, the pad's two values and `main_v1` to
    `main_v21`: no argument is among them, so each argument is as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))

/-! ## The prefetched tables, read off the launch memory -/

/-- The two tables' contents when the region is entered (`V`; there is one device: device 0's). -/
def tbl : pre0.Contents (Elt F) := fun j => V m (0 : Dev nD) (pre0.ref j)
/-- On every device the tables hold those contents (there is only the one). -/
theorem V_pre (c : Dev nD) (j : Fin 2) : V m c (pre0.ref j) = tbl m j := by
  obtain rfl : c = 0 := Subsingleton.elim _ _; rfl
/-- The tables are the second and the third argument, as launched. -/
theorem tbl_0 : tbl m 0 = m (((0 : Dev nD) : Thread nD τ).loc main_arg1) := V_main_arg1 m 0
theorem tbl_1 : tbl m 1 = m (((0 : Dev nD) : Thread nD τ).loc main_arg2) := V_main_arg2 m 0

/-- The pipeline's side condition of the tables' contents. Neither window's index map reads a table, so it asks
    nothing. -/
abbrev Ok : Prop := ok0 (F := F) (tbl m)
theorem ok : Ok m := trivial
/-- The tables' contents as admissible contents, and the pipeline at them. -/
abbrev adm : (pcfg0 (F := F)).Adm := ⟨tbl m, trivial⟩
abbrev cfgM : Pipeline.Cfg sig Λ₀ := cfg0 (adm m)

/-- The tables' halves the region hands the body, table by table. -/
theorem PhiT0_eq (c : Dev nD) :
    (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The scratch of second-order products: a whole scoped buffer of the kernel's own, passed beside the windows. -/
abbrev scM0_0 : Memref sig .tc .vmem S45x64x128 .f32 := Memref.whole cc0_scratch0
abbrev hscM0_0 : scM0_0.IsWhole := Memref.isWhole_whole _

/-- The region's invariant with the scratch as a memref owned at some contents, beside the generator register at some
    state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The windows' blocks -/

/-- Window `w`'s block at point `t`, read off its array as the region finds it (`V`). -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- The input window's current staging buffer holds its block at every point, fetched there or not, for any proof data
    whose array is `V`'s and whose body leaves the block in place: where the block is not fetched the index map has
    not moved, and the window is never cut and never idle. -/
theorem before0_0_of {c : Dev nD} (dat : Dat τ (Elt F) Unit ℕ (UR sig nD τ) ℕ (cfgM m) c)
    (hA : dat.A 0 = V m c (Pipeline.arrRef spec0 0)) (hafter : ∀ t, dat.after 0 t = iblk m c 0 t)
    (t : Fin (cfgM m).N) (d) : dat.before 0 t d = iblk m c 0 t :=
  (dat.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)

/-! ## The memrefs the body is called on -/

/-- Each window's current staging memref at point `t`, as the pipeline passes it, and its wholeness. -/
abbrev ms0_0 (t : Fin (cfgM m).N) : Memref sig .tc .vmem S1x9x64x128 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S1x210x64x128 .f32 := spec0_1.stage ((cfgM m).slots t 1)
abbrev hs0_1 (t : Fin (cfgM m).N) : (ms0_1 m t).IsWhole := hstage0_1 (((cfgM m).slots t 1).cast nbuf0_1)

/-- The kernel body at point `t`, on what the pipeline calls it with: the point's coordinates, the two tables, the
    windows' current staging memrefs, the scratch. -/
abbrev bodyAt0 (t : Fin (cfgM m).N) : Prog (TpuEff nD τ sig (Elt F) Λ₀ .tc) PUnit :=
  cc0__kernel (grid0.coords t) tbM0_0 htbM0_0 tbM0_1 htbM0_1 (ms0_0 m t) (hs0_0 m t) (ms0_1 m t) (hs0_1 m t)
    scM0_0 hscM0_0

/-- It is the body table's row at the point and the slots. -/
theorem bodyAt0_eq (t : Fin (cfgM m).N) :
    bodyAt0 m t = defs₀ (F := F) .tc (0 : Fin 1) (t, (cfgM m).slots t) := rfl

end Cert.KernelIdeal.Hand

end
-- ==== Proof.KI.Run.lean ====
/-
  The kernel body run once, at symbolic operands.

  At one grid point the body is a straight line of 210 rows. Row `r < 45` reads the two words of table entry `r`,
  loads the two `[64, 128]` slabs of the nine-row input block those words name, multiplies them entry by entry, and
  stores the product both as row `r` of the 210-row output block and as row `r` of the 45-row scratch. Row `45 + r`
  reads the two words of the second table's entry `r`, loads the input slab the first word names and the scratch row
  the second word names, and stores their product as row `45 + r` of the output block.
  Every load at a word is preceded by the assumption that the slab it names lies inside its buffer; under the
  hypothesis that the first table's words and the second table's first column are below 9, and the second table's
  second column below 45, each of those 420 assumptions holds (`chk_col`, `chk_ht2`), so the body runs to its return.
  What it leaves is found by the run: the output block as the list of its 210 row stores, the scratch as the list of
  its 45, each over the contents the buffer had; the input block and the tables are handed back as they were.
-/
import proofs.«430841_j5506148073824_3_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run is one elaboration step of some thousands of rule applications over 105 printed parts
set_option maxHeartbeats 4000000 in
/-- The output block's and the scratch's stores, last first, WITH the proof that from the input block held at `x0`,
    the output block and the scratch held at anything, and the two tables held (read only) at `xt0`, `xt1` whose
    words are in range, the body runs to its return handing back the input block and the tables as they were and
    the two written buffers with those stores written. -/
noncomputable def kernelRun0 (c : Dev nD) (i : grid0.Coords)
    (arg4 : Memref sig .tc .vmem S1x9x64x128 .f32) (harg4 : arg4.IsWhole)
    (arg5 : Memref sig .tc .vmem S1x210x64x128 .f32) (harg5 : arg5.IsWhole)
    (arg6 : Memref sig .tc .vmem S45x64x128 .f32) (harg6 : arg6.IsWhole)
    (x0 : Vec F S1x9x64x128 .f32) (xt0 : TbBuf0 (F := F) c tbM0_0) (xt1 : TbBuf0 (F := F) c tbM0_1)
    (hT0 : ∀ x : S45x2.Idx, (xt0 x : BitVec 32).toNat < 9)
    (hT1a : ∀ x : S165x2.Idx, (x 1).val = 0 → (xt1 x : BitVec 32).toNat < 9)
    (hT1b : ∀ x : S165x2.Idx, (x 1).val = 1 → (xt1 x : BitVec 32).toNat < 45) :
    Σ' (L1 : List (View.Piece (Elt F) S1x210x64x128 .f32)), { LS0 : List (View.Piece (Elt F) S45x64x128 .f32) //
      ∀ (E : Set ℕ) (K : PUnit → sProp 𝕄),
        iprop(owns (c : Thread nD τ) arg4 fullShare x0 ∗ (∃ d, owns (c : Thread nD τ) arg5 fullShare d) ∗ (∃ d, owns (c : Thread nD τ) arg6 fullShare d)
            ∗ tbPt0 c tbM0_0 xt0 ∗ tbPt0 c tbM0_1 xt1
            ∗ (iprop(owns (c : Thread nD τ) arg4 fullShare x0
                ∗ (∃ f, arg5.view.loc (c : Thread nD τ) ↦[arg5.view.set]{fullShare} arg5.view.writes (Elt F) f L1)
                ∗ (∃ f, arg6.view.loc (c : Thread nD τ) ↦[arg6.view.set]{fullShare} arg6.view.writes (Elt F) f LS0)
                ∗ tbPt0 c tbM0_0 xt0 ∗ tbPt0 c tbM0_1 xt1) -∗ K ⟨⟩))
          ⊢ wp frame (wpE (defs₀ (F := F)) Variants.none c none) E (cc0__kernel i tbM0_0 htbM0_0 tbM0_1 htbM0_1 arg4 harg4 arg5 harg5 arg6 harg6) K } := by
  refine ⟨?_, ?_, fun E K => ?run⟩
  case run =>
    unfold owns
    iintro ⟨⟨%f0, %hf0, H0⟩, ⟨%d1, %f1, -, H1⟩, ⟨%ds0, %fs0, -, HS0⟩, HT0, HT1, Hk⟩
    obtain rfl := harg4.eq_unread hf0
    sl_exec_parts! (disch := first | exact chk_col _ (hT0 _) | exact chk_col _ (hT1a _ rfl) | exact chk_ht2 _ (hT1b _ rfl))
    sl_step
    iapply Hk
    isplitl [H0]
    · iexists _; isplitr; · ipureintro; exact harg4.read_unread _
      iexact H0
    isplitl [H1]; · iexists _; iexact H1
    isplitl [HS0]; · iexists _; iexact HS0
    isplitl [HT0]; · iexact HT0
    iexact HT1

end Cert.KernelIdeal.Hand

end
-- ==== Proof.KI.Frame.lean ====
/-
  The frame of the program, from the body's run: at every grid point the pipeline calls the body on the input block
  it staged, the body fills the output block row by row, and the pipeline writes that block back; the host reshape
  after the region then lays the output array out as the program's result.

  Everything here holds under one hypothesis on the two index tables as launched (`TabOk`): the first table's words
  and the second table's first column name a row of the nine-row input block, the second table's second column a
  row of the 45-row scratch. Under it the body runs at every point; its 210 row stores tile the output block, so
  what the block holds afterwards does not depend on what it held before; the scratch is written before it is read
  within the same point, so the region's invariant need not say what it holds between points.
-/
import proofs.«430841_j5506148073824_3_alg».proof.Proof.KI.Kit
import proofs.«430841_j5506148073824_3_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The hypothesis on the tables -/

/-- The tables' words are in range: every word of the first table, and every word in the first column of the second,
    is below 9 (a row of the input block); every word in the second column of the second table is below 45 (a row of
    the scratch). The tables are read as the body is handed them, at the launch contents (`tbl`). -/
structure TabOk : Prop where
  h0 : ∀ x : S45x2.Idx, ((tbl m 0 : TbBuf0 (F := F) (0 : Dev nD) tbM0_0) x : BitVec 32).toNat < 9
  h1a : ∀ x : S165x2.Idx, (x 1).val = 0 → ((tbl m 1 : TbBuf0 (F := F) (0 : Dev nD) tbM0_1) x : BitVec 32).toNat < 9
  h1b : ∀ x : S165x2.Idx, (x 1).val = 1 → ((tbl m 1 : TbBuf0 (F := F) (0 : Dev nD) tbM0_1) x : BitVec 32).toNat < 45

/-! ## What the body leaves in the output block -/

/-- The run's 210 stores into the output block are one `[1, 1, 64, 128]` row each, at the rows `0` to `209`: they tile
    the block, so every entry of it lies in one of them. -/
theorem cover0_1 (c : Dev nD) (i : grid0.Coords)
    (arg4 : Memref sig .tc .vmem S1x9x64x128 .f32) (harg4 : arg4.IsWhole)
    (arg5 : Memref sig .tc .vmem S1x210x64x128 .f32) (harg5 : arg5.IsWhole)
    (arg6 : Memref sig .tc .vmem S45x64x128 .f32) (harg6 : arg6.IsWhole)
    (x0 : Vec F S1x9x64x128 .f32) (xt0 : TbBuf0 (F := F) c tbM0_0) (xt1 : TbBuf0 (F := F) c tbM0_1)
    (hT0 : ∀ x : S45x2.Idx, (xt0 x : BitVec 32).toNat < 9)
    (hT1a : ∀ x : S165x2.Idx, (x 1).val = 0 → (xt1 x : BitVec 32).toNat < 9)
    (hT1b : ∀ x : S165x2.Idx, (x 1).val = 1 → (xt1 x : BitVec 32).toNat < 45) (y : S1x210x64x128.Idx) :
    ∃ pc ∈ (kernelRun0 c i arg4 harg4 arg5 harg5 arg6 harg6 x0 xt0 xt1 hT0 hT1a hT1b).1, y ∈ pc.1.set :=
  View.cover_of_tiledL (kernelRun0 c i arg4 harg4 arg5 harg5 arg6 harg6 x0 xt0 xt1 hT0 hT1a hT1b).1 S1x1x64x128.size
    (by sl_kernel_rfl) y

/-- One staging buffer of the output window, through which its contents are stated (the choice does not matter: the
    stores cover the block). -/
abbrev VO0_1 : View sig .tc .vmem S1x210x64x128 .f32 :=
  (Memref.whole cc0_stg1_0 : Memref sig .tc .vmem S1x210x64x128 .f32).view

/-- What the run leaves in the output block: its stores read back over arbitrary contents. -/
def out0_1 (c : Dev nD) (i : grid0.Coords)
    (arg4 : Memref sig .tc .vmem S1x9x64x128 .f32) (harg4 : arg4.IsWhole)
    (arg5 : Memref sig .tc .vmem S1x210x64x128 .f32) (harg5 : arg5.IsWhole)
    (arg6 : Memref sig .tc .vmem S45x64x128 .f32) (harg6 : arg6.IsWhole)
    (x0 : Vec F S1x9x64x128 .f32) (xt0 : TbBuf0 (F := F) c tbM0_0) (xt1 : TbBuf0 (F := F) c tbM0_1)
    (hT0 : ∀ x : S45x2.Idx, (xt0 x : BitVec 32).toNat < 9)
    (hT1a : ∀ x : S165x2.Idx, (x 1).val = 0 → (xt1 x : BitVec 32).toNat < 9)
    (hT1b : ∀ x : S165x2.Idx, (x 1).val = 1 → (xt1 x : BitVec 32).toNat < 45) : Vec F S1x210x64x128 .f32 :=
  VO0_1.read (Elt F) (VO0_1.writes (Elt F) VO0_1.junk
    (kernelRun0 c i arg4 harg4 arg5 harg5 arg6 harg6 x0 xt0 xt1 hT0 hT1a hT1b).1)

/-- What the output window's staging buffer holds after the body at point `t`: the run's contents at the point's
    memrefs, the input block there, and the tables. -/
def outsAt0 (hT : TabOk m) (c : Dev nD) (t : Fin (cfgM m).N) : Vec F S1x210x64x128 .f32 :=
  out0_1 c (grid0.coords t) (ms0_0 m t) (hs0_0 m t) (ms0_1 m t) (hs0_1 m t) scM0_0 hscM0_0 (iblk m c 0 t)
    (tbl m 0) (tbl m 1) hT.h0 hT.h1a hT.h1b

/-! ## The pipeline's proof data -/

/-- The proof data of the pipeline on core `c`: the arrays as the region finds them (`V`); after the body at point `t`
    the input's buffer at its block and the output's at `outsAt0`; the invariant the scratch and the generator register
    at anything, beside the tables' read-only halves; nothing owed; full shares. -/
def dats (hT : TabOk m) (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => outsAt0 m hT c t
  Φ _ := iprop(Pipeline.ΦA spec0 c ∗ Pipeline.ΦT pre0 (tbl m) c)
  q _ := fullShare
  owed _ := 0

/-- The proof data's arrays are the region-entry contents. -/
theorem A_eq (hT : TabOk m) (c : Dev nD) (w : Fin (cfgM m).W) :
    (dats m hT 0 c).A w = V m c (Pipeline.arrRef spec0 w) := by
  dsimp only [dats]

/-- What the body leaves, window by window. -/
theorem after0_0 (hT : TabOk m) (c : Dev nD) (t : Fin (cfgM m).N) : (dats m hT 0 c).after 0 t = iblk m c 0 t := by
  dsimp only [dats]; try rfl
theorem after0_1 (hT : TabOk m) (c : Dev nD) (t : Fin (cfgM m).N) : (dats m hT 0 c).after 1 t = outsAt0 m hT c t := by
  dsimp only [dats]; try rfl

/-- The input's current staging buffer holds its block at every point, fetched there or not. -/
theorem before0_0 (hT : TabOk m) (c : Dev nD) (t : Fin (cfgM m).N) (d) :
    (dats m hT 0 c).before 0 t d = iblk m c 0 t :=
  before0_0_of m (dats m hT 0 c) (A_eq m hT c 0) (after0_0 m hT c) t d

/-! ## The body obligation, at a generic point -/

/-- What the body is called with at point `t`, the windows one by one, -/
def bodyPre (hT : TabOk m) (c : Dev nD) (t : Fin (cfgM m).N) : sProp 𝕄 :=
  iprop((dats m hT 0 c).Φ t.castSucc ∗ (dats m hT 0 c).owesAt () t.castSucc
    ∗ (∃ d, owns (c : Thread nD τ) (ms0_0 m t) fullShare ((dats m hT 0 c).before 0 t d))
    ∗ (∃ d, owns (c : Thread nD τ) (ms0_1 m t) fullShare ((dats m hT 0 c).before 1 t d)))

/-- and what it returns. -/
def bodyPost (hT : TabOk m) (c : Dev nD) (t : Fin (cfgM m).N) : sProp 𝕄 :=
  iprop((dats m hT 0 c).Φ t.succ ∗ (dats m hT 0 c).owesAt () t.succ
    ∗ owns (c : Thread nD τ) (ms0_0 m t) fullShare ((dats m hT 0 c).after 0 t)
    ∗ owns (c : Thread nD τ) (ms0_1 m t) fullShare ((dats m hT 0 c).after 1 t))

/-- The body at any point. The input's memref holds its block; the invariant hands the body the scratch at anything
    and the tables' halves, whose words are in range (`hT`): so the run applies. It hands back the input block and the
    tables as they were, the scratch at what its 45 stores left (which the invariant forgets), and the output block with
    its 210 stores written, which cover it. The core owes nothing throughout. -/
theorem sound_body (hT : TabOk m) (c : Dev nD) (t : Fin (cfgM m).N) :
    bodyPre m hT c t ⊢ wp frame (wpE (defs₀ (F := F)) Variants.none c none) Set.univ (bodyAt0 m t)
      (fun _ => bodyPost m hT c t) := by
  unfold bodyPre bodyPost bodyAt0
  simp only [before0_0]
  rw [show (dats m hT 0 c).Φ t.succ = (dats m hT 0 c).Φ t.castSucc from rfl,
    show (dats m hT 0 c).owesAt () t.succ = (dats m hT 0 c).owesAt () t.castSucc from rfl,
    after0_0, after0_1]
  rw [show (dats m hT 0 c).Φ t.castSucc = iprop(Pipeline.ΦA spec0 c ∗ Pipeline.ΦT pre0 (tbl m) c) from rfl,
    PhiA0_eq, PhiT0_eq]
  unfold outsAt0
  unfold out0_1
  iintro ⟨⟨⟨HS0, Hg⟩, ⟨HT0, HT1⟩⟩, Ho, ⟨%d0, H0⟩, ⟨%d1, H1⟩⟩
  iapply ((kernelRun0 c (grid0.coords t) _ _ _ _ _ _ (iblk m c 0 t) (tbl m 0) (tbl m 1) hT.h0 hT.h1a hT.h1b).2.2
    Set.univ _)
  isplitl [H0]; · iexact H0
  isplitl [H1]; · iexists _; iexact H1
  isplitl [HS0]; · iexact HS0
  isplitl [HT0]; · iexact HT0
  isplitl [HT1]; · iexact HT1
  iintro ⟨H0, ⟨%e1, H1⟩, ⟨%es0, HS0⟩, HT0, HT1⟩
  isplitl [HS0 Hg HT0 HT1]
  · isplitl [HS0 Hg]
    · isplitl [HS0]
      · iexists _; unfold owns; iexists _; isplitr
        swap; · iexact HS0
        ipureintro; rfl
      iexact Hg
    isplitl [HT0]; · iexact HT0
    iexact HT1
  isplitl [Ho]; · iexact Ho
  isplitl [H0]; · iexact H0
  unfold owns; iexists _; isplitr
  swap; · iexact H1
  ipureintro; exact View.read_writes_of_cover _ _ _ _ _ (cover0_1 c _ _ _ _ _ _ _ _ _ _ _ _ _)

set_option maxRecDepth 131072 in
/-- The library's body obligation, at every point. -/
theorem body_obligation (hT : TabOk m) (c : Dev nD) :
    BodyObligation (dats (F := F) m hT 0 c) (defs₀ (F := F)) Variants.none () Set.univ := fun t => by
  rw [bigSep_W0, bigSep_W0]
  exact sound_body m hT c t

/-! ## The run -/

set_option backward.isDefEq.respectTransparency.types false in
/-- At the compiled mesh, for any values, from any memory with zero counters: every weakly fair execution of @main on the
    TensorCores terminates, and every final state has every array of the pipeline at what the write-backs of the proof
    data leave in it and every other unscoped buffer as the reshape after the region leaves it. -/
theorem run_main (hT : TabOk m) : θ_run defs (onTc (τ := τ) (main (F := F))) (s₀ m ρ)
    (Pipeline.FramePost (Pipeline.pin pcfgs fun _ => adm m) (dats m hT) 0
      (Pipeline.afterTail pcfgs (fun _ => adm m) (dats m hT) 0 (V0 m) [hostOps1])) :=
  Pipeline.θ_run_frameP_around pcfgs (fun _ => adm m) (dats m hT) (0 : Fin 1) launch0 defs₀ Variants.none m ρ main
    (hbody := fun c => (body_obligation m hT c).loose) (hshare := fun c => (dats m hT 0 c).share_full fun _ => rfl)
    (howed := fun _ _ => rfl) (V₀ := V0 m) (opss := [hostOps1]) (hsub := sfx_sub) (hfresh := sfx_fresh)
    (hkeep := sfx_keeps) (hmain := hmain m Variants.none) (hA := A_eq m hT) (hpf := V_pre m) (hΦ := fun _ _ => rfl)

/-! ## What the buffers hold at the end -/

/-- The reshape after the region writes its result only: an argument, being no array of the pipeline either, ends as the
    region found it, which is as launched. -/
theorem tail_main_arg0 (hT : TabOk m) (c : Dev nD) :
    Pipeline.afterTail pcfgs (fun _ => adm m) (dats m hT) 0 (V0 m) [hostOps1] c main_arg0
      = m ((c.tc : Thread nD τ).loc main_arg0) := by
  unfold Pipeline.afterTail
  show StableHlo.after hostOps1 _ (Proc.devRef .tc main_arg0) = _
  after_results
  exact (Pipeline.withArrays_of_ne spec0 c _ _ main_arg0 (by decide)).trans (V_main_arg0 m c)
theorem tail_main_arg1 (hT : TabOk m) (c : Dev nD) :
    Pipeline.afterTail pcfgs (fun _ => adm m) (dats m hT) 0 (V0 m) [hostOps1] c main_arg1
      = m ((c.tc : Thread nD τ).loc main_arg1) := by
  unfold Pipeline.afterTail
  show StableHlo.after hostOps1 _ (Proc.devRef .tc main_arg1) = _
  after_results
  exact (Pipeline.withArrays_of_ne spec0 c _ _ main_arg1 (by decide)).trans (V_main_arg1 m c)
theorem tail_main_arg2 (hT : TabOk m) (c : Dev nD) :
    Pipeline.afterTail pcfgs (fun _ => adm m) (dats m hT) 0 (V0 m) [hostOps1] c main_arg2
      = m ((c.tc : Thread nD τ).loc main_arg2) := by
  unfold Pipeline.afterTail
  show StableHlo.after hostOps1 _ (Proc.devRef .tc main_arg2) = _
  after_results
  exact (Pipeline.withArrays_of_ne spec0 c _ _ main_arg2 (by decide)).trans (V_main_arg2 m c)

/-- The reshape's result is the output array, as the region's write-backs left it, laid out at the result's shape. -/
theorem tail_main_v23 (hT : TabOk m) (c : Dev nD) :
    Pipeline.afterTail pcfgs (fun _ => adm m) (dats m hT) 0 (V0 m) [hostOps1] c main_v23
      = shapeCast S4x8x210x16384 ((dats m hT 0 c).arrAt 1 (cfgM m).N) shapeCasts_S32x210x128x128_S4x8x210x16384 := by
  unfold Pipeline.afterTail
  show StableHlo.after hostOps1 _ (Proc.devRef .tc main_v23) = _
  after_results
  exact congrArg (fun v => shapeCast S4x8x210x16384 v shapeCasts_S32x210x128x128_S4x8x210x16384)
    (Pipeline.withArrays_arr spec0 (launch0 (F := F)).win.arr_inj c (V0 m c) (fun w => (dats m hT 0 c).arrAt w (cfgM m).N) 1)

/-- THE POST READ: under the hypothesis on the tables every weakly fair execution of @main terminates with the result
    buffer at the output array's final contents reshaped, and the three arguments as launched. -/
theorem post_of (hT : TabOk m) : θ_run defs (onTc (τ := τ) (main (F := F))) ⟨m, fun _ => 0, ρ⟩ (fun r => ∀ c : Dev nD,
      r.2.mem ((c.tc : Thread nD τ).loc main_v23)
        = shapeCast S4x8x210x16384 ((dats m hT 0 c).arrAt 1 (cfgM m).N) shapeCasts_S32x210x128x128_S4x8x210x16384
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v23 (Pipeline.mem_restRefs_of (win := spec0) main_v23 (by decide) (by decide))).trans (tail_main_v23 m hT c),
      ((h c).2 main_arg0 (Pipeline.mem_restRefs_of (win := spec0) main_arg0 (by decide) (by decide))).trans (tail_main_arg0 m hT c),
      ((h c).2 main_arg1 (Pipeline.mem_restRefs_of (win := spec0) main_arg1 (by decide) (by decide))).trans (tail_main_arg1 m hT c),
      ((h c).2 main_arg2 (Pipeline.mem_restRefs_of (win := spec0) main_arg2 (by decide) (by decide))).trans (tail_main_arg2 m hT c)⟩)
    (run_main m ρ hT)

/-- THE FRAME: the three arguments end as launched. -/
theorem frame (hT : TabOk m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (post_of m ρ hT)

end Cert.KernelIdeal.Hand

end
-- ==== Proof.KI.Pre.lean ====
/-
  The certificate's precondition, read as the hypothesis the frame holds under.

  The precondition says of the launch memory that the predicate `finite_inputs` of the three arguments is all ones on
  every device. Read back, that makes every word of the first table and of the second table's first column name one of
  the nine patch rows, and every word of the second table's second column one of the 45 second-order rows. The region
  finds the two tables as launched, so these are the range facts about the tables as the body is handed them.
-/
import proofs.«430841_j5506148073824_3_alg».proof.Proof.KI.Frame
import proofs.«430841_j5506148073824_3_alg».proof.Proof.PreRange

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Under the precondition the tables the body is handed are in range, as the specification states it. -/
theorem inRange_of_fn [Cert.Pre_finite_inputs.Facts] (m : (ℓ : Loc nD τ sig) → Buf (Elt F) ℓ)
    (h : ∀ c : Dev nD, Cert.Pre_finite_inputs.fn (F := F) (m ((c.tc : Thread nD τ).loc main_arg0))
      (m ((c.tc : Thread nD τ).loc main_arg1)) (m ((c.tc : Thread nD τ).loc main_arg2)) = fun _ => 1#1) :
    Cert.Spec.InRange (tbl m 0 : Cert.Spec.ST2.Idx → BitVec 32) (tbl m 1 : Cert.Spec.ST3.Idx → BitVec 32) := by
  rw [tbl_0, tbl_1]
  exact Cert.PreRange.inRange _ _ _ (h 0)

/-- Under the precondition the hypothesis on the tables holds: a word of the second table sits in column 0 or in
    column 1, and an index whose second coordinate is `k` is the pair of its first coordinate and `k`. -/
theorem tabOk_of_fn [Cert.Pre_finite_inputs.Facts] (m : (ℓ : Loc nD τ sig) → Buf (Elt F) ℓ)
    (h : ∀ c : Dev nD, Cert.Pre_finite_inputs.fn (F := F) (m ((c.tc : Thread nD τ).loc main_arg0))
      (m ((c.tc : Thread nD τ).loc main_arg1)) (m ((c.tc : Thread nD τ).loc main_arg2)) = fun _ => 1#1) :
    TabOk m := by
  have e := inRange_of_fn m h
  refine ⟨fun x => e.h2 x, fun x hx => ?_, fun x hx => ?_⟩
  · have hxe : x = ValueIdx.ix2 (x 0) (0 : Fin 2) := by
      funext a
      match a with
      | ⟨0, _⟩ => rfl
      | ⟨1, _⟩ => exact Fin.ext hx
    rw [hxe]; exact e.h30 (x 0)
  · have hxe : x = ValueIdx.ix2 (x 0) (1 : Fin 2) := by
      funext a
      match a with
      | ⟨0, _⟩ => rfl
      | ⟨1, _⟩ => exact Fin.ext hx
    rw [hxe]; exact e.h31 (x 0)

end Cert.KernelIdeal.Hand

end
-- ==== Proof.KV.Segments.lean ====
/-
  The output block's 210 row stores are held by the body's run as a list in 104 consecutive segments, each a few
  stores consed onto the next. This module is the table of those segments' names and nothing else: the tactic below
  opens all of them, so that "for every piece of the list" becomes one conjunct per piece. The argument about the
  pieces is in the module that uses it.
-/
import proofs.«430841_j5506148073824_3_alg».proof.Proof.KI.Run

namespace Cert.KernelIdeal.HandValue

/-- Opens the segments of the output block's list of stores and splits "for every piece" into one conjunct per piece. -/
macro "open_out_segments" : tactic =>
  `(tactic| simp only [Cert.KernelIdeal.Hand.kernelRun0.sl.H1_210, Cert.KernelIdeal.Hand.kernelRun0.sl.H1_207, Cert.KernelIdeal.Hand.kernelRun0.sl.H1_205, Cert.KernelIdeal.Hand.kernelRun0.sl.H1_203, Cert.KernelIdeal.Hand.kernelRun0.sl.H1_201, Cert.KernelIdeal.Hand.kernelRun0.sl.H1_199, Cert.KernelIdeal.Hand.kernelRun0.sl.H1_197, Cert.KernelIdeal.Hand.kernelRun0.sl.H1_194, Cert.KernelIdeal.Hand.kernelRun0.sl.H1_192, Cert.KernelIdeal.Hand.kernelRun0.sl.H1_190, Cert.KernelIdeal.Hand.kernelRun0.sl.H1_188, Cert.KernelIdeal.Hand.kernelRun0.sl.H1_186, Cert.KernelIdeal.Hand.kernelRun0.sl.H1_184, Cert.KernelIdeal.Hand.kernelRun0.sl.H1_182, Cert.KernelIdeal.Hand.kernelRun0.sl.H1_179, Cert.KernelIdeal.Hand.kernelRun0.sl.H1_177, Cert.KernelIdeal.Hand.kernelRun0.sl.H1_175, Cert.KernelIdeal.Hand.kernelRun0.sl.H1_173, Cert.KernelIdeal.Hand.kernelRun0.sl.H1_171, Cert.KernelIdeal.Hand.kernelRun0.sl.H1_169, Cert.KernelIdeal.Hand.kernelRun0.sl.H1_167, Cert.KernelIdeal.Hand.kernelRun0.sl.H1_164, Cert.KernelIdeal.Hand.kernelRun0.sl.H1_162, Cert.KernelIdeal.Hand.kernelRun0.sl.H1_160, Cert.KernelIdeal.Hand.kernelRun0.sl.H1_158, Cert.KernelIdeal.Hand.kernelRun0.sl.H1_156, Cert.KernelIdeal.Hand.kernelRun0.sl.H1_154, Cert.KernelIdeal.Hand.kernelRun0.sl.H1_152, Cert.KernelIdeal.Hand.kernelRun0.sl.H1_149, Cert.KernelIdeal.Hand.kernelRun0.sl.H1_147, Cert.KernelIdeal.Hand.kernelRun0.sl.H1_145, Cert.KernelIdeal.Hand.kernelRun0.sl.H1_143, Cert.KernelIdeal.Hand.kernelRun0.sl.H1_141, Cert.KernelIdeal.Hand.kernelRun0.sl.H1_139, Cert.KernelIdeal.Hand.kernelRun0.sl.H1_137, Cert.KernelIdeal.Hand.kernelRun0.sl.H1_134, Cert.KernelIdeal.Hand.kernelRun0.sl.H1_132, Cert.KernelIdeal.Hand.kernelRun0.sl.H1_130, Cert.KernelIdeal.Hand.kernelRun0.sl.H1_128, Cert.KernelIdeal.Hand.kernelRun0.sl.H1_126, Cert.KernelIdeal.Hand.kernelRun0.sl.H1_124, Cert.KernelIdeal.Hand.kernelRun0.sl.H1_122, Cert.KernelIdeal.Hand.kernelRun0.sl.H1_119, Cert.KernelIdeal.Hand.kernelRun0.sl.H1_117, Cert.KernelIdeal.Hand.kernelRun0.sl.H1_115, Cert.KernelIdeal.Hand.kernelRun0.sl.H1_113, Cert.KernelIdeal.Hand.kernelRun0.sl.H1_111, Cert.KernelIdeal.Hand.kernelRun0.sl.H1_109, Cert.KernelIdeal.Hand.kernelRun0.sl.H1_107, Cert.KernelIdeal.Hand.kernelRun0.sl.H1_104, Cert.KernelIdeal.Hand.kernelRun0.sl.H1_102, Cert.KernelIdeal.Hand.kernelRun0.sl.H1_100, Cert.KernelIdeal.Hand.kernelRun0.sl.H1_98, Cert.KernelIdeal.Hand.kernelRun0.sl.H1_96, Cert.KernelIdeal.Hand.kernelRun0.sl.H1_94, Cert.KernelIdeal.Hand.kernelRun0.sl.H1_92, Cert.KernelIdeal.Hand.kernelRun0.sl.H1_89, Cert.KernelIdeal.Hand.kernelRun0.sl.H1_87, Cert.KernelIdeal.Hand.kernelRun0.sl.H1_85, Cert.KernelIdeal.Hand.kernelRun0.sl.H1_83, Cert.KernelIdeal.Hand.kernelRun0.sl.H1_81, Cert.KernelIdeal.Hand.kernelRun0.sl.H1_79, Cert.KernelIdeal.Hand.kernelRun0.sl.H1_77, Cert.KernelIdeal.Hand.kernelRun0.sl.H1_74, Cert.KernelIdeal.Hand.kernelRun0.sl.H1_72, Cert.KernelIdeal.Hand.kernelRun0.sl.H1_70, Cert.KernelIdeal.Hand.kernelRun0.sl.H1_68, Cert.KernelIdeal.Hand.kernelRun0.sl.H1_66, Cert.KernelIdeal.Hand.kernelRun0.sl.H1_64, Cert.KernelIdeal.Hand.kernelRun0.sl.H1_62, Cert.KernelIdeal.Hand.kernelRun0.sl.H1_59, Cert.KernelIdeal.Hand.kernelRun0.sl.H1_57, Cert.KernelIdeal.Hand.kernelRun0.sl.H1_55, Cert.KernelIdeal.Hand.kernelRun0.sl.H1_53, Cert.KernelIdeal.Hand.kernelRun0.sl.H1_51, Cert.KernelIdeal.Hand.kernelRun0.sl.H1_49, Cert.KernelIdeal.Hand.kernelRun0.sl.H1_47, Cert.KernelIdeal.Hand.kernelRun0.sl.H1_45, Cert.KernelIdeal.Hand.kernelRun0.sl.H1_43, Cert.KernelIdeal.Hand.kernelRun0.sl.H1_41, Cert.KernelIdeal.Hand.kernelRun0.sl.H1_40, Cert.KernelIdeal.Hand.kernelRun0.sl.H1_38, Cert.KernelIdeal.Hand.kernelRun0.sl.H1_36, Cert.KernelIdeal.Hand.kernelRun0.sl.H1_35, Cert.KernelIdeal.Hand.kernelRun0.sl.H1_33, Cert.KernelIdeal.Hand.kernelRun0.sl.H1_31, Cert.KernelIdeal.Hand.kernelRun0.sl.H1_30, Cert.KernelIdeal.Hand.kernelRun0.sl.H1_28, Cert.KernelIdeal.Hand.kernelRun0.sl.H1_26, Cert.KernelIdeal.Hand.kernelRun0.sl.H1_25, Cert.KernelIdeal.Hand.kernelRun0.sl.H1_23, Cert.KernelIdeal.Hand.kernelRun0.sl.H1_21, Cert.KernelIdeal.Hand.kernelRun0.sl.H1_20, Cert.KernelIdeal.Hand.kernelRun0.sl.H1_18, Cert.KernelIdeal.Hand.kernelRun0.sl.H1_16, Cert.KernelIdeal.Hand.kernelRun0.sl.H1_15, Cert.KernelIdeal.Hand.kernelRun0.sl.H1_13, Cert.KernelIdeal.Hand.kernelRun0.sl.H1_11, Cert.KernelIdeal.Hand.kernelRun0.sl.H1_10, Cert.KernelIdeal.Hand.kernelRun0.sl.H1_8, Cert.KernelIdeal.Hand.kernelRun0.sl.H1_6, Cert.KernelIdeal.Hand.kernelRun0.sl.H1_5, Cert.KernelIdeal.Hand.kernelRun0.sl.H1_3, Cert.KernelIdeal.Hand.kernelRun0.sl.H1_1,
    List.forall_mem_cons, List.not_mem_nil, IsEmpty.forall_iff, implies_true, and_true])

end Cert.KernelIdeal.HandValue
-- ==== Proof.SpecK.lean ====
/-
  The same mathematics in the kernel's layouts.

  The kernel sees the unfolded input as `X : [32, 9, 128, 128]` (batch and channel merged, each row of 16384 entries
  as 128 × 128) and works on one block `x : [1, 9, 64, 128]` at a time: block `(n, s)` is rows `64 s … 64 s + 63` of the
  128 × 128 planes of `X[n]`. On a block it computes, row by row, the products the tables name, entry by entry:
  `outB`. Over the whole array that is `outK`, whose block `(n, s)` is `outB` of `X`'s block `(n, s)`.
-/
import proofs.«430841_j5506148073824_3_alg».proof.Proof.Spec

noncomputable section

namespace Cert.Spec

open Idealize.ShloMosaic Idealize.ShloMosaic.ValueIdx

/-- The kernel's layout of the unfolded input and of the result, and one grid point's blocks of them. -/
abbrev SColK : Shape := ⟨4, ![32, 9, 128, 128]⟩
abbrev SOutK : Shape := ⟨4, ![32, 210, 128, 128]⟩
abbrev SColB : Shape := ⟨4, ![1, 9, 64, 128]⟩
abbrev SOutB : Shape := ⟨4, ![1, 210, 64, 128]⟩

variable (t2 : ST2.Idx → BitVec 32) (t3 : ST3.Idx → BitVec 32)

/-! ## One block -/

/-- A second-order row of a block: the product of the two rows of the input block its table entry names. -/
def ht2B (x : SColB.Idx → EReal) (r : Fin 45) (s : Fin 64) (l : Fin 128) : EReal :=
  x (ix4 (0 : Fin 1) (row9 (t2 (ix2 r (0 : Fin 2)))) s l) * x (ix4 (0 : Fin 1) (row9 (t2 (ix2 r (1 : Fin 2)))) s l)

/-- A third-order row of a block: a row of the input block times the second-order row its table entry names. -/
def ht3B (x : SColB.Idx → EReal) (r : Fin 165) (s : Fin 64) (l : Fin 128) : EReal :=
  x (ix4 (0 : Fin 1) (row9 (t3 (ix2 r (0 : Fin 2)))) s l) * ht2B t2 x (row45 (t3 (ix2 r (1 : Fin 2)))) s l

/-- The output block at coordinates: 45 second-order rows, then 165 third-order rows. -/
def outBAt (x : SColB.Idx → EReal) (r : Fin 210) (s : Fin 64) (l : Fin 128) : EReal :=
  if h : r.val < 45 then ht2B t2 x ⟨r.val, h⟩ s l else ht3B t2 t3 x ⟨r.val - 45, by omega⟩ s l

/-- The output block as an array. -/
def outB (x : SColB.Idx → EReal) : SOutB.Idx → EReal := fun j => outBAt t2 t3 x (j 1) (j 2) (j 3)

theorem outB_ix4 (x : SColB.Idx → EReal) (z : Fin 1) (r : Fin 210) (s : Fin 64) (l : Fin 128) :
    outB t2 t3 x (ix4 z r s l) = outBAt t2 t3 x r s l := rfl

/-! ## The whole array -/

def ht2K (X : SColK.Idx → EReal) (n : Fin 32) (r : Fin 45) (h w : Fin 128) : EReal :=
  X (ix4 n (row9 (t2 (ix2 r (0 : Fin 2)))) h w) * X (ix4 n (row9 (t2 (ix2 r (1 : Fin 2)))) h w)

def ht3K (X : SColK.Idx → EReal) (n : Fin 32) (r : Fin 165) (h w : Fin 128) : EReal :=
  X (ix4 n (row9 (t3 (ix2 r (0 : Fin 2)))) h w) * ht2K t2 X n (row45 (t3 (ix2 r (1 : Fin 2)))) h w

def outKAt (X : SColK.Idx → EReal) (n : Fin 32) (r : Fin 210) (h w : Fin 128) : EReal :=
  if hr : r.val < 45 then ht2K t2 X n ⟨r.val, hr⟩ h w else ht3K t2 t3 X n ⟨r.val - 45, by omega⟩ h w

/-- The kernel's result array, in its own layout. -/
def outK (X : SColK.Idx → EReal) : SOutK.Idx → EReal := fun j => outKAt t2 t3 X (j 0) (j 1) (j 2) (j 3)

theorem outK_ix4 (X : SColK.Idx → EReal) (n : Fin 32) (r : Fin 210) (h w : Fin 128) :
    outK t2 t3 X (ix4 n r h w) = outKAt t2 t3 X n r h w := rfl

end Cert.Spec

end
-- ==== Proof.KV.Pieces.lean ====
/-
  What one grid point's run leaves in the output block, over the extended reals.

  The run of the body (the module of the run) finds the output block as the list of its 210 row stores and the scratch
  as the list of its 45. Read at an index:
  * a table word the body reads at entry `(r, k)` is that entry of the table (`word0`, `word1`);
  * the `[1, 1, 64, 128]` slab it loads at a word `w < 9` is row `w` of the input block (`col_load`);
  * so the slab stored at row `r` of the scratch is the product of the two input rows entry `r` of the first table names
    (`spiece`), and the scratch after its 45 stores is the block's second-order rows (`scratch_canon`);
  * a row `r < 45` of the output block is the same product (`opiece_lo`); a row `45 + q` is the input row the second
    table's entry `q` names first times the scratch row it names second, read back through `scratch_canon`
    (`opiece_hi`);
  * the 210 row slabs tile the block, so the block is `outB` (`out_canon`).
  The shape casts between `[64, 128]`, `[1, 64, 128]` and `[1, 1, 64, 128]` carry nothing (`cast_*`), and a product of
  vectors at the ideal instance is the product of the entries.
-/
import proofs.«430841_j5506148073824_3_alg».proof.Proof.KI.Run
import proofs.«430841_j5506148073824_3_alg».proof.Proof.KV.Segments
import proofs.«430841_j5506148073824_3_alg».proof.Proof.SpecK
import Idealize.ShloMosaic.Lib.Pipeline.Value
import Idealize.ShloMosaic.Lib.ValueLayout

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem

open Cert.Spec

variable {α : Type}

/-- `[64, 128]` read as `[1, 1, 64, 128]`, and back: the two unit coordinates carry nothing. -/
theorem cast_2_4 (v : S64x128.Idx → α) (h : S64x128.ShapeCasts S1x1x64x128) (z0 z1 : Fin 1) (s : Fin 64) (l : Fin 128) :
    shapeCast S1x1x64x128 v h (ix4 z0 z1 s l) = v (ix2 s l) :=
  shapeCast_apply v h _ _ (by
    have h0 : z0.val = 0 := by omega
    have h1 : z1.val = 0 := by omega
    rw [Shape.rowMajor_val_two, Shape.rowMajor_val_four]
    show s.val * 128 + l.val = ((z0.val * 1 + z1.val) * 64 + s.val) * 128 + l.val
    rw [h0, h1]; simp only [Nat.zero_mul, Nat.zero_add])

theorem cast_4_2 (v : S1x1x64x128.Idx → α) (h : S1x1x64x128.ShapeCasts S64x128) (s : Fin 64) (l : Fin 128) :
    shapeCast S64x128 v h (ix2 s l) = v (ix4 (0 : Fin 1) (0 : Fin 1) s l) :=
  shapeCast_apply v h _ _ (by
    rw [Shape.rowMajor_val_two, Shape.rowMajor_val_four]
    show ((0 * 1 + 0) * 64 + s.val) * 128 + l.val = s.val * 128 + l.val
    simp only [Nat.zero_mul, Nat.zero_add])

theorem cast_2_3 (v : S64x128.Idx → α) (h : S64x128.ShapeCasts S1x64x128) (z : Fin 1) (s : Fin 64) (l : Fin 128) :
    shapeCast S1x64x128 v h (ix3 z s l) = v (ix2 s l) := shapeCast_ab_1ab_apply v h z s l

theorem cast_3_2 (v : S1x64x128.Idx → α) (h : S1x64x128.ShapeCasts S64x128) (s : Fin 64) (l : Fin 128) :
    shapeCast S64x128 v h (ix2 s l) = v (ix3 (0 : Fin 1) s l) := shapeCast_1ab_ab_apply v h s l

/-- The word the body reads at entry `(r, k)` of the first table is that entry. -/
theorem word0 {c : Dev nD} (xt0 : TbBuf0 (F := Ideal) c tbM0_0) (r k : Nat) (hr : r < 45) (hk : k < 2)
    (inb : ∀ a, (![r, k] : Fin 2 → Nat) a + S1x1.size a ≤ S45x2.size a) (h1 : 0 < S1x1.numel) :
    tbM0_0.view.readAt (Elt Ideal) (Rect.unit (s := S45x2) ![r, k] S1x1.size inb).toLoadRect xt0 (Shape.Idx.first h1)
      = xt0 (ix2 (⟨r, hr⟩ : Fin 45) (⟨k, hk⟩ : Fin 2)) := by
  refine congrArg xt0 ?_
  funext a
  apply Fin.ext
  have hz : ∀ b : Fin 2, (Shape.Idx.first h1 b).val = 0 := fun b => by
    have := (Shape.Idx.first h1 b).isLt
    have e : S1x1.size b = 1 := by fin_cases b <;> rfl
    omega
  fin_cases a
  · show r + 1 * (Shape.Idx.first h1 (0 : Fin 2)).val = r
    rw [hz]; omega
  · show k + 1 * (Shape.Idx.first h1 (1 : Fin 2)).val = k
    rw [hz]; omega

/-- The same for the second table. -/
theorem word1 {c : Dev nD} (xt1 : TbBuf0 (F := Ideal) c tbM0_1) (r k : Nat) (hr : r < 165) (hk : k < 2)
    (inb : ∀ a, (![r, k] : Fin 2 → Nat) a + S1x1.size a ≤ S165x2.size a) (h1 : 0 < S1x1.numel) :
    tbM0_1.view.readAt (Elt Ideal) (Rect.unit (s := S165x2) ![r, k] S1x1.size inb).toLoadRect xt1 (Shape.Idx.first h1)
      = xt1 (ix2 (⟨r, hr⟩ : Fin 165) (⟨k, hk⟩ : Fin 2)) := by
  refine congrArg xt1 ?_
  funext a
  apply Fin.ext
  have hz : ∀ b : Fin 2, (Shape.Idx.first h1 b).val = 0 := fun b => by
    have := (Shape.Idx.first h1 b).isLt
    have e : S1x1.size b = 1 := by fin_cases b <;> rfl
    omega
  fin_cases a
  · show r + 1 * (Shape.Idx.first h1 (0 : Fin 2)).val = r
    rw [hz]; omega
  · show k + 1 * (Shape.Idx.first h1 (1 : Fin 2)).val = k
    rw [hz]; omega

/-- The `[1, 1, 64, 128]` slab the body loads at word `w` of the input block is the block's row `w`. -/
theorem col_load (arg4 : Memref sig .tc .vmem S1x9x64x128 .f32) (harg4 : arg4.IsWhole) (x0 : Vec Ideal S1x9x64x128 .f32)
    (w : BitVec 32) (hw : w.toNat < 9)
    (inb : ∀ a, (![0, (Scalar.indexCast w).toNat, 0, 0] : Fin 4 → Nat) a + S1x1x64x128.size a ≤ S1x9x64x128.size a)
    (z0 z1 : Fin 1) (s : Fin 64) (l : Fin 128) :
    arg4.view.readAt (Elt Ideal) (Rect.unit (s := S1x9x64x128) ![0, (Scalar.indexCast w).toNat, 0, 0] S1x1x64x128.size inb).toLoadRect
        (harg4.unread x0) (ix4 z0 z1 s l)
      = x0 (ix4 (0 : Fin 1) (⟨w.toNat, hw⟩ : Fin 9) s l) := by
  rw [View.readAt_apply, harg4.read_unread]
  refine congrArg x0 ?_
  funext a
  apply Fin.ext
  have h0 : z0.val = 0 := by omega
  have h1 : z1.val = 0 := by omega
  fin_cases a
  · show 0 + 1 * z0.val = 0
    omega
  · show (Scalar.indexCast w).toNat + 1 * z1.val = w.toNat
    have : (Scalar.indexCast w).toNat = w.toNat := rfl
    omega
  · show 0 + 1 * s.val = s.val
    omega
  · show 0 + 1 * l.val = l.val
    omega

/-- A row of the input block at the patch position a table word names, when the word is in range. -/
theorem row9_eq {w : BitVec 32} (hw : w.toNat < 9) : (⟨w.toNat, hw⟩ : Fin 9) = row9 w := Fin.ext (row9_val hw).symm
theorem row45_eq {w : BitVec 32} (hw : w.toNat < 45) : (⟨w.toNat, hw⟩ : Fin 45) = row45 w := Fin.ext (row45_val hw).symm

/-- ONE STORE OF THE SCRATCH: the slab stored at row `r` is the product of the two input rows entry `r` of the first
    table names — second-order row `r` of the block. -/
theorem spiece {c : Dev nD} (arg4 : Memref sig .tc .vmem S1x9x64x128 .f32) (harg4 : arg4.IsWhole) (x0 : Vec Ideal S1x9x64x128 .f32)
    (xt0 : TbBuf0 (F := Ideal) c tbM0_0) (hT0 : ∀ x : S45x2.Idx, (xt0 x : BitVec 32).toNat < 9)
    (r : Nat) (hr : r < 45)
    (inbS : ∀ a, (![r, 0, 0] : Fin 3 → Nat) a + S1x64x128.size a ≤ S45x64x128.size a)
    (inbWa : ∀ a, (![r, 0] : Fin 2 → Nat) a + S1x1.size a ≤ S45x2.size a)
    (inbWb : ∀ a, (![r, 1] : Fin 2 → Nat) a + S1x1.size a ≤ S45x2.size a) (h1a h1b : 0 < S1x1.numel)
    (inbA : ∀ a, (![0, (Scalar.indexCast (tbM0_0.view.readAt (Elt Ideal) (Rect.unit (s := S45x2) ![r, 0] S1x1.size inbWa).toLoadRect xt0 (Shape.Idx.first h1a))).toNat, 0, 0] : Fin 4 → Nat) a + S1x1x64x128.size a ≤ S1x9x64x128.size a)
    (inbB : ∀ a, (![0, (Scalar.indexCast (tbM0_0.view.readAt (Elt Ideal) (Rect.unit (s := S45x2) ![r, 1] S1x1.size inbWb).toLoadRect xt0 (Shape.Idx.first h1b))).toNat, 0, 0] : Fin 4 → Nat) a + S1x1x64x128.size a ≤ S1x9x64x128.size a)
    (h42 : S1x1x64x128.ShapeCasts S64x128) (h23 : S64x128.ShapeCasts S1x64x128) :
    ∀ x : (Rect.unit (s := S45x64x128) ![r, 0, 0] S1x64x128.size inbS).shape.Idx,
      shapeCast S1x64x128 (mulf (F := Ideal) (φ := .f32)
          (shapeCast S64x128 (arg4.view.readAt (Elt Ideal) (Rect.unit (s := S1x9x64x128) ![0, (Scalar.indexCast (tbM0_0.view.readAt (Elt Ideal) (Rect.unit (s := S45x2) ![r, 0] S1x1.size inbWa).toLoadRect xt0 (Shape.Idx.first h1a))).toNat, 0, 0] S1x1x64x128.size inbA).toLoadRect (harg4.unread x0)) h42)
          (shapeCast S64x128 (arg4.view.readAt (Elt Ideal) (Rect.unit (s := S1x9x64x128) ![0, (Scalar.indexCast (tbM0_0.view.readAt (Elt Ideal) (Rect.unit (s := S45x2) ![r, 1] S1x1.size inbWb).toLoadRect xt0 (Shape.Idx.first h1b))).toNat, 0, 0] S1x1x64x128.size inbB).toLoadRect (harg4.unread x0)) h42)) h23 x
        = (fun j : S45x64x128.Idx => ht2B xt0 x0 (j 0) (j 1) (j 2)) ((Rect.unit (s := S45x64x128) ![r, 0, 0] S1x64x128.size inbS).emb x) := by
  intro x
  obtain ⟨z, s, l, rfl⟩ : ∃ (z : Fin 1) (s : Fin 64) (l : Fin 128), x = ix3 z s l := ⟨x 0, x 1, x 2, eq_ix3 x⟩
  have hz : z.val = 0 := by omega
  have e0 : ((Rect.unit (s := S45x64x128) ![r, 0, 0] S1x64x128.size inbS).emb (ix3 z s l)) 0 = (⟨r, hr⟩ : Fin 45) :=
    Fin.ext (by show r + 1 * z.val = r; omega)
  have e1 : ((Rect.unit (s := S45x64x128) ![r, 0, 0] S1x64x128.size inbS).emb (ix3 z s l)) 1 = s :=
    Fin.ext (by show 0 + 1 * s.val = s.val; omega)
  have e2 : ((Rect.unit (s := S45x64x128) ![r, 0, 0] S1x64x128.size inbS).emb (ix3 z s l)) 2 = l :=
    Fin.ext (by show 0 + 1 * l.val = l.val; omega)
  show _ = ht2B xt0 x0 _ _ _
  rw [e0, e1, e2, cast_2_3]
  show (shapeCast S64x128 _ h42 (ix2 s l)) * (shapeCast S64x128 _ h42 (ix2 s l)) = _
  rw [cast_4_2, cast_4_2, col_load arg4 harg4 x0 _ (by rw [word0 xt0 r 0 hr (by omega)]; exact hT0 _),
    col_load arg4 harg4 x0 _ (by rw [word0 xt0 r 1 hr (by omega)]; exact hT0 _)]
  unfold ht2B
  simp only [row9_eq, word0 xt0 r 0 hr (by omega), word0 xt0 r 1 hr (by omega)]
  rfl

/-- THE SCRATCH AFTER ITS 45 STORES holds the block's second-order rows: at every index, the product of the two input
    rows the first table's entry for that row names. -/
theorem scratch_canon (c : Dev nD) (arg4 : Memref sig .tc .vmem S1x9x64x128 .f32) (harg4 : arg4.IsWhole) (x0 : Vec Ideal S1x9x64x128 .f32)
    (xt0 : TbBuf0 (F := Ideal) c tbM0_0) (hT0 : ∀ x : S45x2.Idx, (xt0 x : BitVec 32).toNat < 9) (j : S45x64x128.Idx) :
    View.canon (kernelRun0.sl.HS0_45 (F := Ideal) c arg4 harg4 x0 xt0 hT0) j = ht2B xt0 x0 (j 0) (j 1) (j 2) := by
  refine View.canon_apply_of_pieces (fun j : S45x64x128.Idx => ht2B xt0 x0 (j 0) (j 1) (j 2))
    (kernelRun0.sl.HS0_45 (F := Ideal) c arg4 harg4 x0 xt0 hT0) ?_ j
    (View.cover_of_tiledL (kernelRun0.sl.HS0_45 (F := Ideal) c arg4 harg4 x0 xt0 hT0) S1x64x128.size (by sl_kernel_rfl) j)
  sl_unfold_run_names
  simp only [List.forall_mem_cons, List.not_mem_nil, IsEmpty.forall_iff, implies_true, and_true]
  and_intros
  all_goals exact spiece arg4 harg4 x0 xt0 hT0 _ (by omega) _ _ _ _ _ _ _ _ _

/-- ONE STORE OF THE OUTPUT BLOCK, a second-order row `r < 45`: the product of the two input rows entry `r` of the
    first table names. -/
theorem opiece_lo {c : Dev nD} (arg4 : Memref sig .tc .vmem S1x9x64x128 .f32) (harg4 : arg4.IsWhole) (x0 : Vec Ideal S1x9x64x128 .f32)
    (xt0 : TbBuf0 (F := Ideal) c tbM0_0) (xt1 : TbBuf0 (F := Ideal) c tbM0_1) (hT0 : ∀ x : S45x2.Idx, (xt0 x : BitVec 32).toNat < 9)
    (r : Nat) (hr : r < 45)
    (inbO : ∀ a, (![0, r, 0, 0] : Fin 4 → Nat) a + S1x1x64x128.size a ≤ S1x210x64x128.size a)
    (inbWa : ∀ a, (![r, 0] : Fin 2 → Nat) a + S1x1.size a ≤ S45x2.size a)
    (inbWb : ∀ a, (![r, 1] : Fin 2 → Nat) a + S1x1.size a ≤ S45x2.size a) (h1a h1b : 0 < S1x1.numel)
    (inbA : ∀ a, (![0, (Scalar.indexCast (tbM0_0.view.readAt (Elt Ideal) (Rect.unit (s := S45x2) ![r, 0] S1x1.size inbWa).toLoadRect xt0 (Shape.Idx.first h1a))).toNat, 0, 0] : Fin 4 → Nat) a + S1x1x64x128.size a ≤ S1x9x64x128.size a)
    (inbB : ∀ a, (![0, (Scalar.indexCast (tbM0_0.view.readAt (Elt Ideal) (Rect.unit (s := S45x2) ![r, 1] S1x1.size inbWb).toLoadRect xt0 (Shape.Idx.first h1b))).toNat, 0, 0] : Fin 4 → Nat) a + S1x1x64x128.size a ≤ S1x9x64x128.size a)
    (h42 : S1x1x64x128.ShapeCasts S64x128) (h24 : S64x128.ShapeCasts S1x1x64x128) :
    ∀ x : (Rect.unit (s := S1x210x64x128) ![0, r, 0, 0] S1x1x64x128.size inbO).shape.Idx,
      shapeCast S1x1x64x128 (mulf (F := Ideal) (φ := .f32)
          (shapeCast S64x128 (arg4.view.readAt (Elt Ideal) (Rect.unit (s := S1x9x64x128) ![0, (Scalar.indexCast (tbM0_0.view.readAt (Elt Ideal) (Rect.unit (s := S45x2) ![r, 0] S1x1.size inbWa).toLoadRect xt0 (Shape.Idx.first h1a))).toNat, 0, 0] S1x1x64x128.size inbA).toLoadRect (harg4.unread x0)) h42)
          (shapeCast S64x128 (arg4.view.readAt (Elt Ideal) (Rect.unit (s := S1x9x64x128) ![0, (Scalar.indexCast (tbM0_0.view.readAt (Elt Ideal) (Rect.unit (s := S45x2) ![r, 1] S1x1.size inbWb).toLoadRect xt0 (Shape.Idx.first h1b))).toNat, 0, 0] S1x1x64x128.size inbB).toLoadRect (harg4.unread x0)) h42)) h24 x
        = outB xt0 xt1 x0 ((Rect.unit (s := S1x210x64x128) ![0, r, 0, 0] S1x1x64x128.size inbO).emb x) := by
  intro x
  obtain ⟨z0, z1, s, l, rfl⟩ : ∃ (z0 z1 : Fin 1) (s : Fin 64) (l : Fin 128), x = ix4 z0 z1 s l := ⟨x 0, x 1, x 2, x 3, eq_ix4 x⟩
  have hz : z1.val = 0 := by omega
  have e1 : ((Rect.unit (s := S1x210x64x128) ![0, r, 0, 0] S1x1x64x128.size inbO).emb (ix4 z0 z1 s l)) 1 = (⟨r, by omega⟩ : Fin 210) :=
    Fin.ext (by show r + 1 * z1.val = r; omega)
  have e2 : ((Rect.unit (s := S1x210x64x128) ![0, r, 0, 0] S1x1x64x128.size inbO).emb (ix4 z0 z1 s l)) 2 = s :=
    Fin.ext (by show 0 + 1 * s.val = s.val; omega)
  have e3 : ((Rect.unit (s := S1x210x64x128) ![0, r, 0, 0] S1x1x64x128.size inbO).emb (ix4 z0 z1 s l)) 3 = l :=
    Fin.ext (by show 0 + 1 * l.val = l.val; omega)
  show _ = outBAt xt0 xt1 x0 _ _ _
  rw [e1, e2, e3, cast_2_4]
  show (shapeCast S64x128 _ h42 (ix2 s l)) * (shapeCast S64x128 _ h42 (ix2 s l)) = _
  rw [cast_4_2, cast_4_2, col_load arg4 harg4 x0 _ (by rw [word0 xt0 r 0 hr (by omega)]; exact hT0 _),
    col_load arg4 harg4 x0 _ (by rw [word0 xt0 r 1 hr (by omega)]; exact hT0 _)]
  unfold outBAt
  rw [dif_pos (show (⟨r, by omega⟩ : Fin 210).val < 45 from hr)]
  unfold ht2B
  simp only [row9_eq, word0 xt0 r 0 hr (by omega), word0 xt0 r 1 hr (by omega)]
  rfl

/-- ONE STORE OF THE OUTPUT BLOCK, a third-order row `45 + q`: the input row the second table's entry `q` names first,
    times the second-order row it names second — that row read back from the scratch. -/
theorem opiece_hi {c : Dev nD} (arg4 : Memref sig .tc .vmem S1x9x64x128 .f32) (harg4 : arg4.IsWhole)
    (arg6 : Memref sig .tc .vmem S45x64x128 .f32) (x0 : Vec Ideal S1x9x64x128 .f32)
    (xt0 : TbBuf0 (F := Ideal) c tbM0_0) (xt1 : TbBuf0 (F := Ideal) c tbM0_1) (hT0 : ∀ x : S45x2.Idx, (xt0 x : BitVec 32).toNat < 9)
    (hT1a : ∀ x : S165x2.Idx, (x 1).val = 0 → (xt1 x : BitVec 32).toNat < 9)
    (hT1b : ∀ x : S165x2.Idx, (x 1).val = 1 → (xt1 x : BitVec 32).toNat < 45)
    (q : Nat) (hq : q < 165) (r : Nat) (hrq : r = 45 + q)
    (inbO : ∀ a, (![0, r, 0, 0] : Fin 4 → Nat) a + S1x1x64x128.size a ≤ S1x210x64x128.size a)
    (inbWa : ∀ a, (![q, 0] : Fin 2 → Nat) a + S1x1.size a ≤ S165x2.size a)
    (inbWb : ∀ a, (![q, 1] : Fin 2 → Nat) a + S1x1.size a ≤ S165x2.size a) (h1a h1b : 0 < S1x1.numel)
    (inbA : ∀ a, (![0, (Scalar.indexCast (tbM0_1.view.readAt (Elt Ideal) (Rect.unit (s := S165x2) ![q, 0] S1x1.size inbWa).toLoadRect xt1 (Shape.Idx.first h1a))).toNat, 0, 0] : Fin 4 → Nat) a + S1x1x64x128.size a ≤ S1x9x64x128.size a)
    (inbB : ∀ a, (![(Scalar.indexCast (tbM0_1.view.readAt (Elt Ideal) (Rect.unit (s := S165x2) ![q, 1] S1x1.size inbWb).toLoadRect xt1 (Shape.Idx.first h1b))).toNat, 0, 0] : Fin 3 → Nat) a + S1x64x128.size a ≤ S45x64x128.size a)
    (h42 : S1x1x64x128.ShapeCasts S64x128) (h32 : S1x64x128.ShapeCasts S64x128) (h24 : S64x128.ShapeCasts S1x1x64x128) :
    ∀ x : (Rect.unit (s := S1x210x64x128) ![0, r, 0, 0] S1x1x64x128.size inbO).shape.Idx,
      shapeCast S1x1x64x128 (mulf (F := Ideal) (φ := .f32)
          (shapeCast S64x128 (arg4.view.readAt (Elt Ideal) (Rect.unit (s := S1x9x64x128) ![0, (Scalar.indexCast (tbM0_1.view.readAt (Elt Ideal) (Rect.unit (s := S165x2) ![q, 0] S1x1.size inbWa).toLoadRect xt1 (Shape.Idx.first h1a))).toNat, 0, 0] S1x1x64x128.size inbA).toLoadRect (harg4.unread x0)) h42)
          (shapeCast S64x128 (arg6.view.readAt (Elt Ideal) (Rect.unit (s := S45x64x128) ![(Scalar.indexCast (tbM0_1.view.readAt (Elt Ideal) (Rect.unit (s := S165x2) ![q, 1] S1x1.size inbWb).toLoadRect xt1 (Shape.Idx.first h1b))).toNat, 0, 0] S1x64x128.size inbB).toLoadRect
            (arg6.view.writes (Elt Ideal) arg6.view.junk (kernelRun0.sl.HS0_45 (F := Ideal) c arg4 harg4 x0 xt0 hT0))) h32)) h24 x
        = outB xt0 xt1 x0 ((Rect.unit (s := S1x210x64x128) ![0, r, 0, 0] S1x1x64x128.size inbO).emb x) := by
  intro x
  subst hrq
  obtain ⟨z0, z1, s, l, rfl⟩ : ∃ (z0 z1 : Fin 1) (s : Fin 64) (l : Fin 128), x = ix4 z0 z1 s l := ⟨x 0, x 1, x 2, x 3, eq_ix4 x⟩
  have hz : z1.val = 0 := by omega
  have e1 : ((Rect.unit (s := S1x210x64x128) ![0, 45 + q, 0, 0] S1x1x64x128.size inbO).emb (ix4 z0 z1 s l)) 1 = (⟨45 + q, by omega⟩ : Fin 210) :=
    Fin.ext (by show 45 + q + 1 * z1.val = 45 + q; omega)
  have e2 : ((Rect.unit (s := S1x210x64x128) ![0, 45 + q, 0, 0] S1x1x64x128.size inbO).emb (ix4 z0 z1 s l)) 2 = s :=
    Fin.ext (by show 0 + 1 * s.val = s.val; omega)
  have e3 : ((Rect.unit (s := S1x210x64x128) ![0, 45 + q, 0, 0] S1x1x64x128.size inbO).emb (ix4 z0 z1 s l)) 3 = l :=
    Fin.ext (by show 0 + 1 * l.val = l.val; omega)
  have hwa : (xt1 (ix2 (⟨q, hq⟩ : Fin 165) (⟨0, by omega⟩ : Fin 2)) : BitVec 32).toNat < 9 := hT1a _ rfl
  have hwb : (xt1 (ix2 (⟨q, hq⟩ : Fin 165) (⟨1, by omega⟩ : Fin 2)) : BitVec 32).toNat < 45 := hT1b _ rfl
  show _ = outBAt xt0 xt1 x0 _ _ _
  rw [e1, e2, e3, cast_2_4]
  show (shapeCast S64x128 _ h42 (ix2 s l)) * (shapeCast S64x128 _ h32 (ix2 s l)) = _
  rw [cast_4_2, cast_3_2, col_load arg4 harg4 x0 _ (by rw [word1 xt1 q 0 hq (by omega)]; exact hwa),
    View.readAt_writes_junk_eq_canon (Val := Elt Ideal) arg6.view]
  dsimp only
  rw [scratch_canon]
  unfold outBAt
  rw [dif_neg (show ¬ (⟨45 + q, by omega⟩ : Fin 210).val < 45 from by show ¬ 45 + q < 45; omega)]
  unfold ht3B
  have eq : (⟨(⟨45 + q, by omega⟩ : Fin 210).val - 45, by show 45 + q - 45 < 165; omega⟩ : Fin 165) = ⟨q, hq⟩ :=
    Fin.ext (by show 45 + q - 45 = q; omega)
  rw [eq]
  have i0 : ((Rect.unit (s := S45x64x128) ![(Scalar.indexCast (tbM0_1.view.readAt (Elt Ideal) (Rect.unit (s := S165x2) ![q, 1] S1x1.size inbWb).toLoadRect xt1 (Shape.Idx.first h1b))).toNat, 0, 0] S1x64x128.size inbB).toLoadRect.idx (ix3 (0 : Fin 1) s l)) 0
      = row45 (xt1 (ix2 (⟨q, hq⟩ : Fin 165) (1 : Fin 2))) := by
    apply Fin.ext
    refine Eq.trans ?_ (row45_val hwb).symm
    show (Scalar.indexCast _).toNat + 1 * 0 = _
    rw [word1 xt1 q 1 hq (by omega)]
    rfl
  have i1 : ((Rect.unit (s := S45x64x128) ![(Scalar.indexCast (tbM0_1.view.readAt (Elt Ideal) (Rect.unit (s := S165x2) ![q, 1] S1x1.size inbWb).toLoadRect xt1 (Shape.Idx.first h1b))).toNat, 0, 0] S1x64x128.size inbB).toLoadRect.idx (ix3 (0 : Fin 1) s l)) 1 = s :=
    Fin.ext (by show 0 + 1 * s.val = s.val; omega)
  have i2 : ((Rect.unit (s := S45x64x128) ![(Scalar.indexCast (tbM0_1.view.readAt (Elt Ideal) (Rect.unit (s := S165x2) ![q, 1] S1x1.size inbWb).toLoadRect xt1 (Shape.Idx.first h1b))).toNat, 0, 0] S1x64x128.size inbB).toLoadRect.idx (ix3 (0 : Fin 1) s l)) 2 = l :=
    Fin.ext (by show 0 + 1 * l.val = l.val; omega)
  rw [i0, i1, i2]
  simp only [row9_eq, word1 xt1 q 0 hq (by omega)]
  rfl

-- 210 pieces, each matched against its lemma through the run's names: past the default budget
set_option maxHeartbeats 8000000 in
/-- THE OUTPUT BLOCK AFTER ITS 210 STORES holds `outB`: at every index of the block, the row's product as the tables name
    it. Each store's slab is one row of `outB` (`opiece_lo` for the 45 second-order rows, `opiece_hi` for the 165
    third-order rows), and the 210 slabs tile the block. -/
theorem out_canon (c : Dev nD) (arg4 : Memref sig .tc .vmem S1x9x64x128 .f32) (harg4 : arg4.IsWhole)
    (arg6 : Memref sig .tc .vmem S45x64x128 .f32) (x0 : Vec Ideal S1x9x64x128 .f32)
    (xt0 : TbBuf0 (F := Ideal) c tbM0_0) (xt1 : TbBuf0 (F := Ideal) c tbM0_1) (hT0 : ∀ x : S45x2.Idx, (xt0 x : BitVec 32).toNat < 9)
    (hT1a : ∀ x : S165x2.Idx, (x 1).val = 0 → (xt1 x : BitVec 32).toNat < 9)
    (hT1b : ∀ x : S165x2.Idx, (x 1).val = 1 → (xt1 x : BitVec 32).toNat < 45) (j : S1x210x64x128.Idx) :
    View.canon (kernelRun0.sl.H1_210 (F := Ideal) c arg4 harg4 arg6 x0 xt0 xt1 hT0 hT1a hT1b) j = outB xt0 xt1 x0 j := by
  refine View.canon_apply_of_pieces (outB xt0 xt1 x0)
    (kernelRun0.sl.H1_210 (F := Ideal) c arg4 harg4 arg6 x0 xt0 xt1 hT0 hT1a hT1b) ?_ j
    (View.cover_of_tiledL (kernelRun0.sl.H1_210 (F := Ideal) c arg4 harg4 arg6 x0 xt0 xt1 hT0 hT1a hT1b) S1x1x64x128.size (by sl_kernel_rfl) j)
  open_out_segments
  and_intros
  -- the list is last row first: rows 209 down to 45, then rows 44 down to 0
  iterate 165 exact opiece_hi arg4 harg4 arg6 x0 xt0 xt1 hT0 hT1a hT1b _ (by omega) _ (by omega) _ _ _ _ _ _ _ _ _ _
  all_goals exact opiece_lo arg4 harg4 x0 xt0 xt1 hT0 _ (by omega) _ _ _ _ _ _ _ _ _

end Cert.KernelIdeal.HandValue

end
-- ==== Proof.KV.Blocks.lean ====
/-
  From blocks to the array.

  The kernel's one region runs over the grid [32, 2]. At point (n, s) both windows sit at block (n, 0, s, 0): the input
  block is rows 64 s … 64 s + 63 of the nine 128 × 128 planes of X[n], the output block the same rows of the 210 planes of
  the result at n. Every point writes its output block back, and the 64 output blocks tile the result array. So when
  each point leaves in its output block the block's products of its input block, the array ends holding the products
  of the whole input, entry by entry.
-/
import proofs.«430841_j5506148073824_3_alg».proof.Proof.KI.Kit
import proofs.«430841_j5506148073824_3_alg».proof.Proof.SpecK
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand Cert.Spec
open Idealize.ShloMosaic Idealize.ShloMosaic.TcCoe Idealize.SL.Sem
open Idealize.ShloMosaic.Pipeline (Dat)
open Idealize.ShloMosaic.ValueIdx

/-! ## The mathematics: a block's products are the array's, at the rows the block holds -/

/-- When the input block `x` is rows `64 sb … 64 sb + 63` of `X[n]`, the block's result at `(r, s, l)` is the array's at
    `(n, r, 64 sb + s, l)`. -/
theorem outBAt_eq_outKAt (t2 : ST2.Idx → BitVec 32) (t3 : ST3.Idx → BitVec 32) (x : SColB.Idx → EReal) (X : SColK.Idx → EReal)
    (n : Fin 32) (sb : Fin 2)
    (hx : ∀ (p : Fin 9) (s : Fin 64) (l : Fin 128) (h : Fin 128), h.val = 64 * sb.val + s.val →
      x (ix4 (0 : Fin 1) p s l) = X (ix4 n p h l))
    (r : Fin 210) (s : Fin 64) (l : Fin 128) (h : Fin 128) (hh : h.val = 64 * sb.val + s.val) :
    outBAt t2 t3 x r s l = outKAt t2 t3 X n r h l := by
  unfold outBAt outKAt ht3B ht3K ht2B ht2K
  split
  · rw [hx _ s l h hh, hx _ s l h hh]
  · rw [hx _ s l h hh, hx _ s l h hh, hx _ s l h hh]

/-- The same at indices: `j` of the block and `k` of the array with `k = (n, j₁, 64 sb + j₂, j₃)`. -/
theorem outB_eq_outK_at (t2 : ST2.Idx → BitVec 32) (t3 : ST3.Idx → BitVec 32) (x : SColB.Idx → EReal) (X : SColK.Idx → EReal)
    (n : Fin 32) (sb : Fin 2)
    (hx : ∀ (p : Fin 9) (s : Fin 64) (l : Fin 128) (h : Fin 128), h.val = 64 * sb.val + s.val →
      x (ix4 (0 : Fin 1) p s l) = X (ix4 n p h l))
    (j : SOutB.Idx) (k : SOutK.Idx) (h0 : (k 0).val = n.val) (h1 : (k 1).val = (j 1).val)
    (h2 : (k 2).val = 64 * sb.val + (j 2).val) (h3 : (k 3).val = (j 3).val) :
    outB t2 t3 x j = outK t2 t3 X k := by
  show outBAt t2 t3 x (j 1) (j 2) (j 3) = outKAt t2 t3 X (k 0) (k 1) (k 2) (k 3)
  rw [show k 0 = n from Fin.ext h0, show k 1 = j 1 from Fin.ext h1, show k 3 = j 3 from Fin.ext h3]
  exact outBAt_eq_outKAt t2 t3 x X n sb hx _ _ _ _ h2

/-! ## The grid and the index maps -/

/-- Point `t` of the grid [32, 2] is `(t / 2, t % 2)`. -/
theorem coords_val (t : Fin grid0.N) : (grid0.coords t 0).val = t.val / 2 ∧ (grid0.coords t 1).val = t.val % 2 := by
  have hN : grid0.N = 64 := N_0
  have ht := t.isLt
  have s0 : grid0.stride 0 = 2 := by decide
  have s1 : grid0.stride 1 = 1 := by decide
  refine ⟨?_, ?_⟩
  · show t.val / grid0.stride 0 % 32 = _
    rw [s0]; omega
  · show t.val / grid0.stride 1 % 2 = _
    rw [s1]; omega

/-- Either index map at coordinates `(n, s)` is block `(n, 0, s, 0)`. -/
theorem transform_0_eq (i : grid0.Coords) : cc0_transform_0 i = ![(i 0).val, 0, (i 1).val, 0] := by
  have h0 : (i 0).val < 32 := (i 0).isLt
  have h1 : (i 1).val < 2 := (i 1).isLt
  unfold cc0_transform_0
  simp only [BitVec.toNat_ofNat]
  rw [Nat.mod_eq_of_lt (show (i 0).val < 2 ^ 32 by omega), Nat.mod_eq_of_lt (show (i 1).val < 2 ^ 32 by omega)]
theorem transform_1_eq (i : grid0.Coords) : cc0_transform_1 i = ![(i 0).val, 0, (i 1).val, 0] := by
  have h0 : (i 0).val < 32 := (i 0).isLt
  have h1 : (i 1).val < 2 := (i 1).isLt
  unfold cc0_transform_1
  simp only [BitVec.toNat_ofNat]
  rw [Nat.mod_eq_of_lt (show (i 0).val < 2 ^ 32 by omega), Nat.mod_eq_of_lt (show (i 1).val < 2 ^ 32 by omega)]

/-- The windows' block indices at point `t`, at any contents of the tables (neither map reads one). -/
theorem index_0 (a : (pcfg0 (F := Ideal)).Adm) (t : Fin (cfg0 a).N) :
    ((cfg0 a).win 0).index t = ![(grid0.coords t 0).val, 0, (grid0.coords t 1).val, 0] :=
  transform_0_eq (grid0.coords t)
theorem index_1 (a : (pcfg0 (F := Ideal)).Adm) (t : Fin (cfg0 a).N) :
    ((cfg0 a).win 1).index t = ![(grid0.coords t 0).val, 0, (grid0.coords t 1).val, 0] :=
  transform_1_eq (grid0.coords t)

/-! ## A block of either window, read off its array -/

/-- The input window's block at point `t`, read off an array `A`, is rows `64 s … 64 s + 63` of the planes of `A[n]`, `(n, s)`
    the point's coordinates. -/
theorem read_blk0 (a : (pcfg0 (F := Ideal)).Adm) (t : Fin (cfg0 a).N) (A : SColK.Idx → EReal) (p : Fin 9) (s : Fin 64)
    (l : Fin 128) (h : Fin 128) (hh : h.val = 64 * (grid0.coords t 1).val + s.val) :
    ((((cfg0 a).win 0).blk t).view.read (Elt Ideal) A : SColB.Idx → EReal) (ix4 (0 : Fin 1) p s l)
      = A (ix4 (grid0.coords t 0) p h l) := by
  have hi := index_0 a t
  show A ((((cfg0 a).win 0).blk t).view.emb (ix4 (0 : Fin 1) p s l)) = A _
  refine congrArg A (funext fun ax => Fin.ext ?_)
  match ax with
  | ⟨0, _⟩ => show ((cfg0 a).win 0).index t (0 : Fin 4) * 1 + 1 * 0 = (grid0.coords t 0).val; rw [hi]; show (grid0.coords t 0).val * 1 + 1 * 0 = _; omega
  | ⟨1, _⟩ => show ((cfg0 a).win 0).index t (1 : Fin 4) * 9 + 1 * p.val = p.val; rw [hi]; show 0 * 9 + 1 * p.val = _; omega
  | ⟨2, _⟩ => show ((cfg0 a).win 0).index t (2 : Fin 4) * 64 + 1 * s.val = h.val; rw [hi, hh]; show (grid0.coords t 1).val * 64 + 1 * s.val = _; omega
  | ⟨3, _⟩ => show ((cfg0 a).win 0).index t (3 : Fin 4) * 128 + 1 * l.val = l.val; rw [hi]; show 0 * 128 + 1 * l.val = _; omega

/-- What a point's write-back writes, when the body leaves the block's products of the input block: the output window's
    block at `t` of the whole array's products. Stated for any input array `X` and tables. -/
theorem cut_outB_eq (a : (pcfg0 (F := Ideal)).Adm) (t : Fin (cfg0 a).N) (t2 : ST2.Idx → BitVec 32) (t3 : ST3.Idx → BitVec 32)
    (X : SColK.Idx → EReal) :
    ((cfg0 a).win 1).cut (grid0.coords t) (outB t2 t3 ((((cfg0 a).win 0).blk t).view.read (Elt Ideal) X))
      = (((cfg0 a).win 1).blk t).view.read (Elt Ideal) (outK t2 t3 X) := by
  have hi := index_1 a t
  funext y
  have y0 : (y (0 : Fin 4)).val < 1 := (y (0 : Fin 4)).isLt
  show outB t2 t3 _ (((cfg0 a).win 1).xinj (grid0.coords t) y) = outK t2 t3 X ((((cfg0 a).win 1).blk t).view.emb y)
  refine outB_eq_outK_at t2 t3 _ X (grid0.coords t 0) (grid0.coords t 1) (fun p s l h hh => read_blk0 a t X p s l h hh) _ _ ?_ ?_ ?_ ?_
  · show ((cfg0 a).win 1).index t (0 : Fin 4) * 1 + 1 * (y (0 : Fin 4)).val = (grid0.coords t 0).val
    rw [hi]; show (grid0.coords t 0).val * 1 + 1 * (y (0 : Fin 4)).val = _; omega
  · show ((cfg0 a).win 1).index t (1 : Fin 4) * 210 + 1 * (y (1 : Fin 4)).val = (y (1 : Fin 4)).val
    rw [hi]; show 0 * 210 + 1 * (y (1 : Fin 4)).val = _; omega
  · show ((cfg0 a).win 1).index t (2 : Fin 4) * 64 + 1 * (y (2 : Fin 4)).val = 64 * (grid0.coords t 1).val + (y (2 : Fin 4)).val
    rw [hi]; show (grid0.coords t 1).val * 64 + 1 * (y (2 : Fin 4)).val = _; omega
  · show ((cfg0 a).win 1).index t (3 : Fin 4) * 128 + 1 * (y (3 : Fin 4)).val = (y (3 : Fin 4)).val
    rw [hi]; show 0 * 128 + 1 * (y (3 : Fin 4)).val = _; omega

/-! ## The output blocks tile the result array, and every point writes its block back -/

/-- An index of the result array is in point `t`'s output block iff each coordinate is in the block's range on its axis. -/
theorem mem_blk1 (a : (pcfg0 (F := Ideal)).Adm) (t : Fin (cfg0 a).N) (i : SOutK.Idx) :
    i ∈ (((cfg0 a).win 1).blk t).view.set ↔ ∀ ax : Fin 4, ((cfg0 a).win 1).index t ax * S1x210x64x128.size ax ≤ (i ax).val
      ∧ (i ax).val < ((cfg0 a).win 1).index t ax * S1x210x64x128.size ax + S1x210x64x128.size ax := by
  have h : (((cfg0 a).win 1).blk t).view.set = (((cfg0 a).win 1).rect t).set := View.set_slice_whole main_v22 _
  rw [h]
  exact Rect.mem_set_unit

/-- Every point writes its output block back: the next point's block is another one (the row half alternates). -/
theorem flush_1 (a : (pcfg0 (F := Ideal)).Adm) (t : Fin (cfg0 a).N) : ((cfg0 a).win 1).flush t = true := by
  have hN : grid0.N = 64 := N_0
  have ht : t.val < grid0.N := t.isLt
  simp only [Pipeline.Window.flush, Bool.and_eq_true, Bool.or_eq_true, decide_eq_true_eq]
  refine ⟨rfl, ?_⟩
  by_cases h : t.val + 1 = grid0.N
  · exact Or.inl h
  · have hlt : t.val + 1 < grid0.N := by omega
    refine Or.inr ⟨hlt, fun e => ?_⟩
    have e2 := congrFun e (2 : Fin 4)
    rw [index_1 a, index_1 a] at e2
    have c1 := (coords_val ⟨t.val + 1, hlt⟩).2
    have c2 := (coords_val t).2
    change (grid0.coords ⟨t.val + 1, hlt⟩ 1).val = (grid0.coords t 1).val at e2
    rw [c1, c2] at e2
    change (t.val + 1) % 2 = t.val % 2 at e2
    omega

/-- Index `(n, r, h, w)` of the result array lies in the block of point `(n, h / 64)`. -/
theorem cover_1 (a : (pcfg0 (F := Ideal)).Adm) (i : SOutK.Idx) :
    ∃ t : Fin (cfg0 a).N, ((cfg0 a).win 1).flush t = true ∧ i ∈ (((cfg0 a).win 1).blk t).view.set := by
  have hN : grid0.N = 64 := N_0
  have i0 : (i 0).val < 32 := (i 0).isLt
  have i1 : (i 1).val < 210 := (i 1).isLt
  have i2 : (i 2).val < 128 := (i 2).isLt
  have i3 : (i 3).val < 128 := (i 3).isLt
  obtain ⟨t, tv⟩ : ∃ t : Fin grid0.N, t.val = (i 0).val * 2 + (i 2).val / 64 := ⟨⟨(i 0).val * 2 + (i 2).val / 64, by omega⟩, rfl⟩
  obtain ⟨c0, c1⟩ := coords_val t
  have hi := index_1 a t
  refine ⟨t, flush_1 a t, ?_⟩
  rw [mem_blk1]
  intro ax
  rw [hi]
  match ax with
  | ⟨0, _⟩ => show (grid0.coords t 0).val * 1 ≤ (i 0).val ∧ (i 0).val < (grid0.coords t 0).val * 1 + 1; omega
  | ⟨1, _⟩ => show 0 * 210 ≤ (i 1).val ∧ (i 1).val < 0 * 210 + 210; omega
  | ⟨2, _⟩ => show (grid0.coords t 1).val * 64 ≤ (i 2).val ∧ (i 2).val < (grid0.coords t 1).val * 64 + 64; omega
  | ⟨3, _⟩ => show 0 * 128 ≤ (i 3).val ∧ (i 3).val < 0 * 128 + 128; omega

/-! ## The array after the run -/

variable (m : (ℓ : Loc nD τ sig) → Buf (Elt Ideal) ℓ)

/-- What point `t` writes back is block `t` of the whole array's products of the input array as the region finds it. -/
theorem flushed_eq {c : Dev nD} (dat : Pipeline.Dat τ (Elt Ideal) Unit ℕ (UR sig nD τ) ℕ (cfgM m) c)
    (hafter : ∀ t : Fin (cfgM m).N, dat.after 1 t = Cert.Spec.outB (tbl m 0) (tbl m 1) (iblk m c 0 t)) (t : Fin (cfgM m).N) :
    dat.flushed 1 t = (((cfgM m).win 1).blk t).view.read (Elt Ideal) (Cert.Spec.outK (tbl m 0) (tbl m 1) (V m c main_v21)) := by
  have e : iblk m c 0 t = (((cfgM m).win 0).blk t).view.read (Elt Ideal) (V m c main_v21) := rfl
  show ((cfgM m).win 1).cut (grid0.coords t) (dat.after 1 t) = _
  rw [hafter, e]
  exact cut_outB_eq (adm m) t (tbl m 0) (tbl m 1) (V m c main_v21)

/-- The result array after the last point: the products of the whole input array, entry by entry. -/
theorem arrAt_out {c : Dev nD} (dat : Pipeline.Dat τ (Elt Ideal) Unit ℕ (UR sig nD τ) ℕ (cfgM m) c)
    (hafter : ∀ t : Fin (cfgM m).N, dat.after 1 t = Cert.Spec.outB (tbl m 0) (tbl m 1) (iblk m c 0 t)) :
    dat.arrAt 1 (cfgM m).N = Cert.Spec.outK (tbl m 0) (tbl m 1) (V m c main_v21) :=
  dat.arrAt_eq_of_cover 1 (Cert.Spec.outK (tbl m 0) (tbl m 1) (V m c main_v21)) (fun t _ => flushed_eq m dat hafter t)
    (cover_1 (adm m))

end Cert.KernelIdeal.HandValue
end
-- ==== Proof.KV.Col.lean ====
/-
  What the region's input array holds.

  Before the region the host turns the image `x : [4, 8, 128, 128]` into its nine shifted copies: `x` is padded by one zero
  on each side of the last two axes, the nine 128 × 128 windows of the padded planes at offsets `(i, j)`, `i, j < 3`, are
  taken, each is given a unit axis after the channel axis, the nine are joined along that axis in the order
  `(0,0), (0,1), (0,2), (1,0), …, (2,2)`, and the result `[4, 8, 9, 128, 128]` is read as `[4, 8, 9, 16384]` (`colK`) and
  then as `[32, 9, 128, 128]`, the array the region's input window is cut from.
-/
import proofs.«430841_j5506148073824_3_alg».proof.Proof.KI.Kit
import Idealize.ShloMosaic.Lib.StableHlo.Run
import Idealize.ShloMosaic.PureOps.Ideal

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.StableHlo

/-! ## The unfolded input as one term of the image -/

/-- The integer zero the padding value is converted from. -/
def colC : (⟨S_, .i32⟩ : BufTy).Contents (Elt Ideal) :=
  constantI S_ 32 0#32
/-- The padding value: zero. -/
def colZero : (⟨S_, .f32⟩ : BufTy).Contents (Elt Ideal) :=
  sitofp (F := Ideal) .f32 colC
/-- The image padded by one zero on each side of the last two axes. -/
def colPad (x : (⟨S4x8x128x128, .f32⟩ : BufTy).Contents (Elt Ideal)) : (⟨S4x8x130x130, .f32⟩ : BufTy).Contents (Elt Ideal) :=
  pad S4x8x130x130 ![0, 0, 1, 1] ![0, 0, 1, 1] ![0, 0, 0, 0] x colZero pads_S4x8x128x128_S4x8x130x130_000_000_110_110 h_S_
/-- The window at offset (0, 0) of the padded planes. -/
def colS00 (x : (⟨S4x8x128x128, .f32⟩ : BufTy).Contents (Elt Ideal)) : (⟨S4x8x128x128, .f32⟩ : BufTy).Contents (Elt Ideal) :=
  extractStridedSlice S4x8x128x128 ![0, 0, 0, 0] (colPad x) slices_S4x8x130x130_S4x8x128x128_0_0_0_0
/-- The window at offset (0, 1) of the padded planes. -/
def colS01 (x : (⟨S4x8x128x128, .f32⟩ : BufTy).Contents (Elt Ideal)) : (⟨S4x8x128x128, .f32⟩ : BufTy).Contents (Elt Ideal) :=
  extractStridedSlice S4x8x128x128 ![0, 0, 0, 1] (colPad x) slices_S4x8x130x130_S4x8x128x128_0_0_0_1
/-- The window at offset (0, 2) of the padded planes. -/
def colS02 (x : (⟨S4x8x128x128, .f32⟩ : BufTy).Contents (Elt Ideal)) : (⟨S4x8x128x128, .f32⟩ : BufTy).Contents (Elt Ideal) :=
  extractStridedSlice S4x8x128x128 ![0, 0, 0, 2] (colPad x) slices_S4x8x130x130_S4x8x128x128_0_0_0_2
/-- The window at offset (1, 0) of the padded planes. -/
def colS10 (x : (⟨S4x8x128x128, .f32⟩ : BufTy).Contents (Elt Ideal)) : (⟨S4x8x128x128, .f32⟩ : BufTy).Contents (Elt Ideal) :=
  extractStridedSlice S4x8x128x128 ![0, 0, 1, 0] (colPad x) slices_S4x8x130x130_S4x8x128x128_0_0_1_0
/-- The window at offset (1, 1) of the padded planes. -/
def colS11 (x : (⟨S4x8x128x128, .f32⟩ : BufTy).Contents (Elt Ideal)) : (⟨S4x8x128x128, .f32⟩ : BufTy).Contents (Elt Ideal) :=
  extractStridedSlice S4x8x128x128 ![0, 0, 1, 1] (colPad x) slices_S4x8x130x130_S4x8x128x128_0_0_1_1
/-- The window at offset (1, 2) of the padded planes. -/
def colS12 (x : (⟨S4x8x128x128, .f32⟩ : BufTy).Contents (Elt Ideal)) : (⟨S4x8x128x128, .f32⟩ : BufTy).Contents (Elt Ideal) :=
  extractStridedSlice S4x8x128x128 ![0, 0, 1, 2] (colPad x) slices_S4x8x130x130_S4x8x128x128_0_0_1_2
/-- The window at offset (2, 0) of the padded planes. -/
def colS20 (x : (⟨S4x8x128x128, .f32⟩ : BufTy).Contents (Elt Ideal)) : (⟨S4x8x128x128, .f32⟩ : BufTy).Contents (Elt Ideal) :=
  extractStridedSlice S4x8x128x128 ![0, 0, 2, 0] (colPad x) slices_S4x8x130x130_S4x8x128x128_0_0_2_0
/-- The window at offset (2, 1) of the padded planes. -/
def colS21 (x : (⟨S4x8x128x128, .f32⟩ : BufTy).Contents (Elt Ideal)) : (⟨S4x8x128x128, .f32⟩ : BufTy).Contents (Elt Ideal) :=
  extractStridedSlice S4x8x128x128 ![0, 0, 2, 1] (colPad x) slices_S4x8x130x130_S4x8x128x128_0_0_2_1
/-- The window at offset (2, 2) of the padded planes. -/
def colS22 (x : (⟨S4x8x128x128, .f32⟩ : BufTy).Contents (Elt Ideal)) : (⟨S4x8x128x128, .f32⟩ : BufTy).Contents (Elt Ideal) :=
  extractStridedSlice S4x8x128x128 ![0, 0, 2, 2] (colPad x) slices_S4x8x130x130_S4x8x128x128_0_0_2_2
/-- The same with a unit axis after the channel axis. -/
def colB00 (x : (⟨S4x8x128x128, .f32⟩ : BufTy).Contents (Elt Ideal)) : (⟨S4x8x1x128x128, .f32⟩ : BufTy).Contents (Elt Ideal) :=
  broadcastInDim S4x8x1x128x128 ![0, 1, 3, 4] bcast_S4x8x128x128_S4x8x1x128x128_0_1_3_4 (colS00 x)
/-- The same with a unit axis after the channel axis. -/
def colB01 (x : (⟨S4x8x128x128, .f32⟩ : BufTy).Contents (Elt Ideal)) : (⟨S4x8x1x128x128, .f32⟩ : BufTy).Contents (Elt Ideal) :=
  broadcastInDim S4x8x1x128x128 ![0, 1, 3, 4] bcast_S4x8x128x128_S4x8x1x128x128_0_1_3_4 (colS01 x)
/-- The same with a unit axis after the channel axis. -/
def colB02 (x : (⟨S4x8x128x128, .f32⟩ : BufTy).Contents (Elt Ideal)) : (⟨S4x8x1x128x128, .f32⟩ : BufTy).Contents (Elt Ideal) :=
  broadcastInDim S4x8x1x128x128 ![0, 1, 3, 4] bcast_S4x8x128x128_S4x8x1x128x128_0_1_3_4 (colS02 x)
/-- The same with a unit axis after the channel axis. -/
def colB10 (x : (⟨S4x8x128x128, .f32⟩ : BufTy).Contents (Elt Ideal)) : (⟨S4x8x1x128x128, .f32⟩ : BufTy).Contents (Elt Ideal) :=
  broadcastInDim S4x8x1x128x128 ![0, 1, 3, 4] bcast_S4x8x128x128_S4x8x1x128x128_0_1_3_4 (colS10 x)
/-- The same with a unit axis after the channel axis. -/
def colB11 (x : (⟨S4x8x128x128, .f32⟩ : BufTy).Contents (Elt Ideal)) : (⟨S4x8x1x128x128, .f32⟩ : BufTy).Contents (Elt Ideal) :=
  broadcastInDim S4x8x1x128x128 ![0, 1, 3, 4] bcast_S4x8x128x128_S4x8x1x128x128_0_1_3_4 (colS11 x)
/-- The same with a unit axis after the channel axis. -/
def colB12 (x : (⟨S4x8x128x128, .f32⟩ : BufTy).Contents (Elt Ideal)) : (⟨S4x8x1x128x128, .f32⟩ : BufTy).Contents (Elt Ideal) :=
  broadcastInDim S4x8x1x128x128 ![0, 1, 3, 4] bcast_S4x8x128x128_S4x8x1x128x128_0_1_3_4 (colS12 x)
/-- The same with a unit axis after the channel axis. -/
def colB20 (x : (⟨S4x8x128x128, .f32⟩ : BufTy).Contents (Elt Ideal)) : (⟨S4x8x1x128x128, .f32⟩ : BufTy).Contents (Elt Ideal) :=
  broadcastInDim S4x8x1x128x128 ![0, 1, 3, 4] bcast_S4x8x128x128_S4x8x1x128x128_0_1_3_4 (colS20 x)
/-- The same with a unit axis after the channel axis. -/
def colB21 (x : (⟨S4x8x128x128, .f32⟩ : BufTy).Contents (Elt Ideal)) : (⟨S4x8x1x128x128, .f32⟩ : BufTy).Contents (Elt Ideal) :=
  broadcastInDim S4x8x1x128x128 ![0, 1, 3, 4] bcast_S4x8x128x128_S4x8x1x128x128_0_1_3_4 (colS21 x)
/-- The same with a unit axis after the channel axis. -/
def colB22 (x : (⟨S4x8x128x128, .f32⟩ : BufTy).Contents (Elt Ideal)) : (⟨S4x8x1x128x128, .f32⟩ : BufTy).Contents (Elt Ideal) :=
  broadcastInDim S4x8x1x128x128 ![0, 1, 3, 4] bcast_S4x8x128x128_S4x8x1x128x128_0_1_3_4 (colS22 x)
/-- The nine joined along the new axis. -/
def colCat (x : (⟨S4x8x128x128, .f32⟩ : BufTy).Contents (Elt Ideal)) : (⟨S4x8x9x128x128, .f32⟩ : BufTy).Contents (Elt Ideal) :=
  concatenate S4x8x9x128x128 2 [⟨S4x8x1x128x128, colB00 x⟩, ⟨S4x8x1x128x128, colB01 x⟩, ⟨S4x8x1x128x128, colB02 x⟩, ⟨S4x8x1x128x128, colB10 x⟩, ⟨S4x8x1x128x128, colB11 x⟩, ⟨S4x8x1x128x128, colB12 x⟩, ⟨S4x8x1x128x128, colB20 x⟩, ⟨S4x8x1x128x128, colB21 x⟩, ⟨S4x8x1x128x128, colB22 x⟩] concatenates_S4x8x1x128x128_S4x8x1x128x128_S4x8x1x128x128_S4x8x1x128x128_S4x8x1x128x128_S4x8x1x128x128_S4x8x1x128x128_S4x8x1x128x128_S4x8x1x128x128_S4x8x9x128x128_d2
/-- The unfolded input: each window's 128 × 128 plane read as one row of 16384 entries. -/
def colK (x : (⟨S4x8x128x128, .f32⟩ : BufTy).Contents (Elt Ideal)) : (⟨S4x8x9x16384, .f32⟩ : BufTy).Contents (Elt Ideal) :=
  shapeCast _ (colCat x) shapeCasts_S4x8x9x128x128_S4x8x9x16384

/-! ## The region's input array is the unfolded input, batch and channel merged -/

set_option maxHeartbeats 1000000 in
theorem V_main_v21 (m : (ℓ : Loc nD τ sig) → Buf (Elt Ideal) ℓ) (c : Dev nD) :
    V m c main_v21 = shapeCast S32x9x128x128 (colK (m ((c : Thread nD τ).loc main_arg0))) shapeCasts_S4x8x9x16384_S32x9x128x128 := by
  dsimp only [V, V0]
  simp only [hostOps0, hostOps0_1, hostOps0_2, List.flatten_cons, List.flatten_nil, List.append_nil, List.cons_append,
    List.nil_append]
  simp only [after_cons, after_nil]
  rw [reshape_result, reshape_result, nary_result]
  dsimp only [Matrix.cons_val]
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide)
    | (rw [nary_result_ne]; rotate_left; decide))
  rfl

end Cert.KernelIdeal.HandValue

end
-- ==== Proof.Reshape.lean ====
/-
  The specification's array and the kernel's are one array in two layouts.

  The kernel sees batch and channel merged and each row of 16384 entries as a 128 × 128 plane. Reading the kernel's
  result (computed from the unfolded input in the kernel's layout) back in the result's layout gives the
  specification's array: both layouts keep the entries in the same row-major order, and the products the tables name
  are taken entry by entry, at the same table words.
-/
import proofs.«430841_j5506148073824_3_alg».proof.Proof.SpecK
import Idealize.ShloMosaic.Lib.Pipeline.Value

noncomputable section

namespace Cert.Spec

open Idealize.ShloMosaic Idealize.ShloMosaic.ValueIdx

/-! ## The two layouts name the same entries

The result `[4, 8, 210, 16384]` and the kernel's `[32, 210, 128, 128]` hold the same entries in row-major order, and so
do the unfolded input `[4, 8, 9, 16384]` and the kernel's `[32, 9, 128, 128]`: entry `(b, c, r, l)` is entry
`(8 b + c, r, l / 128, l % 128)`, since `((8 b + c) · R + r) · 16384 + l = (((8 b + c) · R + r) · 128 + l / 128) · 128 + l % 128`. -/

/-- Batch `b` and channel `c` merged. -/
def nOf (b : Fin 4) (c : Fin 8) : Fin 32 := ⟨b.val * 8 + c.val, by have := b.isLt; have := c.isLt; omega⟩
/-- The row of the 128 × 128 plane that position `l` of a row of 16384 falls in. -/
def hOf (l : Fin 16384) : Fin 128 := ⟨l.val / 128, by have := l.isLt; omega⟩
/-- The column of the 128 × 128 plane that position `l` of a row of 16384 falls in. -/
def wOf (l : Fin 16384) : Fin 128 := ⟨l.val % 128, by omega⟩

/-- The unfolded input: the two names of an entry have the same row-major position. -/
theorem col_pos (b : Fin 4) (c : Fin 8) (k : Fin 9) (l : Fin 16384) :
    (SCol.rowMajor (ix4 b c k l)).val = (SColK.rowMajor (ix4 (nOf b c) k (hOf l) (wOf l))).val := by
  rw [Shape.rowMajor_val_four, Shape.rowMajor_val_four]
  have := b.isLt; have := c.isLt; have := k.isLt; have := l.isLt
  show ((b.val * 8 + c.val) * 9 + k.val) * 16384 + l.val
    = (((b.val * 8 + c.val) * 9 + k.val) * 128 + l.val / 128) * 128 + l.val % 128
  omega

/-- The result: the two names of an entry have the same row-major position. -/
theorem out_pos (b : Fin 4) (c : Fin 8) (r : Fin 210) (l : Fin 16384) :
    (SOutK.rowMajor (ix4 (nOf b c) r (hOf l) (wOf l))).val = (SOut.rowMajor (ix4 b c r l)).val := by
  rw [Shape.rowMajor_val_four, Shape.rowMajor_val_four]
  have := b.isLt; have := c.isLt; have := r.isLt; have := l.isLt
  show (((b.val * 8 + c.val) * 210 + r.val) * 128 + l.val / 128) * 128 + l.val % 128
    = ((b.val * 8 + c.val) * 210 + r.val) * 16384 + l.val
  omega

variable (C : SCol.Idx → EReal) (t2 : ST2.Idx → BitVec 32) (t3 : ST3.Idx → BitVec 32)

/-- The unfolded input in the kernel's layout, read at the kernel's name of an entry. -/
theorem colK_at (h1 : SCol.ShapeCasts SColK) (b : Fin 4) (c : Fin 8) (k : Fin 9) (l : Fin 16384) :
    shapeCast SColK C h1 (ix4 (nOf b c) k (hOf l) (wOf l)) = C (ix4 b c k l) :=
  shapeCast_apply C h1 (ix4 (nOf b c) k (hOf l) (wOf l)) (ix4 b c k l) (col_pos b c k l)

/-- A second-order row in the kernel's layout is the same product. -/
theorem ht2K_cast (h1 : SCol.ShapeCasts SColK) (b : Fin 4) (c : Fin 8) (r : Fin 45) (l : Fin 16384) :
    ht2K t2 (shapeCast SColK C h1) (nOf b c) r (hOf l) (wOf l) = ht2 C t2 b c r l := by
  unfold ht2K ht2
  rw [colK_at, colK_at]

/-- A third-order row in the kernel's layout is the same product. -/
theorem ht3K_cast (h1 : SCol.ShapeCasts SColK) (b : Fin 4) (c : Fin 8) (r : Fin 165) (l : Fin 16384) :
    ht3K t2 t3 (shapeCast SColK C h1) (nOf b c) r (hOf l) (wOf l) = ht3 C t2 t3 b c r l := by
  unfold ht3K ht3
  rw [colK_at, ht2K_cast]

/-- The kernel's result array over the unfolded input in the kernel's layout, read back in the result's layout, is the
    specification's array. -/
theorem outK_reshape (C : Cert.Spec.SCol.Idx → EReal) (t2 : Cert.Spec.ST2.Idx → BitVec 32)
    (t3 : Cert.Spec.ST3.Idx → BitVec 32) (h1 : Cert.Spec.SCol.ShapeCasts Cert.Spec.SColK)
    (h2 : Cert.Spec.SOutK.ShapeCasts Cert.Spec.SOut) :
    shapeCast Cert.Spec.SOut (Cert.Spec.outK t2 t3 (shapeCast Cert.Spec.SColK C h1)) h2 = Cert.Spec.out C t2 t3 := by
  funext j
  obtain ⟨b, c, r, l, rfl⟩ : ∃ (b : Fin 4) (c : Fin 8) (r : Fin 210) (l : Fin 16384), j = ix4 b c r l :=
    ⟨j 0, j 1, j 2, j 3, eq_ix4 j⟩
  rw [out_ix4, shapeCast_apply _ h2 (ix4 b c r l) (ix4 (nOf b c) r (hOf l) (wOf l)) (out_pos b c r l), outK_ix4]
  unfold outKAt outAt
  by_cases h : r.val < 45
  · rw [dif_pos h, dif_pos h, ht2K_cast]
  · rw [dif_neg h, dif_neg h, ht3K_cast]

end Cert.Spec

end
-- ==== Proof.KV.Value.lean ====
/-
  The kernel program's result over the extended reals.

  One grid point leaves in its output block the rows the tables name of its input block (`outsAt0_eq`: the run's 210
  stores read back are `outB`). The blocks of the 64 points tile the output array, block `(n, s)` of the result being
  `outB` of block `(n, s)` of the region's input array, so the output array is `outK` of that input array
  (`arr_eq`). The input array is the unfolded input `colK x` reshaped to `[32, 9, 128, 128]`, and the program's
  result is the output array reshaped to `[4, 8, 210, 16384]`; the two reshapes merge and split axes without moving
  an entry, so the result is the specification's `out` of the unfolded input and the two tables (`kernel_value`).
-/
import proofs.«430841_j5506148073824_3_alg».proof.Proof.KI.Frame
import proofs.«430841_j5506148073824_3_alg».proof.Proof.KV.Pieces
import proofs.«430841_j5506148073824_3_alg».proof.Proof.KV.Blocks
import proofs.«430841_j5506148073824_3_alg».proof.Proof.KV.Col
import proofs.«430841_j5506148073824_3_alg».proof.Proof.Reshape

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg)

/-- What the body leaves in the output block at point `t`: the rows the tables name of the point's input block. -/
theorem outsAt0_eq (hT : TabOk m) (c : Dev nD) (t : Fin (cfgM m).N) :
    outsAt0 (F := Ideal) m hT c t = Cert.Spec.outB (tbl m 0) (tbl m 1) (iblk m c 0 t) := by
  unfold outsAt0 out0_1
  rw [View.read_writes_junk_eq_canon]
  funext j
  exact out_canon c _ _ _ (iblk m c 0 t) (tbl m 0) (tbl m 1) hT.h0 hT.h1a hT.h1b j

/-- The output array after the last point. -/
theorem arr_eq (hT : TabOk m) (c : Dev nD) :
    (dats m hT 0 c).arrAt 1 (cfgM m).N = Cert.Spec.outK (tbl m 0) (tbl m 1) (V m c main_v21) :=
  arrAt_out m (dats m hT 0 c) (fun t => (after0_1 m hT c t).trans (outsAt0_eq m hT c t))

/-- THE KERNEL PROGRAM'S RUN: under the tables' range, every execution ends with the result at the specification's
    `out` of the unfolded input and the tables, the arguments unchanged. -/
theorem kernel_value (hT : TabOk m) :
    θ_run defs (onTc (τ := τ) (main (F := Ideal))) ⟨m, fun _ => 0, ρ⟩ (fun r => ∀ c : Dev nD,
      r.2.mem ((c.tc : Thread nD τ).loc main_v23)
          = Cert.Spec.out (colK (m ((c.tc : Thread nD τ).loc main_arg0))) (tbl m 0) (tbl m 1)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run defs _ _).mono (fun _ h c => ⟨(h c).1.trans (by
      rw [arr_eq m hT c, V_main_v21 m c]
      exact Cert.Spec.outK_reshape _ _ _ _ _), (h c).2⟩) (post_of m ρ hT)

end Cert.KernelIdeal.HandValue

end
-- ==== Proof.KV.ColRef.lean ====
/-
  The unfolded input is the reference's own.

  The reference program starts with the same host operations as the kernel's program: the zero, the padding, the nine
  windows, the nine unit axes, the joining, the reading of each plane as a row. Its reader names the value of each;
  the value after the last of them is `colK`.
-/
import proofs.«430841_j5506148073824_3_alg».proof.Proof.KV.Col
import proofs.«430841_j5506148073824_3_alg».proof.Proof.RefReadP

noncomputable section

namespace Cert.KernelIdeal.HandValue

open Cert.KernelIdeal Cert.KernelIdeal.Gen Cert.KernelIdeal.Hand
open Idealize.ShloMosaic

/-- The kernel's program and the reference build the unfolded input by the same operations of the image, in the same order:
    the two terms are one. -/
theorem colK_eq_ref (x : (⟨S4x8x128x128, .f32⟩ : BufTy).Contents (Elt Ideal)) :
    colK x = Cert.ReferenceIdeal.ReadP.val_main_v20 (F := Ideal) x := rfl

end Cert.KernelIdeal.HandValue

end
-- ==== Proof.RefValue.lean ====
import proofs.«430841_j5506148073824_3_alg».proof.Proof.RefRunP
import proofs.«430841_j5506148073824_3_alg».proof.Proof.RefReadP
import proofs.«430841_j5506148073824_3_alg».proof.Proof.Spec
import Idealize.ShloMosaic.Lib.StableHlo.Predicate
import Idealize.ShloMosaic.Lib.Pipeline.Value
import Idealize.ShloMosaic.Lib.ValueIdx

/-
  The reference program's value, over the extended reals, is the specification's.

  The reference gathers rows of the unfolded input `C` by table words, multiplies them pairwise (the second-order
  rows), gathers again (a patch row by the first column of the second table, a second-order row by its second
  column), multiplies (the third-order rows) and stacks the two families along axis 2. A gather along axis 2 reads,
  at `(b, c, r, l)`, the operand at `(b, c, k, l)` where `k` is the start index of row `r` read as a signed integer
  and clamped into the axis. The start index of row `r` is the table word, the axis' extent added when the word is
  negative. On the domain of comparison every table word is a position of its axis: it is not negative, so nothing
  is added, and the clamp leaves it as it is. Hence `k` is the word itself, which is what the specification reads.
-/

noncomputable section

namespace Cert.RefValue

open Idealize.ShloMosaic Idealize.ShloMosaic.ValueIdx Idealize.ShloMosaic.StableHlo.Predicate
open Cert.ReferenceIdeal Cert.ReferenceIdeal.Gen Cert.ReferenceIdeal.ReadP

/-! ## Lists of axes: an entry of a list equal to a literal list, at a position equal to a literal -/

theorem getElem_of_eqs {β : Type} {L L' : List β} (h : L = L') {i i' : Nat} (hi : i = i') (w : i < L.length)
    (w' : i' < L'.length) : L[i]'w = L'[i']'w' := by
  subst h; subst hi; rfl

/-! ## A gather of rows along axis 2, read at an index

Operand `[B, K, N, M]`, start indices `[R, 1]`, result `[B, K, R, M]`; offset axes 0, 1, 3 of the result, the operand's
axis 2 collapsed and start-indexed, the index vector on axis 1 of the start indices. -/

section Gather
variable {α : Type} {B K N R M w : Nat}
  (d : GatherDims ⟨4, ![B, K, N, M]⟩ ⟨2, ![R, 1]⟩ ⟨4, ![B, K, R, M]⟩)
  (hod : d.offsetDims = [0, 1, 3]) (hcoll : d.collapsedSliceDims = [2]) (hob : d.operandBatchingDims = [])
  (hsim : d.startIndexMap = [2]) (hivd : d.indexVectorDim = 1)

include hcoll hob in
/-- The operand's axes that are kept: all but the collapsed one. -/
theorem sKept_eq : d.sKept = [0, 1, 3] := by
  show Shape.kept _ (d.collapsedSliceDims ++ d.operandBatchingDims) = _
  rw [hcoll, hob]; rfl

include hod in
/-- The result's batch axes: the one that is not an offset axis. -/
theorem batchDims_eq : d.batchDims = [2] := by
  show Shape.kept _ d.offsetDims = _
  rw [hod]; rfl

include hivd in
/-- The start indices' axes but the index vector's. -/
theorem siKept_eq : d.siKept = [0] := by
  show List.filter _ _ = _
  rw [hivd]; rfl

include hod hcoll hob hsim in
/-- On an offset axis `a` (position `k` among the kept axes, result axis `a` too) the operand index is the result's
    coordinate. -/
theorem operandIdx_offset (j : (⟨4, ![B, K, R, M]⟩ : Shape).Idx) (idx : IVec ⟨2, ![R, 1]⟩ w)
    (a : Fin 4) (ha2 : a ≠ 2) (k : Nat) (hk : k < 3) (hak : ([0, 1, 3] : List (Fin 4)).idxOf a = k) (hka : ([0, 1, 3] : List (Fin 4))[k] = a) :
    (d.operandIdx j idx a).val = (j a).val := by
  have hsK := sKept_eq d hcoll hob
  have hmem : a ∈ ([0, 1, 3] : List (Fin 4)) := by rw [← hka]; exact List.getElem_mem _
  have hb : a ∉ d.operandBatchingDims := by rw [hob]; exact List.not_mem_nil
  have hns : a ∉ d.startIndexMap := by
    rw [hsim]; intro h; exact ha2 (List.mem_singleton.mp h)
  have hm : a ∈ d.sKept := by rw [hsK]; exact hmem
  show d.start j idx a + d.batchCoord j a + d.offCoord j a = _
  rw [d.batchCoord_eq_zero _ _ hb]
  unfold GatherDims.start GatherDims.offCoord
  rw [dif_neg hns, dif_pos hm, Nat.add_zero, Nat.zero_add]
  have e : d.offsetDims[d.sKept.idxOf a]'(by rw [d.offset_length]; exact List.idxOf_lt_length_iff.2 hm) = a := by
    rw [getElem_of_eqs hod (show d.sKept.idxOf a = k by rw [hsK]; exact hak) _ hk]; exact hka
  rw [e]

end Gather

section GatherRow
variable {α : Type} {B K N R M w : Nat}
  (d : GatherDims ⟨4, ![B, K, N, M]⟩ ⟨2, ![R, 1]⟩ ⟨4, ![B, K, R, M]⟩)
  (hod : d.offsetDims = [0, 1, 3]) (hcoll : d.collapsedSliceDims = [2]) (hob : d.operandBatchingDims = [])
  (hsim : d.startIndexMap = [2]) (hivd : d.indexVectorDim = 1)

include hod hsim hivd in
/-- Where result index `(b, c, r, l)` reads its start index: row `r` of the column of start indices. -/
theorem siIdx_row (b : Fin B) (c : Fin K) (r : Fin R) (l : Fin M) (hm : (2 : Fin 4) ∈ d.startIndexMap) :
    d.siIdx (ix4 b c r l) ⟨d.startIndexMap.idxOf 2, List.idxOf_lt_length_iff.2 hm⟩ = ix2 r (0 : Fin 1) := by
  funext b'
  match b' with
  | ⟨0, _⟩ =>
    unfold GatherDims.siIdx
    rw [dif_neg (by rw [hivd]; show ¬ (0 : Nat) = 1; decide)]
    unfold GatherDims.siCoord
    refine Fin.ext ?_
    have hmem : (⟨0, by decide⟩ : Fin 2) ∈ d.siKept := by rw [siKept_eq d hivd]; exact List.mem_singleton.mpr rfl
    have e : d.batchDims[d.siKept.idxOf (⟨0, by decide⟩ : Fin 2)]'(by
        rw [d.batch_length]; exact List.idxOf_lt_length_iff.2 hmem) = (2 : Fin 4) := by
      rw [getElem_of_eqs (batchDims_eq d hod) (show d.siKept.idxOf (⟨0, by decide⟩ : Fin 2) = 0 by rw [siKept_eq d hivd]; rfl) _
        (Nat.zero_lt_succ 0)]; rfl
    simp only [Fin.val_cast]
    rw [e]
  | ⟨1, _⟩ =>
    unfold GatherDims.siIdx
    rw [dif_pos (by rw [hivd])]
    refine Fin.ext ?_
    show List.idxOf (2 : Fin 4) d.startIndexMap = 0
    rw [hsim]; rfl

include hod hcoll hob hsim hivd in
/-- On the collapsed axis the operand index is the start index of row `r`, read signed and clamped into the axis. -/
theorem operandIdx_row (b : Fin B) (c : Fin K) (r : Fin R) (l : Fin M) (idx : IVec ⟨2, ![R, 1]⟩ w) :
    (d.operandIdx (ix4 b c r l) idx 2).val = min (idx (ix2 r (0 : Fin 1))).toInt.toNat (N - 1) := by
  have hb : (2 : Fin 4) ∉ d.operandBatchingDims := by rw [hob]; exact List.not_mem_nil
  have hk : (2 : Fin 4) ∉ d.sKept := by
    rw [sKept_eq d hcoll hob]; exact (by decide : (2 : Fin 4) ∉ ([0, 1, 3] : List (Fin 4)))
  have hm : (2 : Fin 4) ∈ d.startIndexMap := by rw [hsim]; exact List.mem_singleton.mpr rfl
  have hsl : d.sliceSizes 2 = 1 := d.slice_collapsed 2 (by rw [hcoll]; exact List.mem_singleton.mpr rfl)
  show d.start (ix4 b c r l) idx 2 + d.batchCoord (ix4 b c r l) 2 + d.offCoord (ix4 b c r l) 2 = _
  rw [d.batchCoord_eq_zero _ _ hb, d.offCoord_eq_zero _ _ hk]
  simp only [Nat.add_zero]
  unfold GatherDims.start
  rw [dif_pos hm, hsl, siIdx_row d hod hsim hivd b c r l hm]
  rfl

include hod hcoll hob hsim hivd in
/-- THE GATHER READ AT `(b, c, r, l)`: the operand at `(b, c, k, l)`, `k` the start index of row `r` read signed and
    clamped into `[0, N − 1]`. -/
theorem gather_rows_apply (hN : 0 < N) (x : (⟨4, ![B, K, N, M]⟩ : Shape).Idx → α) (idx : IVec ⟨2, ![R, 1]⟩ w)
    (b : Fin B) (c : Fin K) (r : Fin R) (l : Fin M) :
    Host.gather d x idx (ix4 b c r l)
      = x (ix4 b c ⟨min (idx (ix2 r (0 : Fin 1))).toInt.toNat (N - 1), by omega⟩ l) := by
  unfold Host.gather
  congr 1
  funext a
  match a with
  | ⟨0, _⟩ => exact Fin.ext (operandIdx_offset d hod hcoll hob hsim (ix4 b c r l) idx 0 (by decide) 0 (by decide) rfl rfl)
  | ⟨1, _⟩ => exact Fin.ext (operandIdx_offset d hod hcoll hob hsim (ix4 b c r l) idx 1 (by decide) 1 (by decide) rfl rfl)
  | ⟨2, _⟩ => exact Fin.ext (operandIdx_row d hod hcoll hob hsim hivd b c r l idx)
  | ⟨3, _⟩ => exact Fin.ext (operandIdx_offset d hod hcoll hob hsim (ix4 b c r l) idx 3 (by decide) 2 (by decide) rfl rfl)

end GatherRow

/-! ## Table words: a small word is not negative, reads the same signed, and is its own clamp -/

/-- A word below 2³¹ is not negative: the signed comparison with zero is the bit 0. -/
theorem slt_zero_of_small {w : BitVec 32} (h : w.toNat < 2 ^ 31) : IntOp.cmpi .slt w 0#32 = 0#1 := by
  refine eq_zero_of_ne_one fun h1 => ?_
  have h2 := (slt_iff_toNat h (by decide)).mp h1
  exact absurd h2 (Nat.not_lt_zero _)

/-- A word below 2³¹ read as a signed integer, then as a natural number, is its value. -/
theorem toInt_toNat_of_small {w : BitVec 32} (h : w.toNat < 2 ^ 31) : w.toInt.toNat = w.toNat := by
  rw [toInt_eq_toNat_of_lt h]; exact Int.toNat_natCast _

/-- Two indices that differ in the name of one coordinate's value. -/
theorem ix4_congr {n0 n1 n2 n3 : Nat} (b : Fin n0) (c : Fin n1) {k k' : Fin n2} (l : Fin n3) (h : k.val = k'.val) :
    ix4 b c k l = ix4 b c k' l := by
  rw [Fin.ext h]

/-! ## The stack of two arrays along axis 2, read at an index -/

section Stack
variable {α : Type} {B K R₁ R₂ R M : Nat}

/-- A row below the first array's extent reads the first array. -/
theorem stack_lt (A₁ : (⟨4, ![B, K, R₁, M]⟩ : Shape).Idx → α) (A₂ : (⟨4, ![B, K, R₂, M]⟩ : Shape).Idx → α)
    (h : Shape.Concatenates [(⟨4, ![B, K, R₁, M]⟩ : Shape), ⟨4, ![B, K, R₂, M]⟩] ⟨4, ![B, K, R, M]⟩ 2)
    (b : Fin B) (c : Fin K) (r : Fin R) (l : Fin M) (hr : r.val < R₁) :
    concatenate ⟨4, ![B, K, R, M]⟩ 2 [⟨⟨4, ![B, K, R₁, M]⟩, A₁⟩, ⟨⟨4, ![B, K, R₂, M]⟩, A₂⟩] h (ix4 b c r l)
      = A₁ (ix4 b c ⟨r.val, hr⟩ l) :=
  concatenate_pair_apply_left 2 A₁ A₂ h (ix4 b c r l) rfl (ix4 b c ⟨r.val, hr⟩ l) (fun a => match a with
    | ⟨0, _⟩ => rfl
    | ⟨1, _⟩ => rfl
    | ⟨2, _⟩ => rfl
    | ⟨3, _⟩ => rfl)

/-- A row at or past the first array's extent reads the second array, that extent less. -/
theorem stack_ge (A₁ : (⟨4, ![B, K, R₁, M]⟩ : Shape).Idx → α) (A₂ : (⟨4, ![B, K, R₂, M]⟩ : Shape).Idx → α)
    (h : Shape.Concatenates [(⟨4, ![B, K, R₁, M]⟩ : Shape), ⟨4, ![B, K, R₂, M]⟩] ⟨4, ![B, K, R, M]⟩ 2)
    (b : Fin B) (c : Fin K) (r : Fin R) (l : Fin M) (hr : R₁ ≤ r.val) (hr₂ : r.val - R₁ < R₂) :
    concatenate ⟨4, ![B, K, R, M]⟩ 2 [⟨⟨4, ![B, K, R₁, M]⟩, A₁⟩, ⟨⟨4, ![B, K, R₂, M]⟩, A₂⟩] h (ix4 b c r l)
      = A₂ (ix4 b c ⟨r.val - R₁, hr₂⟩ l) :=
  concatenate_pair_apply_right 2 A₁ A₂ h (ix4 b c r l) rfl rfl (ix4 b c ⟨r.val - R₁, hr₂⟩ l) (fun a => match a with
    | ⟨0, _⟩ => fun _ => rfl
    | ⟨1, _⟩ => fun _ => rfl
    | ⟨2, _⟩ => fun hne => absurd rfl hne
    | ⟨3, _⟩ => fun _ => rfl)
    (by show r.val - R₁ + R₁ = r.val; omega)

end Stack

/-- The first table's first column: row `r` of the reshaped column is the table word `[r, 0]`. -/
theorem v22_at (t2 : (⟨S45x2, .i32⟩ : BufTy).Contents (Elt Ideal)) (r : Fin 45) :
    val_main_v22 (F := Ideal) t2 (ix1 r) = t2 (ix2 r (0 : Fin 2)) := by
  rw [val_main_v22_apply, val_main_v21_apply]
  congr 1
  funext a
  match a with
  | ⟨0, _⟩ => exact Fin.ext (Nat.div_one _)
  | ⟨1, _⟩ => rfl

/-- The first table's first column: the start index of row `r` is the table word `[r, 0]` when that word is not negative. -/
theorem v28_at (t2 : (⟨S45x2, .i32⟩ : BufTy).Contents (Elt Ideal)) (r : Fin 45)
    (h : (t2 (ix2 r (0 : Fin 2))).toNat < 2 ^ 31) :
    val_main_v28 (F := Ideal) t2 (ix2 r (0 : Fin 1)) = t2 (ix2 r (0 : Fin 2)) := by
  have hi : idx_main_v28 (ix2 r (0 : Fin 1)) = ix1 r := by
    funext a
    match a with
    | ⟨0, _⟩ => rfl
  rw [val_main_v28_apply, hi, val_main_v27_apply, val_main_v24_apply, val_main_v23_apply,
    val_main_c_0_apply, v22_at, slt_zero_of_small h, select_zero]

/-- The first table's second column: row `r` of the reshaped column is the table word `[r, 1]`. -/
theorem v31_at (t2 : (⟨S45x2, .i32⟩ : BufTy).Contents (Elt Ideal)) (r : Fin 45) :
    val_main_v31 (F := Ideal) t2 (ix1 r) = t2 (ix2 r (1 : Fin 2)) := by
  rw [val_main_v31_apply, val_main_v30_apply]
  congr 1
  funext a
  match a with
  | ⟨0, _⟩ => exact Fin.ext (Nat.div_one _)
  | ⟨1, _⟩ => rfl

/-- The first table's second column: the start index of row `r` is the table word `[r, 1]` when that word is not negative. -/
theorem v37_at (t2 : (⟨S45x2, .i32⟩ : BufTy).Contents (Elt Ideal)) (r : Fin 45)
    (h : (t2 (ix2 r (1 : Fin 2))).toNat < 2 ^ 31) :
    val_main_v37 (F := Ideal) t2 (ix2 r (0 : Fin 1)) = t2 (ix2 r (1 : Fin 2)) := by
  have hi : idx_main_v37 (ix2 r (0 : Fin 1)) = ix1 r := by
    funext a
    match a with
    | ⟨0, _⟩ => rfl
  rw [val_main_v37_apply, hi, val_main_v36_apply, val_main_v33_apply, val_main_v32_apply,
    val_main_c_2_apply, v31_at, slt_zero_of_small h, select_zero]

/-- The second table's first column: row `r` of the reshaped column is the table word `[r, 0]`. -/
theorem v41_at (t3 : (⟨S165x2, .i32⟩ : BufTy).Contents (Elt Ideal)) (r : Fin 165) :
    val_main_v41 (F := Ideal) t3 (ix1 r) = t3 (ix2 r (0 : Fin 2)) := by
  rw [val_main_v41_apply, val_main_v40_apply]
  congr 1
  funext a
  match a with
  | ⟨0, _⟩ => exact Fin.ext (Nat.div_one _)
  | ⟨1, _⟩ => rfl

/-- The second table's first column: the start index of row `r` is the table word `[r, 0]` when that word is not negative. -/
theorem v47_at (t3 : (⟨S165x2, .i32⟩ : BufTy).Contents (Elt Ideal)) (r : Fin 165)
    (h : (t3 (ix2 r (0 : Fin 2))).toNat < 2 ^ 31) :
    val_main_v47 (F := Ideal) t3 (ix2 r (0 : Fin 1)) = t3 (ix2 r (0 : Fin 2)) := by
  have hi : idx_main_v47 (ix2 r (0 : Fin 1)) = ix1 r := by
    funext a
    match a with
    | ⟨0, _⟩ => rfl
  rw [val_main_v47_apply, hi, val_main_v46_apply, val_main_v43_apply, val_main_v42_apply,
    val_main_c_4_apply, v41_at, slt_zero_of_small h, select_zero]

/-- The second table's second column: row `r` of the reshaped column is the table word `[r, 1]`. -/
theorem v50_at (t3 : (⟨S165x2, .i32⟩ : BufTy).Contents (Elt Ideal)) (r : Fin 165) :
    val_main_v50 (F := Ideal) t3 (ix1 r) = t3 (ix2 r (1 : Fin 2)) := by
  rw [val_main_v50_apply, val_main_v49_apply]
  congr 1
  funext a
  match a with
  | ⟨0, _⟩ => exact Fin.ext (Nat.div_one _)
  | ⟨1, _⟩ => rfl

/-- The second table's second column: the start index of row `r` is the table word `[r, 1]` when that word is not negative. -/
theorem v56_at (t3 : (⟨S165x2, .i32⟩ : BufTy).Contents (Elt Ideal)) (r : Fin 165)
    (h : (t3 (ix2 r (1 : Fin 2))).toNat < 2 ^ 31) :
    val_main_v56 (F := Ideal) t3 (ix2 r (0 : Fin 1)) = t3 (ix2 r (1 : Fin 2)) := by
  have hi : idx_main_v56 (ix2 r (0 : Fin 1)) = ix1 r := by
    funext a
    match a with
    | ⟨0, _⟩ => rfl
  rw [val_main_v56_apply, hi, val_main_v55_apply, val_main_v52_apply, val_main_v51_apply,
    val_main_c_6_apply, v50_at, slt_zero_of_small h, select_zero]

/-! ## The four gathers, read at an index -/

/-- Rows of the unfolded input named by the first table's first column. -/
theorem v29_at (C : (⟨S4x8x9x16384, .f32⟩ : BufTy).Contents (Elt Ideal)) (t2 : (⟨S45x2, .i32⟩ : BufTy).Contents (Elt Ideal))
    (h2 : ∀ i : S45x2.Idx, (t2 i).toNat < 9) (b : Fin 4) (c : Fin 8) (r : Fin 45) (l : Fin 16384) :
    Host.gather gather_S4x8x9x16384_S45x1_S4x8x45x16384_013_2_n_n_2_1_48116384 C (val_main_v28 (F := Ideal) t2) (ix4 b c r l)
      = C (ix4 b c (Cert.Spec.row9 (t2 (ix2 r (0 : Fin 2)))) l) := by
  have h := h2 (ix2 r (0 : Fin 2))
  rw [gather_rows_apply gather_S4x8x9x16384_S45x1_S4x8x45x16384_013_2_n_n_2_1_48116384 rfl rfl rfl rfl rfl (by decide) C _ b c r l]
  refine congrArg C (ix4_congr b c l ?_)
  show min (val_main_v28 (F := Ideal) t2 (ix2 r (0 : Fin 1))).toInt.toNat (9 - 1) = min (t2 (ix2 r (0 : Fin 2))).toNat 8
  rw [v28_at t2 r (by omega), toInt_toNat_of_small (by omega)]

/-- Rows of the unfolded input named by the first table's second column. -/
theorem v38_at (C : (⟨S4x8x9x16384, .f32⟩ : BufTy).Contents (Elt Ideal)) (t2 : (⟨S45x2, .i32⟩ : BufTy).Contents (Elt Ideal))
    (h2 : ∀ i : S45x2.Idx, (t2 i).toNat < 9) (b : Fin 4) (c : Fin 8) (r : Fin 45) (l : Fin 16384) :
    Host.gather gather_S4x8x9x16384_S45x1_S4x8x45x16384_013_2_n_n_2_1_48116384 C (val_main_v37 (F := Ideal) t2) (ix4 b c r l)
      = C (ix4 b c (Cert.Spec.row9 (t2 (ix2 r (1 : Fin 2)))) l) := by
  have h := h2 (ix2 r (1 : Fin 2))
  rw [gather_rows_apply gather_S4x8x9x16384_S45x1_S4x8x45x16384_013_2_n_n_2_1_48116384 rfl rfl rfl rfl rfl (by decide) C _ b c r l]
  refine congrArg C (ix4_congr b c l ?_)
  show min (val_main_v37 (F := Ideal) t2 (ix2 r (0 : Fin 1))).toInt.toNat (9 - 1) = min (t2 (ix2 r (1 : Fin 2))).toNat 8
  rw [v37_at t2 r (by omega), toInt_toNat_of_small (by omega)]

/-- Rows of the unfolded input named by the second table's first column. -/
theorem v48_at (C : (⟨S4x8x9x16384, .f32⟩ : BufTy).Contents (Elt Ideal)) (t3 : (⟨S165x2, .i32⟩ : BufTy).Contents (Elt Ideal))
    (h30 : ∀ r : Fin 165, (t3 (ix2 r (0 : Fin 2))).toNat < 9) (b : Fin 4) (c : Fin 8) (r : Fin 165) (l : Fin 16384) :
    Host.gather gather_S4x8x9x16384_S165x1_S4x8x165x16384_013_2_n_n_2_1_48116384 C (val_main_v47 (F := Ideal) t3) (ix4 b c r l)
      = C (ix4 b c (Cert.Spec.row9 (t3 (ix2 r (0 : Fin 2)))) l) := by
  have h := h30 r
  rw [gather_rows_apply gather_S4x8x9x16384_S165x1_S4x8x165x16384_013_2_n_n_2_1_48116384 rfl rfl rfl rfl rfl (by decide) C _ b c r l]
  refine congrArg C (ix4_congr b c l ?_)
  show min (val_main_v47 (F := Ideal) t3 (ix2 r (0 : Fin 1))).toInt.toNat (9 - 1) = min (t3 (ix2 r (0 : Fin 2))).toNat 8
  rw [v47_at t3 r (by omega), toInt_toNat_of_small (by omega)]

/-- Second-order rows named by the second table's second column. -/
theorem v57_at (Y : (⟨S4x8x45x16384, .f32⟩ : BufTy).Contents (Elt Ideal)) (t3 : (⟨S165x2, .i32⟩ : BufTy).Contents (Elt Ideal))
    (h31 : ∀ r : Fin 165, (t3 (ix2 r (1 : Fin 2))).toNat < 45) (b : Fin 4) (c : Fin 8) (r : Fin 165) (l : Fin 16384) :
    Host.gather gather_S4x8x45x16384_S165x1_S4x8x165x16384_013_2_n_n_2_1_48116384 Y (val_main_v56 (F := Ideal) t3) (ix4 b c r l)
      = Y (ix4 b c (Cert.Spec.row45 (t3 (ix2 r (1 : Fin 2)))) l) := by
  have h := h31 r
  rw [gather_rows_apply gather_S4x8x45x16384_S165x1_S4x8x165x16384_013_2_n_n_2_1_48116384 rfl rfl rfl rfl rfl (by decide) Y _ b c r l]
  refine congrArg Y (ix4_congr b c l ?_)
  show min (val_main_v56 (F := Ideal) t3 (ix2 r (0 : Fin 1))).toInt.toNat (45 - 1) = min (t3 (ix2 r (1 : Fin 2))).toNat 44
  rw [v56_at t3 r (by omega), toInt_toNat_of_small (by omega)]

/-! ## The two families of rows -/

/-- The second-order rows: the product of the two patch rows the first table names. -/
theorem v39_at (x : (⟨S4x8x128x128, .f32⟩ : BufTy).Contents (Elt Ideal)) (t2 : (⟨S45x2, .i32⟩ : BufTy).Contents (Elt Ideal))
    (h2 : ∀ i : S45x2.Idx, (t2 i).toNat < 9) (b : Fin 4) (c : Fin 8) (r : Fin 45) (l : Fin 16384) :
    val_main_v39 (F := Ideal) x t2 (ix4 b c r l) = Cert.Spec.ht2 (val_main_v20 (F := Ideal) x) t2 b c r l := by
  rw [val_main_v39_apply]
  unfold val_main_v29 val_main_v38
  generalize val_main_v20 (F := Ideal) x = C
  rw [v29_at C t2 h2, v38_at C t2 h2]
  rfl

/-- The third-order rows: a patch row times the second-order row the second table names. -/
theorem v58_at (x : (⟨S4x8x128x128, .f32⟩ : BufTy).Contents (Elt Ideal)) (t2 : (⟨S45x2, .i32⟩ : BufTy).Contents (Elt Ideal))
    (t3 : (⟨S165x2, .i32⟩ : BufTy).Contents (Elt Ideal)) (hR : Cert.Spec.InRange t2 t3)
    (b : Fin 4) (c : Fin 8) (r : Fin 165) (l : Fin 16384) :
    val_main_v58 (F := Ideal) x t2 t3 (ix4 b c r l) = Cert.Spec.ht3 (val_main_v20 (F := Ideal) x) t2 t3 b c r l := by
  rw [val_main_v58_apply]
  unfold val_main_v48 val_main_v57
  rw [v57_at (val_main_v39 (F := Ideal) x t2) t3 hR.h31, v39_at x t2 hR.h2]
  generalize val_main_v20 (F := Ideal) x = C
  rw [v48_at C t3 hR.h30]
  rfl

/-! ## The result -/

/-- On the domain of comparison the reference's result is the specification's array over the reference's unfolded input. -/
theorem ref_value (x : (⟨Cert.ReferenceIdeal.S4x8x128x128, .f32⟩ : BufTy).Contents (Elt Ideal))
    (t2 : (⟨Cert.ReferenceIdeal.S45x2, .i32⟩ : BufTy).Contents (Elt Ideal))
    (t3 : (⟨Cert.ReferenceIdeal.S165x2, .i32⟩ : BufTy).Contents (Elt Ideal)) (hR : Cert.Spec.InRange t2 t3) :
    Cert.ReferenceIdeal.ReadP.val_main_v59 (F := Ideal) x t2 t3
      = Cert.Spec.out (Cert.ReferenceIdeal.ReadP.val_main_v20 (F := Ideal) x) t2 t3 := by
  funext j
  obtain ⟨b, c, r, l, rfl⟩ : ∃ (b : Fin 4) (c : Fin 8) (r : Fin 210) (l : Fin 16384), j = ix4 b c r l :=
    ⟨j 0, j 1, j 2, j 3, eq_ix4 j⟩
  rw [Cert.Spec.out_ix4]
  unfold val_main_v59
  by_cases h : r.val < 45
  · rw [Cert.Spec.outAt_lt _ _ _ _ _ _ _ h, stack_lt _ _ _ b c r l h, v39_at x t2 hR.h2]
  · have h1 : 45 ≤ r.val := by omega
    have h2 : r.val - 45 < 165 := by omega
    rw [Cert.Spec.outAt_ge _ _ _ _ _ _ _ h, stack_ge _ _ _ b c r l h1 h2, v58_at x t2 t3 hR]

end Cert.RefValue

end
-- ==== Proof.RefRun.lean ====
import proofs.«430841_j5506148073824_3_alg».proof.Proof.RefValue

/-
  The reference program's run, stated over the specification: the result buffer holds the specification's array over
  the reference's unfolded input whenever the tables are on the domain of comparison, and the arguments are left as
  they were.
-/

noncomputable section

namespace Cert.RefValue

open Idealize.ShloMosaic Idealize.ShloMosaic.TcCoe Idealize.SL.Sem Idealize.ShloMosaic.StableHlo

/-! ## The reference's run, over the specification

Every weakly fair execution of the reference from a memory whose tables are on the domain of comparison terminates
with the result buffer holding the specification's array over the reference's unfolded input, and the three arguments
as they were. Without any hypothesis on the tables, the arguments are as they were. -/

/-- The run, its result stated by the specification. -/
theorem ref_run (m : (ℓ : Loc Cert.ReferenceIdeal.nD Cert.ReferenceIdeal.τ Cert.ReferenceIdeal.sig) → Buf (Elt Ideal) ℓ)
    (ρ : Dev Cert.ReferenceIdeal.nD → PrngReg)
    (hR : ∀ c : Dev Cert.ReferenceIdeal.nD, Cert.Spec.InRange
      (m ((c.tc : Thread Cert.ReferenceIdeal.nD Cert.ReferenceIdeal.τ).loc Cert.ReferenceIdeal.main_arg1))
      (m ((c.tc : Thread Cert.ReferenceIdeal.nD Cert.ReferenceIdeal.τ).loc Cert.ReferenceIdeal.main_arg2))) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v59)
          = Cert.Spec.out (Cert.ReferenceIdeal.ReadP.val_main_v20 (F := Ideal)
              (m ((c.tc : Thread Cert.ReferenceIdeal.nD Cert.ReferenceIdeal.τ).loc Cert.ReferenceIdeal.main_arg0)))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2)) :=
  (θ_run _ _ _).mono
    (fun _ h c => ⟨(h c).1.trans ((Cert.ReferenceIdeal.ReadP.val_main_v59_eq m c).trans (ref_value _ _ _ (hR c))), (h c).2⟩)
    (Cert.ReferenceIdeal.ValueP.run (F := Ideal) m ρ)

/-- The frame: the reference leaves its three arguments as they were. -/
theorem ref_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2)) :=
  (θ_run _ _ _).mono (fun _ h c => (h c).2) (Cert.ReferenceIdeal.ValueP.run (F := Ideal) m ρ)

end Cert.RefValue

end
-- ==== Proof.lean ====
/-
  The certificate's claims, assembled.

  The kernel multiplies rows of the unfolded input that two integer tables name: 45 second-order rows, each the
  product of two of the nine patch rows, then 165 third-order rows, each a patch row times a second-order row. The
  reference computes the same products by gathers. The two agree wherever the tables name rows that exist — every
  word of the first table and of the second table's first column below 9, every word of the second table's second
  column below 45 — and that domain is the precondition's: outside it the kernel's loads fall outside their buffers
  and the reference indexes out of range.

  * The three frames. Each kernel program (the word-level one and its reading over the extended reals, the same
    text) runs to its end because every in-bounds assumption its body makes follows from the tables' range; its
    argument arrays are never written. The reference is a straight line of host operations.
  * The kernel program's reading over the extended reals is the program itself: nothing was rewritten.
  * The values. One grid point leaves in its output block the products the tables name of its input block; the 64
    blocks tile the output array; the input array and the result are reshapes of the unfolded input and of the
    output array. The reference's gathers read, on the domain, exactly the rows the words name. Both results are
    the specification's array over the same unfolded input and the same tables; no law of arithmetic is used, the
    factors are multiplied in the same order on both sides.
-/
import proofs.«430841_j5506148073824_3_alg».proof.Defs
import proofs.«430841_j5506148073824_3_alg».proof.Proof.Gen.Kernel
import proofs.«430841_j5506148073824_3_alg».proof.Proof.Gen.KernelIdeal
import proofs.«430841_j5506148073824_3_alg».proof.Proof.Gen.ReferenceIdeal
import proofs.«430841_j5506148073824_3_alg».proof.Proof.Gen.Pre_finite_inputs
import proofs.«430841_j5506148073824_3_alg».proof.Proof.K.Pre
import proofs.«430841_j5506148073824_3_alg».proof.Proof.KI.Pre
import proofs.«430841_j5506148073824_3_alg».proof.Proof.KV.Value
import proofs.«430841_j5506148073824_3_alg».proof.Proof.KV.ColRef
import proofs.«430841_j5506148073824_3_alg».proof.Proof.RefRun
import Idealize.ShloMosaic.Adequacy
import Idealize.ShloMosaic.Init

noncomputable section

namespace Cert.Proof

open Idealize.ShloMosaic Idealize.ShloMosaic.TcCoe Idealize.SL.Sem

/-- The word-level kernel program runs and leaves its arguments as they were: the precondition puts the tables in
    range, and under that range the frame holds. -/
theorem frame_kernel : Cert.frame_Kernel := fun m ρ h =>
  Cert.Kernel.Hand.frame m ρ (Cert.Kernel.Hand.tabOk_of_fn m h)

/-- The same for the program read over the extended reals. -/
theorem frame_kernelIdeal : Cert.frame_KernelIdeal := fun m ρ h =>
  Cert.KernelIdeal.Hand.frame m ρ (Cert.KernelIdeal.Hand.tabOk_of_fn m h)

/-- The reference runs and leaves its arguments as they were, whatever the tables hold. -/
theorem frame_reference : Cert.frame_ReferenceIdeal := fun m ρ _ => Cert.RefValue.ref_frame m ρ

/-- The two programs, from memories agreeing on the arguments, end with the same result: the specification's array
    over the unfolded input (the same chain of host operations in both programs) and the two tables. -/
theorem algebraic : Cert.algebraic_KernelIdeal_ReferenceIdeal := by
  intro m ρ m' ρ' hpre hagree
  have hT : Cert.KernelIdeal.Hand.TabOk m := Cert.KernelIdeal.Hand.tabOk_of_fn m hpre
  have hR := Cert.KernelIdeal.Hand.inRange_of_fn m hpre
  -- the one device: the tables the region is entered with are the second and third arguments
  have e1 : ∀ c : Dev Cert.KernelIdeal.nD,
      m' ((c.tc : Thread Cert.ReferenceIdeal.nD Cert.ReferenceIdeal.τ).loc Cert.ReferenceIdeal.main_arg1) = Cert.KernelIdeal.Hand.tbl m 0 := fun c => by
    obtain rfl : c = 0 := Subsingleton.elim _ _
    exact ((hagree 0).2.1).trans (Cert.KernelIdeal.Hand.tbl_0 m).symm
  have e2 : ∀ c : Dev Cert.KernelIdeal.nD,
      m' ((c.tc : Thread Cert.ReferenceIdeal.nD Cert.ReferenceIdeal.τ).loc Cert.ReferenceIdeal.main_arg2) = Cert.KernelIdeal.Hand.tbl m 1 := fun c => by
    obtain rfl : c = 0 := Subsingleton.elim _ _
    exact ((hagree 0).2.2).trans (Cert.KernelIdeal.Hand.tbl_1 m).symm
  refine ⟨fun c => Cert.Spec.out (Cert.KernelIdeal.HandValue.colK (m ((c.tc : Thread Cert.KernelIdeal.nD Cert.KernelIdeal.τ).loc Cert.KernelIdeal.main_arg0)))
      (Cert.KernelIdeal.Hand.tbl m 0) (Cert.KernelIdeal.Hand.tbl m 1),
    Cert.KernelIdeal.HandValue.kernel_value m ρ hT, ?_⟩
  refine (θ_run _ _ _).mono (fun _ h c => ⟨(h c).1.trans ?_, (h c).2⟩)
    (Cert.RefValue.ref_run m' ρ' (fun c => by rw [e1 c, e2 c]; exact hR))
  rw [e1 c, e2 c, (hagree c).1, ← Cert.KernelIdeal.HandValue.colK_eq_ref]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
